-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S16x8192 .f32 .bf16
  ∧ IdealRules.truncf_extf.Statement Cert.KernelIdeal.S16x8192 .f32 .bf16
  ∧ IdealRules.truncf_extf.Statement Cert.KernelIdeal.S16x8192 .f32 .bf16
  ∧ IdealRules.truncf_extf.Statement Cert.KernelIdeal.S16x8192 .f32 .bf16
  ∧ IdealRules.truncf_extf.Statement Cert.KernelIdeal.S16x8192 .f32 .bf16
  ∧ IdealRules.truncf_extf.Statement Cert.KernelIdeal.S16x8192 .f32 .bf16
  ∧ IdealRules.truncf_extf.Statement Cert.KernelIdeal.S16x8192 .f32 .bf16
  ∧ IdealRules.truncf_extf.Statement Cert.KernelIdeal.S16x8192 .f32 .bf16
  ∧ IdealRules.truncf_extf.Statement Cert.KernelIdeal.S51x16 .f32 .bf16
  ∧ IdealRules.truncf_extf.Statement Cert.KernelIdeal.S51x1 .f32 .bf16
  ∧ IdealRules.truncf_extf.Statement Cert.KernelIdeal.S1x8192 .f32 .bf16
  ∧ IdealRules.truncf_extf.Statement Cert.KernelIdeal.S1x8192 .f32 .bf16
  ∧ IdealRules.truncf_extf.Statement Cert.KernelIdeal.S1x8192 .f32 .bf16
  ∧ IdealRules.truncf_extf.Statement Cert.KernelIdeal.S1x8192 .f32 .bf16
  ∧ IdealRules.truncf_extf.Statement Cert.KernelIdeal.S1x8192 .f32 .bf16
  ∧ IdealRules.truncf_extf.Statement Cert.KernelIdeal.S1x8192 .f32 .bf16
  ∧ IdealRules.truncf_extf.Statement Cert.KernelIdeal.S1x8192 .f32 .bf16
  ∧ IdealRules.truncf_extf.Statement Cert.KernelIdeal.S1x8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x32x256x256 : Shape := ⟨5, ![2, 16, 32, 256, 256]⟩
abbrev S2x32x256x256 : Shape := ⟨4, ![2, 32, 256, 256]⟩
abbrev S_ : Shape := ⟨0, ![]⟩

class Facts : Prop where
  bcast_S_S2x16x32x256x256 : S_.BroadcastsInDim S2x16x32x256x256 (![] : Fin 0 → Fin S2x16x32x256x256.rank)
  reducesTo_S2x16x32x256x256_S_d0_1_2_3_4 : S2x16x32x256x256.ReducesTo [0, 1, 2, 3, 4] S_
  h_S_ : 0 < S_.numel

variable [Facts]

def fn {F : FTy → Type} [FloatOps F] (main_arg0 : FVec F S2x16x32x256x256 .f32) (main_arg1 : IVec S2x32x256x256 32) : IVec S_ 1 :=
  let main_v0 : FVec F S2x16x32x256x256 .f32 := Host.absf main_arg0
  let main_cst : FVec F S_ .f32 := constant S_ .f32 0x7F800000#32
  let main_v1 : FVec F S2x16x32x256x256 .f32 := broadcastInDim S2x16x32x256x256 ![] bcast_S_S2x16x32x256x256 main_cst
  let main_v2 : IVec S2x16x32x256x256 1 := cmpf .olt main_v0 main_v1
  let main_c : IVec S_ 1 := constantI S_ 1 1#1
  let main_v3 : IVec S_ 1 := (fun x v => Host.reduce IntOp.andi x v reducesTo_S2x16x32x256x256_S_d0_1_2_3_4 h_S_) main_v2 main_c
  main_v3
-- ==== Kernel.lean ====
abbrev S2x16x32x256x256 : Shape := ⟨5, ![2, 16, 32, 256, 256]⟩
abbrev S2x32x256x256 : Shape := ⟨4, ![2, 32, 256, 256]⟩
abbrev S2x16x2097152 : Shape := ⟨3, ![2, 16, 2097152]⟩
abbrev S2x1x2097152 : Shape := ⟨3, ![2, 1, 2097152]⟩
abbrev S2x16x51 : Shape := ⟨3, ![2, 16, 51]⟩
abbrev S2x1x51 : Shape := ⟨3, ![2, 1, 51]⟩
abbrev S1x16x65536 : Shape := ⟨3, ![1, 16, 65536]⟩
abbrev S1x1x65536 : Shape := ⟨3, ![1, 1, 65536]⟩
abbrev S1x16x51 : Shape := ⟨3, ![1, 16, 51]⟩
abbrev S1x1x51 : Shape := ⟨3, ![1, 1, 51]⟩
abbrev S16x51 : Shape := ⟨2, ![16, 51]⟩
abbrev S1x51 : Shape := ⟨2, ![1, 51]⟩
abbrev S51x1 : Shape := ⟨2, ![51, 1]⟩
abbrev S1x1x8192 : Shape := ⟨3, ![1, 1, 8192]⟩
abbrev S1x8192 : Shape := ⟨2, ![1, 8192]⟩
abbrev S51x8192 : Shape := ⟨2, ![51, 8192]⟩
abbrev S1x16x8192 : Shape := ⟨3, ![1, 16, 8192]⟩
abbrev S16x8192 : Shape := ⟨2, ![16, 8192]⟩
abbrev S_ : Shape := ⟨0, ![]⟩
abbrev S51x16 : Shape := ⟨2, ![51, 16]⟩
abbrev S51 : Shape := ⟨1, ![51]⟩
abbrev S8192 : Shape := ⟨1, ![8192]⟩
abbrev S50 : Shape := ⟨1, ![50]⟩
abbrev S50x16 : Shape := ⟨2, ![50, 16]⟩
abbrev S50x1 : Shape := ⟨2, ![50, 1]⟩
abbrev S16x50 : Shape := ⟨2, ![16, 50]⟩
abbrev S50x50 : Shape := ⟨2, ![50, 50]⟩
abbrev S2500 : Shape := ⟨1, ![2500]⟩
abbrev S1225 : Shape := ⟨1, ![1225]⟩
abbrev S2500x1 : Shape := ⟨2, ![2500, 1]⟩
abbrev S1225x1 : Shape := ⟨2, ![1225, 1]⟩
abbrev S1225x2 : Shape := ⟨2, ![1225, 2]⟩

abbrev nBuf : Space → Nat
  | .hbm => 198
  | .vmem => 16
  | .smem => 0
  | _ => 0

abbrev hbmTy0_0 (i : Nat) : BufTy := match i % 128 with
  | 0 => ⟨S2x16x32x256x256, .f32⟩
  | 1 => ⟨S2x32x256x256, .i32⟩
  | 2 => ⟨S2x16x2097152, .f32⟩
  | 3 => ⟨S2x1x2097152, .i32⟩
  | 4 => ⟨S2x16x51, .f32⟩
  | 5 => ⟨S2x1x51, .f32⟩
  | 6 => ⟨S_, .f32⟩
  | 7 => ⟨S16x51, .f32⟩
  | 8 => ⟨S_, .f32⟩
  | 9 => ⟨S1x51, .f32⟩
  | 10 => ⟨S51x16, .f32⟩
  | 11 => ⟨S51x1, .f32⟩
  | 12 => ⟨S_, .f32⟩
  | 13 => ⟨S51x1, .f32⟩
  | 14 => ⟨S51x1, .f32⟩
  | 15 => ⟨S51x16, .f32⟩
  | 16 => ⟨S51x16, .f32⟩
  | 17 => ⟨S51x16, .f32⟩
  | 18 => ⟨S_, .f32⟩
  | 19 => ⟨S51, .f32⟩
  | 20 => ⟨S51x1, .f32⟩
  | 21 => ⟨S51x1, .f32⟩
  | 22 => ⟨S2x1x51, .f32⟩
  | 23 => ⟨S_, .f32⟩
  | 24 => ⟨S1x51, .f32⟩
  | 25 => ⟨S51, .f32⟩
  | 26 => ⟨S51, .f32⟩
  | 27 => ⟨S50, .f32⟩
  | 28 => ⟨S50, .f32⟩
  | 29 => ⟨S_, .f32⟩
  | 30 => ⟨S50, .f32⟩
  | 31 => ⟨S50, .f32⟩
  | 32 => ⟨S50, .f32⟩
  | 33 => ⟨S_, .f32⟩
  | 34 => ⟨S_, .f32⟩
  | 35 => ⟨S_, .f32⟩
  | 36 => ⟨S_, .f32⟩
  | 37 => ⟨S50x16, .f32⟩
  | 38 => ⟨S50x16, .f32⟩
  | 39 => ⟨S_, .f32⟩
  | 40 => ⟨S50, .f32⟩
  | 41 => ⟨S50x1, .f32⟩
  | 42 => ⟨S50x1, .f32⟩
  | 43 => ⟨S_, .f32⟩
  | 44 => ⟨S50x1, .f32⟩
  | 45 => ⟨S50x1, .f32⟩
  | 46 => ⟨S50x16, .f32⟩
  | 47 => ⟨S50x16, .f32⟩
  | 48 => ⟨S16x50, .f32⟩
  | 49 => ⟨S50x50, .f32⟩
  | 50 => ⟨S_, .f32⟩
  | 51 => ⟨S50x50, .f32⟩
  | 52 => ⟨S50x50, .i32⟩
  | 53 => ⟨S_, .i32⟩
  | 54 => ⟨S50x50, .i32⟩
  | 55 => ⟨S50x50, .i32⟩
  | 56 => ⟨S50x50, .i32⟩
  | 57 => ⟨S50x50, .i1⟩
  | 58 => ⟨S_, .f32⟩
  | 59 => ⟨S50x50, .f32⟩
  | 60 => ⟨S50x50, .f32⟩
  | 61 => ⟨S_, .f32⟩
  | 62 => ⟨S50x50, .f32⟩
  | 63 => ⟨S50x50, .i1⟩
  | 64 => ⟨S2500, .i1⟩
  | 65 => ⟨S2500, .i32⟩
  | 66 => ⟨S_, .i32⟩
  | 67 => ⟨S_, .i32⟩
  | 68 => ⟨S2500, .i32⟩
  | 69 => ⟨S_, .i32⟩
  | 70 => ⟨S1225, .i32⟩
  | 71 => ⟨S_, .i32⟩
  | 72 => ⟨S_, .i32⟩
  | 73 => ⟨S2500, .i32⟩
  | 74 => ⟨S2500, .i32⟩
  | 75 => ⟨S_, .i32⟩
  | 76 => ⟨S2500, .i32⟩
  | 77 => ⟨S2500, .i1⟩
  | 78 => ⟨S_, .i32⟩
  | 79 => ⟨S2500, .i32⟩
  | 80 => ⟨S2500, .i32⟩
  | 81 => ⟨S2500, .i32⟩
  | 82 => ⟨S2500x1, .i32⟩
  | 83 => ⟨S_, .i32⟩
  | 84 => ⟨S2500, .i32⟩
  | 85 => ⟨S1225, .i32⟩
  | 86 => ⟨S_, .i32⟩
  | 87 => ⟨S_, .i32⟩
  | 88 => ⟨S1225, .i32⟩
  | 89 => ⟨S_, .i32⟩
  | 90 => ⟨S1225, .i32⟩
  | 91 => ⟨S1225, .i32⟩
  | 92 => ⟨S1225, .i32⟩
  | 93 => ⟨S_, .i32⟩
  | 94 => ⟨S1225, .i32⟩
  | 95 => ⟨S1225, .i1⟩
  | 96 => ⟨S1225, .i32⟩
  | 97 => ⟨S1225, .i32⟩
  | 98 => ⟨S_, .i32⟩
  | 99 => ⟨S1225, .i32⟩
  | 100 => ⟨S1225, .i1⟩
  | 101 => ⟨S1225, .i1⟩
  | 102 => ⟨S_, .i32⟩
  | 103 => ⟨S1225, .i32⟩
  | 104 => ⟨S1225, .i32⟩
  | 105 => ⟨S1225, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S1225, .i32⟩
  | 113 => ⟨S1225, .i32⟩
  | 114 => ⟨S_, .i32⟩
  | 115 => ⟨S1225, .i32⟩
  | 116 => ⟨S1225, .i1⟩
  | 117 => ⟨S_, .i32⟩
  | 118 => ⟨S1225, .i32⟩
  | 119 => ⟨S1225, .i1⟩
  | 120 => ⟨S_, .i32⟩
  | 121 => ⟨S_, .i1⟩
  | 122 => ⟨S1225, .i1⟩
  | 123 => ⟨S1225, .i1⟩
  | 124 => ⟨S1225, .i1⟩
  | 125 => ⟨S1225, .i32⟩
  | 126 => ⟨S1225, .i32⟩
  | 127 => ⟨S1225, .i32⟩
  | _ => ⟨S2x16x32x256x256, .f32⟩

abbrev hbmTy0_1 (i : Nat) : BufTy := match i % 128 with
  | 0 => ⟨S_, .i32⟩
  | 1 => ⟨S1225, .i32⟩
  | 2 => ⟨S1225, .i32⟩
  | 3 => ⟨S1225, .i32⟩
  | 4 => ⟨S_, .i32⟩
  | 5 => ⟨S1225, .i32⟩
  | 6 => ⟨S1225, .i1⟩
  | 7 => ⟨S1225, .i32⟩
  | 8 => ⟨S1225, .i32⟩
  | 9 => ⟨S_, .i32⟩
  | 10 => ⟨S1225, .i32⟩
  | 11 => ⟨S1225, .i1⟩
  | 12 => ⟨S1225, .i1⟩
  | 13 => ⟨S_, .i32⟩
  | 14 => ⟨S1225, .i32⟩
  | 15 => ⟨S1225, .i32⟩
  | 16 => ⟨S1225, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S1225, .i32⟩
  | 24 => ⟨S1225, .i32⟩
  | 25 => ⟨S_, .i32⟩
  | 26 => ⟨S1225, .i32⟩
  | 27 => ⟨S1225, .i1⟩
  | 28 => ⟨S_, .i32⟩
  | 29 => ⟨S1225, .i32⟩
  | 30 => ⟨S1225, .i1⟩
  | 31 => ⟨S_, .i32⟩
  | 32 => ⟨S_, .i1⟩
  | 33 => ⟨S1225, .i1⟩
  | 34 => ⟨S1225, .i1⟩
  | 35 => ⟨S1225, .i1⟩
  | 36 => ⟨S1225, .i32⟩
  | 37 => ⟨S1225, .i32⟩
  | 38 => ⟨S1225, .i32⟩
  | 39 => ⟨S_, .i32⟩
  | 40 => ⟨S1225, .i32⟩
  | 41 => ⟨S1225, .i1⟩
  | 42 => ⟨S_, .i32⟩
  | 43 => ⟨S1225, .i32⟩
  | 44 => ⟨S1225, .i32⟩
  | 45 => ⟨S1225, .i32⟩
  | 46 => ⟨S_, .i32⟩
  | 47 => ⟨S1225, .i32⟩
  | 48 => ⟨S1225, .i1⟩
  | 49 => ⟨S_, .i32⟩
  | 50 => ⟨S1225, .i32⟩
  | 51 => ⟨S1225, .i32⟩
  | 52 => ⟨S1225, .i32⟩
  | 53 => ⟨S1225x1, .i32⟩
  | 54 => ⟨S1225x1, .i32⟩
  | 55 => ⟨S1225x2, .i32⟩
  | 56 => ⟨S1225, .f32⟩
  | 57 => ⟨S_, .f32⟩
  | 58 => ⟨S_, .f32⟩
  | 59 => ⟨S_, .f32⟩
  | 60 => ⟨S1225, .f32⟩
  | 61 => ⟨S1225, .f32⟩
  | 62 => ⟨S_, .f32⟩
  | 63 => ⟨S1225, .f32⟩
  | 64 => ⟨S1225, .f32⟩
  | 65 => ⟨S_, .f32⟩
  | 66 => ⟨S_, .f32⟩
  | 67 => ⟨S_, .f32⟩
  | 68 => ⟨S_, .f32⟩
  | 69 => ⟨S_, .f32⟩
  | _ => ⟨S2x16x32x256x256, .f32⟩

abbrev hbmTy (i : Nat) : BufTy := match i / 128 with
  | 0 => hbmTy0_0 i
  | 1 => hbmTy0_1 i
  | _ => ⟨S2x16x32x256x256, .f32⟩

abbrev bufTy : (tb : Table) → Fin (tcTables nBuf tb) → BufTy
  | .hbm, ⟨i, _⟩ => hbmTy i
  | .local _ .vmem, ⟨0, _⟩ => ⟨S1x16x65536, .f32⟩
  | .local _ .vmem, ⟨1, _⟩ => ⟨S1x16x65536, .f32⟩
  | .local _ .vmem, ⟨2, _⟩ => ⟨S1x1x65536, .i32⟩
  | .local _ .vmem, ⟨3, _⟩ => ⟨S1x1x65536, .i32⟩
  | .local _ .vmem, ⟨4, _⟩ => ⟨S1x16x51, .f32⟩
  | .local _ .vmem, ⟨5, _⟩ => ⟨S1x16x51, .f32⟩
  | .local _ .vmem, ⟨6, _⟩ => ⟨S1x1x51, .f32⟩
  | .local _ .vmem, ⟨7, _⟩ => ⟨S1x1x51, .f32⟩
  | .local _ .vmem, ⟨8, _⟩ => ⟨S1x16x65536, .f32⟩
  | .local _ .vmem, ⟨9, _⟩ => ⟨S1x16x65536, .f32⟩
  | .local _ .vmem, ⟨10, _⟩ => ⟨S1x1x65536, .i32⟩
  | .local _ .vmem, ⟨11, _⟩ => ⟨S1x1x65536, .i32⟩
  | .local _ .vmem, ⟨12, _⟩ => ⟨S51x16, .f32⟩
  | .local _ .vmem, ⟨13, _⟩ => ⟨S51x1, .f32⟩
  | .local _ .vmem, ⟨14, _⟩ => ⟨S1x1x51, .f32⟩
  | .local _ .vmem, ⟨15, _⟩ => ⟨S1x1x51, .f32⟩
  | _, _ => ⟨S2x16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_cst : Ref sig .tc := ⟨.hbm, 58, rfl⟩
abbrev main_call2_v5 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_call3_v0 : Ref sig .tc := ⟨.hbm, 64, rfl⟩
abbrev main_call3_v1 : Ref sig .tc := ⟨.hbm, 65, rfl⟩
abbrev main_call3_call0_c : Ref sig .tc := ⟨.hbm, 66, rfl⟩
abbrev main_call3_call0_v0 : Ref sig .tc := ⟨.hbm, 67, rfl⟩
abbrev main_v35 : Ref sig .tc := ⟨.hbm, 68, rfl⟩
abbrev main_c : Ref sig .tc := ⟨.hbm, 69, rfl⟩
abbrev main_v36 : Ref sig .tc := ⟨.hbm, 70, rfl⟩
abbrev main_c_9 : Ref sig .tc := ⟨.hbm, 71, rfl⟩
abbrev main_call4_v0 : Ref sig .tc := ⟨.hbm, 72, rfl⟩
abbrev main_call4_v1 : Ref sig .tc := ⟨.hbm, 73, rfl⟩
abbrev main_v37 : Ref sig .tc := ⟨.hbm, 74, rfl⟩
abbrev main_c_10 : Ref sig .tc := ⟨.hbm, 75, rfl⟩
abbrev main_v38 : Ref sig .tc := ⟨.hbm, 76, rfl⟩
abbrev main_v39 : Ref sig .tc := ⟨.hbm, 77, rfl⟩
abbrev main_c_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_12 : Ref sig .tc := ⟨.hbm, 83, rfl⟩
abbrev main_v44 : Ref sig .tc := ⟨.hbm, 84, rfl⟩
abbrev main_v45 : Ref sig .tc := ⟨.hbm, 85, rfl⟩
abbrev main_call5_call0_c : Ref sig .tc := ⟨.hbm, 86, rfl⟩
abbrev main_call5_call0_v0 : Ref sig .tc := ⟨.hbm, 87, rfl⟩
abbrev main_v46 : Ref sig .tc := ⟨.hbm, 88, rfl⟩
abbrev main_c_13 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_call6_v5 : Ref sig .tc := ⟨.hbm, 95, rfl⟩
abbrev main_call6_v6 : Ref sig .tc := ⟨.hbm, 96, rfl⟩
abbrev main_call6_v7 : Ref sig .tc := ⟨.hbm, 97, rfl⟩
abbrev main_call6_c : Ref sig .tc := ⟨.hbm, 98, rfl⟩
abbrev main_call6_v8 : Ref sig .tc := ⟨.hbm, 99, rfl⟩
abbrev main_call6_v9 : Ref sig .tc := ⟨.hbm, 100, rfl⟩
abbrev main_call6_v10 : Ref sig .tc := ⟨.hbm, 101, rfl⟩
abbrev main_call6_c_0 : Ref sig .tc := ⟨.hbm, 102, rfl⟩
abbrev main_call6_v11 : Ref sig .tc := ⟨.hbm, 103, rfl⟩
abbrev main_call6_v12 : Ref sig .tc := ⟨.hbm, 104, rfl⟩
abbrev main_v47 : Ref sig .tc := ⟨.hbm, 105, rfl⟩
abbrev main_c_14 : Ref sig .tc := ⟨.hbm, 106, rfl⟩
abbrev main_call7_v0 : Ref sig .tc := ⟨.hbm, 107, rfl⟩
abbrev main_call7_c : Ref sig .tc := ⟨.hbm, 108, rfl⟩
abbrev main_call7_v1 : Ref sig .tc := ⟨.hbm, 109, rfl⟩
abbrev main_call7_c_0 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_c_1 : Ref sig .tc := ⟨.hbm, 114, rfl⟩
abbrev main_call7_v5 : Ref sig .tc := ⟨.hbm, 115, rfl⟩
abbrev main_call7_v6 : Ref sig .tc := ⟨.hbm, 116, rfl⟩
abbrev main_call7_c_2 : Ref sig .tc := ⟨.hbm, 117, rfl⟩
abbrev main_call7_v7 : Ref sig .tc := ⟨.hbm, 118, rfl⟩
abbrev main_call7_v8 : Ref sig .tc := ⟨.hbm, 119, rfl⟩
abbrev main_call7_c_3 : Ref sig .tc := ⟨.hbm, 120, rfl⟩
abbrev main_call7_v9 : Ref sig .tc := ⟨.hbm, 121, rfl⟩
abbrev main_call7_v10 : Ref sig .tc := ⟨.hbm, 122, rfl⟩
abbrev main_call7_v11 : Ref sig .tc := ⟨.hbm, 123, rfl⟩
abbrev main_call7_v12 : Ref sig .tc := ⟨.hbm, 124, rfl⟩
abbrev main_call7_v13 : Ref sig .tc := ⟨.hbm, 125, rfl⟩
abbrev main_call7_v14 : Ref sig .tc := ⟨.hbm, 126, rfl⟩
abbrev main_v48 : Ref sig .tc := ⟨.hbm, 127, rfl⟩
abbrev main_c_15 : Ref sig .tc := ⟨.hbm, 128, rfl⟩
abbrev main_call8_v0 : Ref sig .tc := ⟨.hbm, 129, rfl⟩
abbrev main_call8_v1 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_call8_v5 : Ref sig .tc := ⟨.hbm, 134, rfl⟩
abbrev main_call8_v6 : Ref sig .tc := ⟨.hbm, 135, rfl⟩
abbrev main_call8_v7 : Ref sig .tc := ⟨.hbm, 136, rfl⟩
abbrev main_call8_c : Ref sig .tc := ⟨.hbm, 137, rfl⟩
abbrev main_call8_v8 : Ref sig .tc := ⟨.hbm, 138, rfl⟩
abbrev main_call8_v9 : Ref sig .tc := ⟨.hbm, 139, rfl⟩
abbrev main_call8_v10 : Ref sig .tc := ⟨.hbm, 140, rfl⟩
abbrev main_call8_c_0 : Ref sig .tc := ⟨.hbm, 141, rfl⟩
abbrev main_call8_v11 : Ref sig .tc := ⟨.hbm, 142, rfl⟩
abbrev main_call8_v12 : Ref sig .tc := ⟨.hbm, 143, rfl⟩
abbrev main_v49 : Ref sig .tc := ⟨.hbm, 144, rfl⟩
abbrev main_c_16 : Ref sig .tc := ⟨.hbm, 145, rfl⟩
abbrev main_call9_v0 : Ref sig .tc := ⟨.hbm, 146, rfl⟩
abbrev main_call9_c : Ref sig .tc := ⟨.hbm, 147, rfl⟩
abbrev main_call9_v1 : Ref sig .tc := ⟨.hbm, 148, rfl⟩
abbrev main_call9_c_0 : Ref sig .tc := ⟨.hbm, 149, rfl⟩
abbrev main_call9_v2 : Ref sig .tc := ⟨.hbm, 150, rfl⟩
abbrev main_call9_v3 : Ref sig .tc := ⟨.hbm, 151, rfl⟩
abbrev main_call9_v4 : Ref sig .tc := ⟨.hbm, 152, rfl⟩
abbrev main_call9_c_1 : Ref sig .tc := ⟨.hbm, 153, rfl⟩
abbrev main_call9_v5 : Ref sig .tc := ⟨.hbm, 154, rfl⟩
abbrev main_call9_v6 : Ref sig .tc := ⟨.hbm, 155, rfl⟩
abbrev main_call9_c_2 : Ref sig .tc := ⟨.hbm, 156, rfl⟩
abbrev main_call9_v7 : Ref sig .tc := ⟨.hbm, 157, rfl⟩
abbrev main_call9_v8 : Ref sig .tc := ⟨.hbm, 158, rfl⟩
abbrev main_call9_c_3 : Ref sig .tc := ⟨.hbm, 159, rfl⟩
abbrev main_call9_v9 : Ref sig .tc := ⟨.hbm, 160, rfl⟩
abbrev main_call9_v10 : Ref sig .tc := ⟨.hbm, 161, rfl⟩
abbrev main_call9_v11 : Ref sig .tc := ⟨.hbm, 162, rfl⟩
abbrev main_call9_v12 : Ref sig .tc := ⟨.hbm, 163, rfl⟩
abbrev main_call9_v13 : Ref sig .tc := ⟨.hbm, 164, rfl⟩
abbrev main_call9_v14 : Ref sig .tc := ⟨.hbm, 165, rfl⟩
abbrev main_v50 : Ref sig .tc := ⟨.hbm, 166, rfl⟩
abbrev main_c_17 : Ref sig .tc := ⟨.hbm, 167, rfl⟩
abbrev main_v51 : Ref sig .tc := ⟨.hbm, 168, rfl⟩
abbrev main_v52 : Ref sig .tc := ⟨.hbm, 169, rfl⟩
abbrev main_c_18 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_c_19 : Ref sig .tc := ⟨.hbm, 174, rfl⟩
abbrev main_v56 : Ref sig .tc := ⟨.hbm, 175, rfl⟩
abbrev main_v57 : Ref sig .tc := ⟨.hbm, 176, rfl⟩
abbrev main_c_20 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_cst_21 : Ref sig .tc := ⟨.hbm, 185, rfl⟩
abbrev main_cst_22 : Ref sig .tc := ⟨.hbm, 186, rfl⟩
abbrev main_call10_v0 : Ref sig .tc := ⟨.hbm, 187, rfl⟩
abbrev main_call10_v1 : Ref sig .tc := ⟨.hbm, 188, rfl⟩
abbrev main_call10_v2 : Ref sig .tc := ⟨.hbm, 189, rfl⟩
abbrev main_call10_v3 : Ref sig .tc := ⟨.hbm, 190, rfl⟩
abbrev main_call10_v4 : Ref sig .tc := ⟨.hbm, 191, rfl⟩
abbrev main_v65 : Ref sig .tc := ⟨.hbm, 192, rfl⟩
abbrev main_cst_23 : Ref sig .tc := ⟨.hbm, 193, rfl⟩
abbrev main_v66 : Ref sig .tc := ⟨.hbm, 194, rfl⟩
abbrev main_cst_24 : Ref sig .tc := ⟨.hbm, 195, rfl⟩
abbrev main_v67 : Ref sig .tc := ⟨.hbm, 196, rfl⟩
abbrev main_v68 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x51 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x51 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x65536 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S51x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S51x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x51 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S2x16x32x256x256_S2x16x2097152 : S2x16x32x256x256.ShapeCasts S2x16x2097152
  shapeCasts_S2x32x256x256_S2x1x2097152 : S2x32x256x256.ShapeCasts S2x1x2097152
  inb_S1x16x51_S1x16x51_0_0_0 : ∀ a, (![0, 0, 0] : Fin 3 → Nat) a + S1x16x51.size a ≤ S1x16x51.size a
  h_S1x16x51 : 0 < S1x16x51.numel
  shapeCasts_S1x16x51_S16x51 : S1x16x51.ShapeCasts S16x51
  shapeCasts_S16x51_S1x16x51 : S16x51.ShapeCasts S1x16x51
  inb_S1x1x51_S1x1x51_0_0_0 : ∀ a, (![0, 0, 0] : Fin 3 → Nat) a + S1x1x51.size a ≤ S1x1x51.size a
  h_S1x1x51 : 0 < S1x1x51.numel
  shapeCasts_S1x1x51_S1x51 : S1x1x51.ShapeCasts S1x51
  shapeCasts_S1x51_S1x1x51 : S1x51.ShapeCasts S1x1x51
  iota_S51x1_d0_w32 : S51x1.Iotas .tc 32 [0]
  inb_S1x1x65536_S1x1x8192_0_0_0 : ∀ a, (![0, 0, 0] : Fin 3 → Nat) a + S1x1x8192.size a ≤ S1x1x65536.size a
  h_S1x1x8192 : 0 < S1x1x8192.numel
  shapeCasts_S1x1x8192_S1x8192 : S1x1x8192.ShapeCasts S1x8192
  broadcasts_S51x1_S51x8192 : S51x1.Broadcasts S51x8192
  broadcasts_S1x8192_S51x8192 : S1x8192.Broadcasts S51x8192
  natLt_1_32 : 1 < 32
  bitsLt_bf16_f32 : FTy.bits .bf16 < FTy.bits .f32
  inb_S1x16x65536_S1x16x8192_0_0_0 : ∀ a, (![0, 0, 0] : Fin 3 → Nat) a + S1x16x8192.size a ≤ S1x16x65536.size a
  h_S1x16x8192 : 0 < S1x16x8192.numel
  shapeCasts_S1x16x8192_S16x8192 : S1x16x8192.ShapeCasts S16x8192
  inb_S1x1x65536_S1x1x8192_0_0_8192 : ∀ a, (![0, 0, 8192] : Fin 3 → Nat) a + S1x1x8192.size a ≤ S1x1x65536.size a
  inb_S1x16x65536_S1x16x8192_0_0_8192 : ∀ a, (![0, 0, 8192] : Fin 3 → Nat) a + S1x16x8192.size a ≤ S1x16x65536.size a
  inb_S1x1x65536_S1x1x8192_0_0_16384 : ∀ a, (![0, 0, 16384] : Fin 3 → Nat) a + S1x1x8192.size a ≤ S1x1x65536.size a
  inb_S1x16x65536_S1x16x8192_0_0_16384 : ∀ a, (![0, 0, 16384] : Fin 3 → Nat) a + S1x16x8192.size a ≤ S1x16x65536.size a
  inb_S1x1x65536_S1x1x8192_0_0_24576 : ∀ a, (![0, 0, 24576] : Fin 3 → Nat) a + S1x1x8192.size a ≤ S1x1x65536.size a
  inb_S1x16x65536_S1x16x8192_0_0_24576 : ∀ a, (![0, 0, 24576] : Fin 3 → Nat) a + S1x16x8192.size a ≤ S1x16x65536.size a
  inb_S1x1x65536_S1x1x8192_0_0_32768 : ∀ a, (![0, 0, 32768] : Fin 3 → Nat) a + S1x1x8192.size a ≤ S1x1x65536.size a
  inb_S1x16x65536_S1x16x8192_0_0_32768 : ∀ a, (![0, 0, 32768] : Fin 3 → Nat) a + S1x16x8192.size a ≤ S1x16x65536.size a
  inb_S1x1x65536_S1x1x8192_0_0_40960 : ∀ a, (![0, 0, 40960] : Fin 3 → Nat) a + S1x1x8192.size a ≤ S1x1x65536.size a
  inb_S1x16x65536_S1x16x8192_0_0_40960 : ∀ a, (![0, 0, 40960] : Fin 3 → Nat) a + S1x16x8192.size a ≤ S1x16x65536.size a
  inb_S1x1x65536_S1x1x8192_0_0_49152 : ∀ a, (![0, 0, 49152] : Fin 3 → Nat) a + S1x1x8192.size a ≤ S1x1x65536.size a
  inb_S1x16x65536_S1x16x8192_0_0_49152 : ∀ a, (![0, 0, 49152] : Fin 3 → Nat) a + S1x16x8192.size a ≤ S1x16x65536.size a
  inb_S1x1x65536_S1x1x8192_0_0_57344 : ∀ a, (![0, 0, 57344] : Fin 3 → Nat) a + S1x1x8192.size a ≤ S1x1x65536.size a
  inb_S1x16x65536_S1x16x8192_0_0_57344 : ∀ a, (![0, 0, 57344] : Fin 3 → Nat) a + S1x16x8192.size a ≤ S1x16x65536.size a
  reducesTo_S2x16x51_S16x51_d0 : S2x16x51.ReducesTo [0] S16x51
  h_S_ : 0 < S_.numel
  reducesTo_S2x1x51_S1x51_d0 : S2x1x51.ReducesTo [0] S1x51
  transposes_S16x51_S51x16_1_0 : S16x51.Transposes [1, 0] S51x16
  transposes_S1x51_S51x1_1_0 : S1x51.Transposes [1, 0] S51x1
  bcast_S_S51x1 : S_.BroadcastsInDim S51x1 (![] : Fin 0 → Fin S51x1.rank)
  bcast_S51x1_S51x16_0_1 : S51x1.BroadcastsInDim S51x16 (![0, 1] : Fin 2 → Fin S51x16.rank)
  reducesTo_S51x16_S51_d1 : S51x16.ReducesTo [1] S51
  bcast_S51_S51x1_0 : S51.BroadcastsInDim S51x1 (![0] : Fin 1 → Fin S51x1.rank)
  inb_S51x16_S51x16_0_0 : ∀ a, (![0, 0] : Fin 2 → Nat) a + S51x16.size a ≤ S51x16.size a
  h_S51x16 : 0 < S51x16.numel
  shapeCasts_S51x16_S51x16 : S51x16.ShapeCasts S51x16
  inb_S51x1_S51x1_0_0 : ∀ a, (![0, 0] : Fin 2 → Nat) a + S51x1.size a ≤ S51x1.size a
  h_S51x1 : 0 < S51x1.numel
  shapeCasts_S51x1_S51x1 : S51x1.ShapeCasts S51x1
  reduces_S16x8192_S8192 : S16x8192.Reduces [0] S8192
  shapeCasts_S8192_S1x8192 : S8192.ShapeCasts S1x8192
  shapeCasts_S1x51_S51 : S1x51.ShapeCasts S51
  slices_S51_S50_1 : S51.Slices ![1] S50
  bcast_S_S50 : S_.BroadcastsInDim S50 (![] : Fin 0 → Fin S50.rank)
  reducesTo_S50_S_d0 : S50.ReducesTo [0] S_
  slices_S51x16_S50x16_1_0 : S51x16.Slices ![1, 0] S50x16
  reducesTo_S50x16_S50_d1 : S50x16.ReducesTo [1] S50
  bcast_S50_S50x1_0 : S50.BroadcastsInDim S50x1 (![0] : Fin 1 → Fin S50x1.rank)
  bcast_S_S50x1 : S_.BroadcastsInDim S50x1 (![] : Fin 0 → Fin S50x1.rank)
  bcast_S50x1_S50x16_0_1 : S50x1.BroadcastsInDim S50x16 (![0, 1] : Fin 2 → Fin S50x16.rank)
  transposes_S50x16_S16x50_1_0 : S50x16.Transposes [1, 0] S16x50
  bcast_S_S50x50 : S_.BroadcastsInDim S50x50 (![] : Fin 0 → Fin S50x50.rank)
  shapeCasts_S50x50_S2500 : S50x50.ShapeCasts S2500
  bcast_S_S_ : S_.BroadcastsInDim S_ (![] : Fin 0 → Fin S_.rank)
  reduceWindows_S2500_S2500_w2500s1p2499_0 : S2500.ReduceWindows (![2500] : Fin 1 → Nat) ![1] ![2499] ![0] S2500
  bcast_S_S1225 : S_.BroadcastsInDim S1225 (![] : Fin 0 → Fin S1225.rank)
  bcast_S_S2500 : S_.BroadcastsInDim S2500 (![] : Fin 0 → Fin S2500.rank)
  bcast_S2500_S2500x1_0 : S2500.BroadcastsInDim S2500x1 (![0] : Fin 1 → Fin S2500x1.rank)
  reduceWindows_S1225_S1225_w1225s1p1224_0 : S1225.ReduceWindows (![1225] : Fin 1 → Nat) ![1] ![1224] ![0] S1225
  bcast_S1225_S1225x1_0 : S1225.BroadcastsInDim S1225x1 (![0] : Fin 1 → Fin S1225x1.rank)
  concatenates_S1225x1_S1225x1_S1225x2_d1 : Shape.Concatenates [S1225x1, S1225x1] S1225x2 1
  reducesTo_S1225_S_d0 : S1225.ReducesTo [0] S_
  dot_S16x8192_S51x8192_S16x51_1_1_0_0_n_n_wf : DotDims.WF S16x8192 S51x8192 S16x51 [1] [1] [0] [0] [] []
  dot_S1x8192_S51x8192_S1x51_1_1_0_0_n_n_wf : DotDims.WF S1x8192 S51x8192 S1x51 [1] [1] [0] [0] [] []
  dot_S51x16_S51x8192_S16x8192_0_0_1_1_n_n_wf : DotDims.WF S51x16 S51x8192 S16x8192 [0] [0] [1] [1] [] []
  dot_S51x1_S51x8192_S1x8192_0_0_1_1_n_n_wf : DotDims.WF S51x1 S51x8192 S1x8192 [0] [0] [1] [1] [] []
  dot_S50x16_S16x50_S50x50_1_0_0_1_n_n_wf : DotDims.WF S50x16 S16x50 S50x50 [1] [0] [0] [1] [] []
  scatter_S1225_S2500x1_S2500_n_0_0_1_wf : ScatterDims.WF S1225 S2500x1 S2500 [] [0] [0] 1
  gather_S50x50_S1225x2_S1225_n_01_n_n_01_1_11_wf : GatherDims.WF S50x50 S1225x2 S1225 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x65536.size a ≤ S2x16x2097152.size a
  hwx0_0 : ∀ i : grid0.Coords, EltTy.bits .f32 = 32 ∨ (Rect.block (s := S2x16x2097152) S1x16x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x65536.size a ≤ S2x1x2097152.size a
  hwx0_1 : ∀ i : grid0.Coords, EltTy.bits .i32 = 32 ∨ (Rect.block (s := S2x1x2097152) S1x1x65536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x51.size a ≤ S2x16x51.size a
  hwx0_2 : ∀ i : grid0.Coords, EltTy.bits .f32 = 32 ∨ (Rect.block (s := S2x16x51) S1x16x51.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x51.size a ≤ S2x1x51.size a
  hwx0_3 : ∀ i : grid0.Coords, EltTy.bits .f32 = 32 ∨ (Rect.block (s := S2x1x51) S1x1x51.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x65536.size a ≤ S2x16x2097152.size a
  hwx1_0 : ∀ i : grid1.Coords, EltTy.bits .f32 = 32 ∨ (Rect.block (s := S2x16x2097152) S1x16x65536.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x65536.size a ≤ S2x1x2097152.size a
  hwx1_1 : ∀ i : grid1.Coords, EltTy.bits .i32 = 32 ∨ (Rect.block (s := S2x1x2097152) S1x1x65536.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S51x16.size a ≤ S51x16.size a
  hwx1_2 : ∀ i : grid1.Coords, EltTy.bits .f32 = 32 ∨ (Rect.block (s := S51x16) S51x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S51x1.size a ≤ S51x1.size a
  hwx1_3 : ∀ i : grid1.Coords, EltTy.bits .f32 = 32 ∨ (Rect.block (s := S51x1) S51x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x51.size a ≤ S2x1x51.size a
  hwx1_4 : ∀ i : grid1.Coords, EltTy.bits .f32 = 32 ∨ (Rect.block (s := S2x1x51) S1x1x51.size (cc1_transform_4 i) (hinb1_4 i)).WholeWords (EltTy.packing .f32)

variable [Facts₀]

def dot_S16x8192_S51x8192_S16x51_1_1_0_0_n_n : DotDims S16x8192 S51x8192 S16x51 where
  lhsContracting := [1]
  rhsContracting := [1]
  lhsNonContracting := [0]
  rhsNonContracting := [0]
  lhsBatch := []
  rhsBatch := []
  wf := dot_S16x8192_S51x8192_S16x51_1_1_0_0_n_n_wf
def dot_S1x8192_S51x8192_S1x51_1_1_0_0_n_n : DotDims S1x8192 S51x8192 S1x51 where
  lhsContracting := [1]
  rhsContracting := [1]
  lhsNonContracting := [0]
  rhsNonContracting := [0]
  lhsBatch := []
  rhsBatch := []
  wf := dot_S1x8192_S51x8192_S1x51_1_1_0_0_n_n_wf
def dot_S51x16_S51x8192_S16x8192_0_0_1_1_n_n : DotDims S51x16 S51x8192 S16x8192 where
  lhsContracting := [0]
  rhsContracting := [0]
  lhsNonContracting := [1]
  rhsNonContracting := [1]
  lhsBatch := []
  rhsBatch := []
  wf := dot_S51x16_S51x8192_S16x8192_0_0_1_1_n_n_wf
def dot_S51x1_S51x8192_S1x8192_0_0_1_1_n_n : DotDims S51x1 S51x8192 S1x8192 where
  lhsContracting := [0]
  rhsContracting := [0]
  lhsNonContracting := [1]
  rhsNonContracting := [1]
  lhsBatch := []
  rhsBatch := []
  wf := dot_S51x1_S51x8192_S1x8192_0_0_1_1_n_n_wf
def dot_S50x16_S16x50_S50x50_1_0_0_1_n_n : DotDims S50x16 S16x50 S50x50 where
  lhsContracting := [1]
  rhsContracting := [0]
  lhsNonContracting := [0]
  rhsNonContracting := [1]
  lhsBatch := []
  rhsBatch := []
  wf := dot_S50x16_S16x50_S50x50_1_0_0_1_n_n_wf
def scatter_S1225_S2500x1_S2500_n_0_0_1 : ScatterDims S1225 S2500x1 S2500 where
  updateWindowDims := []
  insertedWindowDims := [0]
  scatterDimsToOperandDims := [0]
  indexVectorDim := 1
  wf := scatter_S1225_S2500x1_S2500_n_0_0_1_wf
def gather_S50x50_S1225x2_S1225_n_01_n_n_01_1_11 : GatherDims S50x50 S1225x2 S1225 where
  offsetDims := []
  collapsedSliceDims := [0, 1]
  operandBatchingDims := []
  startIndicesBatchingDims := []
  startIndexMap := [0, 1]
  indexVectorDim := 1
  sliceSizes := ![1, 1]
  wf := gather_S50x50_S1225x2_S1225_n_01_n_n_01_1_11_wf

abbrev win0_0 : Pipeline.Window sig grid0 :=
  Pipeline.Window.ofSpec (Memref.whole main_v0) S1x16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x51.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x51.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1x16x65536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x65536.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S51x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S51x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1x51.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x16x32x256x256 : Shape := ⟨5, ![2, 16, 32, 256, 256]⟩
abbrev S2x32x256x256 : Shape := ⟨4, ![2, 32, 256, 256]⟩
abbrev S16x2x32x256x256 : Shape := ⟨5, ![16, 2, 32, 256, 256]⟩
abbrev S16x4194304 : Shape := ⟨2, ![16, 4194304]⟩
abbrev S4194304x16 : Shape := ⟨2, ![4194304, 16]⟩
abbrev S4194304 : Shape := ⟨1, ![4194304]⟩
abbrev S_ : Shape := ⟨0, ![]⟩
abbrev S51 : Shape := ⟨1, ![51]⟩
abbrev S4194304x1 : Shape := ⟨2, ![4194304, 1]⟩
abbrev S51x16 : Shape := ⟨2, ![51, 16]⟩
abbrev S51x1 : Shape := ⟨2, ![51, 1]⟩
abbrev S50 : Shape := ⟨1, ![50]⟩
abbrev S50x16 : Shape := ⟨2, ![50, 16]⟩
abbrev S50x1 : Shape := ⟨2, ![50, 1]⟩
abbrev S16x50 : Shape := ⟨2, ![16, 50]⟩
abbrev S50x50 : Shape := ⟨2, ![50, 50]⟩
abbrev S2500 : Shape := ⟨1, ![2500]⟩
abbrev S1225 : Shape := ⟨1, ![1225]⟩
abbrev S2500x1 : Shape := ⟨2, ![2500, 1]⟩
abbrev S1225x1 : Shape := ⟨2, ![1225, 1]⟩
abbrev S1225x2 : Shape := ⟨2, ![1225, 2]⟩

abbrev nBuf : Space → Nat
  | .hbm => 231
  | .vmem => 0
  | .smem => 0
  | _ => 0

abbrev hbmTy0_0 (i : Nat) : BufTy := match i % 128 with
  | 0 => ⟨S2x16x32x256x256, .f32⟩
  | 1 => ⟨S2x32x256x256, .i32⟩
  | 2 => ⟨S16x2x32x256x256, .f32⟩
  | 3 => ⟨S16x4194304, .f32⟩
  | 4 => ⟨S4194304x16, .f32⟩
  | 5 => ⟨S4194304, .i32⟩
  | 6 => ⟨S_, .f32⟩
  | 7 => ⟨S4194304, .f32⟩
  | 8 => ⟨S_, .f32⟩
  | 9 => ⟨S51, .f32⟩
  | 10 => ⟨S4194304x1, .i32⟩
  | 11 => ⟨S51, .f32⟩
  | 12 => ⟨S_, .f32⟩
  | 13 => ⟨S51x16, .f32⟩
  | 14 => ⟨S4194304x1, .i32⟩
  | 15 => ⟨S51x16, .f32⟩
  | 16 => ⟨S_, .f32⟩
  | 17 => ⟨S51, .f32⟩
  | 18 => ⟨S51, .f32⟩
  | 19 => ⟨S51x1, .f32⟩
  | 20 => ⟨S51x16, .f32⟩
  | 21 => ⟨S51x16, .f32⟩
  | 22 => ⟨S_, .i32⟩
  | 23 => ⟨S4194304, .i32⟩
  | 24 => ⟨S4194304, .i1⟩
  | 25 => ⟨S_, .i32⟩
  | 26 => ⟨S4194304, .i32⟩
  | 27 => ⟨S4194304, .i32⟩
  | 28 => ⟨S4194304, .i32⟩
  | 29 => ⟨S4194304x1, .i32⟩
  | 30 => ⟨S4194304x16, .f32⟩
  | 31 => ⟨S4194304x16, .f32⟩
  | 32 => ⟨S_, .f32⟩
  | 33 => ⟨S4194304, .f32⟩
  | 34 => ⟨S4194304x16, .f32⟩
  | 35 => ⟨S_, .f32⟩
  | 36 => ⟨S4194304, .f32⟩
  | 37 => ⟨S4194304, .f32⟩
  | 38 => ⟨S51x16, .f32⟩
  | 39 => ⟨S_, .f32⟩
  | 40 => ⟨S51, .f32⟩
  | 41 => ⟨S51, .f32⟩
  | 42 => ⟨S_, .i32⟩
  | 43 => ⟨S4194304, .i32⟩
  | 44 => ⟨S4194304, .i1⟩
  | 45 => ⟨S_, .i32⟩
  | 46 => ⟨S4194304, .i32⟩
  | 47 => ⟨S4194304, .i32⟩
  | 48 => ⟨S4194304, .i32⟩
  | 49 => ⟨S4194304x1, .i32⟩
  | 50 => ⟨S4194304, .f32⟩
  | 51 => ⟨S4194304, .f32⟩
  | 52 => ⟨S_, .f32⟩
  | 53 => ⟨S4194304, .f32⟩
  | 54 => ⟨S4194304, .f32⟩
  | 55 => ⟨S4194304, .f32⟩
  | 56 => ⟨S_, .f32⟩
  | 57 => ⟨S51, .f32⟩
  | 58 => ⟨S4194304x1, .i32⟩
  | 59 => ⟨S51, .f32⟩
  | 60 => ⟨S50, .f32⟩
  | 61 => ⟨S50, .f32⟩
  | 62 => ⟨S_, .f32⟩
  | 63 => ⟨S50, .f32⟩
  | 64 => ⟨S50, .f32⟩
  | 65 => ⟨S50, .f32⟩
  | 66 => ⟨S_, .f32⟩
  | 67 => ⟨S_, .f32⟩
  | 68 => ⟨S_, .f32⟩
  | 69 => ⟨S_, .f32⟩
  | 70 => ⟨S50x16, .f32⟩
  | 71 => ⟨S50x16, .f32⟩
  | 72 => ⟨S_, .f32⟩
  | 73 => ⟨S50, .f32⟩
  | 74 => ⟨S50x1, .f32⟩
  | 75 => ⟨S50x1, .f32⟩
  | 76 => ⟨S_, .f32⟩
  | 77 => ⟨S50x1, .f32⟩
  | 78 => ⟨S50x1, .f32⟩
  | 79 => ⟨S50x16, .f32⟩
  | 80 => ⟨S50x16, .f32⟩
  | 81 => ⟨S16x50, .f32⟩
  | 82 => ⟨S50x50, .f32⟩
  | 83 => ⟨S_, .f32⟩
  | 84 => ⟨S50x50, .f32⟩
  | 85 => ⟨S50x50, .i32⟩
  | 86 => ⟨S_, .i32⟩
  | 87 => ⟨S50x50, .i32⟩
  | 88 => ⟨S50x50, .i32⟩
  | 89 => ⟨S50x50, .i32⟩
  | 90 => ⟨S50x50, .i1⟩
  | 91 => ⟨S_, .f32⟩
  | 92 => ⟨S50x50, .f32⟩
  | 93 => ⟨S50x50, .f32⟩
  | 94 => ⟨S_, .f32⟩
  | 95 => ⟨S50x50, .f32⟩
  | 96 => ⟨S50x50, .i1⟩
  | 97 => ⟨S2500, .i1⟩
  | 98 => ⟨S2500, .i32⟩
  | 99 => ⟨S_, .i32⟩
  | 100 => ⟨S_, .i32⟩
  | 101 => ⟨S2500, .i32⟩
  | 102 => ⟨S_, .i32⟩
  | 103 => ⟨S1225, .i32⟩
  | 104 => ⟨S_, .i32⟩
  | 105 => ⟨S_, .i32⟩
  | 106 => ⟨S2500, .i32⟩
  | 107 => ⟨S2500, .i32⟩
  | 108 => ⟨S_, .i32⟩
  | 109 => ⟨S2500, .i32⟩
  | 110 => ⟨S2500, .i1⟩
  | 111 => ⟨S_, .i32⟩
  | 112 => ⟨S2500, .i32⟩
  | 113 => ⟨S2500, .i32⟩
  | 114 => ⟨S2500, .i32⟩
  | 115 => ⟨S2500x1, .i32⟩
  | 116 => ⟨S_, .i32⟩
  | 117 => ⟨S2500, .i32⟩
  | 118 => ⟨S1225, .i32⟩
  | 119 => ⟨S_, .i32⟩
  | 120 => ⟨S_, .i32⟩
  | 121 => ⟨S1225, .i32⟩
  | 122 => ⟨S_, .i32⟩
  | 123 => ⟨S1225, .i32⟩
  | 124 => ⟨S1225, .i32⟩
  | 125 => ⟨S1225, .i32⟩
  | 126 => ⟨S_, .i32⟩
  | 127 => ⟨S1225, .i32⟩
  | _ => ⟨S2x16x32x256x256, .f32⟩

abbrev hbmTy0_1 (i : Nat) : BufTy := match i % 128 with
  | 0 => ⟨S1225, .i1⟩
  | 1 => ⟨S1225, .i32⟩
  | 2 => ⟨S1225, .i32⟩
  | 3 => ⟨S_, .i32⟩
  | 4 => ⟨S1225, .i32⟩
  | 5 => ⟨S1225, .i1⟩
  | 6 => ⟨S1225, .i1⟩
  | 7 => ⟨S_, .i32⟩
  | 8 => ⟨S1225, .i32⟩
  | 9 => ⟨S1225, .i32⟩
  | 10 => ⟨S1225, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S1225, .i32⟩
  | 18 => ⟨S1225, .i32⟩
  | 19 => ⟨S_, .i32⟩
  | 20 => ⟨S1225, .i32⟩
  | 21 => ⟨S1225, .i1⟩
  | 22 => ⟨S_, .i32⟩
  | 23 => ⟨S1225, .i32⟩
  | 24 => ⟨S1225, .i1⟩
  | 25 => ⟨S_, .i32⟩
  | 26 => ⟨S_, .i1⟩
  | 27 => ⟨S1225, .i1⟩
  | 28 => ⟨S1225, .i1⟩
  | 29 => ⟨S1225, .i1⟩
  | 30 => ⟨S1225, .i32⟩
  | 31 => ⟨S1225, .i32⟩
  | 32 => ⟨S1225, .i32⟩
  | 33 => ⟨S_, .i32⟩
  | 34 => ⟨S1225, .i32⟩
  | 35 => ⟨S1225, .i32⟩
  | 36 => ⟨S1225, .i32⟩
  | 37 => ⟨S_, .i32⟩
  | 38 => ⟨S1225, .i32⟩
  | 39 => ⟨S1225, .i1⟩
  | 40 => ⟨S1225, .i32⟩
  | 41 => ⟨S1225, .i32⟩
  | 42 => ⟨S_, .i32⟩
  | 43 => ⟨S1225, .i32⟩
  | 44 => ⟨S1225, .i1⟩
  | 45 => ⟨S1225, .i1⟩
  | 46 => ⟨S_, .i32⟩
  | 47 => ⟨S1225, .i32⟩
  | 48 => ⟨S1225, .i32⟩
  | 49 => ⟨S1225, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1225, .i32⟩
  | 57 => ⟨S1225, .i32⟩
  | 58 => ⟨S_, .i32⟩
  | 59 => ⟨S1225, .i32⟩
  | 60 => ⟨S1225, .i1⟩
  | 61 => ⟨S_, .i32⟩
  | 62 => ⟨S1225, .i32⟩
  | 63 => ⟨S1225, .i1⟩
  | 64 => ⟨S_, .i32⟩
  | 65 => ⟨S_, .i1⟩
  | 66 => ⟨S1225, .i1⟩
  | 67 => ⟨S1225, .i1⟩
  | 68 => ⟨S1225, .i1⟩
  | 69 => ⟨S1225, .i32⟩
  | 70 => ⟨S1225, .i32⟩
  | 71 => ⟨S1225, .i32⟩
  | 72 => ⟨S_, .i32⟩
  | 73 => ⟨S1225, .i32⟩
  | 74 => ⟨S1225, .i1⟩
  | 75 => ⟨S_, .i32⟩
  | 76 => ⟨S1225, .i32⟩
  | 77 => ⟨S1225, .i32⟩
  | 78 => ⟨S1225, .i32⟩
  | 79 => ⟨S_, .i32⟩
  | 80 => ⟨S1225, .i32⟩
  | 81 => ⟨S1225, .i1⟩
  | 82 => ⟨S_, .i32⟩
  | 83 => ⟨S1225, .i32⟩
  | 84 => ⟨S1225, .i32⟩
  | 85 => ⟨S1225, .i32⟩
  | 86 => ⟨S1225x1, .i32⟩
  | 87 => ⟨S1225x1, .i32⟩
  | 88 => ⟨S1225x2, .i32⟩
  | 89 => ⟨S1225, .f32⟩
  | 90 => ⟨S_, .f32⟩
  | 91 => ⟨S_, .f32⟩
  | 92 => ⟨S_, .f32⟩
  | 93 => ⟨S1225, .f32⟩
  | 94 => ⟨S1225, .f32⟩
  | 95 => ⟨S_, .f32⟩
  | 96 => ⟨S1225, .f32⟩
  | 97 => ⟨S1225, .f32⟩
  | 98 => ⟨S_, .f32⟩
  | 99 => ⟨S_, .f32⟩
  | 100 => ⟨S_, .f32⟩
  | 101 => ⟨S_, .f32⟩
  | 102 => ⟨S_, .f32⟩
  | _ => ⟨S2x16x32x256x256, .f32⟩

abbrev hbmTy (i : Nat) : BufTy := match i / 128 with
  | 0 => hbmTy0_0 i
  | 1 => hbmTy0_1 i
  | _ => ⟨S2x16x32x256x256, .f32⟩

abbrev bufTy : (tb : Table) → Fin (tcTables nBuf tb) → BufTy
  | .hbm, ⟨i, _⟩ => hbmTy i
  | _, _ => ⟨S2x16x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_v25 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_call2_v0 : Ref sig .tc := ⟨.hbm, 71, rfl⟩
abbrev main_call2_cst : Ref sig .tc := ⟨.hbm, 72, rfl⟩
abbrev main_call2_v1 : Ref sig .tc := ⟨.hbm, 73, rfl⟩
abbrev main_call2_v2 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_cst : Ref sig .tc := ⟨.hbm, 91, rfl⟩
abbrev main_call3_v5 : Ref sig .tc := ⟨.hbm, 92, rfl⟩
abbrev main_v57 : Ref sig .tc := ⟨.hbm, 93, rfl⟩
abbrev main_cst_14 : Ref sig .tc := ⟨.hbm, 94, rfl⟩
abbrev main_v58 : Ref sig .tc := ⟨.hbm, 95, rfl⟩
abbrev main_v59 : Ref sig .tc := ⟨.hbm, 96, rfl⟩
abbrev main_call4_v0 : Ref sig .tc := ⟨.hbm, 97, rfl⟩
abbrev main_call4_v1 : Ref sig .tc := ⟨.hbm, 98, rfl⟩
abbrev main_call4_call0_c : Ref sig .tc := ⟨.hbm, 99, rfl⟩
abbrev main_call4_call0_v0 : Ref sig .tc := ⟨.hbm, 100, rfl⟩
abbrev main_v60 : Ref sig .tc := ⟨.hbm, 101, rfl⟩
abbrev main_c_15 : Ref sig .tc := ⟨.hbm, 102, rfl⟩
abbrev main_v61 : Ref sig .tc := ⟨.hbm, 103, rfl⟩
abbrev main_c_16 : Ref sig .tc := ⟨.hbm, 104, rfl⟩
abbrev main_call5_v0 : Ref sig .tc := ⟨.hbm, 105, rfl⟩
abbrev main_call5_v1 : Ref sig .tc := ⟨.hbm, 106, rfl⟩
abbrev main_v62 : Ref sig .tc := ⟨.hbm, 107, rfl⟩
abbrev main_c_17 : Ref sig .tc := ⟨.hbm, 108, rfl⟩
abbrev main_v63 : Ref sig .tc := ⟨.hbm, 109, rfl⟩
abbrev main_v64 : Ref sig .tc := ⟨.hbm, 110, rfl⟩
abbrev main_c_18 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_19 : Ref sig .tc := ⟨.hbm, 116, rfl⟩
abbrev main_v69 : Ref sig .tc := ⟨.hbm, 117, rfl⟩
abbrev main_v70 : Ref sig .tc := ⟨.hbm, 118, rfl⟩
abbrev main_call6_call0_c : Ref sig .tc := ⟨.hbm, 119, rfl⟩
abbrev main_call6_call0_v0 : Ref sig .tc := ⟨.hbm, 120, rfl⟩
abbrev main_v71 : Ref sig .tc := ⟨.hbm, 121, rfl⟩
abbrev main_c_20 : Ref sig .tc := ⟨.hbm, 122, rfl⟩
abbrev main_call7_v0 : Ref sig .tc := ⟨.hbm, 123, rfl⟩
abbrev main_call7_v1 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_call7_v5 : Ref sig .tc := ⟨.hbm, 128, rfl⟩
abbrev main_call7_v6 : Ref sig .tc := ⟨.hbm, 129, rfl⟩
abbrev main_call7_v7 : Ref sig .tc := ⟨.hbm, 130, rfl⟩
abbrev main_call7_c : Ref sig .tc := ⟨.hbm, 131, rfl⟩
abbrev main_call7_v8 : Ref sig .tc := ⟨.hbm, 132, rfl⟩
abbrev main_call7_v9 : Ref sig .tc := ⟨.hbm, 133, rfl⟩
abbrev main_call7_v10 : Ref sig .tc := ⟨.hbm, 134, rfl⟩
abbrev main_call7_c_0 : Ref sig .tc := ⟨.hbm, 135, rfl⟩
abbrev main_call7_v11 : Ref sig .tc := ⟨.hbm, 136, rfl⟩
abbrev main_call7_v12 : Ref sig .tc := ⟨.hbm, 137, rfl⟩
abbrev main_v72 : Ref sig .tc := ⟨.hbm, 138, rfl⟩
abbrev main_c_21 : Ref sig .tc := ⟨.hbm, 139, rfl⟩
abbrev main_call8_v0 : Ref sig .tc := ⟨.hbm, 140, rfl⟩
abbrev main_call8_c : Ref sig .tc := ⟨.hbm, 141, rfl⟩
abbrev main_call8_v1 : Ref sig .tc := ⟨.hbm, 142, rfl⟩
abbrev main_call8_c_0 : Ref sig .tc := ⟨.hbm, 143, rfl⟩
abbrev main_call8_v2 : Ref sig .tc := ⟨.hbm, 144, rfl⟩
abbrev main_call8_v3 : Ref sig .tc := ⟨.hbm, 145, rfl⟩
abbrev main_call8_v4 : Ref sig .tc := ⟨.hbm, 146, rfl⟩
abbrev main_call8_c_1 : Ref sig .tc := ⟨.hbm, 147, rfl⟩
abbrev main_call8_v5 : Ref sig .tc := ⟨.hbm, 148, rfl⟩
abbrev main_call8_v6 : Ref sig .tc := ⟨.hbm, 149, rfl⟩
abbrev main_call8_c_2 : Ref sig .tc := ⟨.hbm, 150, rfl⟩
abbrev main_call8_v7 : Ref sig .tc := ⟨.hbm, 151, rfl⟩
abbrev main_call8_v8 : Ref sig .tc := ⟨.hbm, 152, rfl⟩
abbrev main_call8_c_3 : Ref sig .tc := ⟨.hbm, 153, rfl⟩
abbrev main_call8_v9 : Ref sig .tc := ⟨.hbm, 154, rfl⟩
abbrev main_call8_v10 : Ref sig .tc := ⟨.hbm, 155, rfl⟩
abbrev main_call8_v11 : Ref sig .tc := ⟨.hbm, 156, rfl⟩
abbrev main_call8_v12 : Ref sig .tc := ⟨.hbm, 157, rfl⟩
abbrev main_call8_v13 : Ref sig .tc := ⟨.hbm, 158, rfl⟩
abbrev main_call8_v14 : Ref sig .tc := ⟨.hbm, 159, rfl⟩
abbrev main_v73 : Ref sig .tc := ⟨.hbm, 160, rfl⟩
abbrev main_c_22 : Ref sig .tc := ⟨.hbm, 161, rfl⟩
abbrev main_call9_v0 : Ref sig .tc := ⟨.hbm, 162, rfl⟩
abbrev main_call9_v1 : Ref sig .tc := ⟨.hbm, 163, rfl⟩
abbrev main_call9_v2 : Ref sig .tc := ⟨.hbm, 164, rfl⟩
abbrev main_call9_v3 : Ref sig .tc := ⟨.hbm, 165, rfl⟩
abbrev main_call9_v4 : Ref sig .tc := ⟨.hbm, 166, rfl⟩
abbrev main_call9_v5 : Ref sig .tc := ⟨.hbm, 167, rfl⟩
abbrev main_call9_v6 : Ref sig .tc := ⟨.hbm, 168, rfl⟩
abbrev main_call9_v7 : Ref sig .tc := ⟨.hbm, 169, rfl⟩
abbrev main_call9_c : Ref sig .tc := ⟨.hbm, 170, rfl⟩
abbrev main_call9_v8 : Ref sig .tc := ⟨.hbm, 171, rfl⟩
abbrev main_call9_v9 : Ref sig .tc := ⟨.hbm, 172, rfl⟩
abbrev main_call9_v10 : Ref sig .tc := ⟨.hbm, 173, rfl⟩
abbrev main_call9_c_0 : Ref sig .tc := ⟨.hbm, 174, rfl⟩
abbrev main_call9_v11 : Ref sig .tc := ⟨.hbm, 175, rfl⟩
abbrev main_call9_v12 : Ref sig .tc := ⟨.hbm, 176, rfl⟩
abbrev main_v74 : Ref sig .tc := ⟨.hbm, 177, rfl⟩
abbrev main_c_23 : Ref sig .tc := ⟨.hbm, 178, rfl⟩
abbrev main_call10_v0 : Ref sig .tc := ⟨.hbm, 179, rfl⟩
abbrev main_call10_c : Ref sig .tc := ⟨.hbm, 180, rfl⟩
abbrev main_call10_v1 : Ref sig .tc := ⟨.hbm, 181, rfl⟩
abbrev main_call10_c_0 : Ref sig .tc := ⟨.hbm, 182, rfl⟩
abbrev main_call10_v2 : Ref sig .tc := ⟨.hbm, 183, rfl⟩
abbrev main_call10_v3 : Ref sig .tc := ⟨.hbm, 184, rfl⟩
abbrev main_call10_v4 : Ref sig .tc := ⟨.hbm, 185, rfl⟩
abbrev main_call10_c_1 : Ref sig .tc := ⟨.hbm, 186, rfl⟩
abbrev main_call10_v5 : Ref sig .tc := ⟨.hbm, 187, rfl⟩
abbrev main_call10_v6 : Ref sig .tc := ⟨.hbm, 188, rfl⟩
abbrev main_call10_c_2 : Ref sig .tc := ⟨.hbm, 189, rfl⟩
abbrev main_call10_v7 : Ref sig .tc := ⟨.hbm, 190, rfl⟩
abbrev main_call10_v8 : Ref sig .tc := ⟨.hbm, 191, rfl⟩
abbrev main_call10_c_3 : Ref sig .tc := ⟨.hbm, 192, rfl⟩
abbrev main_call10_v9 : Ref sig .tc := ⟨.hbm, 193, rfl⟩
abbrev main_call10_v10 : Ref sig .tc := ⟨.hbm, 194, rfl⟩
abbrev main_call10_v11 : Ref sig .tc := ⟨.hbm, 195, rfl⟩
abbrev main_call10_v12 : Ref sig .tc := ⟨.hbm, 196, rfl⟩
abbrev main_call10_v13 : Ref sig .tc := ⟨.hbm, 197, rfl⟩
abbrev main_call10_v14 : Ref sig .tc := ⟨.hbm, 198, rfl⟩
abbrev main_v75 : Ref sig .tc := ⟨.hbm, 199, rfl⟩
abbrev main_c_24 : Ref sig .tc := ⟨.hbm, 200, rfl⟩
abbrev main_v76 : Ref sig .tc := ⟨.hbm, 201, rfl⟩
abbrev main_v77 : Ref sig .tc := ⟨.hbm, 202, rfl⟩
abbrev main_c_25 : Ref sig .tc := ⟨.hbm, 203, rfl⟩
abbrev main_v78 : Ref sig .tc := ⟨.hbm, 204, rfl⟩
abbrev main_v79 : Ref sig .tc := ⟨.hbm, 205, rfl⟩
abbrev main_v80 : Ref sig .tc := ⟨.hbm, 206, rfl⟩
abbrev main_c_26 : Ref sig .tc := ⟨.hbm, 207, rfl⟩
abbrev main_v81 : Ref sig .tc := ⟨.hbm, 208, rfl⟩
abbrev main_v82 : Ref sig .tc := ⟨.hbm, 209, rfl⟩
abbrev main_c_27 : Ref sig .tc := ⟨.hbm, 210, rfl⟩
abbrev main_v83 : Ref sig .tc := ⟨.hbm, 211, rfl⟩
abbrev main_v84 : Ref sig .tc := ⟨.hbm, 212, rfl⟩
abbrev main_v85 : Ref sig .tc := ⟨.hbm, 213, rfl⟩
abbrev main_v86 : Ref sig .tc := ⟨.hbm, 214, rfl⟩
abbrev main_v87 : Ref sig .tc := ⟨.hbm, 215, rfl⟩
abbrev main_v88 : Ref sig .tc := ⟨.hbm, 216, rfl⟩
abbrev main_v89 : Ref sig .tc := ⟨.hbm, 217, rfl⟩
abbrev main_cst_28 : Ref sig .tc := ⟨.hbm, 218, rfl⟩
abbrev main_cst_29 : Ref sig .tc := ⟨.hbm, 219, rfl⟩
abbrev main_call11_v0 : Ref sig .tc := ⟨.hbm, 220, rfl⟩
abbrev main_call11_v1 : Ref sig .tc := ⟨.hbm, 221, rfl⟩
abbrev main_call11_v2 : Ref sig .tc := ⟨.hbm, 222, rfl⟩
abbrev main_call11_v3 : Ref sig .tc := ⟨.hbm, 223, rfl⟩
abbrev main_call11_v4 : Ref sig .tc := ⟨.hbm, 224, rfl⟩
abbrev main_v90 : Ref sig .tc := ⟨.hbm, 225, rfl⟩
abbrev main_cst_30 : Ref sig .tc := ⟨.hbm, 226, rfl⟩
abbrev main_v91 : Ref sig .tc := ⟨.hbm, 227, rfl⟩
abbrev main_cst_31 : Ref sig .tc := ⟨.hbm, 228, rfl⟩
abbrev main_v92 : Ref sig .tc := ⟨.hbm, 229, rfl⟩
abbrev main_v93 : Ref sig .tc := ⟨.hbm, 230, rfl⟩

abbrev nD : Nat := 1
abbrev τ : Topo := Topo.v7x

variable {F : FTy → Type} [FloatOps F]

class Facts₀ : Prop where
  transposes_S2x16x32x256x256_S16x2x32x256x256_1_0_2_3_4 : S2x16x32x256x256.Transposes [1, 0, 2, 3, 4] S16x2x32x256x256
  shapeCasts_S16x2x32x256x256_S16x4194304 : S16x2x32x256x256.ShapeCasts S16x4194304
  transposes_S16x4194304_S4194304x16_1_0 : S16x4194304.Transposes [1, 0] S4194304x16
  shapeCasts_S2x32x256x256_S4194304 : S2x32x256x256.ShapeCasts S4194304
  bcast_S_S4194304 : S_.BroadcastsInDim S4194304 (![] : Fin 0 → Fin S4194304.rank)
  bcast_S_S51 : S_.BroadcastsInDim S51 (![] : Fin 0 → Fin S51.rank)
  bcast_S4194304_S4194304x1_0 : S4194304.BroadcastsInDim S4194304x1 (![0] : Fin 1 → Fin S4194304x1.rank)
  bcast_S_S51x16 : S_.BroadcastsInDim S51x16 (![] : Fin 0 → Fin S51x16.rank)
  bcast_S51_S51x1_0 : S51.BroadcastsInDim S51x1 (![0] : Fin 1 → Fin S51x1.rank)
  bcast_S51x1_S51x16_0_1 : S51x1.BroadcastsInDim S51x16 (![0, 1] : Fin 2 → Fin S51x16.rank)
  reducesTo_S4194304x16_S4194304_d1 : S4194304x16.ReducesTo [1] S4194304
  h_S_ : 0 < S_.numel
  reducesTo_S51x16_S51_d1 : S51x16.ReducesTo [1] S51
  slices_S51_S50_1 : S51.Slices ![1] S50
  bcast_S_S50 : S_.BroadcastsInDim S50 (![] : Fin 0 → Fin S50.rank)
  reducesTo_S50_S_d0 : S50.ReducesTo [0] S_
  slices_S51x16_S50x16_1_0 : S51x16.Slices ![1, 0] S50x16
  reducesTo_S50x16_S50_d1 : S50x16.ReducesTo [1] S50
  bcast_S50_S50x1_0 : S50.BroadcastsInDim S50x1 (![0] : Fin 1 → Fin S50x1.rank)
  bcast_S_S50x1 : S_.BroadcastsInDim S50x1 (![] : Fin 0 → Fin S50x1.rank)
  bcast_S50x1_S50x16_0_1 : S50x1.BroadcastsInDim S50x16 (![0, 1] : Fin 2 → Fin S50x16.rank)
  transposes_S50x16_S16x50_1_0 : S50x16.Transposes [1, 0] S16x50
  bcast_S_S50x50 : S_.BroadcastsInDim S50x50 (![] : Fin 0 → Fin S50x50.rank)
  shapeCasts_S50x50_S2500 : S50x50.ShapeCasts S2500
  natLt_1_32 : 1 < 32
  bcast_S_S_ : S_.BroadcastsInDim S_ (![] : Fin 0 → Fin S_.rank)
  reduceWindows_S2500_S2500_w2500s1p2499_0 : S2500.ReduceWindows (![2500] : Fin 1 → Nat) ![1] ![2499] ![0] S2500
  bcast_S_S1225 : S_.BroadcastsInDim S1225 (![] : Fin 0 → Fin S1225.rank)
  bcast_S_S2500 : S_.BroadcastsInDim S2500 (![] : Fin 0 → Fin S2500.rank)
  bcast_S2500_S2500x1_0 : S2500.BroadcastsInDim S2500x1 (![0] : Fin 1 → Fin S2500x1.rank)
  reduceWindows_S1225_S1225_w1225s1p1224_0 : S1225.ReduceWindows (![1225] : Fin 1 → Nat) ![1] ![1224] ![0] S1225
  bcast_S1225_S1225x1_0 : S1225.BroadcastsInDim S1225x1 (![0] : Fin 1 → Fin S1225x1.rank)
  concatenates_S1225x1_S1225x1_S1225x2_d1 : Shape.Concatenates [S1225x1, S1225x1] S1225x2 1
  reducesTo_S1225_S_d0 : S1225.ReducesTo [0] S_
  scatter_S51_S4194304x1_S4194304_n_0_0_1_wf : ScatterDims.WF S51 S4194304x1 S4194304 [] [0] [0] 1
  scatter_S51x16_S4194304x1_S4194304x16_1_0_0_1_wf : ScatterDims.WF S51x16 S4194304x1 S4194304x16 [1] [0] [0] 1
  gather_S51x16_S4194304x1_S4194304x16_1_0_n_n_0_1_116_wf : GatherDims.WF S51x16 S4194304x1 S4194304x16 [1] [0] [] [0] [] 1 ![1, 16]
  gather_S51_S4194304x1_S4194304_n_0_n_n_0_1_1_wf : GatherDims.WF S51 S4194304x1 S4194304 [] [0] [] [0] [] 1 ![1]
  dot_S50x16_S16x50_S50x50_1_0_0_1_n_n_wf : DotDims.WF S50x16 S16x50 S50x50 [1] [0] [0] [1] [] []
  scatter_S1225_S2500x1_S2500_n_0_0_1_wf : ScatterDims.WF S1225 S2500x1 S2500 [] [0] [0] 1
  gather_S50x50_S1225x2_S1225_n_01_n_n_01_1_11_wf : GatherDims.WF S50x50 S1225x2 S1225 [] [0, 1] [] [0, 1] [] 1 ![1, 1]

variable [Facts₀]

def scatter_S51_S4194304x1_S4194304_n_0_0_1 : ScatterDims S51 S4194304x1 S4194304 where
  updateWindowDims := []
  insertedWindowDims := [0]
  scatterDimsToOperandDims := [0]
  indexVectorDim := 1
  wf := scatter_S51_S4194304x1_S4194304_n_0_0_1_wf
def scatter_S51x16_S4194304x1_S4194304x16_1_0_0_1 : ScatterDims S51x16 S4194304x1 S4194304x16 where
  updateWindowDims := [1]
  insertedWindowDims := [0]
  scatterDimsToOperandDims := [0]
  indexVectorDim := 1
  wf := scatter_S51x16_S4194304x1_S4194304x16_1_0_0_1_wf
def gather_S51x16_S4194304x1_S4194304x16_1_0_n_n_0_1_116 : GatherDims S51x16 S4194304x1 S4194304x16 where
  offsetDims := [1]
  collapsedSliceDims := [0]
  operandBatchingDims := []
  startIndicesBatchingDims := []
  startIndexMap := [0]
  indexVectorDim := 1
  sliceSizes := ![1, 16]
  wf := gather_S51x16_S4194304x1_S4194304x16_1_0_n_n_0_1_116_wf
def gather_S51_S4194304x1_S4194304_n_0_n_n_0_1_1 : GatherDims S51 S4194304x1 S4194304 where
  offsetDims := []
  collapsedSliceDims := [0]
  operandBatchingDims := []
  startIndicesBatchingDims := []
  startIndexMap := [0]
  indexVectorDim := 1
  sliceSizes := ![1]
  wf := gather_S51_S4194304x1_S4194304_n_0_n_n_0_1_1_wf
def dot_S50x16_S16x50_S50x50_1_0_0_1_n_n : DotDims S50x16 S16x50 S50x50 where
  lhsContracting := [1]
  rhsContracting := [0]
  lhsNonContracting := [0]
  rhsNonContracting := [1]
  lhsBatch := []
  rhsBatch := []
  wf := dot_S50x16_S16x50_S50x50_1_0_0_1_n_n_wf
def scatter_S1225_S2500x1_S2500_n_0_0_1 : ScatterDims S1225 S2500x1 S2500 where
  updateWindowDims := []
  insertedWindowDims := [0]
  scatterDimsToOperandDims := [0]
  indexVectorDim := 1
  wf := scatter_S1225_S2500x1_S2500_n_0_0_1_wf
def gather_S50x50_S1225x2_S1225_n_01_n_n_01_1_11 : GatherDims S50x50 S1225x2 S1225 where
  offsetDims := []
  collapsedSliceDims := [0, 1]
  operandBatchingDims := []
  startIndicesBatchingDims := []
  startIndexMap := [0, 1]
  indexVectorDim := 1
  sliceSizes := ![1, 1]
  wf := gather_S50x50_S1225x2_S1225_n_01_n_n_01_1_11_wf

class Facts : Prop extends Facts₀ where

variable [Facts]
-- ==== Proof.Spec.lean ====
/-
  The mathematics both programs compute, stated once over plain sums of extended reals.

  Inputs: `P b c n`, the prediction at batch `b`, channel `c`, voxel `n` (the three spatial axes flattened row-major), and
  `I b n`, the label word of that voxel. A voxel belongs to label `l` when its word is the 32-bit word of `l`; a word outside
  0..50 belongs to no label. Per label: the voxel count, the per-channel sum, the mean (sum over max(count, 1)), the mean's
  Euclidean norm, and the sum over the label's voxels of the cosine between the voxel's channel vector and its label's mean.
  Voxels are indexed by natural numbers below 2097152 so that a sum over a prefix of the voxels splits by
  `Finset.sum_range_add` (grid steps of 65536 voxels, chunks of 8192).
-/
import Idealize.ShloMosaic.PureOps.Ideal
import Idealize.ShloMosaic.Lib.ValueIdx
import Mathlib.Algebra.BigOperators.Intervals

noncomputable section

namespace Cert.Spec

open Idealize.ShloMosaic Idealize.ShloMosaic.ValueIdx

/-- Voxels per batch element: 32 · 256 · 256. -/
abbrev NV : ℕ := 2097152

/-- Prediction as read by batch, channel, voxel; label words by batch, voxel. -/
abbrev PArr := (⟨3, ![2, 16, 2097152]⟩ : Shape).Idx → EReal
abbrev IArr := (⟨3, ![2, 1, 2097152]⟩ : Shape).Idx → BitVec 32

/-- The prediction at voxel number `n` (zero past the end: never read there). -/
def pAt (P : PArr) (b : Fin 2) (c : Fin 16) (n : ℕ) : EReal := if h : n < 2097152 then P (ix3 b c ⟨n, h⟩) else 0

/-- The label word at voxel number `n`. -/
def idAt (I : IArr) (b : Fin 2) (n : ℕ) : BitVec 32 := if h : n < 2097152 then I (ix3 b 0 ⟨n, h⟩) else 0#32

/-- Membership of a word in label `l`, as the extended real 1 or 0. -/
def oh (w : BitVec 32) (l : ℕ) : EReal := if w = BitVec.ofNat 32 l then 1 else 0

/-- Voxels of batch `b` among the first `N` that carry label `l`. -/
def countsUpTo (I : IArr) (b : Fin 2) (N : ℕ) (l : ℕ) : EReal := ∑ n ∈ Finset.range N, oh (idAt I b n) l

/-- Channel `c` summed over the voxels of batch `b` among the first `N` that carry label `l`. -/
def sumsUpTo (P : PArr) (I : IArr) (b : Fin 2) (N : ℕ) (c : Fin 16) (l : ℕ) : EReal :=
  ∑ n ∈ Finset.range N, pAt P b c n * oh (idAt I b n) l

/-- Per label, over both batch elements. -/
def counts (I : IArr) (l : ℕ) : EReal := ∑ b : Fin 2, countsUpTo I b NV l
def sums (P : PArr) (I : IArr) (l : ℕ) (c : Fin 16) : EReal := ∑ b : Fin 2, sumsUpTo P I b NV c l

/-- The float words 1.0 and 1e-8 as both programs carry them. -/
def one : EReal := Ideal.ofBits .f32 0x3F800000#32
def eps : EReal := Ideal.ofBits .f32 0x322BCC77#32

/-- The label's mean vector and its norm. -/
def means (P : PArr) (I : IArr) (l : ℕ) (c : Fin 16) : EReal := Ideal.div (sums P I l c) (max (counts I l) one)
def mnorm (P : PArr) (I : IArr) (l : ℕ) : EReal := Ideal.sqrt (∑ c : Fin 16, means P I l c * means P I l c)

/-- A table of per-label vectors (51 × 16) and of per-label scalars (51 × 1), as the second pass receives them. -/
abbrev MArr := (⟨2, ![51, 16]⟩ : Shape).Idx → EReal
abbrev NArr := (⟨2, ![51, 1]⟩ : Shape).Idx → EReal

/-- The means and their norms as such tables. -/
def meansArr (P : PArr) (I : IArr) : MArr := fun j => means P I (j 0).val (j 1)
def mnormArr (P : PArr) (I : IArr) : NArr := fun j => mnorm P I (j 0).val

/-- The row (resp. entry) of a table that a label word names; zero for a word that names no label. -/
def rowOf (M : MArr) (w : BitVec 32) (c : Fin 16) : EReal := if h : w.toNat < 51 then M (ix2 ⟨w.toNat, h⟩ c) else 0
def entryOf (Nn : NArr) (w : BitVec 32) : EReal := if h : w.toNat < 51 then Nn (ix2 ⟨w.toNat, h⟩ 0) else 0

/-- The cosine of voxel `n` with the table row its label names: dot over max(norm · table norm, 1e-8). -/
def cosGen (P : PArr) (I : IArr) (M : MArr) (Nn : NArr) (b : Fin 2) (n : ℕ) : EReal :=
  Ideal.div (∑ c : Fin 16, pAt P b c n * rowOf M (idAt I b n) c)
    (max (Ideal.sqrt (∑ c : Fin 16, pAt P b c n * pAt P b c n) * entryOf Nn (idAt I b n)) eps)

/-- The cosines summed over the voxels of batch `b` among the first `N` that carry label `l`. -/
def intraGenUpTo (P : PArr) (I : IArr) (M : MArr) (Nn : NArr) (b : Fin 2) (N : ℕ) (l : ℕ) : EReal :=
  ∑ n ∈ Finset.range N, cosGen P I M Nn b n * oh (idAt I b n) l

/-- With the tables the first pass produces. -/
def intraUpTo (P : PArr) (I : IArr) (b : Fin 2) (N : ℕ) (l : ℕ) : EReal :=
  intraGenUpTo P I (meansArr P I) (mnormArr P I) b N l
def intra (P : PArr) (I : IArr) (l : ℕ) : EReal := ∑ b : Fin 2, intraUpTo P I b NV l

/-- Splitting a prefix sum at a grid step or a chunk: the next `k` voxels after the first `N`. -/
theorem countsUpTo_add (I : IArr) (b : Fin 2) (N k l : ℕ) :
    countsUpTo I b (N + k) l = countsUpTo I b N l + ∑ j ∈ Finset.range k, oh (idAt I b (N + j)) l :=
  Finset.sum_range_add _ N k
theorem sumsUpTo_add (P : PArr) (I : IArr) (b : Fin 2) (N k : ℕ) (c : Fin 16) (l : ℕ) :
    sumsUpTo P I b (N + k) c l = sumsUpTo P I b N c l + ∑ j ∈ Finset.range k, pAt P b c (N + j) * oh (idAt I b (N + j)) l :=
  Finset.sum_range_add _ N k
theorem intraGenUpTo_add (P : PArr) (I : IArr) (M : MArr) (Nn : NArr) (b : Fin 2) (N k l : ℕ) :
    intraGenUpTo P I M Nn b (N + k) l
      = intraGenUpTo P I M Nn b N l + ∑ j ∈ Finset.range k, cosGen P I M Nn b (N + j) * oh (idAt I b (N + j)) l :=
  Finset.sum_range_add _ N k

/-- One grid step's blocks (16 channels × 65536 voxels; 65536 label words), read by channel and voxel number within the block. -/
abbrev PBlk := (⟨3, ![1, 16, 65536]⟩ : Shape).Idx → EReal
abbrev IBlk := (⟨3, ![1, 1, 65536]⟩ : Shape).Idx → BitVec 32
def bP (x0 : PBlk) (ch : Fin 16) (n : ℕ) : EReal := if h : n < 65536 then x0 (ix3 0 ch ⟨n, h⟩) else 0
def bI (x1 : IBlk) (n : ℕ) : BitVec 32 := if h : n < 65536 then x1 (ix3 0 0 ⟨n, h⟩) else 0#32

/-- The cosine of voxel `n` of a block against the tables, as the second pass computes it per block. -/
def cosBlk (x0 : PBlk) (x1 : IBlk) (M : MArr) (Nn : NArr) (n : ℕ) : EReal :=
  Ideal.div (∑ c : Fin 16, bP x0 c n * rowOf M (bI x1 n) c)
    (max (Ideal.sqrt (∑ c : Fin 16, bP x0 c n * bP x0 c n) * entryOf Nn (bI x1 n)) eps)

/-- The two arguments as the programs receive them, and the flattening of the three spatial axes both programs start with. -/
abbrev A0Arr := (⟨5, ![2, 16, 32, 256, 256]⟩ : Shape).Idx → EReal
abbrev A1Arr := (⟨4, ![2, 32, 256, 256]⟩ : Shape).Idx → BitVec 32
def P0 (A0 : A0Arr) (h : (⟨5, ![2, 16, 32, 256, 256]⟩ : Shape).ShapeCasts ⟨3, ![2, 16, 2097152]⟩) : PArr :=
  shapeCast ⟨3, ![2, 16, 2097152]⟩ A0 h
def I0 (A1 : A1Arr) (h : (⟨4, ![2, 32, 256, 256]⟩ : Shape).ShapeCasts ⟨3, ![2, 1, 2097152]⟩) : IArr :=
  shapeCast ⟨3, ![2, 1, 2097152]⟩ A1 h

end Cert.Spec

end
-- ==== Proof.KBody0.lean ====
import proofs.«411761_j45466523796029_3_alg».proof.Proof.Gen.KernelIdeal.Frame
import proofs.«411761_j45466523796029_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)

namespace Cert.KernelIdeal.Body0
open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl

/-! ## The body's arithmetic as one term, at any float type -/

/-- The label column 0..50 against which the label words are compared. -/
abbrev lcol : IVec S51x1 32 := iota .tc S51x1 32 [0] iota_S51x1_d0_w32

/-- The one-hot table of a chunk's label words (51 labels × 8192 voxels), in f32 and in bf16. -/
def oh32 (w : Vec F S1x1x8192 .i32) : FVec F S51x8192 .f32 := k0_pay22 lcol w
def ohb (w : Vec F S1x1x8192 .i32) : FVec F S51x8192 .bf16 := truncf .bf16 (oh32 w) bitsLt_bf16_f32

/-- The zero accumulators. -/
abbrev z16 : FVec F S16x51 .f32 := broadcast S16x51 (Scalar.ofBits .f32 0x00000000#32)
abbrev z1 : FVec F S1x51 .f32 := broadcast S1x51 (Scalar.ofBits .f32 0x00000000#32)

/-- One chunk's contribution to the per-label channel sums: the high and the low half of the prediction chunk, each
    contracted with the one-hot table over the chunk's 8192 voxels. -/
def chunkS (p : Vec F S1x16x8192 .f32) (w : Vec F S1x1x8192 .i32) : FVec F S16x51 .f32 :=
  addf
    (matmul dot_S16x8192_S51x8192_S16x51_1_1_0_0_n_n none
      (truncf .bf16 (shapeCast S16x8192 p shapeCasts_S1x16x8192_S16x8192) bitsLt_bf16_f32) (ohb w)
      (constant S16x51 .f32 0x00000000#32))
    (matmul dot_S16x8192_S51x8192_S16x51_1_1_0_0_n_n none
      (truncf .bf16 (subf (shapeCast S16x8192 p shapeCasts_S1x16x8192_S16x8192) (shapeCast S16x8192 p shapeCasts_S1x16x8192_S16x8192)) bitsLt_bf16_f32) (ohb w)
      (constant S16x51 .f32 0x00000000#32))

/-- One chunk's contribution to the per-label counts: a row of ones contracted with the one-hot table. -/
def chunkC (w : Vec F S1x1x8192 .i32) : FVec F S1x51 .f32 :=
  matmul dot_S1x8192_S51x8192_S1x51_1_1_0_0_n_n none (broadcast S1x8192 (Scalar.ofBits .bf16 0x3F80#16)) (ohb w)
    (constant S1x51 .f32 0x00000000#32)

/-- The eight chunks a block is cut into, as the body loads them. -/
abbrev pc0 (x0 : Vec F S1x16x65536 .f32) : Vec F S1x16x8192 .f32 := View.ld x0 (Rect.unit (s := S1x16x65536) ![0, 0, 0] S1x16x8192.size inb_S1x16x65536_S1x16x8192_0_0_0)
abbrev pc1 (x0 : Vec F S1x16x65536 .f32) : Vec F S1x16x8192 .f32 := View.ld x0 (Rect.unit (s := S1x16x65536) ![0, 0, 8192] S1x16x8192.size inb_S1x16x65536_S1x16x8192_0_0_8192)
abbrev pc2 (x0 : Vec F S1x16x65536 .f32) : Vec F S1x16x8192 .f32 := View.ld x0 (Rect.unit (s := S1x16x65536) ![0, 0, 16384] S1x16x8192.size inb_S1x16x65536_S1x16x8192_0_0_16384)
abbrev pc3 (x0 : Vec F S1x16x65536 .f32) : Vec F S1x16x8192 .f32 := View.ld x0 (Rect.unit (s := S1x16x65536) ![0, 0, 24576] S1x16x8192.size inb_S1x16x65536_S1x16x8192_0_0_24576)
abbrev pc4 (x0 : Vec F S1x16x65536 .f32) : Vec F S1x16x8192 .f32 := View.ld x0 (Rect.unit (s := S1x16x65536) ![0, 0, 32768] S1x16x8192.size inb_S1x16x65536_S1x16x8192_0_0_32768)
abbrev pc5 (x0 : Vec F S1x16x65536 .f32) : Vec F S1x16x8192 .f32 := View.ld x0 (Rect.unit (s := S1x16x65536) ![0, 0, 40960] S1x16x8192.size inb_S1x16x65536_S1x16x8192_0_0_40960)
abbrev pc6 (x0 : Vec F S1x16x65536 .f32) : Vec F S1x16x8192 .f32 := View.ld x0 (Rect.unit (s := S1x16x65536) ![0, 0, 49152] S1x16x8192.size inb_S1x16x65536_S1x16x8192_0_0_49152)
abbrev pc7 (x0 : Vec F S1x16x65536 .f32) : Vec F S1x16x8192 .f32 := View.ld x0 (Rect.unit (s := S1x16x65536) ![0, 0, 57344] S1x16x8192.size inb_S1x16x65536_S1x16x8192_0_0_57344)
abbrev wc0 (x1 : Vec F S1x1x65536 .i32) : Vec F S1x1x8192 .i32 := View.ld x1 (Rect.unit (s := S1x1x65536) ![0, 0, 0] S1x1x8192.size inb_S1x1x65536_S1x1x8192_0_0_0)
abbrev wc1 (x1 : Vec F S1x1x65536 .i32) : Vec F S1x1x8192 .i32 := View.ld x1 (Rect.unit (s := S1x1x65536) ![0, 0, 8192] S1x1x8192.size inb_S1x1x65536_S1x1x8192_0_0_8192)
abbrev wc2 (x1 : Vec F S1x1x65536 .i32) : Vec F S1x1x8192 .i32 := View.ld x1 (Rect.unit (s := S1x1x65536) ![0, 0, 16384] S1x1x8192.size inb_S1x1x65536_S1x1x8192_0_0_16384)
abbrev wc3 (x1 : Vec F S1x1x65536 .i32) : Vec F S1x1x8192 .i32 := View.ld x1 (Rect.unit (s := S1x1x65536) ![0, 0, 24576] S1x1x8192.size inb_S1x1x65536_S1x1x8192_0_0_24576)
abbrev wc4 (x1 : Vec F S1x1x65536 .i32) : Vec F S1x1x8192 .i32 := View.ld x1 (Rect.unit (s := S1x1x65536) ![0, 0, 32768] S1x1x8192.size inb_S1x1x65536_S1x1x8192_0_0_32768)
abbrev wc5 (x1 : Vec F S1x1x65536 .i32) : Vec F S1x1x8192 .i32 := View.ld x1 (Rect.unit (s := S1x1x65536) ![0, 0, 40960] S1x1x8192.size inb_S1x1x65536_S1x1x8192_0_0_40960)
abbrev wc6 (x1 : Vec F S1x1x65536 .i32) : Vec F S1x1x8192 .i32 := View.ld x1 (Rect.unit (s := S1x1x65536) ![0, 0, 49152] S1x1x8192.size inb_S1x1x65536_S1x1x8192_0_0_49152)
abbrev wc7 (x1 : Vec F S1x1x65536 .i32) : Vec F S1x1x8192 .i32 := View.ld x1 (Rect.unit (s := S1x1x65536) ![0, 0, 57344] S1x1x8192.size inb_S1x1x65536_S1x1x8192_0_0_57344)

/-- The accumulators after the eight chunks, from zero. -/
def accS (x0 : Vec F S1x16x65536 .f32) (x1 : Vec F S1x1x65536 .i32) : FVec F S16x51 .f32 :=
  addf (addf (addf (addf (addf (addf (addf (addf z16 (chunkS (pc0 x0) (wc0 x1))) (chunkS (pc1 x0) (wc1 x1))) (chunkS (pc2 x0) (wc2 x1)))
    (chunkS (pc3 x0) (wc3 x1))) (chunkS (pc4 x0) (wc4 x1))) (chunkS (pc5 x0) (wc5 x1))) (chunkS (pc6 x0) (wc6 x1))) (chunkS (pc7 x0) (wc7 x1))
def accC (x1 : Vec F S1x1x65536 .i32) : FVec F S1x51 .f32 :=
  addf (addf (addf (addf (addf (addf (addf (addf z1 (chunkC (wc0 x1))) (chunkC (wc1 x1))) (chunkC (wc2 x1)))
    (chunkC (wc3 x1))) (chunkC (wc4 x1))) (chunkC (wc5 x1))) (chunkC (wc6 x1))) (chunkC (wc7 x1))

/-- What the last store leaves, from the block the output held before it. -/
def finS (x0 : Vec F S1x16x65536 .f32) (x1 : Vec F S1x1x65536 .i32) (o : Vec F S1x16x51 .f32) : FVec F S1x16x51 .f32 :=
  shapeCast S1x16x51 (addf (shapeCast S16x51 o shapeCasts_S1x16x51_S16x51) (accS x0 x1)) shapeCasts_S16x51_S1x16x51
def finC (x1 : Vec F S1x1x65536 .i32) (o : Vec F S1x1x51 .f32) : FVec F S1x1x51 .f32 :=
  shapeCast S1x1x51 (addf (shapeCast S1x51 o shapeCasts_S1x1x51_S1x51) (accC x1)) shapeCasts_S1x51_S1x1x51

theorem out0_B_2_eq (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : ¬cond0_0 i)
    (x0 : Vec F S1x16x65536 .f32) (x1 : Vec F S1x1x65536 .i32) (xo2 : Vec F S1x16x51 .f32) (xo3 : Vec F S1x1x51 .f32) :
    out0_B_2 c i arg2 harg2 arg3 harg3 arg4 harg4 arg5 harg5 hc0 x0 x1 xo2 xo3 = finS x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, View.ld_unit_zero (S := S1x16x51) hz3]
  rfl

theorem out0_B_3_eq (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : ¬cond0_0 i)
    (x0 : Vec F S1x16x65536 .f32) (x1 : Vec F S1x1x65536 .i32) (xo2 : Vec F S1x16x51 .f32) (xo3 : Vec F S1x1x51 .f32) :
    out0_B_3 c i arg2 harg2 arg3 harg3 arg4 harg4 arg5 harg5 hc0 x0 x1 xo2 xo3 = finC x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg5.read_unread, View.ld_unit_zero (S := S1x1x51) hz3]
  rfl

theorem out0_A_2_eq (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : cond0_0 i)
    (x0 : Vec F S1x16x65536 .f32) (x1 : Vec F S1x1x65536 .i32) :
    out0_A_2 c i arg2 harg2 arg3 harg3 arg4 harg4 arg5 harg5 hc0 x0 x1 = finS x0 x1 (k0_pay4 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x16x51) hz3]
  simp only [View.readAt_eq_ld, harg2.read_unread, harg3.read_unread, View.readCov_unit_zero (S := S1x16x51) _ hz3]
  rfl

theorem out0_A_3_eq (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : cond0_0 i)
    (x0 : Vec F S1x16x65536 .f32) (x1 : Vec F S1x1x65536 .i32) :
    out0_A_3 c i arg2 harg2 arg3 harg3 arg4 harg4 arg5 harg5 hc0 x0 x1 = finC x1 (k0_pay5 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x51) hz3]
  simp only [View.readAt_eq_ld, harg2.read_unread, harg3.read_unread, View.readCov_unit_zero (S := S1x1x51) _ hz3]
  rfl

/-! ## The same, read at the ideal values -/

/-- The operand indices of the two contractions (output (r, l), contraction position k: left (r, k), right (l, k)). -/
theorem lhs16_0 (j : S16x51.Idx) (k : dot_S16x8192_S51x8192_S16x51_1_1_0_0_n_n.contr.Idx) :
    (dot_S16x8192_S51x8192_S16x51_1_1_0_0_n_n.lhsIdx j k 0).val = (j 0).val := by
  simp [DotDims.lhsIdx, dot_S16x8192_S51x8192_S16x51_1_1_0_0_n_n]; rfl
theorem lhs16_1 (j : S16x51.Idx) (k : dot_S16x8192_S51x8192_S16x51_1_1_0_0_n_n.contr.Idx) :
    (dot_S16x8192_S51x8192_S16x51_1_1_0_0_n_n.lhsIdx j k 1).val = (k ⟨0, Nat.one_pos⟩).val :=
  dot_S16x8192_S51x8192_S16x51_1_1_0_0_n_n.lhsIdx_val_of_single rfl j k
theorem rhs16_0 (j : S16x51.Idx) (k : dot_S16x8192_S51x8192_S16x51_1_1_0_0_n_n.contr.Idx) :
    (dot_S16x8192_S51x8192_S16x51_1_1_0_0_n_n.rhsIdx j k 0).val = (j 1).val := by
  simp [DotDims.rhsIdx, dot_S16x8192_S51x8192_S16x51_1_1_0_0_n_n]; rfl
theorem rhs16_1 (j : S16x51.Idx) (k : dot_S16x8192_S51x8192_S16x51_1_1_0_0_n_n.contr.Idx) :
    (dot_S16x8192_S51x8192_S16x51_1_1_0_0_n_n.rhsIdx j k 1).val = (k ⟨0, Nat.one_pos⟩).val :=
  dot_S16x8192_S51x8192_S16x51_1_1_0_0_n_n.rhsIdx_val_of_single rfl j k

theorem mm16_apply (A : FVec Ideal S16x8192 .bf16) (B : FVec Ideal S51x8192 .bf16) (ch : Fin 16) (l : Fin 51) :
    matmul dot_S16x8192_S51x8192_S16x51_1_1_0_0_n_n none A B (constant (F := Ideal) S16x51 .f32 0x00000000#32) (ix2 ch l)
      = ∑ n : Fin 8192, A (ix2 ch n) * B (ix2 l n) := by
  show FloatOps.matmul _ none A B _ (ix2 ch l) = _
  rw [Ideal.matmul_constant_zero_apply,
    ← Equiv.sum_comp (contrEquiv1 dot_S16x8192_S51x8192_S16x51_1_1_0_0_n_n 8192 rfl rfl).symm]
  refine Finset.sum_congr rfl fun n _ => ?_
  have cn := contrEquiv1_symm_val dot_S16x8192_S51x8192_S16x51_1_1_0_0_n_n 8192 rfl rfl n
  have l2 : dot_S16x8192_S51x8192_S16x51_1_1_0_0_n_n.lhsIdx (ix2 ch l) ((contrEquiv1 _ 8192 rfl rfl).symm n) = ix2 ch n := by
    funext ax; apply Fin.ext
    match ax with
    | ⟨0, _⟩ => exact lhs16_0 _ _
    | ⟨1, _⟩ => exact (lhs16_1 _ _).trans cn
  have r2 : dot_S16x8192_S51x8192_S16x51_1_1_0_0_n_n.rhsIdx (ix2 ch l) ((contrEquiv1 _ 8192 rfl rfl).symm n) = ix2 l n := by
    funext ax; apply Fin.ext
    match ax with
    | ⟨0, _⟩ => exact rhs16_0 _ _
    | ⟨1, _⟩ => exact (rhs16_1 _ _).trans cn
  rw [l2, r2]

theorem lhs1_0 (j : S1x51.Idx) (k : dot_S1x8192_S51x8192_S1x51_1_1_0_0_n_n.contr.Idx) :
    (dot_S1x8192_S51x8192_S1x51_1_1_0_0_n_n.lhsIdx j k 0).val = (j 0).val := by
  have h : (j 0).val < 1 := (j 0).isLt
  simp [DotDims.lhsIdx, dot_S1x8192_S51x8192_S1x51_1_1_0_0_n_n]; omega
theorem lhs1_1 (j : S1x51.Idx) (k : dot_S1x8192_S51x8192_S1x51_1_1_0_0_n_n.contr.Idx) :
    (dot_S1x8192_S51x8192_S1x51_1_1_0_0_n_n.lhsIdx j k 1).val = (k ⟨0, Nat.one_pos⟩).val :=
  dot_S1x8192_S51x8192_S1x51_1_1_0_0_n_n.lhsIdx_val_of_single rfl j k
theorem rhs1_0 (j : S1x51.Idx) (k : dot_S1x8192_S51x8192_S1x51_1_1_0_0_n_n.contr.Idx) :
    (dot_S1x8192_S51x8192_S1x51_1_1_0_0_n_n.rhsIdx j k 0).val = (j 1).val := by
  simp [DotDims.rhsIdx, dot_S1x8192_S51x8192_S1x51_1_1_0_0_n_n]; rfl
theorem rhs1_1 (j : S1x51.Idx) (k : dot_S1x8192_S51x8192_S1x51_1_1_0_0_n_n.contr.Idx) :
    (dot_S1x8192_S51x8192_S1x51_1_1_0_0_n_n.rhsIdx j k 1).val = (k ⟨0, Nat.one_pos⟩).val :=
  dot_S1x8192_S51x8192_S1x51_1_1_0_0_n_n.rhsIdx_val_of_single rfl j k

theorem mm1_apply (A : FVec Ideal S1x8192 .bf16) (B : FVec Ideal S51x8192 .bf16) (l : Fin 51) :
    matmul dot_S1x8192_S51x8192_S1x51_1_1_0_0_n_n none A B (constant (F := Ideal) S1x51 .f32 0x00000000#32) (ix2 0 l)
      = ∑ n : Fin 8192, A (ix2 0 n) * B (ix2 l n) := by
  show FloatOps.matmul _ none A B _ (ix2 0 l) = _
  rw [Ideal.matmul_constant_zero_apply,
    ← Equiv.sum_comp (contrEquiv1 dot_S1x8192_S51x8192_S1x51_1_1_0_0_n_n 8192 rfl rfl).symm]
  refine Finset.sum_congr rfl fun n _ => ?_
  have cn := contrEquiv1_symm_val dot_S1x8192_S51x8192_S1x51_1_1_0_0_n_n 8192 rfl rfl n
  have l2 : dot_S1x8192_S51x8192_S1x51_1_1_0_0_n_n.lhsIdx (ix2 0 l) ((contrEquiv1 _ 8192 rfl rfl).symm n) = ix2 0 n := by
    funext ax; apply Fin.ext
    match ax with
    | ⟨0, _⟩ => exact lhs1_0 _ _
    | ⟨1, _⟩ => exact (lhs1_1 _ _).trans cn
  have r2 : dot_S1x8192_S51x8192_S1x51_1_1_0_0_n_n.rhsIdx (ix2 0 l) ((contrEquiv1 _ 8192 rfl rfl).symm n) = ix2 l n := by
    funext ax; apply Fin.ext
    match ax with
    | ⟨0, _⟩ => exact rhs1_0 _ _
    | ⟨1, _⟩ => exact (rhs1_1 _ _).trans cn
  rw [l2, r2]

/-- The one-hot table at (label l, voxel n): whether the voxel's word is the word of l. -/
theorem oh32_apply (w : Vec Ideal S1x1x8192 .i32) (l : Fin 51) (n : Fin 8192) :
    oh32 (F := Ideal) w (ix2 l n) = Cert.Spec.oh (w (ix3 0 0 n)) l.val := by
  have e1 : broadcastTo S51x8192 lcol broadcasts_S51x1_S51x8192 (ix2 l n) = BitVec.ofNat 32 l.val := by
    refine (broadcastTo_apply _ _ (ix2 l n) (ix2 l 0) (fun a => ?_)).trans ?_
    · match a with
      | ⟨0, _⟩ => rfl
      | ⟨1, _⟩ => rfl
    · exact iota_single_apply .tc S51x1 32 0 _ (ix2 l 0)
  have e2 : broadcastTo S51x8192 (shapeCast S1x8192 w shapeCasts_S1x1x8192_S1x8192) broadcasts_S1x8192_S51x8192 (ix2 l n)
      = w (ix3 0 0 n) := by
    refine (broadcastTo_apply _ _ (ix2 l n) (ix2 0 n) (fun a => ?_)).trans ?_
    · match a with
      | ⟨0, _⟩ => rfl
      | ⟨1, _⟩ => rfl
    · refine shapeCast_apply w _ (ix2 0 n) (ix3 0 0 n) ?_
      rw [Shape.rowMajor_val_three, Shape.rowMajor_val_two]
      rfl
  unfold oh32 k0_pay22
  show FloatOps.sitofp (F := Ideal) .f32 ((IntOp.cmpi .eq
      (broadcastTo S51x8192 lcol broadcasts_S51x1_S51x8192 (ix2 l n))
      (broadcastTo S51x8192 (shapeCast S1x8192 w shapeCasts_S1x1x8192_S1x8192) broadcasts_S1x8192_S51x8192 (ix2 l n))).setWidth 32) = _
  rw [e1, e2]
  unfold Cert.Spec.oh
  by_cases h : w (ix3 0 0 n) = BitVec.ofNat 32 l.val
  · rw [if_pos h, h]
    simp [IntOp.cmpi, FloatOps.sitofp]
  · rw [if_neg h]
    have hb : (BitVec.ofNat 32 l.val == w (ix3 0 0 n)) = false := by
      rw [beq_eq_false_iff_ne]; exact fun e => h e.symm
    simp [IntOp.cmpi, FloatOps.sitofp, hb]

/-- The bf16 word of one. -/
theorem one_bf16 : Ideal.ofBits .bf16 0x3F80#16 = 1 := by
  simp [Ideal.ofBits, Ideal.ieee]
  rw [← EReal.coe_mul, ← EReal.coe_one]
  congr 1
  norm_num

/-- One chunk's channel sums at (channel, label): the sum over the chunk's voxels carrying the label of the channel's
    prediction — the low halves vanish because every prediction is a real number. -/
theorem chunkS_apply (p : Vec Ideal S1x16x8192 .f32) (w : Vec Ideal S1x1x8192 .i32)
    (hfin : ∀ j, ∃ r : ℝ, p j = (r : EReal)) (ch : Fin 16) (l : Fin 51) :
    chunkS (F := Ideal) p w (ix2 ch l) = ∑ n : Fin 8192, p (ix3 0 ch n) * Cert.Spec.oh (w (ix3 0 0 n)) l.val := by
  have ep : ∀ n : Fin 8192, shapeCast S16x8192 p shapeCasts_S1x16x8192_S16x8192 (ix2 ch n) = p (ix3 0 ch n) := fun n =>
    shapeCast_apply p _ (ix2 ch n) (ix3 0 ch n) (by
      rw [Shape.rowMajor_val_three, Shape.rowMajor_val_two]
      show (0 * 16 + ch.val) * 8192 + n.val = ch.val * 8192 + n.val
      omega)
  unfold chunkS
  simp only [addf, Ideal.addf_def]
  rw [mm16_apply, mm16_apply]
  have h2 : ∑ n : Fin 8192, truncf .bf16 (subf (shapeCast S16x8192 p shapeCasts_S1x16x8192_S16x8192)
      (shapeCast S16x8192 p shapeCasts_S1x16x8192_S16x8192)) bitsLt_bf16_f32 (ix2 ch n) * ohb (F := Ideal) w (ix2 l n) = 0 :=
    Finset.sum_eq_zero fun n _ => by
      show (shapeCast S16x8192 p shapeCasts_S1x16x8192_S16x8192 (ix2 ch n)
        - shapeCast S16x8192 p shapeCasts_S1x16x8192_S16x8192 (ix2 ch n)) * _ = 0
      rw [ep n]
      obtain ⟨r, hr⟩ := hfin (ix3 0 ch n)
      rw [hr, ← EReal.coe_sub, sub_self, EReal.coe_zero, zero_mul]
  rw [h2, add_zero]
  refine Finset.sum_congr rfl fun n _ => ?_
  show shapeCast S16x8192 p shapeCasts_S1x16x8192_S16x8192 (ix2 ch n) * oh32 (F := Ideal) w (ix2 l n) = _
  rw [ep n, oh32_apply]

/-- One chunk's counts at a label: the number of the chunk's voxels carrying it. -/
theorem chunkC_apply (w : Vec Ideal S1x1x8192 .i32) (l : Fin 51) :
    chunkC (F := Ideal) w (ix2 0 l) = ∑ n : Fin 8192, Cert.Spec.oh (w (ix3 0 0 n)) l.val := by
  unfold chunkC
  rw [mm1_apply]
  refine Finset.sum_congr rfl fun n _ => ?_
  show Ideal.ofBits .bf16 0x3F80#16 * oh32 (F := Ideal) w (ix2 l n) = _
  rw [oh32_apply, one_bf16, one_mul]

/-- A chunk loaded at voxel offset o reads the block at offset + coordinate. -/
theorem ldP (x0 : Vec Ideal S1x16x65536 .f32) (o : ℕ)
    (inb : ∀ a, (![0, 0, o] : Fin 3 → ℕ) a + S1x16x8192.size a ≤ S1x16x65536.size a) (ch : Fin 16) (n : Fin 8192)
    (h : o + n.val < 65536) :
    View.ld x0 (Rect.unit (s := S1x16x65536) ![0, 0, o] S1x16x8192.size inb) (ix3 0 ch n) = x0 (ix3 0 ch ⟨o + n.val, h⟩) := by
  show x0 _ = x0 _
  congr 1
  funext a
  apply Fin.ext
  match a with
  | ⟨0, _⟩ => rfl
  | ⟨1, _⟩ => show 0 + 1 * ch.val = ch.val; omega
  | ⟨2, _⟩ => show o + 1 * n.val = o + n.val; omega

theorem ldW (x1 : Vec Ideal S1x1x65536 .i32) (o : ℕ)
    (inb : ∀ a, (![0, 0, o] : Fin 3 → ℕ) a + S1x1x8192.size a ≤ S1x1x65536.size a) (n : Fin 8192)
    (h : o + n.val < 65536) :
    View.ld x1 (Rect.unit (s := S1x1x65536) ![0, 0, o] S1x1x8192.size inb) (ix3 0 0 n) = x1 (ix3 0 0 ⟨o + n.val, h⟩) := by
  show x1 _ = x1 _
  congr 1
  funext a
  apply Fin.ext
  match a with
  | ⟨0, _⟩ => rfl
  | ⟨1, _⟩ => rfl
  | ⟨2, _⟩ => show o + 1 * n.val = o + n.val; omega

/-- The chunk at voxel offset o, in the block's own voxel numbers. -/
theorem chunkS_blk (x0 : Vec Ideal S1x16x65536 .f32) (x1 : Vec Ideal S1x1x65536 .i32)
    (hfin : ∀ j, ∃ r : ℝ, x0 j = (r : EReal)) (o : ℕ) (ho : o + 8192 ≤ 65536)
    (inbP : ∀ a, (![0, 0, o] : Fin 3 → ℕ) a + S1x16x8192.size a ≤ S1x16x65536.size a)
    (inbW : ∀ a, (![0, 0, o] : Fin 3 → ℕ) a + S1x1x8192.size a ≤ S1x1x65536.size a) (ch : Fin 16) (l : Fin 51) :
    chunkS (F := Ideal) (View.ld x0 (Rect.unit (s := S1x16x65536) ![0, 0, o] S1x16x8192.size inbP))
        (View.ld x1 (Rect.unit (s := S1x1x65536) ![0, 0, o] S1x1x8192.size inbW)) (ix2 ch l)
      = ∑ n ∈ Finset.range 8192, Cert.Spec.bP x0 ch (o + n) * Cert.Spec.oh (Cert.Spec.bI x1 (o + n)) l.val := by
  rw [chunkS_apply (View.ld x0 (Rect.unit (s := S1x16x65536) ![0, 0, o] S1x16x8192.size inbP))
      (View.ld x1 (Rect.unit (s := S1x1x65536) ![0, 0, o] S1x1x8192.size inbW)) (fun j => hfin _) ch l,
    ← Fin.sum_univ_eq_sum_range (fun n => Cert.Spec.bP x0 ch (o + n) * Cert.Spec.oh (Cert.Spec.bI x1 (o + n)) l.val) 8192]
  refine Finset.sum_congr rfl fun n _ => ?_
  have hn : o + n.val < 65536 := by have := n.isLt; omega
  rw [ldP x0 o inbP ch n hn, ldW x1 o inbW n hn]
  unfold Cert.Spec.bP Cert.Spec.bI
  rw [dif_pos hn, dif_pos hn]

theorem chunkC_blk (x1 : Vec Ideal S1x1x65536 .i32) (o : ℕ) (ho : o + 8192 ≤ 65536)
    (inbW : ∀ a, (![0, 0, o] : Fin 3 → ℕ) a + S1x1x8192.size a ≤ S1x1x65536.size a) (l : Fin 51) :
    chunkC (F := Ideal) (View.ld x1 (Rect.unit (s := S1x1x65536) ![0, 0, o] S1x1x8192.size inbW)) (ix2 0 l)
      = ∑ n ∈ Finset.range 8192, Cert.Spec.oh (Cert.Spec.bI x1 (o + n)) l.val := by
  rw [chunkC_apply (View.ld x1 (Rect.unit (s := S1x1x65536) ![0, 0, o] S1x1x8192.size inbW)) l,
    ← Fin.sum_univ_eq_sum_range (fun n => Cert.Spec.oh (Cert.Spec.bI x1 (o + n)) l.val) 8192]
  refine Finset.sum_congr rfl fun n _ => ?_
  have hn : o + n.val < 65536 := by have := n.isLt; omega
  rw [ldW x1 o inbW n hn]
  unfold Cert.Spec.bI
  rw [dif_pos hn]

/-- A sum over the block's 65536 voxels is the sum of its eight chunks' sums, in order from zero. -/
theorem sum_eight (f : ℕ → EReal) : ∑ n ∈ Finset.range 65536, f n
    = 0 + ∑ n ∈ Finset.range 8192, f (0 + n) + ∑ n ∈ Finset.range 8192, f (8192 + n) + ∑ n ∈ Finset.range 8192, f (16384 + n)
      + ∑ n ∈ Finset.range 8192, f (24576 + n) + ∑ n ∈ Finset.range 8192, f (32768 + n) + ∑ n ∈ Finset.range 8192, f (40960 + n)
      + ∑ n ∈ Finset.range 8192, f (49152 + n) + ∑ n ∈ Finset.range 8192, f (57344 + n) := by
  have h8 : ∑ n ∈ Finset.range 65536, f n = ∑ n ∈ Finset.range 57344, f n + ∑ n ∈ Finset.range 8192, f (57344 + n) := Finset.sum_range_add f 57344 8192
  have h7 : ∑ n ∈ Finset.range 57344, f n = ∑ n ∈ Finset.range 49152, f n + ∑ n ∈ Finset.range 8192, f (49152 + n) := Finset.sum_range_add f 49152 8192
  have h6 : ∑ n ∈ Finset.range 49152, f n = ∑ n ∈ Finset.range 40960, f n + ∑ n ∈ Finset.range 8192, f (40960 + n) := Finset.sum_range_add f 40960 8192
  have h5 : ∑ n ∈ Finset.range 40960, f n = ∑ n ∈ Finset.range 32768, f n + ∑ n ∈ Finset.range 8192, f (32768 + n) := Finset.sum_range_add f 32768 8192
  have h4 : ∑ n ∈ Finset.range 32768, f n = ∑ n ∈ Finset.range 24576, f n + ∑ n ∈ Finset.range 8192, f (24576 + n) := Finset.sum_range_add f 24576 8192
  have h3 : ∑ n ∈ Finset.range 24576, f n = ∑ n ∈ Finset.range 16384, f n + ∑ n ∈ Finset.range 8192, f (16384 + n) := Finset.sum_range_add f 16384 8192
  have h2 : ∑ n ∈ Finset.range 16384, f n = ∑ n ∈ Finset.range 8192, f n + ∑ n ∈ Finset.range 8192, f (8192 + n) := Finset.sum_range_add f 8192 8192
  have h1 : ∑ n ∈ Finset.range 8192, f n = ∑ n ∈ Finset.range 0, f n + ∑ n ∈ Finset.range 8192, f (0 + n) := Finset.sum_range_add f 0 8192
  rw [h8, h7, h6, h5, h4, h3, h2, h1, Finset.sum_range_zero]

/-- The channel-sum accumulator after the eight chunks. -/
theorem accS_apply (x0 : Vec Ideal S1x16x65536 .f32) (x1 : Vec Ideal S1x1x65536 .i32)
    (hfin : ∀ j, ∃ r : ℝ, x0 j = (r : EReal)) (ch : Fin 16) (l : Fin 51) :
    accS (F := Ideal) x0 x1 (ix2 ch l)
      = ∑ n ∈ Finset.range 65536, Cert.Spec.bP x0 ch n * Cert.Spec.oh (Cert.Spec.bI x1 n) l.val := by
  have e0 := chunkS_blk x0 x1 hfin 0 (by norm_num) inb_S1x16x65536_S1x16x8192_0_0_0 inb_S1x1x65536_S1x1x8192_0_0_0 ch l
  have e1 := chunkS_blk x0 x1 hfin 8192 (by norm_num) inb_S1x16x65536_S1x16x8192_0_0_8192 inb_S1x1x65536_S1x1x8192_0_0_8192 ch l
  have e2 := chunkS_blk x0 x1 hfin 16384 (by norm_num) inb_S1x16x65536_S1x16x8192_0_0_16384 inb_S1x1x65536_S1x1x8192_0_0_16384 ch l
  have e3 := chunkS_blk x0 x1 hfin 24576 (by norm_num) inb_S1x16x65536_S1x16x8192_0_0_24576 inb_S1x1x65536_S1x1x8192_0_0_24576 ch l
  have e4 := chunkS_blk x0 x1 hfin 32768 (by norm_num) inb_S1x16x65536_S1x16x8192_0_0_32768 inb_S1x1x65536_S1x1x8192_0_0_32768 ch l
  have e5 := chunkS_blk x0 x1 hfin 40960 (by norm_num) inb_S1x16x65536_S1x16x8192_0_0_40960 inb_S1x1x65536_S1x1x8192_0_0_40960 ch l
  have e6 := chunkS_blk x0 x1 hfin 49152 (by norm_num) inb_S1x16x65536_S1x16x8192_0_0_49152 inb_S1x1x65536_S1x1x8192_0_0_49152 ch l
  have e7 := chunkS_blk x0 x1 hfin 57344 (by norm_num) inb_S1x16x65536_S1x16x8192_0_0_57344 inb_S1x1x65536_S1x1x8192_0_0_57344 ch l
  rw [sum_eight]
  unfold accS
  simp only [addf, Ideal.addf_def]
  rw [e0, e1, e2, e3, e4, e5, e6, e7]
  show Ideal.ofBits .f32 0x00000000#32 + _ + _ + _ + _ + _ + _ + _ + _ = _
  rw [Ideal.ofBits_zero_f32]

theorem accC_apply (x1 : Vec Ideal S1x1x65536 .i32) (l : Fin 51) :
    accC (F := Ideal) x1 (ix2 0 l) = ∑ n ∈ Finset.range 65536, Cert.Spec.oh (Cert.Spec.bI x1 n) l.val := by
  have e0 := chunkC_blk x1 0 (by norm_num) inb_S1x1x65536_S1x1x8192_0_0_0 l
  have e1 := chunkC_blk x1 8192 (by norm_num) inb_S1x1x65536_S1x1x8192_0_0_8192 l
  have e2 := chunkC_blk x1 16384 (by norm_num) inb_S1x1x65536_S1x1x8192_0_0_16384 l
  have e3 := chunkC_blk x1 24576 (by norm_num) inb_S1x1x65536_S1x1x8192_0_0_24576 l
  have e4 := chunkC_blk x1 32768 (by norm_num) inb_S1x1x65536_S1x1x8192_0_0_32768 l
  have e5 := chunkC_blk x1 40960 (by norm_num) inb_S1x1x65536_S1x1x8192_0_0_40960 l
  have e6 := chunkC_blk x1 49152 (by norm_num) inb_S1x1x65536_S1x1x8192_0_0_49152 l
  have e7 := chunkC_blk x1 57344 (by norm_num) inb_S1x1x65536_S1x1x8192_0_0_57344 l
  rw [sum_eight]
  unfold accC
  simp only [addf, Ideal.addf_def]
  rw [e0, e1, e2, e3, e4, e5, e6, e7]
  show Ideal.ofBits .f32 0x00000000#32 + _ + _ + _ + _ + _ + _ + _ + _ = _
  rw [Ideal.ofBits_zero_f32]

/-- The last store's block at (0, channel, label): what the output held there plus the accumulator. -/
theorem finS_apply (x0 : Vec Ideal S1x16x65536 .f32) (x1 : Vec Ideal S1x1x65536 .i32) (o : Vec Ideal S1x16x51 .f32)
    (ch : Fin 16) (l : Fin 51) :
    finS (F := Ideal) x0 x1 o (ix3 0 ch l) = o (ix3 0 ch l) + accS (F := Ideal) x0 x1 (ix2 ch l) := by
  unfold finS
  refine (shapeCast_apply _ _ (ix3 0 ch l) (ix2 ch l) (by
    rw [Shape.rowMajor_val_three, Shape.rowMajor_val_two]
    show ch.val * 51 + l.val = (0 * 16 + ch.val) * 51 + l.val
    omega)).trans ?_
  show shapeCast S16x51 o shapeCasts_S1x16x51_S16x51 (ix2 ch l) + _ = _
  rw [shapeCast_apply o _ (ix2 ch l) (ix3 0 ch l) (by
    rw [Shape.rowMajor_val_three, Shape.rowMajor_val_two]
    show (0 * 16 + ch.val) * 51 + l.val = ch.val * 51 + l.val
    omega)]

theorem finC_apply (x1 : Vec Ideal S1x1x65536 .i32) (o : Vec Ideal S1x1x51 .f32) (l : Fin 51) :
    finC (F := Ideal) x1 o (ix3 0 0 l) = o (ix3 0 0 l) + accC (F := Ideal) x1 (ix2 0 l) := by
  unfold finC
  refine (shapeCast_apply _ _ (ix3 0 0 l) (ix2 0 l) (by
    rw [Shape.rowMajor_val_three, Shape.rowMajor_val_two]
    rfl)).trans ?_
  show shapeCast S1x51 o shapeCasts_S1x1x51_S1x51 (ix2 0 l) + _ = _
  rw [shapeCast_apply o _ (ix2 0 l) (ix3 0 0 l) (by
    rw [Shape.rowMajor_val_three, Shape.rowMajor_val_two]
    rfl)]

/-- The zero blocks the first step of a batch element stores. -/
theorem pay4_apply (j : S1x16x51.Idx) : k0_pay4 (F := Ideal) j = 0 := Ideal.ofBits_zero_f32
theorem pay5_apply (j : S1x1x51.Idx) : k0_pay5 (F := Ideal) j = 0 := Ideal.ofBits_zero_f32

/-! ## The four output blocks of region 0 at an index -/

theorem out0_B_2_apply (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : ¬cond0_0 i)
    (x0 : Vec Ideal S1x16x65536 .f32) (x1 : Vec Ideal S1x1x65536 .i32) (xo2 : Vec Ideal S1x16x51 .f32) (xo3 : Vec Ideal S1x1x51 .f32)
    (hfin : ∀ j, ∃ r : ℝ, x0 j = (r : EReal)) (ch : Fin 16) (l : Fin 51) :
    out0_B_2 (F := Ideal) c i arg2 harg2 arg3 harg3 arg4 harg4 arg5 harg5 hc0 x0 x1 xo2 xo3 (ix3 0 ch l)
      = xo2 (ix3 0 ch l) + ∑ n ∈ Finset.range 65536, Cert.Spec.bP x0 ch n * Cert.Spec.oh (Cert.Spec.bI x1 n) l.val := by
  rw [out0_B_2_eq (F := Ideal) c i arg2 harg2 arg3 harg3 arg4 harg4 arg5 harg5 hc0 x0 x1 xo2 xo3, finS_apply,
    accS_apply x0 x1 hfin ch l]

theorem out0_A_2_apply (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : cond0_0 i)
    (x0 : Vec Ideal S1x16x65536 .f32) (x1 : Vec Ideal S1x1x65536 .i32)
    (hfin : ∀ j, ∃ r : ℝ, x0 j = (r : EReal)) (ch : Fin 16) (l : Fin 51) :
    out0_A_2 (F := Ideal) c i arg2 harg2 arg3 harg3 arg4 harg4 arg5 harg5 hc0 x0 x1 (ix3 0 ch l)
      = ∑ n ∈ Finset.range 65536, Cert.Spec.bP x0 ch n * Cert.Spec.oh (Cert.Spec.bI x1 n) l.val := by
  rw [out0_A_2_eq (F := Ideal) c i arg2 harg2 arg3 harg3 arg4 harg4 arg5 harg5 hc0 x0 x1, finS_apply,
    accS_apply x0 x1 hfin ch l, pay4_apply, zero_add]

theorem out0_B_3_apply (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : ¬cond0_0 i)
    (x0 : Vec Ideal S1x16x65536 .f32) (x1 : Vec Ideal S1x1x65536 .i32) (xo2 : Vec Ideal S1x16x51 .f32) (xo3 : Vec Ideal S1x1x51 .f32)
    (l : Fin 51) :
    out0_B_3 (F := Ideal) c i arg2 harg2 arg3 harg3 arg4 harg4 arg5 harg5 hc0 x0 x1 xo2 xo3 (ix3 0 0 l)
      = xo3 (ix3 0 0 l) + ∑ n ∈ Finset.range 65536, Cert.Spec.oh (Cert.Spec.bI x1 n) l.val := by
  rw [out0_B_3_eq (F := Ideal) c i arg2 harg2 arg3 harg3 arg4 harg4 arg5 harg5 hc0 x0 x1 xo2 xo3, finC_apply,
    accC_apply x1 l]

theorem out0_A_3_apply (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : cond0_0 i)
    (x0 : Vec Ideal S1x16x65536 .f32) (x1 : Vec Ideal S1x1x65536 .i32) (l : Fin 51) :
    out0_A_3 (F := Ideal) c i arg2 harg2 arg3 harg3 arg4 harg4 arg5 harg5 hc0 x0 x1 (ix3 0 0 l)
      = ∑ n ∈ Finset.range 65536, Cert.Spec.oh (Cert.Spec.bI x1 n) l.val := by
  rw [out0_A_3_eq (F := Ideal) c i arg2 harg2 arg3 harg3 arg4 harg4 arg5 harg5 hc0 x0 x1, finC_apply,
    accC_apply x1 l, pay5_apply, zero_add]

end Cert.KernelIdeal.Body0
end
-- ==== Proof.KReg0.lean ====
import proofs.«411761_j45466523796029_3_alg».proof.Proof.Gen.KernelIdeal.Frame
import proofs.«411761_j45466523796029_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)

/-!
  Region 0, from the values the body leaves at one grid point to the two result arrays.

  The grid has 2 × 32 points; point t = 32·b + i handles batch element b and voxels 65536·i … 65536·i + 65535. The two
  output blocks (per-label channel sums, per-label counts) are reset at i = 0, added into at every later step and
  written back at i = 31. So after point t they hold the sums over the first 65536·(i + 1) voxels of batch element b
  (induction on the point), and the arrays end holding, at batch element b, the sums over all 2097152 voxels.
-/
namespace Cert.KernelIdeal.Reg0
open Cert.KernelIdeal Cert.KernelIdeal.Gen Idealize.ShloMosaic.ValueIdx

variable (V : (c : Dev nD) → (b : Ref sig .tc) → Buf (Elt Ideal) ((c : Thread nD τ).loc b))

/-! ## The input blocks at a point, read off the arrays -/

/-- The prediction block and the label block at point t. -/
abbrev xblk (c : Dev nD) (t : Fin cfg0.N) : Vec Ideal S1x16x65536 .f32 := iblk0 V c 0 t
abbrev lblk (c : Dev nD) (t : Fin cfg0.N) : Vec Ideal S1x1x65536 .i32 := iblk0 V c 1 t

/-- The block indices of the four windows at point t: (t / 32, 0, t % 32) for the inputs, (t / 32, 0, 0) for the outputs. -/
theorem idx0 : ∀ t : Fin grid0.N, win0_0.index t 0 = t.val / 32 ∧ win0_0.index t 1 = 0 ∧ win0_0.index t 2 = t.val % 32 := by decide +kernel
theorem idx1 : ∀ t : Fin grid0.N, win0_1.index t 0 = t.val / 32 ∧ win0_1.index t 1 = 0 ∧ win0_1.index t 2 = t.val % 32 := by decide +kernel
theorem idx2 : ∀ t : Fin grid0.N, win0_2.index t 0 = t.val / 32 ∧ win0_2.index t 1 = 0 ∧ win0_2.index t 2 = 0 := by decide +kernel
theorem idx3 : ∀ t : Fin grid0.N, win0_3.index t 0 = t.val / 32 ∧ win0_3.index t 1 = 0 ∧ win0_3.index t 2 = 0 := by decide +kernel

/-- Element (0, ch, n) of the prediction block at point t is element (t / 32, ch, 65536·(t % 32) + n) of the array. -/
theorem xblk_apply (c : Dev nD) (t : Fin cfg0.N) (ch : Fin 16) (n : Fin 65536) (b : Fin 2) (hb : b.val = t.val / 32)
    (m : Fin 2097152) (hm : m.val = 65536 * (t.val % 32) + n.val) :
    xblk V c t (ix3 0 ch n) = (V c main_v0 : Cert.Spec.PArr) (ix3 b ch m) := by
  unfold xblk iblk0
  rw [View.read_apply]
  show V c main_v0 _ = V c main_v0 _
  congr 1
  funext a
  apply Fin.ext
  have hi := idx0 t
  match a with
  | ⟨0, _⟩ => show win0_0.index t 0 * 1 + 1 * 0 = b.val; rw [hi.1, hb]; omega
  | ⟨1, _⟩ => show win0_0.index t 1 * 16 + 1 * ch.val = ch.val; rw [hi.2.1]; omega
  | ⟨2, _⟩ => show win0_0.index t 2 * 65536 + 1 * n.val = m.val; rw [hi.2.2, hm]; omega

/-- Element (0, 0, n) of the label block at point t is element (t / 32, 0, 65536·(t % 32) + n) of the array. -/
theorem lblk_apply (c : Dev nD) (t : Fin cfg0.N) (n : Fin 65536) (b : Fin 2) (hb : b.val = t.val / 32)
    (m : Fin 2097152) (hm : m.val = 65536 * (t.val % 32) + n.val) :
    lblk V c t (ix3 0 0 n) = (V c main_v1 : Cert.Spec.IArr) (ix3 b 0 m) := by
  unfold lblk iblk0
  rw [View.read_apply]
  show V c main_v1 _ = V c main_v1 _
  congr 1
  funext a
  apply Fin.ext
  have hi := idx1 t
  match a with
  | ⟨0, _⟩ => show win0_1.index t 0 * 1 + 1 * 0 = b.val; rw [hi.1, hb]; omega
  | ⟨1, _⟩ => show win0_1.index t 1 * 1 + 1 * 0 = 0; rw [hi.2.1]
  | ⟨2, _⟩ => show win0_1.index t 2 * 65536 + 1 * n.val = m.val; rw [hi.2.2, hm]; omega

/-- The prediction block at point t, read by channel and voxel number, is the array's at batch element t / 32 and
    voxel 65536·(t % 32) + n. -/
theorem bP_xblk (c : Dev nD) (t : Fin cfg0.N) (b : Fin 2) (hb : b.val = t.val / 32) (k : ℕ) (hk : k = t.val % 32)
    (ch : Fin 16) (n : ℕ) (hn : n < 65536) :
    Cert.Spec.bP (xblk V c t) ch n = Cert.Spec.pAt (V c main_v0) b ch (65536 * k + n) := by
  subst hk
  have hN : cfg0.N = 64 := N_0
  have ht : t.val < 64 := lt_of_lt_of_eq t.isLt hN
  have hm : 65536 * (t.val % 32) + n < 2097152 := by omega
  unfold Cert.Spec.bP Cert.Spec.pAt
  rw [dif_pos hn, dif_pos hm]
  exact xblk_apply V c t ch ⟨n, hn⟩ b hb ⟨_, hm⟩ rfl

/-- The same for the label block. -/
theorem bI_lblk (c : Dev nD) (t : Fin cfg0.N) (b : Fin 2) (hb : b.val = t.val / 32) (k : ℕ) (hk : k = t.val % 32)
    (n : ℕ) (hn : n < 65536) :
    Cert.Spec.bI (lblk V c t) n = Cert.Spec.idAt (V c main_v1) b (65536 * k + n) := by
  subst hk
  have hN : cfg0.N = 64 := N_0
  have ht : t.val < 64 := lt_of_lt_of_eq t.isLt hN
  have hm : 65536 * (t.val % 32) + n < 2097152 := by omega
  unfold Cert.Spec.bI Cert.Spec.idAt
  rw [dif_pos hn, dif_pos hm]
  exact lblk_apply V c t ⟨n, hn⟩ b hb ⟨_, hm⟩ rfl

/-- A block of an array of real numbers holds real numbers. -/
theorem xblk_fin (c : Dev nD) (hfin : ∀ j, ∃ r : ℝ, (V c main_v0 : Cert.Spec.PArr) j = (r : EReal)) (t : Fin cfg0.N) :
    ∀ j, ∃ r : ℝ, xblk V c t j = (r : EReal) := by
  intro j
  unfold xblk iblk0
  rw [View.read_apply]
  exact hfin _

/-- One step's addend over the block is the reference's over the step's 65536 voxels. -/
theorem step_sums (c : Dev nD) (t : Fin cfg0.N) (b : Fin 2) (hb : b.val = t.val / 32) (k : ℕ) (hk : k = t.val % 32)
    (ch : Fin 16) (l : ℕ) :
    ∑ n ∈ Finset.range 65536, Cert.Spec.bP (xblk V c t) ch n * Cert.Spec.oh (Cert.Spec.bI (lblk V c t) n) l
      = ∑ j ∈ Finset.range 65536, Cert.Spec.pAt (V c main_v0) b ch (65536 * k + j)
          * Cert.Spec.oh (Cert.Spec.idAt (V c main_v1) b (65536 * k + j)) l :=
  Finset.sum_congr rfl fun n hn => by
    rw [bP_xblk V c t b hb k hk ch n (Finset.mem_range.mp hn), bI_lblk V c t b hb k hk n (Finset.mem_range.mp hn)]

theorem step_counts (c : Dev nD) (t : Fin cfg0.N) (b : Fin 2) (hb : b.val = t.val / 32) (k : ℕ) (hk : k = t.val % 32) (l : ℕ) :
    ∑ n ∈ Finset.range 65536, Cert.Spec.oh (Cert.Spec.bI (lblk V c t) n) l
      = ∑ j ∈ Finset.range 65536, Cert.Spec.oh (Cert.Spec.idAt (V c main_v1) b (65536 * k + j)) l :=
  Finset.sum_congr rfl fun n hn => by
    rw [bI_lblk V c t b hb k hk n (Finset.mem_range.mp hn)]

/-! ## Where a block of an output sits in its array -/

/-- Element (0, ch, l) of the sums' block at point t is element (t / 32, ch, l) of the array. -/
theorem emb2 (t : Fin cfg0.N) (b : Fin 2) (hb : b.val = t.val / 32) (ch : Fin 16) (l : Fin 51) :
    ((cfg0.win 2).blk t).view.emb (ix3 (0 : Fin 1) ch l : S1x16x51.Idx) = (ix3 b ch l : S2x16x51.Idx) := by
  funext a
  apply Fin.ext
  have hi := idx2 t
  match a with
  | ⟨0, _⟩ => show win0_2.index t 0 * 1 + 1 * 0 = b.val; rw [hi.1, hb]; omega
  | ⟨1, _⟩ => show win0_2.index t 1 * 16 + 1 * ch.val = ch.val; rw [hi.2.1]; omega
  | ⟨2, _⟩ => show win0_2.index t 2 * 51 + 1 * l.val = l.val; rw [hi.2.2]; omega

/-- Element (0, 0, l) of the counts' block at point t is element (t / 32, 0, l) of the array. -/
theorem emb3 (t : Fin cfg0.N) (b : Fin 2) (hb : b.val = t.val / 32) (l : Fin 51) :
    ((cfg0.win 3).blk t).view.emb (ix3 (0 : Fin 1) (0 : Fin 1) l : S1x1x51.Idx) = (ix3 b (0 : Fin 1) l : S2x1x51.Idx) := by
  funext a
  apply Fin.ext
  have hi := idx3 t
  match a with
  | ⟨0, _⟩ => show win0_3.index t 0 * 1 + 1 * 0 = b.val; rw [hi.1, hb]; omega
  | ⟨1, _⟩ => show win0_3.index t 1 * 1 + 1 * 0 = 0; rw [hi.2.1]
  | ⟨2, _⟩ => show win0_3.index t 2 * 51 + 1 * l.val = l.val; rw [hi.2.2]; omega

/-- Every element of the sums' array is under the block written back at the last step of its batch element. -/
theorem cover2 (i : S2x16x51.Idx) :
    ∃ t : Fin cfg0.N, (cfg0.win 2).flush t = true ∧ i ∈ ((cfg0.win 2).blk t).view.set := by
  have hN : cfg0.N = 64 := N_0
  have h0 : (i 0).val < 2 := (i 0).isLt
  have h1 : (i 1).val < 16 := (i 1).isLt
  have h2 : (i 2).val < 51 := (i 2).isLt
  have hlt : 32 * (i 0).val + 31 < cfg0.N := by omega
  have hi := idx2 ⟨32 * (i 0).val + 31, hlt⟩
  refine ⟨⟨32 * (i 0).val + 31, hlt⟩, (flush0_2 _).mpr (by show (32 * (i 0).val + 31) % 32 = 31; omega), ?_⟩
  show i ∈ ((View.whole main_v2_0).slice (win0_2.rect ⟨32 * (i 0).val + 31, hlt⟩)).set
  rw [View.set_slice_whole, Rect.mem_set_unit]
  intro a
  match a with
  | ⟨0, _⟩ =>
    show win0_2.index ⟨32 * (i 0).val + 31, hlt⟩ 0 * 1 ≤ (i 0 : Nat) ∧ (i 0 : Nat) < win0_2.index ⟨32 * (i 0).val + 31, hlt⟩ 0 * 1 + 1
    rw [hi.1]; show (32 * (i 0).val + 31) / 32 * 1 ≤ (i 0 : Nat) ∧ (i 0 : Nat) < (32 * (i 0).val + 31) / 32 * 1 + 1; omega
  | ⟨1, _⟩ =>
    show win0_2.index ⟨32 * (i 0).val + 31, hlt⟩ 1 * 16 ≤ (i 1 : Nat) ∧ (i 1 : Nat) < win0_2.index ⟨32 * (i 0).val + 31, hlt⟩ 1 * 16 + 16
    rw [hi.2.1]; omega
  | ⟨2, _⟩ =>
    show win0_2.index ⟨32 * (i 0).val + 31, hlt⟩ 2 * 51 ≤ (i 2 : Nat) ∧ (i 2 : Nat) < win0_2.index ⟨32 * (i 0).val + 31, hlt⟩ 2 * 51 + 51
    rw [hi.2.2]; omega

/-- Every element of the counts' array is under the block written back at the last step of its batch element. -/
theorem cover3 (i : S2x1x51.Idx) :
    ∃ t : Fin cfg0.N, (cfg0.win 3).flush t = true ∧ i ∈ ((cfg0.win 3).blk t).view.set := by
  have hN : cfg0.N = 64 := N_0
  have h0 : (i 0).val < 2 := (i 0).isLt
  have h1 : (i 1).val < 1 := (i 1).isLt
  have h2 : (i 2).val < 51 := (i 2).isLt
  have hlt : 32 * (i 0).val + 31 < cfg0.N := by omega
  have hi := idx3 ⟨32 * (i 0).val + 31, hlt⟩
  refine ⟨⟨32 * (i 0).val + 31, hlt⟩, (flush0_3 _).mpr (by show (32 * (i 0).val + 31) % 32 = 31; omega), ?_⟩
  show i ∈ ((View.whole main_v2_1).slice (win0_3.rect ⟨32 * (i 0).val + 31, hlt⟩)).set
  rw [View.set_slice_whole, Rect.mem_set_unit]
  intro a
  match a with
  | ⟨0, _⟩ =>
    show win0_3.index ⟨32 * (i 0).val + 31, hlt⟩ 0 * 1 ≤ (i 0 : Nat) ∧ (i 0 : Nat) < win0_3.index ⟨32 * (i 0).val + 31, hlt⟩ 0 * 1 + 1
    rw [hi.1]; show (32 * (i 0).val + 31) / 32 * 1 ≤ (i 0 : Nat) ∧ (i 0 : Nat) < (32 * (i 0).val + 31) / 32 * 1 + 1; omega
  | ⟨1, _⟩ =>
    show win0_3.index ⟨32 * (i 0).val + 31, hlt⟩ 1 * 1 ≤ (i 1 : Nat) ∧ (i 1 : Nat) < win0_3.index ⟨32 * (i 0).val + 31, hlt⟩ 1 * 1 + 1
    rw [hi.2.1]; omega
  | ⟨2, _⟩ =>
    show win0_3.index ⟨32 * (i 0).val + 31, hlt⟩ 2 * 51 ≤ (i 2 : Nat) ∧ (i 2 : Nat) < win0_3.index ⟨32 * (i 0).val + 31, hlt⟩ 2 * 51 + 51
    rw [hi.2.2]; omega

/-- A block of an output array, read at an element, is the array at the element under it. -/
theorem read_blk2 (t : Fin cfg0.N) (G : S2x16x51.Idx → EReal) (y : S1x16x51.Idx) :
    ((cfg0.win 2).blk t).view.read (Elt Ideal) G y = G (((cfg0.win 2).blk t).view.emb y) := rfl
theorem read_blk3 (t : Fin cfg0.N) (G : S2x1x51.Idx → EReal) (y : S1x1x51.Idx) :
    ((cfg0.win 3).blk t).view.read (Elt Ideal) G y = G (((cfg0.win 3).blk t).view.emb y) := rfl

/-- What the two arrays end holding: at batch element b, the sums and the counts over all its voxels. -/
def G2 (c : Dev nD) : S2x16x51.Idx → EReal :=
  fun j => Cert.Spec.sumsUpTo (V c main_v0) (V c main_v1) (j 0) Cert.Spec.NV (j 1) (j 2).val
def G3 (c : Dev nD) : S2x1x51.Idx → EReal :=
  fun j => Cert.Spec.countsUpTo (V c main_v1) (j 0) Cert.Spec.NV (j 2).val

/-! ## The channel sums -/

section Sums

variable
  (HB2 : ∀ (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : ¬cond0_0 i) (x0 : Vec Ideal S1x16x65536 .f32) (x1 : Vec Ideal S1x1x65536 .i32) (xo2 : Vec Ideal S1x16x51 .f32) (xo3 : Vec Ideal S1x1x51 .f32), (∀ j, ∃ r : ℝ, x0 j = (r : EReal)) → ∀ (ch : Fin 16) (l : Fin 51),
      out0_B_2 (F := Ideal) c i arg2 harg2 arg3 harg3 arg4 harg4 arg5 harg5 hc0 x0 x1 xo2 xo3 (ix3 0 ch l) = xo2 (ix3 0 ch l) + ∑ n ∈ Finset.range 65536, Cert.Spec.bP x0 ch n * Cert.Spec.oh (Cert.Spec.bI x1 n) l.val)
  (HA2 : ∀ (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : cond0_0 i) (x0 : Vec Ideal S1x16x65536 .f32) (x1 : Vec Ideal S1x1x65536 .i32), (∀ j, ∃ r : ℝ, x0 j = (r : EReal)) → ∀ (ch : Fin 16) (l : Fin 51),
      out0_A_2 (F := Ideal) c i arg2 harg2 arg3 harg3 arg4 harg4 arg5 harg5 hc0 x0 x1 (ix3 0 ch l) = ∑ n ∈ Finset.range 65536, Cert.Spec.bP x0 ch n * Cert.Spec.oh (Cert.Spec.bI x1 n) l.val)

include HB2 HA2

/-- After point n the sums' block holds the sums over the first 65536·(n % 32 + 1) voxels of batch element n / 32. -/
theorem sums_inv (c : Dev nD) (hfin : ∀ j, ∃ r : ℝ, (V c main_v0 : Cert.Spec.PArr) j = (r : EReal)) :
    ∀ (n : ℕ) (hn : n < cfg0.N) (b : Fin 2) (hb : b.val = n / 32) (ch : Fin 16) (l : Fin 51),
      (outsAt0 V c n hn).1 (ix3 0 ch l)
        = Cert.Spec.sumsUpTo (V c main_v0) (V c main_v1) b (65536 * (n % 32 + 1)) ch l.val := by
  intro n
  induction n using Nat.strong_induction_on with
  | _ n ih =>
    intro hn b hb ch l
    have hN : cfg0.N = 64 := N_0
    have e2 : 65536 * (n % 32 + 1) = 65536 * (n % 32) + 65536 := by omega
    by_cases h0 : n % 32 = 0
    · rw [outsAt0_A V c ⟨n, hn⟩ h0]
      dsimp only
      refine (HA2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) ((hcond0_0 ⟨n, hn⟩).mpr h0) (xblk V c ⟨n, hn⟩) (lblk V c ⟨n, hn⟩) (xblk_fin V c hfin ⟨n, hn⟩) ch l).trans ?_
      rw [step_sums V c ⟨n, hn⟩ b hb (n % 32) rfl ch l.val, e2, Cert.Spec.sumsUpTo_add, h0]
      have z : Cert.Spec.sumsUpTo (V c main_v0) (V c main_v1) b (65536 * 0) ch l.val = 0 := Finset.sum_range_zero _
      rw [z, zero_add]
    · rw [outsAt0_B V c ⟨n, hn⟩ h0]
      dsimp only
      refine (HB2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (fun h => h0 ((hcond0_0 ⟨n, hn⟩).mp h)) (xblk V c ⟨n, hn⟩) (lblk V c ⟨n, hn⟩) (outsAt0 V c (n - 1) (Nat.lt_of_le_of_lt (Nat.sub_le _ _) hn)).1 (outsAt0 V c (n - 1) (Nat.lt_of_le_of_lt (Nat.sub_le _ _) hn)).2 (xblk_fin V c hfin ⟨n, hn⟩) ch l).trans ?_
      have e1 : 65536 * ((n - 1) % 32 + 1) = 65536 * (n % 32) := by omega
      rw [ih (n - 1) (by omega) (Nat.lt_of_le_of_lt (Nat.sub_le _ _) hn) b (by omega) ch l,
        step_sums V c ⟨n, hn⟩ b hb (n % 32) rfl ch l.val, e1, e2, Cert.Spec.sumsUpTo_add]

/-- At the last step of a batch element the sums' block holds, at (0, ch, l), the full sums' array's element under it. -/
theorem flushed2_at (c : Dev nD) (hfin : ∀ j, ∃ r : ℝ, (V c main_v0 : Cert.Spec.PArr) j = (r : EReal)) (t : Fin cfg0.N)
    (h31 : t.val % 32 = 31) (ch : Fin 16) (l : Fin 51) :
    (outsAt0 V c t.val t.isLt).1 (ix3 0 ch l)
      = G2 V c (((cfg0.win 2).blk t).view.emb (ix3 (0 : Fin 1) ch l : S1x16x51.Idx)) := by
  have hN : cfg0.N = 64 := N_0
  have ht : t.val < 64 := lt_of_lt_of_eq t.isLt hN
  refine (sums_inv V HB2 HA2 c hfin t.val t.isLt ⟨t.val / 32, by omega⟩ rfl ch l).trans ?_
  rw [emb2 t ⟨t.val / 32, by omega⟩ rfl ch l, h31]
  rfl

/-- What the write-back at the last step of a batch element writes is that element's block of the full sums. -/
theorem flushed2_eq (c : Dev nD) (hfin : ∀ j, ∃ r : ℝ, (V c main_v0 : Cert.Spec.PArr) j = (r : EReal)) (t : Fin cfg0.N)
    (hf : (cfg0.win 2).flush t = true) :
    (dat0 (F := Ideal) V c).flushed 2 t = ((cfg0.win 2).blk t).view.read (Elt Ideal) (G2 V c) := by
  have h31 : t.val % 32 = 31 := (flush0_2 t).mp hf
  have key : ∀ y' : S1x16x51.Idx,
      (outsAt0 V c t.val t.isLt).1 y' = G2 V c (((cfg0.win 2).blk t).view.emb y') := by
    intro y'
    obtain ⟨a, ch, l, rfl⟩ : ∃ (a : Fin 1) (ch : Fin 16) (l : Fin 51), y' = ix3 a ch l := ⟨y' 0, y' 1, y' 2, eq_ix3 y'⟩
    obtain rfl : a = 0 := Subsingleton.elim _ _
    exact flushed2_at V HB2 HA2 c hfin t h31 ch l
  show (cfg0.win 2).cut (grid0.coords t) ((dat0 (F := Ideal) V c).after 2 t) = _
  rw [after0_2]
  exact funext fun y => (key y).trans (read_blk2 t (G2 V c) y).symm

/-- The sums' array after the region: at batch element b, channel ch and label l, channel ch summed over the voxels of b
    that carry l. -/
theorem sums_shards (c : Dev nD) (hfin : ∀ j, ∃ r : ℝ, (V c main_v0 : Cert.Spec.PArr) j = (r : EReal))
    (b : Fin 2) (ch : Fin 16) (l : Fin 51) :
    (dat0 (F := Ideal) V c).arrAt 2 cfg0.N (ix3 b ch l)
      = Cert.Spec.sumsUpTo (V c main_v0) (V c main_v1) b Cert.Spec.NV ch l.val :=
  congrFun ((dat0 (F := Ideal) V c).arrAt_eq_of_cover 2 (G2 V c) (flushed2_eq V HB2 HA2 c hfin) cover2) (ix3 b ch l)

end Sums

/-! ## The counts -/

section Counts

variable
  (HB3 : ∀ (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : ¬cond0_0 i) (x0 : Vec Ideal S1x16x65536 .f32) (x1 : Vec Ideal S1x1x65536 .i32) (xo2 : Vec Ideal S1x16x51 .f32) (xo3 : Vec Ideal S1x1x51 .f32) (l : Fin 51),
      out0_B_3 (F := Ideal) c i arg2 harg2 arg3 harg3 arg4 harg4 arg5 harg5 hc0 x0 x1 xo2 xo3 (ix3 0 0 l) = xo3 (ix3 0 0 l) + ∑ n ∈ Finset.range 65536, Cert.Spec.oh (Cert.Spec.bI x1 n) l.val)
  (HA3 : ∀ (c : Dev nD) (i : grid0.Coords) (arg2 : Memref sig .tc .vmem S1x16x65536 .f32) (harg2 : arg2.IsWhole) (arg3 : Memref sig .tc .vmem S1x1x65536 .i32) (harg3 : arg3.IsWhole) (arg4 : Memref sig .tc .vmem S1x16x51 .f32) (harg4 : arg4.IsWhole) (arg5 : Memref sig .tc .vmem S1x1x51 .f32) (harg5 : arg5.IsWhole) (hc0 : cond0_0 i) (x0 : Vec Ideal S1x16x65536 .f32) (x1 : Vec Ideal S1x1x65536 .i32) (l : Fin 51),
      out0_A_3 (F := Ideal) c i arg2 harg2 arg3 harg3 arg4 harg4 arg5 harg5 hc0 x0 x1 (ix3 0 0 l) = ∑ n ∈ Finset.range 65536, Cert.Spec.oh (Cert.Spec.bI x1 n) l.val)

include HB3 HA3

/-- After point n the counts' block holds the counts over the first 65536·(n % 32 + 1) voxels of batch element n / 32. -/
theorem counts_inv (c : Dev nD) :
    ∀ (n : ℕ) (hn : n < cfg0.N) (b : Fin 2) (hb : b.val = n / 32) (l : Fin 51),
      (outsAt0 V c n hn).2 (ix3 0 0 l) = Cert.Spec.countsUpTo (V c main_v1) b (65536 * (n % 32 + 1)) l.val := by
  intro n
  induction n using Nat.strong_induction_on with
  | _ n ih =>
    intro hn b hb l
    have hN : cfg0.N = 64 := N_0
    have e2 : 65536 * (n % 32 + 1) = 65536 * (n % 32) + 65536 := by omega
    by_cases h0 : n % 32 = 0
    · rw [outsAt0_A V c ⟨n, hn⟩ h0]
      dsimp only
      refine (HA3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) ((hcond0_0 ⟨n, hn⟩).mpr h0) (xblk V c ⟨n, hn⟩) (lblk V c ⟨n, hn⟩) l).trans ?_
      rw [step_counts V c ⟨n, hn⟩ b hb (n % 32) rfl l.val, e2, Cert.Spec.countsUpTo_add, h0]
      have z : Cert.Spec.countsUpTo (V c main_v1) b (65536 * 0) l.val = 0 := Finset.sum_range_zero _
      rw [z, zero_add]
    · rw [outsAt0_B V c ⟨n, hn⟩ h0]
      dsimp only
      refine (HB3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (fun h => h0 ((hcond0_0 ⟨n, hn⟩).mp h)) (xblk V c ⟨n, hn⟩) (lblk V c ⟨n, hn⟩) (outsAt0 V c (n - 1) (Nat.lt_of_le_of_lt (Nat.sub_le _ _) hn)).1 (outsAt0 V c (n - 1) (Nat.lt_of_le_of_lt (Nat.sub_le _ _) hn)).2 l).trans ?_
      have e1 : 65536 * ((n - 1) % 32 + 1) = 65536 * (n % 32) := by omega
      rw [ih (n - 1) (by omega) (Nat.lt_of_le_of_lt (Nat.sub_le _ _) hn) b (by omega) l,
        step_counts V c ⟨n, hn⟩ b hb (n % 32) rfl l.val, e1, e2, Cert.Spec.countsUpTo_add]

/-- At the last step of a batch element the counts' block holds, at (0, 0, l), the full counts' array's element under it. -/
theorem flushed3_at (c : Dev nD) (t : Fin cfg0.N) (h31 : t.val % 32 = 31) (l : Fin 51) :
    (outsAt0 V c t.val t.isLt).2 (ix3 0 0 l)
      = G3 V c (((cfg0.win 3).blk t).view.emb (ix3 (0 : Fin 1) (0 : Fin 1) l : S1x1x51.Idx)) := by
  have hN : cfg0.N = 64 := N_0
  have ht : t.val < 64 := lt_of_lt_of_eq t.isLt hN
  refine (counts_inv V HB3 HA3 c t.val t.isLt ⟨t.val / 32, by omega⟩ rfl l).trans ?_
  rw [emb3 t ⟨t.val / 32, by omega⟩ rfl l, h31]
  rfl

/-- What the write-back at the last step of a batch element writes is that element's block of the full counts. -/
theorem flushed3_eq (c : Dev nD) (t : Fin cfg0.N) (hf : (cfg0.win 3).flush t = true) :
    (dat0 (F := Ideal) V c).flushed 3 t = ((cfg0.win 3).blk t).view.read (Elt Ideal) (G3 V c) := by
  have h31 : t.val % 32 = 31 := (flush0_3 t).mp hf
  have key : ∀ y' : S1x1x51.Idx,
      (outsAt0 V c t.val t.isLt).2 y' = G3 V c (((cfg0.win 3).blk t).view.emb y') := by
    intro y'
    obtain ⟨a, a', l, rfl⟩ : ∃ (a : Fin 1) (a' : Fin 1) (l : Fin 51), y' = ix3 a a' l := ⟨y' 0, y' 1, y' 2, eq_ix3 y'⟩
    obtain rfl : a = 0 := Subsingleton.elim _ _
    obtain rfl : a' = 0 := Subsingleton.elim _ _
    exact flushed3_at V HB3 HA3 c t h31 l
  show (cfg0.win 3).cut (grid0.coords t) ((dat0 (F := Ideal) V c).after 3 t) = _
  rw [after0_3]
  exact funext fun y => (key y).trans (read_blk3 t (G3 V c) y).symm

/-- The counts' array after the region: at batch element b and label l, the number of voxels of b that carry l. -/
theorem counts_shards (c : Dev nD) (b : Fin 2) (l : Fin 51) :
    (dat0 (F := Ideal) V c).arrAt 3 cfg0.N (ix3 b 0 l) = Cert.Spec.countsUpTo (V c main_v1) b Cert.Spec.NV l.val :=
  congrFun ((dat0 (F := Ideal) V c).arrAt_eq_of_cover 3 (G3 V c) (flushed3_eq V HB3 HA3 c) cover3) (ix3 b 0 l)

end Counts

end Cert.KernelIdeal.Reg0

end
-- ==== Proof.KBody1.lean ====
/-
  Region 1's body at one grid point, read as a value at the ideal floats.

  The body receives a block of predictions (16 channels × 65536 voxels), the block's label words, the table of label
  means (51 × 16) and the table of their norms (51 × 1). For each voxel it looks up its label's mean and norm through a
  one-hot matrix, takes the cosine of the voxel's channel vector with that mean, and adds the cosine into its label's
  entry of the output block (1 × 1 × 51). Every operand of a contraction is split into a high part x and a low part
  x − x; at the extended reals the low part of a real number is zero, so each contraction is the plain sum of products.
  Result: the output block at label l is its earlier contents (zero at the first step of a batch element) plus the sum,
  over the block's voxels that carry label l, of their cosines.
-/
import proofs.«411761_j45466523796029_3_alg».proof.Proof.Gen.KernelIdeal.Frame
import proofs.«411761_j45466523796029_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)

namespace Cert.KernelIdeal.Body1

open Cert.KernelIdeal Cert.KernelIdeal.Gen Idealize.ShloMosaic.ValueIdx

variable {F : FTy → Type} [FloatOps F]

/-! ## One chunk of 8192 voxels, as one term

The body treats its 65536 voxels in eight chunks of 8192. For one chunk, with label words `w` and predictions `p`:
the one-hot matrix of the labels (51 × 8192), the cosine row (1 × 8192) and the chunk's contribution to the per-label
sums of cosines (1 × 51): the cosine row, split in a high and a low part, each contracted with the one-hot matrix over
the voxels. The program's text cuts the eight chunks differently; each is this term. -/

/-- The column of label numbers 0 … 50. -/
abbrev lab : IVec S51x1 32 := iota .tc S51x1 32 [0] Facts₀.iota_S51x1_d0_w32

/-- The one-hot matrix of a chunk's label words. -/
abbrev ohV (w : Vec F S1x1x8192 .i32) : FVec F S51x8192 .bf16 := k1_pay16 lab w

/-- The cosine row of a chunk against the two tables. -/
abbrev cosV (x2 : Vec F S51x16 .f32) (x3 : Vec F S51x1 .f32) (w : Vec F S1x1x8192 .i32) (p : Vec F S1x16x8192 .f32) :
    FVec F S1x8192 .f32 :=
  k1_pay17 lab (k1_pay5 x2) (k1_pay6 x2) (k1_pay7 x3) (k1_pay8 x3) w p

/-- A row over the voxels contracted with a one-hot matrix, high part plus low part. -/
def partV (cs : FVec F S1x8192 .f32) (oh : FVec F S51x8192 .bf16) : FVec F S1x51 .f32 :=
  addf (matmul dot_S1x8192_S51x8192_S1x51_1_1_0_0_n_n none (truncf .bf16 cs bitsLt_bf16_f32) oh (constant S1x51 .f32 0x00000000#32))
    (matmul dot_S1x8192_S51x8192_S1x51_1_1_0_0_n_n none (truncf .bf16 (subf cs cs) bitsLt_bf16_f32) oh (constant S1x51 .f32 0x00000000#32))

/-- One chunk's contribution. -/
def chunkV (x2 : Vec F S51x16 .f32) (x3 : Vec F S51x1 .f32) (w : Vec F S1x1x8192 .i32) (p : Vec F S1x16x8192 .f32) :
    FVec F S1x51 .f32 :=
  partV (cosV x2 x3 w p) (ohV w)

section Chunks
variable (x2 : Vec F S51x16 .f32) (x3 : Vec F S51x1 .f32) (acc : FVec F S1x51 .f32)
  (w w' : Vec F S1x1x8192 .i32) (p p' : Vec F S1x16x8192 .f32)

theorem chunk0_eq :
    k1_pay15 acc (k1_pay10 w) (k1_pay11 x3 w) (k1_pay13 x2 w p) (k1_pay14 p) = addf acc (chunkV x2 x3 w p) := rfl

theorem chunk12_eq :
    k1_pay20 lab (k1_pay5 x2) (k1_pay6 x2) (k1_pay7 x3) (k1_pay8 x3) acc (k1_pay16 lab w)
        (k1_pay18 lab (k1_pay5 x2) (k1_pay6 x2) (k1_pay7 x3) (k1_pay8 x3) w p)
        (k1_pay19 lab (k1_pay5 x2) (k1_pay6 x2) (k1_pay7 x3) (k1_pay8 x3) w p) w' p'
      = addf (addf acc (chunkV x2 x3 w p)) (chunkV x2 x3 w' p') := rfl

theorem chunk3_eq :
    k1_pay21 lab (k1_pay5 x2) (k1_pay6 x2) (k1_pay7 x3) (k1_pay8 x3) acc w p = addf acc (chunkV x2 x3 w p) := rfl

theorem chunk4_eq :
    k1_pay24 (k1_pay6 x2) (k1_pay7 x3) (k1_pay8 x3) acc (k1_pay22 lab w) (k1_pay23 lab (k1_pay5 x2) w) p
      = addf acc (chunkV x2 x3 w p) := rfl

theorem chunk5_eq :
    k1_pay28 acc (k1_pay25 lab w) (k1_pay26 lab (k1_pay5 x2) (k1_pay6 x2) w) (k1_pay27 lab (k1_pay7 x3) (k1_pay8 x3) w) p
      = addf acc (chunkV x2 x3 w p) := rfl

theorem chunk6_eq :
    k1_pay34 acc (k1_pay29 lab w) (k1_pay30 lab (k1_pay7 x3) (k1_pay8 x3) w)
        (k1_pay32 lab (k1_pay5 x2) (k1_pay6 x2) w p) (k1_pay33 p)
      = addf acc (chunkV x2 x3 w p) := rfl

theorem chunk7_eq (xo : Vec F S1x1x51 .f32) :
    k1_pay1 acc (k1_pay35 lab w) (k1_pay37 lab (k1_pay5 x2) (k1_pay6 x2) (k1_pay7 x3) (k1_pay8 x3) w p)
        (k1_pay38 lab (k1_pay5 x2) (k1_pay6 x2) (k1_pay7 x3) (k1_pay8 x3) w p) xo
      = shapeCast S1x1x51 (addf (shapeCast S1x51 xo Facts₀.shapeCasts_S1x1x51_S1x51) (addf acc (chunkV x2 x3 w p)))
          Facts₀.shapeCasts_S1x51_S1x1x51 := rfl

end Chunks

/-! ## The three contractions read at an index -/

section Contractions

theorem mm16_apply (M : FVec Ideal S51x16 .bf16) (O : FVec Ideal S51x8192 .bf16) (c : Fin 16) (j : Fin 8192) :
    matmul dot_S51x16_S51x8192_S16x8192_0_0_1_1_n_n none M O (constant (F := Ideal) S16x8192 .f32 0x00000000#32) (ix2 c j)
      = ∑ l : Fin 51, M (ix2 l c) * O (ix2 l j) := by
  simp only [matmul]
  rw [Ideal.matmul_constant_zero_apply,
    ← Equiv.sum_comp (contrEquiv1 dot_S51x16_S51x8192_S16x8192_0_0_1_1_n_n 51 rfl rfl).symm]
  refine Finset.sum_congr rfl fun l _ => ?_
  have c2 := contrEquiv1_symm_val dot_S51x16_S51x8192_S16x8192_0_0_1_1_n_n 51 rfl rfl l
  have l2 : dot_S51x16_S51x8192_S16x8192_0_0_1_1_n_n.lhsIdx (ix2 c j) ((contrEquiv1 _ 51 rfl rfl).symm l) = ix2 l c := by
    funext ax; apply Fin.ext
    match ax with
    | ⟨0, _⟩ => simp [DotDims.lhsIdx, dot_S51x16_S51x8192_S16x8192_0_0_1_1_n_n]; exact c2
    | ⟨1, _⟩ => simp [DotDims.lhsIdx, dot_S51x16_S51x8192_S16x8192_0_0_1_1_n_n]; rfl
  have r2 : dot_S51x16_S51x8192_S16x8192_0_0_1_1_n_n.rhsIdx (ix2 c j) ((contrEquiv1 _ 51 rfl rfl).symm l) = ix2 l j := by
    funext ax; apply Fin.ext
    match ax with
    | ⟨0, _⟩ => simp [DotDims.rhsIdx, dot_S51x16_S51x8192_S16x8192_0_0_1_1_n_n]; exact c2
    | ⟨1, _⟩ => simp [DotDims.rhsIdx, dot_S51x16_S51x8192_S16x8192_0_0_1_1_n_n]; rfl
  rw [l2, r2]

theorem mm1_apply (M : FVec Ideal S51x1 .bf16) (O : FVec Ideal S51x8192 .bf16) (j : Fin 8192) :
    matmul dot_S51x1_S51x8192_S1x8192_0_0_1_1_n_n none M O (constant (F := Ideal) S1x8192 .f32 0x00000000#32) (ix2 (0 : Fin 1) j)
      = ∑ l : Fin 51, M (ix2 l (0 : Fin 1)) * O (ix2 l j) := by
  simp only [matmul]
  rw [Ideal.matmul_constant_zero_apply,
    ← Equiv.sum_comp (contrEquiv1 dot_S51x1_S51x8192_S1x8192_0_0_1_1_n_n 51 rfl rfl).symm]
  refine Finset.sum_congr rfl fun l _ => ?_
  have c2 := contrEquiv1_symm_val dot_S51x1_S51x8192_S1x8192_0_0_1_1_n_n 51 rfl rfl l
  have l2 : dot_S51x1_S51x8192_S1x8192_0_0_1_1_n_n.lhsIdx (ix2 (0 : Fin 1) j) ((contrEquiv1 _ 51 rfl rfl).symm l) = ix2 l (0 : Fin 1) := by
    funext ax; apply Fin.ext
    match ax with
    | ⟨0, _⟩ => simp [DotDims.lhsIdx, dot_S51x1_S51x8192_S1x8192_0_0_1_1_n_n]; exact c2
    | ⟨1, _⟩ => simp [DotDims.lhsIdx, dot_S51x1_S51x8192_S1x8192_0_0_1_1_n_n]
  have r2 : dot_S51x1_S51x8192_S1x8192_0_0_1_1_n_n.rhsIdx (ix2 (0 : Fin 1) j) ((contrEquiv1 _ 51 rfl rfl).symm l) = ix2 l j := by
    funext ax; apply Fin.ext
    match ax with
    | ⟨0, _⟩ => simp [DotDims.rhsIdx, dot_S51x1_S51x8192_S1x8192_0_0_1_1_n_n]; exact c2
    | ⟨1, _⟩ => simp [DotDims.rhsIdx, dot_S51x1_S51x8192_S1x8192_0_0_1_1_n_n]; rfl
  rw [l2, r2]

theorem mmv_apply (C : FVec Ideal S1x8192 .bf16) (O : FVec Ideal S51x8192 .bf16) (l : Fin 51) :
    matmul dot_S1x8192_S51x8192_S1x51_1_1_0_0_n_n none C O (constant (F := Ideal) S1x51 .f32 0x00000000#32) (ix2 (0 : Fin 1) l)
      = ∑ j : Fin 8192, C (ix2 (0 : Fin 1) j) * O (ix2 l j) := by
  simp only [matmul]
  rw [Ideal.matmul_constant_zero_apply,
    ← Equiv.sum_comp (contrEquiv1 dot_S1x8192_S51x8192_S1x51_1_1_0_0_n_n 8192 rfl rfl).symm]
  refine Finset.sum_congr rfl fun j _ => ?_
  have c2 := contrEquiv1_symm_val dot_S1x8192_S51x8192_S1x51_1_1_0_0_n_n 8192 rfl rfl j
  have l2 : dot_S1x8192_S51x8192_S1x51_1_1_0_0_n_n.lhsIdx (ix2 (0 : Fin 1) l) ((contrEquiv1 _ 8192 rfl rfl).symm j) = ix2 (0 : Fin 1) j := by
    funext ax; apply Fin.ext
    match ax with
    | ⟨0, _⟩ => simp [DotDims.lhsIdx, dot_S1x8192_S51x8192_S1x51_1_1_0_0_n_n]
    | ⟨1, _⟩ => simp [DotDims.lhsIdx, dot_S1x8192_S51x8192_S1x51_1_1_0_0_n_n]; exact c2
  have r2 : dot_S1x8192_S51x8192_S1x51_1_1_0_0_n_n.rhsIdx (ix2 (0 : Fin 1) l) ((contrEquiv1 _ 8192 rfl rfl).symm j) = ix2 l j := by
    funext ax; apply Fin.ext
    match ax with
    | ⟨0, _⟩ => simp [DotDims.rhsIdx, dot_S1x8192_S51x8192_S1x51_1_1_0_0_n_n]; rfl
    | ⟨1, _⟩ => simp [DotDims.rhsIdx, dot_S1x8192_S51x8192_S1x51_1_1_0_0_n_n]; exact c2
  rw [l2, r2]

end Contractions

/-! ## The one-hot matrix at an index -/

/-- A compared pair of words, widened and converted, is 1 or 0. -/
theorem bit_val (a b : BitVec 32) :
    (FloatOps.sitofp (F := Ideal) .f32 ((IntOp.cmpi .eq a b).setWidth 32) : EReal) = if b = a then 1 else 0 := by
  show ((((BitVec.ofBool (a == b)).setWidth 32).toInt : ℝ) : EReal) = _
  by_cases h : b = a
  · have h' : (a == b) = true := beq_iff_eq.mpr h.symm
    have e : ((BitVec.ofBool true).setWidth 32).toInt = 1 := by decide
    rw [if_pos h, h', e]; norm_num
  · have h' : (a == b) = false := beq_eq_false_iff_ne.mpr (fun e => h e.symm)
    have e : ((BitVec.ofBool false).setWidth 32).toInt = 0 := by decide
    rw [if_neg h, h', e]; norm_num

theorem oh_apply (w : Vec Ideal S1x1x8192 .i32) (l : Fin 51) (j : Fin 8192) :
    ohV (F := Ideal) w (ix2 l j) = Cert.Spec.oh (w (ix3 0 0 j)) l.val := by
  show k1_pay16 (F := Ideal) lab w (ix2 l j) = _
  unfold k1_pay16
  show FloatOps.sitofp (F := Ideal) .f32 ((IntOp.cmpi .eq (broadcastTo S51x8192 lab _ (ix2 l j))
    (broadcastTo S51x8192 (shapeCast S1x8192 w _) _ (ix2 l j))).setWidth 32) = _
  rw [broadcastTo_apply lab _ (ix2 l j) (ix2 l (0 : Fin 1)) (fun a => match a with | ⟨0, _⟩ => rfl | ⟨1, _⟩ => rfl),
    broadcastTo_apply (shapeCast S1x8192 w _) _ (ix2 l j) (ix2 (0 : Fin 1) j) (fun a => match a with | ⟨0, _⟩ => rfl | ⟨1, _⟩ => rfl),
    shapeCast_apply w _ (ix2 (0 : Fin 1) j) (ix3 (0 : Fin 1) (0 : Fin 1) j) (by rw [Shape.rowMajor_val_three, Shape.rowMajor_val_two]; rfl),
    show lab (ix2 l (0 : Fin 1)) = BitVec.ofNat 32 l.val from iota_single_apply _ _ _ _ _ _, bit_val]
  rfl

/-! ## The tables' high and low parts, and the one-hot collapse -/

theorem hi2_apply (x2 : Vec Ideal S51x16 .f32) (j : S51x16.Idx) : k1_pay5 (F := Ideal) x2 j = x2 j := by
  unfold k1_pay5 k1_pay3
  show shapeCast S51x16 x2 _ j = _
  rw [shapeCast_self]

theorem lo2_apply (x2 : Vec Ideal S51x16 .f32) (j : S51x16.Idx) : k1_pay6 (F := Ideal) x2 j = x2 j - x2 j := by
  unfold k1_pay6 k1_pay3
  show shapeCast S51x16 x2 _ j - shapeCast S51x16 x2 _ j = _
  rw [shapeCast_self]

theorem hi3_apply (x3 : Vec Ideal S51x1 .f32) (j : S51x1.Idx) : k1_pay7 (F := Ideal) x3 j = x3 j := by
  unfold k1_pay7 k1_pay4
  show shapeCast S51x1 x3 _ j = _
  rw [shapeCast_self]

theorem lo3_apply (x3 : Vec Ideal S51x1 .f32) (j : S51x1.Idx) : k1_pay8 (F := Ideal) x3 j = x3 j - x3 j := by
  unfold k1_pay8 k1_pay4
  show shapeCast S51x1 x3 _ j - shapeCast S51x1 x3 _ j = _
  rw [shapeCast_self]

/-- A real number minus itself is zero (not so at the infinities). -/
theorem sub_self_real {x : EReal} (h : ∃ r : ℝ, x = (r : EReal)) : x - x = 0 := by
  obtain ⟨r, rfl⟩ := h
  rw [← EReal.coe_sub, sub_self]; rfl

/-- A sum against the one-hot column of a word keeps the word's entry, or nothing for a word that names no label. -/
theorem oh_collapse (g : Fin 51 → EReal) (wd : BitVec 32) :
    ∑ l : Fin 51, g l * Cert.Spec.oh wd l.val = if h : wd.toNat < 51 then g ⟨wd.toNat, h⟩ else 0 := by
  by_cases h : wd.toNat < 51
  · rw [dif_pos h, Finset.sum_eq_single (⟨wd.toNat, h⟩ : Fin 51)]
    · unfold Cert.Spec.oh
      rw [if_pos (by simp), mul_one]
    · intro l _ hl
      unfold Cert.Spec.oh
      rw [if_neg, mul_zero]
      intro e
      apply hl
      apply Fin.ext
      show l.val = wd.toNat
      have hl' := l.isLt
      rw [e, BitVec.toNat_ofNat]
      omega
    · intro h'; exact absurd (Finset.mem_univ _) h'
  · rw [dif_neg h]
    refine Finset.sum_eq_zero fun l _ => ?_
    unfold Cert.Spec.oh
    rw [if_neg, mul_zero]
    intro e
    apply h
    have hl' := l.isLt
    rw [e, BitVec.toNat_ofNat]
    omega

/-- The low parts contribute nothing. -/
theorem oh_collapse_zero (g : Fin 51 → EReal) (hg : ∀ l, ∃ r : ℝ, g l = (r : EReal)) (wd : BitVec 32) :
    ∑ l : Fin 51, (g l - g l) * Cert.Spec.oh wd l.val = 0 :=
  Finset.sum_eq_zero fun l _ => by rw [sub_self_real (hg l), zero_mul]

/-! ## The cosine row at an index -/

/-- The cosine of one voxel from its label word and its channel vector, against the two tables. -/
def cosC (M : Cert.Spec.MArr) (Nn : Cert.Spec.NArr) (wd : BitVec 32) (pv : Fin 16 → EReal) : EReal :=
  Ideal.div (∑ c : Fin 16, pv c * Cert.Spec.rowOf M wd c)
    (max (Ideal.sqrt (∑ c : Fin 16, pv c * pv c) * Cert.Spec.entryOf Nn wd) Cert.Spec.eps)

section Cos
variable (x2 : Vec Ideal S51x16 .f32) (x3 : Vec Ideal S51x1 .f32) (w : Vec Ideal S1x1x8192 .i32) (p : Vec Ideal S1x16x8192 .f32)

/-- The mean vector the one-hot matrix looks up: high and low products. -/
theorem mvox_apply (h2 : ∀ j, ∃ r : ℝ, x2 j = (r : EReal)) (c : Fin 16) (j : Fin 8192) :
    addf (matmul dot_S51x16_S51x8192_S16x8192_0_0_1_1_n_n none (k1_pay5 (F := Ideal) x2) (ohV w) (constant (F := Ideal) S16x8192 .f32 0x00000000#32))
        (matmul dot_S51x16_S51x8192_S16x8192_0_0_1_1_n_n none (k1_pay6 (F := Ideal) x2) (ohV w) (constant (F := Ideal) S16x8192 .f32 0x00000000#32))
        (ix2 c j)
      = Cert.Spec.rowOf x2 (w (ix3 0 0 j)) c := by
  rw [addf_apply, mm16_apply, mm16_apply]
  simp only [hi2_apply, lo2_apply, oh_apply]
  have e1 := oh_collapse (fun l => x2 (ix2 l c)) (w (ix3 0 0 j))
  have e2 := oh_collapse_zero (fun l => x2 (ix2 l c)) (fun l => h2 _) (w (ix3 0 0 j))
  beta_reduce at e1 e2
  rw [e1, e2, add_zero]
  rfl

/-- The looked-up norm. -/
theorem mn_apply (h3 : ∀ j, ∃ r : ℝ, x3 j = (r : EReal)) (j : Fin 8192) :
    k1_pay11 (F := Ideal) x3 w (ix2 (0 : Fin 1) j) = Cert.Spec.entryOf x3 (w (ix3 0 0 j)) := by
  show addf (matmul dot_S51x1_S51x8192_S1x8192_0_0_1_1_n_n none (k1_pay7 (F := Ideal) x3) (ohV w) (constant (F := Ideal) S1x8192 .f32 0x00000000#32))
        (matmul dot_S51x1_S51x8192_S1x8192_0_0_1_1_n_n none (k1_pay8 (F := Ideal) x3) (ohV w) (constant (F := Ideal) S1x8192 .f32 0x00000000#32))
        (ix2 (0 : Fin 1) j) = _
  rw [addf_apply, mm1_apply, mm1_apply]
  simp only [hi3_apply, lo3_apply, oh_apply]
  have e1 := oh_collapse (fun l => x3 (ix2 l (0 : Fin 1))) (w (ix3 0 0 j))
  have e2 := oh_collapse_zero (fun l => x3 (ix2 l (0 : Fin 1))) (fun l => h3 _) (w (ix3 0 0 j))
  beta_reduce at e1 e2
  rw [e1, e2, add_zero]
  rfl

theorem p12_apply (c : Fin 16) (j : Fin 8192) : k1_pay12 (F := Ideal) p (ix2 c j) = p (ix3 0 c j) := by
  unfold k1_pay12
  exact shapeCast_apply p _ (ix2 c j) (ix3 (0 : Fin 1) c j) (by
    rw [Shape.rowMajor_val_three, Shape.rowMajor_val_two]
    show (0 * 16 + c.val) * 8192 + j.val = c.val * 8192 + j.val
    omega)

/-- A sum over the 16 channels of a 16 × 8192 array, at a voxel. -/
theorem red16_apply (v : FVec Ideal S16x8192 .f32) (hφ : FKind.Formats .f32)
    (hacc : (0x00000000#32 : BitVec 32) = FKind.add.neutral .f32 hφ) (j : Fin 8192) :
    multiReduction (F := Ideal) .add [0] S8192 v 0x00000000#32 Facts₀.reduces_S16x8192_S8192 hφ hacc (ix1 j)
      = ∑ c : Fin 16, v (ix2 c j) :=
  (Ideal.multiReduction_add_single v 0x00000000#32 Facts₀.reduces_S16x8192_S8192 hφ hacc (ix1 j)).trans
    (Finset.sum_congr rfl fun c _ => congrArg v (by funext a; match a with | ⟨0, _⟩ => rfl | ⟨1, _⟩ => rfl))

theorem row_apply (v : FVec Ideal S8192 .f32) (j : Fin 8192) :
    shapeCast S1x8192 v Facts₀.shapeCasts_S8192_S1x8192 (ix2 (0 : Fin 1) j) = v (ix1 j) :=
  shapeCast_apply v _ (ix2 (0 : Fin 1) j) (ix1 j) (by
    rw [Shape.rowMajor_val_one, Shape.rowMajor_val_two]; show j.val = 0 * 8192 + j.val; omega)

/-- The dot product of a voxel with its label's mean. -/
theorem dot_apply (h2 : ∀ j, ∃ r : ℝ, x2 j = (r : EReal)) (j : Fin 8192) :
    k1_pay13 (F := Ideal) x2 w p (ix2 (0 : Fin 1) j) = ∑ c : Fin 16, p (ix3 0 c j) * Cert.Spec.rowOf x2 (w (ix3 0 0 j)) c := by
  show shapeCast S1x8192 (multiReduction (F := Ideal) .add [0] S8192 (mulf (k1_pay12 (F := Ideal) p)
      (addf (matmul dot_S51x16_S51x8192_S16x8192_0_0_1_1_n_n none (k1_pay5 (F := Ideal) x2) (ohV w) (constant (F := Ideal) S16x8192 .f32 0x00000000#32))
        (matmul dot_S51x16_S51x8192_S16x8192_0_0_1_1_n_n none (k1_pay6 (F := Ideal) x2) (ohV w) (constant (F := Ideal) S16x8192 .f32 0x00000000#32))))
      0x00000000#32 Facts₀.reduces_S16x8192_S8192 (.inl rfl) rfl) Facts₀.shapeCasts_S8192_S1x8192 (ix2 (0 : Fin 1) j) = _
  rw [row_apply]
  refine (red16_apply _ _ _ j).trans ?_
  refine Finset.sum_congr rfl fun c _ => ?_
  rw [mulf_apply, mvox_apply x2 w h2 c j, p12_apply]

/-- The squared norm of a voxel. -/
theorem pn2_apply (j : Fin 8192) :
    k1_pay14 (F := Ideal) p (ix1 j) = ∑ c : Fin 16, p (ix3 0 c j) * p (ix3 0 c j) := by
  unfold k1_pay14
  refine (red16_apply _ _ _ j).trans ?_
  refine Finset.sum_congr rfl fun c _ => ?_
  rw [mulf_apply, p12_apply]

/-- The cosine row at a voxel. -/
theorem cos_apply (h2 : ∀ j, ∃ r : ℝ, x2 j = (r : EReal)) (h3 : ∀ j, ∃ r : ℝ, x3 j = (r : EReal)) (j : Fin 8192) :
    cosV (F := Ideal) x2 x3 w p (ix2 (0 : Fin 1) j) = cosC x2 x3 (w (ix3 0 0 j)) (fun c => p (ix3 0 c j)) := by
  show divf (k1_pay13 (F := Ideal) x2 w p)
      (maximumf (mulf (sqrt (shapeCast S1x8192 (k1_pay14 (F := Ideal) p) Facts₀.shapeCasts_S8192_S1x8192)) (k1_pay11 (F := Ideal) x3 w))
        (broadcast S1x8192 (Scalar.ofBits (F := Ideal) .f32 0x322BCC77#32))) (ix2 (0 : Fin 1) j) = _
  rw [divf_apply, maximumf_apply, mulf_apply, broadcast_apply, dot_apply x2 w p h2, mn_apply x3 w h3]
  show Ideal.div _ (max (Ideal.sqrt (shapeCast S1x8192 (k1_pay14 (F := Ideal) p) Facts₀.shapeCasts_S8192_S1x8192 (ix2 (0 : Fin 1) j)) * _) _) = _
  rw [row_apply, pn2_apply]
  rfl

end Cos

/-! ## Every cosine is a real number -/

theorem real_mul {a b : EReal} (ha : ∃ r : ℝ, a = (r : EReal)) (hb : ∃ r : ℝ, b = (r : EReal)) : ∃ r : ℝ, a * b = (r : EReal) := by
  obtain ⟨x, rfl⟩ := ha; obtain ⟨y, rfl⟩ := hb; exact ⟨x * y, (EReal.coe_mul x y).symm⟩

theorem coe_sum {ι : Type*} (s : Finset ι) (q : ι → ℝ) : ((∑ i ∈ s, q i : ℝ) : EReal) = ∑ i ∈ s, (q i : EReal) := by
  classical
  induction s using Finset.induction_on with
  | empty => simp
  | insert a s ha ih => rw [Finset.sum_insert ha, Finset.sum_insert ha, EReal.coe_add, ih]

theorem real_sum {ι : Type*} (s : Finset ι) (f : ι → EReal) (h : ∀ i, ∃ r : ℝ, f i = (r : EReal)) :
    ∃ r : ℝ, ∑ i ∈ s, f i = (r : EReal) := by
  choose q hq using h
  exact ⟨∑ i ∈ s, q i, by rw [coe_sum]; exact Finset.sum_congr rfl fun i _ => hq i⟩

theorem coe_max' (x y : ℝ) : max (x : EReal) (y : EReal) = ((max x y : ℝ) : EReal) :=
  (EReal.coe_strictMono.monotone.map_max).symm

/-- The word 0x322BCC77 is a positive real number. -/
theorem eps_real : ∃ e : ℝ, 0 < e ∧ Cert.Spec.eps = (e : EReal) := by
  have h1 : ((0x322BCC77#32 : BitVec 32).extractLsb' 23 8).toNat = 100 := by decide
  have h2 : ((0x322BCC77#32 : BitVec 32).extractLsb' 0 23).toNat = 2870391 := by decide
  have h3 : ((0x322BCC77#32 : BitVec 32).extractLsb' (8 + 23) 1 == 1#1) = false := by decide
  refine ⟨(1 : ℝ) * ((2 ^ 23 + 2870391 : ℕ) : ℝ) * (2 : ℝ) ^ (((100 : ℕ) : ℤ) - (2 ^ (8 - 1) - 1) - (23 : ℕ)), by positivity, ?_⟩
  unfold Cert.Spec.eps Ideal.ofBits
  show Ideal.ieee 8 23 (0x322BCC77#32 : BitVec 32) = _
  unfold Ideal.ieee
  simp only [h1, h2, h3]
  norm_num

theorem rowOf_real (M : Cert.Spec.MArr) (hM : ∀ j, ∃ r : ℝ, M j = (r : EReal)) (wd : BitVec 32) (c : Fin 16) :
    ∃ r : ℝ, Cert.Spec.rowOf M wd c = (r : EReal) := by
  unfold Cert.Spec.rowOf
  by_cases h : wd.toNat < 51
  · rw [dif_pos h]; exact hM _
  · rw [dif_neg h]; exact ⟨0, rfl⟩

theorem entryOf_real (Nn : Cert.Spec.NArr) (hN : ∀ j, ∃ r : ℝ, Nn j = (r : EReal)) (wd : BitVec 32) :
    ∃ r : ℝ, Cert.Spec.entryOf Nn wd = (r : EReal) := by
  unfold Cert.Spec.entryOf
  by_cases h : wd.toNat < 51
  · rw [dif_pos h]; exact hN _
  · rw [dif_neg h]; exact ⟨0, rfl⟩

theorem cosC_real (M : Cert.Spec.MArr) (Nn : Cert.Spec.NArr) (wd : BitVec 32) (pv : Fin 16 → EReal)
    (hM : ∀ j, ∃ r : ℝ, M j = (r : EReal)) (hN : ∀ j, ∃ r : ℝ, Nn j = (r : EReal)) (hp : ∀ c, ∃ r : ℝ, pv c = (r : EReal)) :
    ∃ r : ℝ, cosC M Nn wd pv = (r : EReal) := by
  obtain ⟨e, he0, he⟩ := eps_real
  obtain ⟨a, ha⟩ := real_sum Finset.univ (fun c : Fin 16 => pv c * Cert.Spec.rowOf M wd c) (fun c => real_mul (hp c) (rowOf_real M hM wd c))
  obtain ⟨n, hn⟩ := entryOf_real Nn hN wd
  choose q hq using hp
  have hs : ∑ c : Fin 16, pv c * pv c = ((∑ c : Fin 16, q c * q c : ℝ) : EReal) := by
    rw [coe_sum]; exact Finset.sum_congr rfl fun c _ => by rw [hq c, EReal.coe_mul]
  have hs0 : 0 ≤ ∑ c : Fin 16, q c * q c := Finset.sum_nonneg fun c _ => mul_self_nonneg _
  unfold cosC
  rw [ha, hs, hn, he, Ideal.sqrt_coe, if_neg (not_lt.mpr hs0), ← EReal.coe_mul, coe_max',
    Ideal.div_coe (ne_of_gt (lt_of_lt_of_le he0 (le_max_right _ _))), ← EReal.coe_mul]
  exact ⟨_, rfl⟩

/-! ## One chunk's contribution at a label -/

theorem part_apply (cs : FVec Ideal S1x8192 .f32) (oh : FVec Ideal S51x8192 .bf16)
    (hcs : ∀ j : Fin 8192, ∃ r : ℝ, cs (ix2 (0 : Fin 1) j) = (r : EReal)) (l : Fin 51) :
    partV cs oh (ix2 (0 : Fin 1) l) = ∑ j : Fin 8192, cs (ix2 (0 : Fin 1) j) * oh (ix2 l j) := by
  unfold partV
  rw [addf_apply, mmv_apply, mmv_apply]
  simp only [truncf_apply, subf_apply]
  have e : ∑ j : Fin 8192, (cs (ix2 (0 : Fin 1) j) - cs (ix2 (0 : Fin 1) j)) * oh (ix2 l j) = 0 :=
    Finset.sum_eq_zero fun j _ => by rw [sub_self_real (hcs j), zero_mul]
  rw [e, add_zero]

theorem chunk_apply (x2 : Vec Ideal S51x16 .f32) (x3 : Vec Ideal S51x1 .f32) (w : Vec Ideal S1x1x8192 .i32) (p : Vec Ideal S1x16x8192 .f32)
    (h2 : ∀ j, ∃ r : ℝ, x2 j = (r : EReal)) (h3 : ∀ j, ∃ r : ℝ, x3 j = (r : EReal)) (hp : ∀ j, ∃ r : ℝ, p j = (r : EReal)) (l : Fin 51) :
    chunkV (F := Ideal) x2 x3 w p (ix2 (0 : Fin 1) l)
      = ∑ j : Fin 8192, cosC x2 x3 (w (ix3 0 0 j)) (fun c => p (ix3 0 c j)) * Cert.Spec.oh (w (ix3 0 0 j)) l.val := by
  unfold chunkV
  rw [part_apply _ _ (fun j => by rw [cos_apply x2 x3 w p h2 h3 j]; exact cosC_real _ _ _ _ h2 h3 (fun c => hp _)) l]
  refine Finset.sum_congr rfl fun j _ => ?_
  rw [cos_apply x2 x3 w p h2 h3 j, oh_apply]

/-! ## A chunk read out of the block, and the eight chunks joined -/

theorem ldW_apply (x1 : Vec Ideal S1x1x65536 .i32) (K : ℕ)
    (inb : ∀ a, (![0, 0, K] : Fin 3 → ℕ) a + S1x1x8192.size a ≤ S1x1x65536.size a) (j : Fin 8192) :
    View.ld x1 (Rect.unit ![0, 0, K] S1x1x8192.size inb) (ix3 (0 : Fin 1) (0 : Fin 1) j) = Cert.Spec.bI x1 (K + j.val) := by
  have h : K + 8192 ≤ 65536 := inb 2
  have hj := j.isLt
  have hK : K + j.val < 65536 := by omega
  unfold Cert.Spec.bI
  rw [dif_pos hK]
  show x1 _ = x1 _
  congr 1
  funext a
  apply Fin.ext
  match a with
  | ⟨0, _⟩ => rfl
  | ⟨1, _⟩ => rfl
  | ⟨2, _⟩ => show K + 1 * j.val = K + j.val; omega

theorem ldP_apply (x0 : Vec Ideal S1x16x65536 .f32) (K : ℕ)
    (inb : ∀ a, (![0, 0, K] : Fin 3 → ℕ) a + S1x16x8192.size a ≤ S1x16x65536.size a) (c : Fin 16) (j : Fin 8192) :
    View.ld x0 (Rect.unit ![0, 0, K] S1x16x8192.size inb) (ix3 (0 : Fin 1) c j) = Cert.Spec.bP x0 c (K + j.val) := by
  have h : K + 8192 ≤ 65536 := inb 2
  have hj := j.isLt
  have hK : K + j.val < 65536 := by omega
  unfold Cert.Spec.bP
  rw [dif_pos hK]
  show x0 _ = x0 _
  congr 1
  funext a
  apply Fin.ext
  match a with
  | ⟨0, _⟩ => rfl
  | ⟨1, _⟩ => show 0 + 1 * c.val = c.val; omega
  | ⟨2, _⟩ => show K + 1 * j.val = K + j.val; omega

/-- The chunk at offset `K` of the block: its contribution is the block's cosines of the voxels `K … K + 8191`
    summed over the label's voxels among them. -/
theorem chunk_block (x0 : Vec Ideal S1x16x65536 .f32) (x1 : Vec Ideal S1x1x65536 .i32) (x2 : Vec Ideal S51x16 .f32) (x3 : Vec Ideal S51x1 .f32)
    (h0 : ∀ j, ∃ r : ℝ, x0 j = (r : EReal)) (h2 : ∀ j, ∃ r : ℝ, x2 j = (r : EReal)) (h3 : ∀ j, ∃ r : ℝ, x3 j = (r : EReal)) (K : ℕ)
    (inb1 : ∀ a, (![0, 0, K] : Fin 3 → ℕ) a + S1x1x8192.size a ≤ S1x1x65536.size a)
    (inb0 : ∀ a, (![0, 0, K] : Fin 3 → ℕ) a + S1x16x8192.size a ≤ S1x16x65536.size a) (l : Fin 51) :
    chunkV (F := Ideal) x2 x3 (View.ld x1 (Rect.unit ![0, 0, K] S1x1x8192.size inb1))
        (View.ld x0 (Rect.unit ![0, 0, K] S1x16x8192.size inb0)) (ix2 (0 : Fin 1) l)
      = ∑ j ∈ Finset.range 8192, Cert.Spec.cosBlk x0 x1 x2 x3 (K + j) * Cert.Spec.oh (Cert.Spec.bI x1 (K + j)) l.val := by
  refine (chunk_apply x2 x3 (View.ld x1 (Rect.unit ![0, 0, K] S1x1x8192.size inb1))
    (View.ld x0 (Rect.unit ![0, 0, K] S1x16x8192.size inb0)) h2 h3 (fun j => h0 _) l).trans ?_
  rw [← Fin.sum_univ_eq_sum_range (fun n => Cert.Spec.cosBlk x0 x1 x2 x3 (K + n) * Cert.Spec.oh (Cert.Spec.bI x1 (K + n)) l.val) 8192]
  refine Finset.sum_congr rfl fun j _ => ?_
  rw [ldW_apply]
  exact congrArg (fun pv => cosC x2 x3 (Cert.Spec.bI x1 (K + j.val)) pv * Cert.Spec.oh (Cert.Spec.bI x1 (K + j.val)) l.val)
    (funext fun c => ldP_apply x0 K inb0 c j)

theorem sum8 (f : ℕ → EReal) :
    ∑ n ∈ Finset.range 65536, f n
      = 0 + (∑ j ∈ Finset.range 8192, f (0 + j)) + (∑ j ∈ Finset.range 8192, f (8192 + j))
        + (∑ j ∈ Finset.range 8192, f (16384 + j)) + (∑ j ∈ Finset.range 8192, f (24576 + j))
        + (∑ j ∈ Finset.range 8192, f (32768 + j)) + (∑ j ∈ Finset.range 8192, f (40960 + j))
        + (∑ j ∈ Finset.range 8192, f (49152 + j)) + (∑ j ∈ Finset.range 8192, f (57344 + j)) := by
  have e : (65536 : ℕ) = 0 + 8192 + 8192 + 8192 + 8192 + 8192 + 8192 + 8192 + 8192 := by norm_num
  rw [e, Finset.sum_range_add, Finset.sum_range_add, Finset.sum_range_add, Finset.sum_range_add, Finset.sum_range_add,
    Finset.sum_range_add, Finset.sum_range_add, Finset.sum_range_add, Finset.sum_range_zero]

/-! ## The body's output block -/

theorem hz3 : (![0, 0, 0] : Fin 3 → Nat) = fun _ => 0 := funext fun a => by fin_cases a <;> rfl
theorem hz2 : (![0, 0] : Fin 2 → Nat) = fun _ => 0 := funext fun a => by fin_cases a <;> rfl

theorem acc0_apply (l : Fin 51) : k1_pay9 (F := Ideal) (ix2 (0 : Fin 1) l) = 0 := by
  unfold k1_pay9
  show Ideal.ofBits .f32 0x00000000#32 = 0
  exact Ideal.ofBits_zero_f32

theorem cast_out_apply (v : FVec Ideal S1x51 .f32) (l : Fin 51) :
    shapeCast S1x1x51 v Facts₀.shapeCasts_S1x51_S1x1x51 (ix3 (0 : Fin 1) (0 : Fin 1) l) = v (ix2 (0 : Fin 1) l) :=
  shapeCast_apply v _ (ix3 (0 : Fin 1) (0 : Fin 1) l) (ix2 (0 : Fin 1) l) (by
    rw [Shape.rowMajor_val_three, Shape.rowMajor_val_two]; rfl)

theorem cast_in_apply (v : Vec Ideal S1x1x51 .f32) (l : Fin 51) :
    shapeCast S1x51 v Facts₀.shapeCasts_S1x1x51_S1x51 (ix2 (0 : Fin 1) l) = v (ix3 (0 : Fin 1) (0 : Fin 1) l) :=
  shapeCast_apply v _ (ix2 (0 : Fin 1) l) (ix3 (0 : Fin 1) (0 : Fin 1) l) (by
    rw [Shape.rowMajor_val_three, Shape.rowMajor_val_two]; rfl)

/-- A later step of a batch element: the block's running contents plus this block's per-label sums of cosines. -/
theorem out1_B_4_apply (c : Dev nD) (i : grid1.Coords) (arg2 : Memref sig .tc .vmem S1x16x65536 .f32) (harg2 : arg2.IsWhole) (arg3 : Memref sig .tc .vmem S1x1x65536 .i32) (harg3 : arg3.IsWhole) (arg4 : Memref sig .tc .vmem S51x16 .f32) (harg4 : arg4.IsWhole) (arg5 : Memref sig .tc .vmem S51x1 .f32) (harg5 : arg5.IsWhole) (arg6 : Memref sig .tc .vmem S1x1x51 .f32) (harg6 : arg6.IsWhole) (hc0 : ¬cond1_0 i)
    (x0 : Vec Ideal S1x16x65536 .f32) (x1 : Vec Ideal S1x1x65536 .i32) (x2 : Vec Ideal S51x16 .f32) (x3 : Vec Ideal S51x1 .f32)
    (xo4 : Vec Ideal S1x1x51 .f32)
    (h0 : ∀ j, ∃ r : ℝ, x0 j = (r : EReal)) (h2 : ∀ j, ∃ r : ℝ, x2 j = (r : EReal)) (h3 : ∀ j, ∃ r : ℝ, x3 j = (r : EReal)) (l : Fin 51) :
    out1_B_4 (F := Ideal) c i arg2 harg2 arg3 harg3 arg4 harg4 arg5 harg5 arg6 harg6 hc0 x0 x1 x2 x3 xo4 (ix3 0 0 l)
      = xo4 (ix3 0 0 l) + ∑ n ∈ Finset.range 65536, Cert.Spec.cosBlk x0 x1 x2 x3 n * Cert.Spec.oh (Cert.Spec.bI x1 n) l.val := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero hz3]
  simp only [View.readAt_eq_ld, harg2.read_unread, harg3.read_unread, harg4.read_unread, harg5.read_unread, harg6.read_unread,
    View.ld_unit_zero (S := S51x16) hz2, View.ld_unit_zero (S := S51x1) hz2, View.ld_unit_zero (S := S1x1x51) hz3]
  rw [chunk0_eq, chunk12_eq, chunk3_eq, chunk4_eq, chunk5_eq, chunk6_eq, chunk7_eq, cast_out_apply]
  simp only [addf_apply]
  rw [cast_in_apply, acc0_apply, chunk_block x0 x1 x2 x3 h0 h2 h3 0, chunk_block x0 x1 x2 x3 h0 h2 h3 8192,
    chunk_block x0 x1 x2 x3 h0 h2 h3 16384, chunk_block x0 x1 x2 x3 h0 h2 h3 24576, chunk_block x0 x1 x2 x3 h0 h2 h3 32768,
    chunk_block x0 x1 x2 x3 h0 h2 h3 40960, chunk_block x0 x1 x2 x3 h0 h2 h3 49152, chunk_block x0 x1 x2 x3 h0 h2 h3 57344,
    sum8 (fun n => Cert.Spec.cosBlk x0 x1 x2 x3 n * Cert.Spec.oh (Cert.Spec.bI x1 n) l.val)]

theorem zero_apply (l : Fin 51) : k1_pay2 (F := Ideal) (ix3 (0 : Fin 1) (0 : Fin 1) l) = 0 := by
  unfold k1_pay2
  rw [cast_out_apply]
  show Ideal.ofBits .f32 0x00000000#32 = 0
  exact Ideal.ofBits_zero_f32

/-- The first step of a batch element: the block is zeroed first, so it ends at this block's per-label sums of cosines. -/
theorem out1_A_4_apply (c : Dev nD) (i : grid1.Coords) (arg2 : Memref sig .tc .vmem S1x16x65536 .f32) (harg2 : arg2.IsWhole) (arg3 : Memref sig .tc .vmem S1x1x65536 .i32) (harg3 : arg3.IsWhole) (arg4 : Memref sig .tc .vmem S51x16 .f32) (harg4 : arg4.IsWhole) (arg5 : Memref sig .tc .vmem S51x1 .f32) (harg5 : arg5.IsWhole) (arg6 : Memref sig .tc .vmem S1x1x51 .f32) (harg6 : arg6.IsWhole) (hc0 : cond1_0 i)
    (x0 : Vec Ideal S1x16x65536 .f32) (x1 : Vec Ideal S1x1x65536 .i32) (x2 : Vec Ideal S51x16 .f32) (x3 : Vec Ideal S51x1 .f32)
    (h0 : ∀ j, ∃ r : ℝ, x0 j = (r : EReal)) (h2 : ∀ j, ∃ r : ℝ, x2 j = (r : EReal)) (h3 : ∀ j, ∃ r : ℝ, x3 j = (r : EReal)) (l : Fin 51) :
    out1_A_4 (F := Ideal) c i arg2 harg2 arg3 harg3 arg4 harg4 arg5 harg5 arg6 harg6 hc0 x0 x1 x2 x3 (ix3 0 0 l)
      = ∑ n ∈ Finset.range 65536, Cert.Spec.cosBlk x0 x1 x2 x3 n * Cert.Spec.oh (Cert.Spec.bI x1 n) l.val := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S1x1x51) hz3, View.readCov_unit_zero (S := S1x1x51) _ hz3]
  simp only [View.readAt_eq_ld, harg2.read_unread, harg3.read_unread, harg4.read_unread, harg5.read_unread,
    View.ld_unit_zero (S := S51x16) hz2, View.ld_unit_zero (S := S51x1) hz2]
  rw [chunk0_eq, chunk12_eq, chunk3_eq, chunk4_eq, chunk5_eq, chunk6_eq, chunk7_eq, cast_out_apply]
  simp only [addf_apply]
  rw [cast_in_apply, zero_apply, acc0_apply, chunk_block x0 x1 x2 x3 h0 h2 h3 0, chunk_block x0 x1 x2 x3 h0 h2 h3 8192,
    chunk_block x0 x1 x2 x3 h0 h2 h3 16384, chunk_block x0 x1 x2 x3 h0 h2 h3 24576, chunk_block x0 x1 x2 x3 h0 h2 h3 32768,
    chunk_block x0 x1 x2 x3 h0 h2 h3 40960, chunk_block x0 x1 x2 x3 h0 h2 h3 49152, chunk_block x0 x1 x2 x3 h0 h2 h3 57344,
    sum8 (fun n => Cert.Spec.cosBlk x0 x1 x2 x3 n * Cert.Spec.oh (Cert.Spec.bI x1 n) l.val), zero_add]

end Cert.KernelIdeal.Body1

end
-- ==== Proof.KReg1.lean ====
/-
  Region 1, from the body's values to the result array.

  The second pass walks a grid of 2 × 32 points; point t = 32·b + i reads voxels 65536·i … 65536·(i + 1) − 1 of batch
  element b (16 channels and the label words) and both tables whole, and keeps in a (1, 1, 51) block one running sum per
  label: it is started at i = 0 and added into at i > 0, and written to block (b, 0, 0) of the (2, 1, 51) result after
  i = 31. Given what one point's body adds (the hypotheses HA4, HB4: the block's cosines summed over the block's voxels
  that carry the label), the running sum after point t is the prefix sum over the first 65536·(i + 1) voxels of batch
  element b (induction on the point), so the result array at (b, 0, l) is the sum over all 2097152 voxels of b.
-/
import proofs.«411761_j45466523796029_3_alg».proof.Proof.Gen.KernelIdeal.Frame
import proofs.«411761_j45466523796029_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
noncomputable section
open Idealize.ShloMosaic Idealize.ShloMosaic.TcCoe Idealize.SL.Sem
open Idealize.ShloMosaic.Pipeline (Dat)

namespace Cert.KernelIdeal.Reg1
open Cert.KernelIdeal Cert.KernelIdeal.Gen Idealize.ShloMosaic.ValueIdx

variable (V : (c : Dev nD) → (b : Ref sig .tc) → Buf (Elt Ideal) ((c : Thread nD τ).loc b))

/-- The arrays region 1 reads, at their literal index types. -/
abbrev PV (c : Dev nD) : Cert.Spec.PArr := V c main_v0
abbrev IV (c : Dev nD) : Cert.Spec.IArr := V c main_v1
abbrev MV (c : Dev nD) : Cert.Spec.MArr := V c main_v10
abbrev NV' (c : Dev nD) : Cert.Spec.NArr := V c main_v11

/-- The four input blocks of a point, at their literal types. -/
abbrev xblk0 (c : Dev nD) (t : Fin cfg1.N) : Vec Ideal S1x16x65536 .f32 := iblk1 V c 0 t
abbrev xblk1 (c : Dev nD) (t : Fin cfg1.N) : Vec Ideal S1x1x65536 .i32 := iblk1 V c 1 t
abbrev xblk2 (c : Dev nD) (t : Fin cfg1.N) : Vec Ideal S51x16 .f32 := iblk1 V c 2 t
abbrev xblk3 (c : Dev nD) (t : Fin cfg1.N) : Vec Ideal S51x1 .f32 := iblk1 V c 3 t

/-- The block indices of the five windows at point t = 32·b + i: (b, 0, i), (b, 0, i), (0, 0), (0, 0), (b, 0, 0). -/
theorem idx0 : ∀ t : Fin grid1.N, win1_0.index t 0 = t.val / 32 ∧ win1_0.index t 1 = 0 ∧ win1_0.index t 2 = t.val % 32 := by decide +kernel
theorem idx1 : ∀ t : Fin grid1.N, win1_1.index t 0 = t.val / 32 ∧ win1_1.index t 1 = 0 ∧ win1_1.index t 2 = t.val % 32 := by decide +kernel
theorem idx2 : ∀ t : Fin grid1.N, win1_2.index t 0 = 0 ∧ win1_2.index t 1 = 0 := by decide +kernel
theorem idx3 : ∀ t : Fin grid1.N, win1_3.index t 0 = 0 ∧ win1_3.index t 1 = 0 := by decide +kernel
theorem idx4 : ∀ t : Fin grid1.N, win1_4.index t 0 = t.val / 32 ∧ win1_4.index t 1 = 0 ∧ win1_4.index t 2 = 0 := by decide +kernel

/-- A block of the prediction read at (0, ch, n) is the array at (b, ch, 65536·i + n). -/
theorem blk0_apply (c : Dev nD) (t : Fin cfg1.N) (ch : Fin 16) (n : Fin 65536) (b : Fin 2) (hb : b.val = t.val / 32)
    (m : Fin 2097152) (hm : m.val = 65536 * (t.val % 32) + n.val) :
    xblk0 V c t (ix3 0 ch n) = PV V c (ix3 b ch m) := by
  unfold xblk0 iblk1
  rw [View.read_apply]
  show V c main_v0 _ = V c main_v0 _
  congr 1
  funext a
  apply Fin.ext
  match a with
  | ⟨0, _⟩ => show win1_0.index t 0 * 1 + 1 * 0 = b.val; rw [(idx0 t).1]; omega
  | ⟨1, _⟩ => show win1_0.index t 1 * 16 + 1 * ch.val = ch.val; rw [(idx0 t).2.1]; omega
  | ⟨2, _⟩ => show win1_0.index t 2 * 65536 + 1 * n.val = m.val; rw [(idx0 t).2.2]; omega

/-- A block of the label words read at (0, 0, n) is the array at (b, 0, 65536·i + n). -/
theorem blk1_apply (c : Dev nD) (t : Fin cfg1.N) (n : Fin 65536) (b : Fin 2) (hb : b.val = t.val / 32)
    (m : Fin 2097152) (hm : m.val = 65536 * (t.val % 32) + n.val) :
    xblk1 V c t (ix3 0 0 n) = IV V c (ix3 b 0 m) := by
  unfold xblk1 iblk1
  rw [View.read_apply]
  show V c main_v1 _ = V c main_v1 _
  congr 1
  funext a
  apply Fin.ext
  match a with
  | ⟨0, _⟩ => show win1_1.index t 0 * 1 + 1 * 0 = b.val; rw [(idx1 t).1]; omega
  | ⟨1, _⟩ => show win1_1.index t 1 * 1 + 1 * 0 = 0; rw [(idx1 t).2.1]
  | ⟨2, _⟩ => show win1_1.index t 2 * 65536 + 1 * n.val = m.val; rw [(idx1 t).2.2]; omega

/-- The two tables are read whole at every point. -/
theorem blk2_eq (c : Dev nD) (t : Fin cfg1.N) : xblk2 V c t = MV V c := by
  funext j
  unfold xblk2 iblk1
  rw [View.read_apply]
  show V c main_v10 _ = V c main_v10 j
  congr 1
  funext a
  apply Fin.ext
  match a with
  | ⟨0, _⟩ => show win1_2.index t 0 * 51 + 1 * (j 0).val = (j 0).val; rw [(idx2 t).1]; omega
  | ⟨1, _⟩ => show win1_2.index t 1 * 16 + 1 * (j 1).val = (j 1).val; rw [(idx2 t).2]; omega

theorem blk3_eq (c : Dev nD) (t : Fin cfg1.N) : xblk3 V c t = NV' V c := by
  funext j
  unfold xblk3 iblk1
  rw [View.read_apply]
  show V c main_v11 _ = V c main_v11 j
  congr 1
  funext a
  apply Fin.ext
  match a with
  | ⟨0, _⟩ => show win1_3.index t 0 * 51 + 1 * (j 0).val = (j 0).val; rw [(idx3 t).1]; omega
  | ⟨1, _⟩ => show win1_3.index t 1 * 1 + 1 * (j 1).val = (j 1).val; rw [(idx3 t).2]; omega

/-- A block's entries are entries of the array: finite when the array's are. -/
theorem fin0 (c : Dev nD) (hP : ∀ j, ∃ r : ℝ, PV V c j = (r : EReal)) (t : Fin cfg1.N) :
    ∀ j, ∃ r : ℝ, xblk0 V c t j = (r : EReal) := by
  intro j
  unfold xblk0 iblk1
  rw [View.read_apply]
  exact hP _

/-- The block's voxel n is the batch element's voxel 65536·i + n. -/
theorem bP_eq (c : Dev nD) (t : Fin cfg1.N) (b : Fin 2) (hb : b.val = t.val / 32) (ch : Fin 16) (n : ℕ) (hn : n < 65536) :
    Cert.Spec.bP (xblk0 V c t) ch n = Cert.Spec.pAt (PV V c) b ch (65536 * (t.val % 32) + n) := by
  have h2 : 65536 * (t.val % 32) + n < 2097152 := by omega
  unfold Cert.Spec.bP Cert.Spec.pAt
  rw [dif_pos hn, dif_pos h2]
  exact blk0_apply V c t ch ⟨n, hn⟩ b hb ⟨_, h2⟩ rfl

theorem bI_eq (c : Dev nD) (t : Fin cfg1.N) (b : Fin 2) (hb : b.val = t.val / 32) (n : ℕ) (hn : n < 65536) :
    Cert.Spec.bI (xblk1 V c t) n = Cert.Spec.idAt (IV V c) b (65536 * (t.val % 32) + n) := by
  have h2 : 65536 * (t.val % 32) + n < 2097152 := by omega
  unfold Cert.Spec.bI Cert.Spec.idAt
  rw [dif_pos hn, dif_pos h2]
  exact blk1_apply V c t ⟨n, hn⟩ b hb ⟨_, h2⟩ rfl

/-- So the block's cosine at voxel n is the batch element's at voxel 65536·i + n. -/
theorem cosBlk_eq (c : Dev nD) (t : Fin cfg1.N) (b : Fin 2) (hb : b.val = t.val / 32) (n : ℕ) (hn : n < 65536) :
    Cert.Spec.cosBlk (xblk0 V c t) (xblk1 V c t) (xblk2 V c t) (xblk3 V c t) n
      = Cert.Spec.cosGen (PV V c) (IV V c) (MV V c) (NV' V c) b (65536 * (t.val % 32) + n) := by
  unfold Cert.Spec.cosBlk Cert.Spec.cosGen
  rw [blk2_eq, blk3_eq, bI_eq V c t b hb n hn]
  simp only [bP_eq V c t b hb _ n hn]

/-- One point's addend: the block's sum is the next 65536 voxels' sum. -/
theorem step_sum (c : Dev nD) (t : Fin cfg1.N) (b : Fin 2) (hb : b.val = t.val / 32) (l : ℕ) :
    ∑ n ∈ Finset.range 65536, Cert.Spec.cosBlk (xblk0 V c t) (xblk1 V c t) (xblk2 V c t) (xblk3 V c t) n
        * Cert.Spec.oh (Cert.Spec.bI (xblk1 V c t) n) l
      = ∑ n ∈ Finset.range 65536, Cert.Spec.cosGen (PV V c) (IV V c) (MV V c) (NV' V c) b (65536 * (t.val % 32) + n)
        * Cert.Spec.oh (Cert.Spec.idAt (IV V c) b (65536 * (t.val % 32) + n)) l :=
  Finset.sum_congr rfl fun n hn => by
    have hn' : n < 65536 := Finset.mem_range.mp hn
    rw [cosBlk_eq V c t b hb n hn', bI_eq V c t b hb n hn']

variable
  (HB4 : ∀ (c : Dev nD) (i : grid1.Coords) (arg2 : Memref sig .tc .vmem S1x16x65536 .f32) (harg2 : arg2.IsWhole) (arg3 : Memref sig .tc .vmem S1x1x65536 .i32) (harg3 : arg3.IsWhole) (arg4 : Memref sig .tc .vmem S51x16 .f32) (harg4 : arg4.IsWhole) (arg5 : Memref sig .tc .vmem S51x1 .f32) (harg5 : arg5.IsWhole) (arg6 : Memref sig .tc .vmem S1x1x51 .f32) (harg6 : arg6.IsWhole) (hc0 : ¬cond1_0 i) (x0 : Vec Ideal S1x16x65536 .f32) (x1 : Vec Ideal S1x1x65536 .i32) (x2 : Vec Ideal S51x16 .f32) (x3 : Vec Ideal S51x1 .f32) (xo4 : Vec Ideal S1x1x51 .f32), (∀ j, ∃ r : ℝ, x0 j = (r : EReal)) → (∀ j, ∃ r : ℝ, x2 j = (r : EReal)) → (∀ j, ∃ r : ℝ, x3 j = (r : EReal)) → ∀ l : Fin 51,
      out1_B_4 (F := Ideal) c i arg2 harg2 arg3 harg3 arg4 harg4 arg5 harg5 arg6 harg6 hc0 x0 x1 x2 x3 xo4 (ix3 0 0 l) = xo4 (ix3 0 0 l) + ∑ n ∈ Finset.range 65536, Cert.Spec.cosBlk x0 x1 x2 x3 n * Cert.Spec.oh (Cert.Spec.bI x1 n) l.val)
  (HA4 : ∀ (c : Dev nD) (i : grid1.Coords) (arg2 : Memref sig .tc .vmem S1x16x65536 .f32) (harg2 : arg2.IsWhole) (arg3 : Memref sig .tc .vmem S1x1x65536 .i32) (harg3 : arg3.IsWhole) (arg4 : Memref sig .tc .vmem S51x16 .f32) (harg4 : arg4.IsWhole) (arg5 : Memref sig .tc .vmem S51x1 .f32) (harg5 : arg5.IsWhole) (arg6 : Memref sig .tc .vmem S1x1x51 .f32) (harg6 : arg6.IsWhole) (hc0 : cond1_0 i) (x0 : Vec Ideal S1x16x65536 .f32) (x1 : Vec Ideal S1x1x65536 .i32) (x2 : Vec Ideal S51x16 .f32) (x3 : Vec Ideal S51x1 .f32), (∀ j, ∃ r : ℝ, x0 j = (r : EReal)) → (∀ j, ∃ r : ℝ, x2 j = (r : EReal)) → (∀ j, ∃ r : ℝ, x3 j = (r : EReal)) → ∀ l : Fin 51,
      out1_A_4 (F := Ideal) c i arg2 harg2 arg3 harg3 arg4 harg4 arg5 harg5 arg6 harg6 hc0 x0 x1 x2 x3 (ix3 0 0 l) = ∑ n ∈ Finset.range 65536, Cert.Spec.cosBlk x0 x1 x2 x3 n * Cert.Spec.oh (Cert.Spec.bI x1 n) l.val)

include HB4 HA4 in
/-- THE INVARIANT: after point n = 32·b + i the output's staging buffer holds, at label l, the cosines summed over
    the first 65536·(i + 1) voxels of batch element b that carry label l — by induction on the point. -/
theorem outsAt_eq (c : Dev nD) (hP : ∀ j, ∃ r : ℝ, PV V c j = (r : EReal)) (hM : ∀ j, ∃ r : ℝ, MV V c j = (r : EReal))
    (hN : ∀ j, ∃ r : ℝ, NV' V c j = (r : EReal)) :
    ∀ (n : ℕ) (hn : n < cfg1.N) (b : Fin 2) (hb : b.val = n / 32) (l : Fin 51),
      outsAt1 V c n hn (ix3 0 0 l)
        = Cert.Spec.intraGenUpTo (PV V c) (IV V c) (MV V c) (NV' V c) b (65536 * (n % 32 + 1)) l.val := by
  intro n
  induction n with
  | zero =>
    intro hn b hb l
    have h0 : (⟨0, hn⟩ : Fin cfg1.N).val % 32 = 0 := rfl
    have e := outsAt1_A V c ⟨0, hn⟩ h0
    rw [show outsAt1 V c 0 hn = outsAt1 V c (⟨0, hn⟩ : Fin cfg1.N).val (⟨0, hn⟩ : Fin cfg1.N).isLt from rfl, e]
    rw [HA4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      (ms1_3 ⟨0, hn⟩) (hs1_3 ⟨0, hn⟩) (ms1_4 ⟨0, hn⟩) (hs1_4 ⟨0, hn⟩) ((hcond1_0 ⟨0, hn⟩).mpr h0)
      (xblk0 V c ⟨0, hn⟩) (xblk1 V c ⟨0, hn⟩) (xblk2 V c ⟨0, hn⟩) (xblk3 V c ⟨0, hn⟩)
      (fin0 V c hP ⟨0, hn⟩) (by rw [blk2_eq]; exact hM) (by rw [blk3_eq]; exact hN) l]
    rw [step_sum V c ⟨0, hn⟩ b hb l.val]
    unfold Cert.Spec.intraGenUpTo
    refine Finset.sum_congr rfl fun k _ => ?_
    rw [show 65536 * ((⟨0, hn⟩ : Fin cfg1.N).val % 32) + k = k from by show 65536 * (0 % 32) + k = k; omega]
  | succ n ih =>
    intro hn b hb l
    have hN64 : cfg1.N = 64 := N_1
    by_cases h0 : (n + 1) % 32 = 0
    · have h0' : (⟨n + 1, hn⟩ : Fin cfg1.N).val % 32 = 0 := h0
      have e := outsAt1_A V c ⟨n + 1, hn⟩ h0'
      rw [show outsAt1 V c (n + 1) hn = outsAt1 V c (⟨n + 1, hn⟩ : Fin cfg1.N).val (⟨n + 1, hn⟩ : Fin cfg1.N).isLt from rfl, e]
      rw [HA4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (ms1_3 ⟨n + 1, hn⟩) (hs1_3 ⟨n + 1, hn⟩) (ms1_4 ⟨n + 1, hn⟩) (hs1_4 ⟨n + 1, hn⟩) ((hcond1_0 ⟨n + 1, hn⟩).mpr h0')
        (xblk0 V c ⟨n + 1, hn⟩) (xblk1 V c ⟨n + 1, hn⟩) (xblk2 V c ⟨n + 1, hn⟩) (xblk3 V c ⟨n + 1, hn⟩)
        (fin0 V c hP ⟨n + 1, hn⟩) (by rw [blk2_eq]; exact hM) (by rw [blk3_eq]; exact hN) l]
      rw [step_sum V c ⟨n + 1, hn⟩ b hb l.val]
      unfold Cert.Spec.intraGenUpTo
      rw [show 65536 * ((n + 1) % 32 + 1) = 65536 from by omega]
      refine Finset.sum_congr rfl fun k _ => ?_
      rw [show 65536 * ((⟨n + 1, hn⟩ : Fin cfg1.N).val % 32) + k = k from by show 65536 * ((n + 1) % 32) + k = k; omega]
    · have h0' : ¬(⟨n + 1, hn⟩ : Fin cfg1.N).val % 32 = 0 := h0
      have e := outsAt1_B V c ⟨n + 1, hn⟩ h0'
      rw [show outsAt1 V c (n + 1) hn = outsAt1 V c (⟨n + 1, hn⟩ : Fin cfg1.N).val (⟨n + 1, hn⟩ : Fin cfg1.N).isLt from rfl, e]
      refine (HB4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (ms1_3 ⟨n + 1, hn⟩) (hs1_3 ⟨n + 1, hn⟩) (ms1_4 ⟨n + 1, hn⟩) (hs1_4 ⟨n + 1, hn⟩) (fun h => h0' ((hcond1_0 ⟨n + 1, hn⟩).mp h))
        (xblk0 V c ⟨n + 1, hn⟩) (xblk1 V c ⟨n + 1, hn⟩) (xblk2 V c ⟨n + 1, hn⟩) (xblk3 V c ⟨n + 1, hn⟩)
        (outsAt1 V c n (Nat.lt_of_succ_lt hn))
        (fin0 V c hP ⟨n + 1, hn⟩) (by rw [blk2_eq]; exact hM) (by rw [blk3_eq]; exact hN) l).trans ?_
      rw [step_sum V c ⟨n + 1, hn⟩ b hb l.val, ih (Nat.lt_of_succ_lt hn) b (by omega) l]
      rw [show 65536 * ((n + 1) % 32 + 1) = 65536 * (n % 32 + 1) + 65536 from by omega, Cert.Spec.intraGenUpTo_add]
      rw [show 65536 * ((⟨n + 1, hn⟩ : Fin cfg1.N).val % 32) = 65536 * (n % 32 + 1) from by show 65536 * ((n + 1) % 32) = _; omega]

/-- An index of a (1, 1, 51) block is (0, 0, l). -/
theorem eq_ix3_00 (j : (⟨3, ![1, 1, 51]⟩ : Shape).Idx) : j = ix3 0 0 (j 2) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

/-- The prefix sum depends on its length only through its value. -/
theorem intraGen_congr (P : Cert.Spec.PArr) (I : Cert.Spec.IArr) (M : Cert.Spec.MArr) (Nn : Cert.Spec.NArr) (b : Fin 2)
    {N N' : ℕ} (l : ℕ) (hN : N = N') :
    Cert.Spec.intraGenUpTo P I M Nn b N l = Cert.Spec.intraGenUpTo P I M Nn b N' l := by
  subst hN; rfl

/-- Where block (0, 0, l) of the output sits in the result array at point t = 32·b + i: at (b, 0, l). -/
theorem emb4 (t : Fin cfg1.N) (l : Fin 51) (b : Fin 2) (hb : b.val = t.val / 32) :
    ((cfg1.win 4).blk t).view.emb (ix3 0 0 l : S1x1x51.Idx) = (ix3 b 0 l : S2x1x51.Idx) := by
  funext a
  apply Fin.ext
  match a with
  | ⟨0, _⟩ => show win1_4.index t 0 * 1 + 1 * 0 = b.val; rw [(idx4 t).1]; omega
  | ⟨1, _⟩ => show win1_4.index t 1 * 1 + 1 * 0 = 0; rw [(idx4 t).2.1]
  | ⟨2, _⟩ => show win1_4.index t 2 * 51 + 1 * l.val = l.val; rw [(idx4 t).2.2]; omega

include HB4 HA4 in
/-- The write-backs, at the points 32·b + 31, write block (b, 0, 0) of any whole-array function that is, at (b, 0, l),
    the cosines summed over ALL the voxels of batch element b that carry label l: 65536 · 32 voxels are all of them. -/
theorem flushed_eq (c : Dev nD) (hP : ∀ j, ∃ r : ℝ, PV V c j = (r : EReal)) (hM : ∀ j, ∃ r : ℝ, MV V c j = (r : EReal))
    (hN : ∀ j, ∃ r : ℝ, NV' V c j = (r : EReal)) (G : (⟨3, ![2, 1, 51]⟩ : Shape).Idx → EReal)
    (hG : ∀ (b : Fin 2) (l : Fin 51),
      G (ix3 b 0 l) = Cert.Spec.intraGenUpTo (PV V c) (IV V c) (MV V c) (NV' V c) b Cert.Spec.NV l.val)
    (t : Fin cfg1.N) (hf : (cfg1.win 4).flush t = true) :
    (dat1 (F := Ideal) V c).flushed 4 t = ((cfg1.win 4).blk t).view.read (Elt Ideal) G := by
  have hN64 : cfg1.N = 64 := N_1
  have h31 : t.val % 32 = 31 := (flush1_4 t).mp hf
  have ht : t.val < 64 := lt_of_lt_of_eq t.isLt hN64
  funext j
  obtain ⟨l, rfl⟩ : ∃ l : Fin 51, j = (ix3 0 0 l : S1x1x51.Idx) := ⟨_, eq_ix3_00 j⟩
  show (dat1 (F := Ideal) V c).after 4 t (ix3 0 0 l) = _
  rw [after1_4, View.read_apply]
  show _ = G _
  refine Eq.trans ?_ (congrArg G (emb4 t l ⟨t.val / 32, by omega⟩ rfl)).symm
  refine Eq.trans ?_ (hG _ _).symm
  refine (outsAt_eq V HB4 HA4 c hP hM hN t.val t.isLt ⟨t.val / 32, by omega⟩ rfl l).trans ?_
  exact intraGen_congr _ _ _ _ _ _ (by show 65536 * (t.val % 32 + 1) = 2097152; omega)

include HB4 HA4 in
/-- So the result array ends holding that function: the points 32·b + 31 cover it. -/
theorem final_o (c : Dev nD) (hP : ∀ j, ∃ r : ℝ, PV V c j = (r : EReal)) (hM : ∀ j, ∃ r : ℝ, MV V c j = (r : EReal))
    (hN : ∀ j, ∃ r : ℝ, NV' V c j = (r : EReal)) (G : (⟨3, ![2, 1, 51]⟩ : Shape).Idx → EReal)
    (hG : ∀ (b : Fin 2) (l : Fin 51),
      G (ix3 b 0 l) = Cert.Spec.intraGenUpTo (PV V c) (IV V c) (MV V c) (NV' V c) b Cert.Spec.NV l.val) :
    (dat1 (F := Ideal) V c).arrAt 4 cfg1.N = G :=
  (dat1 (F := Ideal) V c).arrAt_eq_of_cover 4 G (flushed_eq V HB4 HA4 c hP hM hN G hG) fun i => by
    have hN64 : cfg1.N = 64 := N_1
    have h0 : (i 0 : Nat) < 2 := (i 0).isLt
    have h1 : (i 1 : Nat) < 1 := (i 1).isLt
    have h2 : (i 2 : Nat) < 51 := (i 2).isLt
    have ht : 32 * (i 0 : Nat) + 31 < cfg1.N := by rw [hN64]; omega
    refine ⟨⟨32 * (i 0 : Nat) + 31, ht⟩, (flush1_4 _).mpr (by show (32 * (i 0 : Nat) + 31) % 32 = 31; omega), ?_⟩
    show i ∈ ((View.whole main_v12).slice (win1_4.rect ⟨32 * (i 0 : Nat) + 31, ht⟩)).set
    rw [View.set_slice_whole, Rect.mem_set_unit]
    intro a
    match a with
    | ⟨0, _⟩ =>
      show win1_4.index ⟨32 * (i 0 : Nat) + 31, ht⟩ 0 * 1 ≤ (i 0 : Nat) ∧ (i 0 : Nat) < win1_4.index ⟨32 * (i 0 : Nat) + 31, ht⟩ 0 * 1 + 1
      rw [(idx4 ⟨32 * (i 0 : Nat) + 31, ht⟩).1]; show (32 * (i 0 : Nat) + 31) / 32 * 1 ≤ (i 0 : Nat) ∧ (i 0 : Nat) < (32 * (i 0 : Nat) + 31) / 32 * 1 + 1; omega
    | ⟨1, _⟩ =>
      show win1_4.index ⟨32 * (i 0 : Nat) + 31, ht⟩ 1 * 1 ≤ (i 1 : Nat) ∧ (i 1 : Nat) < win1_4.index ⟨32 * (i 0 : Nat) + 31, ht⟩ 1 * 1 + 1
      rw [(idx4 ⟨32 * (i 0 : Nat) + 31, ht⟩).2.1]; omega
    | ⟨2, _⟩ =>
      show win1_4.index ⟨32 * (i 0 : Nat) + 31, ht⟩ 2 * 51 ≤ (i 2 : Nat) ∧ (i 2 : Nat) < win1_4.index ⟨32 * (i 0 : Nat) + 31, ht⟩ 2 * 51 + 51
      rw [(idx4 ⟨32 * (i 0 : Nat) + 31, ht⟩).2.2]; omega

include HB4 HA4 in
/-- REGION 1's RESULT: the result array at (b, 0, l) is the sum, over the voxels of batch element b that carry label l,
    of the voxel's cosine with the table row its label names. -/
theorem intra_shards (c : Dev nD) (hP : ∀ j, ∃ r : ℝ, (V c main_v0 : Cert.Spec.PArr) j = (r : EReal))
    (hM : ∀ j, ∃ r : ℝ, (V c main_v10 : Cert.Spec.MArr) j = (r : EReal))
    (hN : ∀ j, ∃ r : ℝ, (V c main_v11 : Cert.Spec.NArr) j = (r : EReal)) (b : Fin 2) (l : Fin 51) :
    (dat1 (F := Ideal) V c).arrAt 4 cfg1.N (ix3 b 0 l)
      = Cert.Spec.intraGenUpTo (V c main_v0) (V c main_v1) (V c main_v10) (V c main_v11) b Cert.Spec.NV l.val :=
  congrFun (final_o V HB4 HA4 c hP hM hN
    (fun j => Cert.Spec.intraGenUpTo (PV V c) (IV V c) (MV V c) (NV' V c) (j 0) Cert.Spec.NV (j 2).val)
    (fun _ _ => rfl)) (ix3 b 0 l)

end Cert.KernelIdeal.Reg1
end
-- ==== Proof.KHost.lean ====
import proofs.«411761_j45466523796029_3_alg».proof.Proof.Gen.KernelIdeal.Frame
import proofs.«411761_j45466523796029_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Idealize.ShloMosaic.Lib.StableHlo.Run
noncomputable section
open Idealize.ShloMosaic Idealize.ShloMosaic.TcCoe Idealize.SL.Sem
open Idealize.ShloMosaic.Pipeline (Dat)

namespace Cert.KernelIdeal.Host

open Cert.KernelIdeal Cert.KernelIdeal.Gen Idealize.ShloMosaic.ValueIdx

variable (m : (ℓ : Loc nD τ sig) → Buf (Elt Ideal) ℓ) (ρ : Dev nD → PrngReg)

/-- The two arguments with their three spatial axes flattened: predictions by batch, channel, voxel and label words by batch, voxel. -/
abbrev Pm (c : Dev nD) : Cert.Spec.PArr :=
  Cert.Spec.P0 (m ((c : Thread nD τ).loc main_arg0)) shapeCasts_S2x16x32x256x256_S2x16x2097152
abbrev Im (c : Dev nD) : Cert.Spec.IArr :=
  Cert.Spec.I0 (m ((c : Thread nD τ).loc main_arg1)) shapeCasts_S2x32x256x256_S2x1x2097152

theorem V1_v0 (c : Dev nD) : (V1 m ρ c main_v0 : Cert.Spec.PArr) = Pm m c := by
  dsimp only [V1, W1, hostOps0]
  after_results
  rfl

theorem V1_v1 (c : Dev nD) : (V1 m ρ c main_v1 : Cert.Spec.IArr) = Im m c := by
  dsimp only [V1, W1, hostOps0]
  after_results
  rfl

/-- The first pass leaves its two input arrays as it found them. -/
theorem W2_v0 (c : Dev nD) : W2 m ρ c (Proc.devRef .tc main_v0) = V1 m ρ c main_v0 :=
  (W2_arr m ρ c 0).trans (((dat0 (V1 m ρ) c).arrAt_in 0 rfl _).trans (A_eq0 (V1 m ρ) c 0))
theorem W2_v1 (c : Dev nD) : W2 m ρ c (Proc.devRef .tc main_v1) = V1 m ρ c main_v1 :=
  (W2_arr m ρ c 1).trans (((dat0 (V1 m ρ) c).arrAt_in 1 rfl _).trans (A_eq0 (V1 m ρ) c 1))

theorem V4_W2_v0 (c : Dev nD) : V4 m ρ c main_v0 = W2 m ρ c (Proc.devRef .tc main_v0) := by
  dsimp only [V4, W4, W3, hostOps1_1, hostOps1]
  after_results
theorem V4_W2_v1 (c : Dev nD) : V4 m ρ c main_v1 = W2 m ρ c (Proc.devRef .tc main_v1) := by
  dsimp only [V4, W4, W3, hostOps1_1, hostOps1]
  after_results

theorem V4_v0 (c : Dev nD) : (V4 m ρ c main_v0 : Cert.Spec.PArr) = Pm m c :=
  (V4_W2_v0 m ρ c).trans ((W2_v0 m ρ c).trans (V1_v0 m ρ c))
theorem V4_v1 (c : Dev nD) : (V4 m ρ c main_v1 : Cert.Spec.IArr) = Im m c :=
  (V4_W2_v1 m ρ c).trans ((W2_v1 m ρ c).trans (V1_v1 m ρ c))

/-! ## The host operations read at an index -/

/-- A sum from zero over the two batch elements of a [2, a, b] array. -/
theorem reduceBatch_apply {a b : ℕ} (X : FVec Ideal ⟨3, ![2, a, b]⟩ .f32)
    (h' : (⟨3, ![2, a, b]⟩ : Shape).ReducesTo [0] ⟨2, ![a, b]⟩) (h : (⟨3, ![2, a, b]⟩ : Shape).Reduces [0] ⟨2, ![a, b]⟩)
    (hu : 0 < S_.numel) (i : Fin a) (j : Fin b) :
    Host.reduceAdd (F := Ideal) X (constant (F := Ideal) S_ .f32 0x00000000#32) h' hu (ix2 i j)
      = X (ix3 0 i j) + X (ix3 1 i j) := by
  show Ideal.hostReduceAdd h' X (Ideal.ofBits .f32 0x00000000#32) (ix2 i j) = _
  rw [Ideal.hostReduceAdd_single h' h, Ideal.ofBits_zero_f32, zero_add]
  show ∑ k : Fin 2, X (h.lift (ix2 i j) k) = _
  rw [Fin.sum_univ_two]
  refine congrArg₂ (· + ·) (congrArg X (funext fun ax => ?_)) (congrArg X (funext fun ax => ?_))
  · match ax with | ⟨0, _⟩ => rfl | ⟨1, _⟩ => rfl | ⟨2, _⟩ => rfl
  · match ax with | ⟨0, _⟩ => rfl | ⟨1, _⟩ => rfl | ⟨2, _⟩ => rfl

/-- A sum from zero over the sixteen channels of a [51, 16] table. -/
theorem reduceChan_apply (Z : FVec Ideal S51x16 .f32) (l : Fin 51) :
    Host.reduceAdd (F := Ideal) Z (constant (F := Ideal) S_ .f32 0x00000000#32) reducesTo_S51x16_S51_d1 h_S_ (ix1 l)
      = ∑ ch : Fin 16, Z (ix2 l ch) := by
  show Ideal.hostReduceAdd reducesTo_S51x16_S51_d1 Z (Ideal.ofBits .f32 0x00000000#32) (ix1 l) = _
  have h : S51x16.Reduces [1] S51 := by decide
  rw [Ideal.hostReduceAdd_single reducesTo_S51x16_S51_d1 h, Ideal.ofBits_zero_f32, zero_add]
  show ∑ k : Fin 16, Z (h.lift (ix1 l) k) = _
  refine Finset.sum_congr rfl fun k _ => congrArg Z (funext fun ax => ?_)
  match ax with | ⟨0, _⟩ => rfl | ⟨1, _⟩ => rfl

/-- A column copied along the channels. -/
theorem bcastCol_apply (v : FVec Ideal S51x1 .f32) (l : Fin 51) (ch : Fin 16) :
    broadcastInDim S51x16 ![0, 1] bcast_S51x1_S51x16_0_1 v (ix2 l ch) = v (ix2 l 0) :=
  broadcastInDim_apply _ _ v _ _ fun a => match a with | ⟨0, _⟩ => rfl | ⟨1, _⟩ => rfl

/-- A vector written as a column. -/
theorem bcastRow_apply (v : FVec Ideal S51 .f32) (l : Fin 51) (u : Fin 1) :
    broadcastInDim S51x1 ![0] bcast_S51_S51x1_0 v (ix2 l u) = v (ix1 l) :=
  broadcastInDim_apply _ _ v _ _ fun a => match a with | ⟨0, _⟩ => rfl

/-- A scalar copied everywhere. -/
theorem bcastScalar_apply (w : BitVec 32) (j : S51x1.Idx) :
    broadcastInDim S51x1 ![] bcast_S_S51x1 (constant (F := Ideal) S_ .f32 w) j = Ideal.ofBits .f32 w := rfl

theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

/-! ## The means and their norms as the host computes them from the first pass's two tables -/

/-- The host's means: per-batch sums and counts added over the batch, transposed, the sums over the counts raised to one. -/
def hostMeans (X : FVec Ideal S2x16x51 .f32) (Y : FVec Ideal S2x1x51 .f32) : FVec Ideal S51x16 .f32 :=
  Host.divf
    (transpose S51x16 [1, 0]
      (Host.reduceAdd X (constant (F := Ideal) S_ .f32 0x00000000#32) reducesTo_S2x16x51_S16x51_d0 h_S_)
      transposes_S16x51_S51x16_1_0)
    (broadcastInDim S51x16 ![0, 1] bcast_S51x1_S51x16_0_1
      (maximumf
        (transpose S51x1 [1, 0]
          (Host.reduceAdd Y (constant (F := Ideal) S_ .f32 0x00000000#32) reducesTo_S2x1x51_S1x51_d0 h_S_)
          transposes_S1x51_S51x1_1_0)
        (broadcastInDim S51x1 ![] bcast_S_S51x1 (constant (F := Ideal) S_ .f32 0x3F800000#32))))

theorem hostMeans_apply (X : FVec Ideal S2x16x51 .f32) (Y : FVec Ideal S2x1x51 .f32) (l : Fin 51) (ch : Fin 16) :
    hostMeans X Y (ix2 l ch)
      = Ideal.div (X (ix3 0 ch l) + X (ix3 1 ch l)) (max (Y (ix3 0 0 l) + Y (ix3 1 0 l)) Cert.Spec.one) := by
  unfold hostMeans
  rw [hostDivf_apply, transpose_ix2_apply, bcastCol_apply, maximumf_apply, transpose_ix2_apply, bcastScalar_apply,
    reduceBatch_apply _ _ (by decide), reduceBatch_apply _ _ (by decide)]
  rfl

/-- The host's norms of the means: the square root of the channels' squares summed from zero. -/
def hostNorm (M : FVec Ideal S51x16 .f32) : FVec Ideal S51x1 .f32 :=
  Host.sqrt
    (broadcastInDim S51x1 ![0] bcast_S51_S51x1_0
      (Host.reduceAdd (mulf M M) (constant (F := Ideal) S_ .f32 0x00000000#32) reducesTo_S51x16_S51_d1 h_S_))

theorem hostNorm_apply (M : FVec Ideal S51x16 .f32) (l : Fin 51) (u : Fin 1) :
    hostNorm M (ix2 l u) = Ideal.sqrt (∑ ch : Fin 16, M (ix2 l ch) * M (ix2 l ch)) := by
  unfold hostNorm
  rw [hostSqrt_apply, bcastRow_apply, reduceChan_apply]
  rfl

/-- The means and the norms with the sum over the two batch elements written out. -/
theorem means_two (P : Cert.Spec.PArr) (I : Cert.Spec.IArr) (l : ℕ) (ch : Fin 16) :
    Cert.Spec.means P I l ch
      = Ideal.div (Cert.Spec.sumsUpTo P I 0 Cert.Spec.NV ch l + Cert.Spec.sumsUpTo P I 1 Cert.Spec.NV ch l)
          (max (Cert.Spec.countsUpTo I 0 Cert.Spec.NV l + Cert.Spec.countsUpTo I 1 Cert.Spec.NV l) Cert.Spec.one) := by
  unfold Cert.Spec.means Cert.Spec.sums Cert.Spec.counts
  rw [Fin.sum_univ_two, Fin.sum_univ_two]

/-- With the first pass's two tables at the per-batch sums and counts, the host's means are the means. -/
theorem hostMeans_eq (P : Cert.Spec.PArr) (I : Cert.Spec.IArr) (X : FVec Ideal S2x16x51 .f32) (Y : FVec Ideal S2x1x51 .f32)
    (hX : ∀ (b : Fin 2) (ch : Fin 16) (l : Fin 51), X (ix3 b ch l) = Cert.Spec.sumsUpTo P I b Cert.Spec.NV ch l.val)
    (hY : ∀ (b : Fin 2) (l : Fin 51), Y (ix3 b 0 l) = Cert.Spec.countsUpTo I b Cert.Spec.NV l.val) :
    (hostMeans X Y : Cert.Spec.MArr) = Cert.Spec.meansArr P I := by
  funext j
  obtain ⟨l, ch, rfl⟩ : ∃ (l : Fin 51) (ch : Fin 16), j = ix2 l ch := ⟨j 0, j 1, eq_ix2 j⟩
  rw [hostMeans_apply, hX, hX, hY, hY]
  exact (means_two P I l.val ch).symm

/-- The host's norms of the means are the means' norms. -/
theorem hostNorm_eq (P : Cert.Spec.PArr) (I : Cert.Spec.IArr) :
    (hostNorm (Cert.Spec.meansArr P I) : Cert.Spec.NArr) = Cert.Spec.mnormArr P I := by
  funext j
  obtain ⟨l, u, rfl⟩ : ∃ (l : Fin 51) (u : Fin 1), j = ix2 l u := ⟨j 0, j 1, eq_ix2 j⟩
  rw [hostNorm_apply]
  rfl

section Pass0
variable (c : Dev nD)
  (Hsum : ∀ (b : Fin 2) (ch : Fin 16) (l : Fin 51),
    (dat0 (F := Ideal) (V1 m ρ) c).arrAt 2 cfg0.N (ix3 b ch l) = Cert.Spec.sumsUpTo (Pm m c) (Im m c) b Cert.Spec.NV ch l.val)
  (Hcnt : ∀ (b : Fin 2) (l : Fin 51),
    (dat0 (F := Ideal) (V1 m ρ) c).arrAt 3 cfg0.N (ix3 b 0 l) = Cert.Spec.countsUpTo (Im m c) b Cert.Spec.NV l.val)
include Hsum Hcnt

theorem V4_v10 : (V4 m ρ c main_v10 : Cert.Spec.MArr) = Cert.Spec.meansArr (Pm m c) (Im m c) := by
  have e : (V4 m ρ c main_v10 : Cert.Spec.MArr)
      = hostMeans (W2 m ρ c (Proc.devRef .tc main_v2_0)) (W2 m ρ c (Proc.devRef .tc main_v2_1)) := by
    dsimp only [V4, W4, W3, hostOps1_1, hostOps1]
    after_results
    rfl
  refine e.trans (hostMeans_eq _ _ _ _ (fun b ch l => ?_) (fun b l => ?_))
  · exact (congrFun (W2_arr m ρ c 2) (ix3 b ch l)).trans (Hsum b ch l)
  · exact (congrFun (W2_arr m ρ c 3) (ix3 b 0 l)).trans (Hcnt b l)

theorem V4_v11 : (V4 m ρ c main_v11 : Cert.Spec.NArr) = Cert.Spec.mnormArr (Pm m c) (Im m c) := by
  have e : (V4 m ρ c main_v11 : Cert.Spec.NArr) = hostNorm (V4 m ρ c main_v10 : Cert.Spec.MArr) := by
    dsimp only [V4, W4, W3, hostOps1_1, hostOps1]
    after_results
    simp only [StableHlo.TRef.ofBuf, StableHlo.TRef.toBuf, cast_eq]
    rfl
  rw [e, V4_v10 m ρ c Hsum Hcnt]
  exact hostNorm_eq _ _
end Pass0

/-- The counts and the cosine sums with the sum over the two batch elements written out. -/
theorem counts_two (I : Cert.Spec.IArr) (l : ℕ) :
    Cert.Spec.counts I l = Cert.Spec.countsUpTo I 0 Cert.Spec.NV l + Cert.Spec.countsUpTo I 1 Cert.Spec.NV l := by
  unfold Cert.Spec.counts
  rw [Fin.sum_univ_two]
theorem intra_two (P : Cert.Spec.PArr) (I : Cert.Spec.IArr) (l : ℕ) :
    Cert.Spec.intra P I l = Cert.Spec.intraUpTo P I 0 Cert.Spec.NV l + Cert.Spec.intraUpTo P I 1 Cert.Spec.NV l := by
  unfold Cert.Spec.intra
  rw [Fin.sum_univ_two]

/-- The per-label counts the host keeps beside the means: the first pass's per-batch counts added over the batch. -/
theorem W4_v4_eq (c : Dev nD) : (W4 m ρ c (Proc.devRef .tc main_v4) : FVec Ideal S1x51 .f32)
    = Host.reduceAdd (F := Ideal) (W2 m ρ c (Proc.devRef .tc main_v2_1)) (constant (F := Ideal) S_ .f32 0x00000000#32)
        reducesTo_S2x1x51_S1x51_d0 h_S_ := by
  dsimp only [W4, W3, hostOps1_1, hostOps1]
  after_results

theorem W4_v4 (c : Dev nD)
    (Hcnt : ∀ (b : Fin 2) (l : Fin 51),
      (dat0 (F := Ideal) (V1 m ρ) c).arrAt 3 cfg0.N (ix3 b 0 l) = Cert.Spec.countsUpTo (Im m c) b Cert.Spec.NV l.val)
    (l : Fin 51) : W4 m ρ c (Proc.devRef .tc main_v4) (ix2 0 l) = Cert.Spec.counts (Im m c) l.val := by
  refine (congrFun (W4_v4_eq m ρ c) (ix2 0 l)).trans ?_
  rw [reduceBatch_apply _ _ (by decide), counts_two]
  exact congrArg₂ (· + ·) ((congrFun (W2_arr m ρ c 3) (ix3 0 0 l)).trans (Hcnt 0 l))
    ((congrFun (W2_arr m ρ c 3) (ix3 1 0 l)).trans (Hcnt 1 l))

/-! ## After the second pass: the first four host operations of the tail -/

/-- The buffers after the tail's first four operations (the cosine sums added over the batch, and the two reshapes to vectors). -/
abbrev T4 (c : Dev nD) : Valuation τ sig (Elt Ideal) := StableHlo.after (hostOps2.take 4) (W5 m ρ c)

theorem T4_v14_eq (c : Dev nD) : (T4 m ρ c (Proc.devRef .tc main_v14) : FVec Ideal S51 .f32)
    = shapeCast S51 (Host.reduceAdd (F := Ideal) (W5 m ρ c (Proc.devRef .tc main_v12))
        (constant (F := Ideal) S_ .f32 0x00000000#32) reducesTo_S2x1x51_S1x51_d0 h_S_) shapeCasts_S1x51_S51 := by
  dsimp only [T4, hostOps2, List.take]
  after_results
  rfl

theorem T4_v15_eq (c : Dev nD) : (T4 m ρ c (Proc.devRef .tc main_v15) : FVec Ideal S51 .f32)
    = shapeCast S51 (W4 m ρ c (Proc.devRef .tc main_v4) : FVec Ideal S1x51 .f32) shapeCasts_S1x51_S51 := by
  dsimp only [T4, hostOps2, List.take]
  after_results
  rw [W5_of_ne m ρ c main_v4 (by decide)]
  rfl

theorem T4_v10_eq (c : Dev nD) : T4 m ρ c (Proc.devRef .tc main_v10) = V4 m ρ c main_v10 := by
  dsimp only [T4, hostOps2, List.take]
  after_results
  exact (W5_arr m ρ c 2).trans (((dat1 (V4 m ρ) c).arrAt_in 2 rfl _).trans (A_eq1 (V4 m ρ) c 2))

theorem T4_v14 (c : Dev nD)
    (Hint : ∀ (b : Fin 2) (l : Fin 51),
      (dat1 (F := Ideal) (V4 m ρ) c).arrAt 4 cfg1.N (ix3 b 0 l)
        = Cert.Spec.intraUpTo (Pm m c) (Im m c) b Cert.Spec.NV l.val)
    (l : Fin 51) : T4 m ρ c (Proc.devRef .tc main_v14) (ix1 l) = Cert.Spec.intra (Pm m c) (Im m c) l.val := by
  refine (congrFun (T4_v14_eq m ρ c) (ix1 l)).trans ?_
  rw [shapeCast_1a_a_apply, reduceBatch_apply _ _ (by decide), intra_two]
  exact congrArg₂ (· + ·) ((congrFun (W5_arr m ρ c 4) (ix3 0 0 l)).trans (Hint 0 l))
    ((congrFun (W5_arr m ρ c 4) (ix3 1 0 l)).trans (Hint 1 l))

theorem T4_v15 (c : Dev nD)
    (Hcnt : ∀ (b : Fin 2) (l : Fin 51),
      (dat0 (F := Ideal) (V1 m ρ) c).arrAt 3 cfg0.N (ix3 b 0 l) = Cert.Spec.countsUpTo (Im m c) b Cert.Spec.NV l.val)
    (l : Fin 51) : T4 m ρ c (Proc.devRef .tc main_v15) (ix1 l) = Cert.Spec.counts (Im m c) l.val := by
  refine (congrFun (T4_v15_eq m ρ c) (ix1 l)).trans ?_
  rw [shapeCast_1a_a_apply]
  exact W4_v4 m ρ c Hcnt l

theorem T4_v10 (c : Dev nD)
    (Hsum : ∀ (b : Fin 2) (ch : Fin 16) (l : Fin 51),
      (dat0 (F := Ideal) (V1 m ρ) c).arrAt 2 cfg0.N (ix3 b ch l)
        = Cert.Spec.sumsUpTo (Pm m c) (Im m c) b Cert.Spec.NV ch l.val)
    (Hcnt : ∀ (b : Fin 2) (l : Fin 51),
      (dat0 (F := Ideal) (V1 m ρ) c).arrAt 3 cfg0.N (ix3 b 0 l) = Cert.Spec.countsUpTo (Im m c) b Cert.Spec.NV l.val) :
    (T4 m ρ c (Proc.devRef .tc main_v10) : Cert.Spec.MArr) = Cert.Spec.meansArr (Pm m c) (Im m c) :=
  (T4_v10_eq m ρ c).trans (V4_v10 m ρ c Hsum Hcnt)

/-- The tail's remaining operations run from the buffers after its first four. -/
theorem W6_eq_T4 (c : Dev nD) : W6 m ρ c = StableHlo.after (hostOps2.drop 4) (T4 m ρ c) := rfl

end Cert.KernelIdeal.Host
end
-- ==== Proof.SpecFacts.lean ====
/-
  Facts about the shared mathematics: from the stated precondition (every prediction entry has absolute value
  below +inf) every prediction entry is a real number; for a prediction array of real entries, the label means
  and their norms are real numbers.
-/
import proofs.«411761_j45466523796029_3_alg».proof.Defs
import proofs.«411761_j45466523796029_3_alg».proof.Proof.Gen.KernelIdeal
import proofs.«411761_j45466523796029_3_alg».proof.Proof.Gen.Pre_finite_inputs
import proofs.«411761_j45466523796029_3_alg».proof.Proof.Spec
import Idealize.ShloMosaic.Lib.ReduceAll
import Idealize.ShloMosaic.Lib.ValueIdx
noncomputable section
open Idealize.ShloMosaic Idealize.ShloMosaic.TcCoe Idealize.SL.Sem

namespace Cert.KernelIdeal.Facts2

open Cert.KernelIdeal Idealize.ShloMosaic.ValueIdx

instance : Subsingleton Cert.Pre_finite_inputs.S_.Idx := ⟨fun a b => funext fun d => d.elim0⟩

/-- The float word of +inf denotes the top element. -/
theorem ofBits_inf : Ideal.ofBits .f32 0x7F800000#32 = (⊤ : EReal) := by
  simp [Ideal.ofBits, Ideal.ieee]

/-- An extended real whose absolute value is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The stated precondition (all entries have absolute value below +inf) makes every prediction entry a real number. -/
theorem finite_of_pre [hP : Cert.Pre_finite_inputs.Facts]
    (A0 : FVec Ideal Cert.Pre_finite_inputs.S2x16x32x256x256 .f32) (A1 : IVec Cert.Pre_finite_inputs.S2x32x256x256 32)
    (h : Cert.Pre_finite_inputs.fn (F := Ideal) A0 A1 = fun _ => 1#1) : ∀ j, ∃ r : ℝ, A0 j = (r : EReal) := by
  intro j
  have h1 := congrFun h ix0
  dsimp only [Cert.Pre_finite_inputs.fn] at h1
  have h2 := Host.reduce_andi_all _ _ _ _ _ h1 j
  have h3 : BitVec.ofBool (decide (max (A0 j) (-(A0 j)) < Ideal.ofBits .f32 0x7F800000#32)) = 1#1 := h2
  rw [ofBits_inf] at h3
  refine real_of_abs_lt_top _ ?_
  by_contra hn
  rw [decide_eq_false hn] at h3
  exact absurd h3 (by decide)

/-- A reshape reads its argument at some index: real entries stay real. -/
theorem finite_P0 (A0 : Cert.Spec.A0Arr) (h0 : (⟨5, ![2, 16, 32, 256, 256]⟩ : Shape).ShapeCasts ⟨3, ![2, 16, 2097152]⟩)
    (hA : ∀ j, ∃ r : ℝ, A0 j = (r : EReal)) : ∀ j, ∃ r : ℝ, Cert.Spec.P0 A0 h0 j = (r : EReal) := by
  intro j
  unfold Cert.Spec.P0 shapeCast
  exact hA _

/-! ### Real numbers among the extended reals -/

/-- Being (the image of) a real number. -/
def IsReal (x : EReal) : Prop := ∃ r : ℝ, x = (r : EReal)

theorem isReal_zero : IsReal 0 := ⟨0, EReal.coe_zero.symm⟩
theorem isReal_one : IsReal 1 := ⟨1, EReal.coe_one.symm⟩
theorem isReal_add {x y : EReal} (hx : IsReal x) (hy : IsReal y) : IsReal (x + y) := by
  obtain ⟨a, rfl⟩ := hx
  obtain ⟨b, rfl⟩ := hy
  exact ⟨a + b, (EReal.coe_add a b).symm⟩
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type} (s : Finset ι) (f : ι → EReal) (h : ∀ i ∈ s, IsReal (f i)) : IsReal (∑ i ∈ s, f i) :=
  Finset.sum_induction f IsReal (fun _ _ => isReal_add) isReal_zero h

/-- A finite sum of real numbers that are at least 0 is a real number that is at least 0. -/
theorem nonnegReal_sum {ι : Type} (s : Finset ι) (f : ι → EReal) (h : ∀ i ∈ s, ∃ r : ℝ, 0 ≤ r ∧ f i = (r : EReal)) :
    ∃ r : ℝ, 0 ≤ r ∧ ∑ i ∈ s, f i = (r : EReal) :=
  Finset.sum_induction f (fun x => ∃ r : ℝ, 0 ≤ r ∧ x = (r : EReal))
    (fun _ _ ⟨a, ha, hx⟩ ⟨b, hb, hy⟩ => ⟨a + b, add_nonneg ha hb, by rw [hx, hy, EReal.coe_add]⟩)
    ⟨0, le_refl _, EReal.coe_zero.symm⟩ h

/-- The float word of 1.0 denotes 1. -/
theorem one_eq : Cert.Spec.one = ((1 : ℝ) : EReal) := by
  unfold Cert.Spec.one
  simp [Ideal.ofBits, Ideal.ieee, -EReal.coe_mul]; norm_num

/-- A real number over the larger of a real number and 1 is a real number. -/
theorem isReal_div_max_one {x y : EReal} (hx : IsReal x) (hy : IsReal y) : IsReal (Ideal.div x (max y Cert.Spec.one)) := by
  obtain ⟨a, rfl⟩ := hx
  obtain ⟨b, rfl⟩ := hy
  rw [one_eq, ← EReal.coe_strictMono.monotone.map_max]
  have hne : max b 1 ≠ 0 := ne_of_gt (lt_of_lt_of_le one_pos (le_max_right b 1))
  rw [Ideal.div_coe hne]
  exact isReal_mul ⟨a, rfl⟩ ⟨_, rfl⟩

/-- The square root of a real number that is at least 0 is a real number. -/
theorem isReal_sqrt {x : EReal} (hx : ∃ r : ℝ, 0 ≤ r ∧ x = (r : EReal)) : IsReal (Ideal.sqrt x) := by
  obtain ⟨a, ha, rfl⟩ := hx
  rw [Ideal.sqrt_coe, if_neg (not_lt.2 ha)]
  exact ⟨_, rfl⟩

/-! ### The shared definitions over a prediction array of real entries -/

section
variable (P : Cert.Spec.PArr) (I : Cert.Spec.IArr) (hP : ∀ j, ∃ r : ℝ, P j = (r : EReal))
include hP

theorem pAt_real (b : Fin 2) (c : Fin 16) (n : ℕ) : IsReal (Cert.Spec.pAt P b c n) := by
  unfold Cert.Spec.pAt
  split
  · exact hP _
  · exact isReal_zero

omit hP in
theorem oh_real (w : BitVec 32) (l : ℕ) : IsReal (Cert.Spec.oh w l) := by
  unfold Cert.Spec.oh
  split
  · exact isReal_one
  · exact isReal_zero

omit hP in
theorem counts_real (l : ℕ) : IsReal (Cert.Spec.counts I l) :=
  isReal_sum _ _ fun b _ => isReal_sum _ _ fun n _ => oh_real _ _

theorem sums_real (l : ℕ) (c : Fin 16) : IsReal (Cert.Spec.sums P I l c) :=
  isReal_sum _ _ fun b _ => isReal_sum _ _ fun n _ => isReal_mul (pAt_real P hP b c n) (oh_real _ _)

theorem means_real (l : ℕ) (c : Fin 16) : IsReal (Cert.Spec.means P I l c) :=
  isReal_div_max_one (sums_real P I hP l c) (counts_real I l)

theorem mnorm_real (l : ℕ) : IsReal (Cert.Spec.mnorm P I l) := by
  unfold Cert.Spec.mnorm
  refine isReal_sqrt (nonnegReal_sum _ _ fun c _ => ?_)
  obtain ⟨a, ha⟩ := means_real P I hP l c
  exact ⟨a * a, mul_self_nonneg a, by rw [ha, EReal.coe_mul]⟩

/-- The table of label means has real entries. -/
theorem meansArr_finite : ∀ j, ∃ r : ℝ, Cert.Spec.meansArr P I j = (r : EReal) :=
  fun j => means_real P I hP _ _

/-- The table of the means' norms has real entries. -/
theorem mnormArr_finite : ∀ j, ∃ r : ℝ, Cert.Spec.mnormArr P I j = (r : EReal) :=
  fun j => mnorm_real P I hP _

end

/-- The cosine sums of the second pass are the general ones at the first pass's tables. -/
theorem intraUpTo_eq (P : Cert.Spec.PArr) (I : Cert.Spec.IArr) (b : Fin 2) (N l : ℕ) :
    Cert.Spec.intraUpTo P I b N l
      = Cert.Spec.intraGenUpTo P I (Cert.Spec.meansArr P I) (Cert.Spec.mnormArr P I) b N l := rfl

end Cert.KernelIdeal.Facts2

end
-- ==== Proof.TailKOps.lean ====
/-
  The operation lists of the last stretch of the kernel program's host operations — from the per-label cosine sums, the per-label counts and the label means to the loss — cut into stages: the float part and the running count of the strict upper triangle's entries; the entries' positions; quotients and remainders giving row and column numbers; the two index columns; and, after their join, the gather of the matrix entries, the clip, the mean and the difference.
-/
import proofs.«411761_j45466523796029_3_alg».proof.Proof.Gen.KernelIdeal.Launch
import Idealize.ShloMosaic.Lib.StableHlo.Run
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

/-- Running a list of operations that is two lists joined is running the first, then the second. -/
theorem after_append (l₁ l₂ : List (HloOp τ sig (Elt F))) (V : Valuation τ sig (Elt F)) :
    after (l₁ ++ l₂) V = after l₂ (after l₁ V) := by
  induction l₁ generalizing V with
  | nil => rfl
  | cons op ops ih => exact ih _

/-- The first four operations after the second pass (they form the tail's inputs). -/
abbrev hostOps2a : List (HloOp τ sig (Elt F)) :=
  [
    StableHlo.nullary main_cst_2 (constant S_ .f32 0x00000000#32),
    StableHlo.binary main_v12 main_cst_2 main_v13 ((fun x v => Host.reduceAdd x v reducesTo_S2x1x51_S1x51_d0 h_S_) : (⟨S2x1x51, .f32⟩ : BufTy).Contents (Elt F) → (⟨S_, .f32⟩ : BufTy).Contents (Elt F) → (⟨S1x51, .f32⟩ : BufTy).Contents (Elt F)),
    StableHlo.reshape main_v13 main_v14 rfl shapeCasts_S1x51_S51,
    StableHlo.reshape main_v4 main_v15 rfl shapeCasts_S1x51_S51 ]
abbrev LA : List (HloOp τ sig (Elt F)) :=
  [
    StableHlo.unary main_v14 main_v16 ((extractStridedSlice S50 ![1] · slices_S51_S50_1) : (⟨S51, .f32⟩ : BufTy).Contents (Elt F) → (⟨S50, .f32⟩ : BufTy).Contents (Elt F)),
    StableHlo.unary main_v15 main_v17 ((extractStridedSlice S50 ![1] · slices_S51_S50_1) : (⟨S51, .f32⟩ : BufTy).Contents (Elt F) → (⟨S50, .f32⟩ : BufTy).Contents (Elt F)),
    StableHlo.nullary main_cst_3 (constant S_ .f32 0x3F800000#32),
    StableHlo.unary main_cst_3 main_v18 (broadcastInDim S50 ![] bcast_S_S50 : (⟨S_, .f32⟩ : BufTy).Contents (Elt F) → (⟨S50, .f32⟩ : BufTy).Contents (Elt F)),
    StableHlo.binary main_v17 main_v18 main_v19 (maximumf : (⟨S50, .f32⟩ : BufTy).Contents (Elt F) → (⟨S50, .f32⟩ : BufTy).Contents (Elt F) → (⟨S50, .f32⟩ : BufTy).Contents (Elt F)),
    StableHlo.binary main_v16 main_v19 main_v20 (Host.divf : (⟨S50, .f32⟩ : BufTy).Contents (Elt F) → (⟨S50, .f32⟩ : BufTy).Contents (Elt F) → (⟨S50, .f32⟩ : BufTy).Contents (Elt F)),
    StableHlo.nullary main_cst_4 (constant S_ .f32 0x00000000#32),
    StableHlo.binary main_v20 main_cst_4 main_v21 ((fun x v => Host.reduceAdd x v reducesTo_S50_S_d0 h_S_) : (⟨S50, .f32⟩ : BufTy).Contents (Elt F) → (⟨S_, .f32⟩ : BufTy).Contents (Elt F) → (⟨S_, .f32⟩ : BufTy).Contents (Elt F)),
    StableHlo.nullary main_cst_5 (constant S_ .f32 0x42480000#32),
    StableHlo.binary main_v21 main_cst_5 main_v22 (Host.divf : (⟨S_, .f32⟩ : BufTy).Contents (Elt F) → (⟨S_, .f32⟩ : BufTy).Contents (Elt F) → (⟨S_, .f32⟩ : BufTy).Contents (Elt F)),
    StableHlo.unary main_v10 main_v23 ((extractStridedSlice S50x16 ![1, 0] · slices_S51x16_S50x16_1_0) : (⟨S51x16, .f32⟩ : BufTy).Contents (Elt F) → (⟨S50x16, .f32⟩ : BufTy).Contents (Elt F)),
    StableHlo.TRef.binary (.of main_v23 : StableHlo.TRef sig ⟨S50x16, .f32⟩) (.of main_v23 : StableHlo.TRef sig ⟨S50x16, .f32⟩) (.of main_call1_v0 : StableHlo.TRef sig ⟨S50x16, .f32⟩) mulf,
    StableHlo.TRef.nullary (.of main_call1_cst : StableHlo.TRef sig ⟨S_, .f32⟩) (constant S_ .f32 0x00000000#32),
    StableHlo.TRef.binary (.of main_call1_v0 : StableHlo.TRef sig ⟨S50x16, .f32⟩) (.of main_call1_cst : StableHlo.TRef sig ⟨S_, .f32⟩) (.of main_call1_v1 : StableHlo.TRef sig ⟨S50, .f32⟩) (fun x v => Host.reduceAdd x v reducesTo_S50x16_S50_d1 h_S_),
    StableHlo.TRef.unary (.of main_call1_v1 : StableHlo.TRef sig ⟨S50, .f32⟩) (.of main_call1_v2 : StableHlo.TRef sig ⟨S50x1, .f32⟩) (broadcastInDim S50x1 ![0] bcast_S50_S50x1_0),
    StableHlo.TRef.unary (.of main_call1_v2 : StableHlo.TRef sig ⟨S50x1, .f32⟩) (.of main_v24 : StableHlo.TRef sig ⟨S50x1, .f32⟩) Host.sqrt,
    StableHlo.nullary main_cst_6 (constant S_ .f32 0x322BCC77#32),
    StableHlo.unary main_cst_6 main_v25 (broadcastInDim S50x1 ![] bcast_S_S50x1 : (⟨S_, .f32⟩ : BufTy).Contents (Elt F) → (⟨S50x1, .f32⟩ : BufTy).Contents (Elt F)),
    StableHlo.binary main_v24 main_v25 main_v26 (maximumf : (⟨S50x1, .f32⟩ : BufTy).Contents (Elt F) → (⟨S50x1, .f32⟩ : BufTy).Contents (Elt F) → (⟨S50x1, .f32⟩ : BufTy).Contents (Elt F)),
    StableHlo.unary main_v26 main_v27 (broadcastInDim S50x16 ![0, 1] bcast_S50x1_S50x16_0_1 : (⟨S50x1, .f32⟩ : BufTy).Contents (Elt F) → (⟨S50x16, .f32⟩ : BufTy).Contents (Elt F)),
    StableHlo.binary main_v23 main_v27 main_v28 (Host.divf : (⟨S50x16, .f32⟩ : BufTy).Contents (Elt F) → (⟨S50x16, .f32⟩ : BufTy).Contents (Elt F) → (⟨S50x16, .f32⟩ : BufTy).Contents (Elt F)),
    StableHlo.unary main_v28 main_v29 ((transpose S16x50 [1, 0] · transposes_S50x16_S16x50_1_0) : (⟨S50x16, .f32⟩ : BufTy).Contents (Elt F) → (⟨S16x50, .f32⟩ : BufTy).Contents (Elt F)),
    StableHlo.binary main_v28 main_v29 main_v30 ((fun l r => Host.dotGeneral dot_S50x16_S16x50_S50x50_1_0_0_1_n_n none l r) : (⟨S50x16, .f32⟩ : BufTy).Contents (Elt F) → (⟨S16x50, .f32⟩ : BufTy).Contents (Elt F) → (⟨S50x50, .f32⟩ : BufTy).Contents (Elt F)),
    StableHlo.nullary main_cst_7 (constant S_ .f32 0x3F800000#32),
    StableHlo.unary main_cst_7 main_v31 (broadcastInDim S50x50 ![] bcast_S_S50x50 : (⟨S_, .f32⟩ : BufTy).Contents (Elt F) → (⟨S50x50, .f32⟩ : BufTy).Contents (Elt F)),
    StableHlo.TRef.nullary (.of main_call2_v0 : StableHlo.TRef sig ⟨S50x50, .i32⟩) (iotaInDim S50x50 32 0),
    StableHlo.TRef.nullary (.of main_call2_c : StableHlo.TRef sig ⟨S_, .i32⟩) (constantI S_ 32 0#32),
    StableHlo.TRef.unary (.of main_call2_c : StableHlo.TRef sig ⟨S_, .i32⟩) (.of main_call2_v1 : StableHlo.TRef sig ⟨S50x50, .i32⟩) (broadcastInDim S50x50 ![] bcast_S_S50x50),
    StableHlo.TRef.binary (.of main_call2_v0 : StableHlo.TRef sig ⟨S50x50, .i32⟩) (.of main_call2_v1 : StableHlo.TRef sig ⟨S50x50, .i32⟩) (.of main_call2_v2 : StableHlo.TRef sig ⟨S50x50, .i32⟩) addi,
    StableHlo.TRef.nullary (.of main_call2_v3 : StableHlo.TRef sig ⟨S50x50, .i32⟩) (iotaInDim S50x50 32 1),
    StableHlo.TRef.binary (.of main_call2_v2 : StableHlo.TRef sig ⟨S50x50, .i32⟩) (.of main_call2_v3 : StableHlo.TRef sig ⟨S50x50, .i32⟩) (.of main_call2_v4 : StableHlo.TRef sig ⟨S50x50, .i1⟩) (cmpi .sge),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v5 : StableHlo.TRef sig ⟨S50x50, .f32⟩) (broadcastInDim S50x50 ![] bcast_S_S50x50),
    StableHlo.TRef.ternary (.of main_call2_v4 : StableHlo.TRef sig ⟨S50x50, .i1⟩) (.of main_call2_v5 : StableHlo.TRef sig ⟨S50x50, .f32⟩) (.of main_v31 : StableHlo.TRef sig ⟨S50x50, .f32⟩) (.of main_v32 : StableHlo.TRef sig ⟨S50x50, .f32⟩) select,
    StableHlo.nullary main_cst_8 (constant S_ .f32 0x00000000#32),
    StableHlo.unary main_cst_8 main_v33 (broadcastInDim S50x50 ![] bcast_S_S50x50 : (⟨S_, .f32⟩ : BufTy).Contents (Elt F) → (⟨S50x50, .f32⟩ : BufTy).Contents (Elt F)),
    StableHlo.binary main_v32 main_v33 main_v34 (cmpf .une : (⟨S50x50, .f32⟩ : BufTy).Contents (Elt F) → (⟨S50x50, .f32⟩ : BufTy).Contents (Elt F) → (⟨S50x50, .i1⟩ : BufTy).Contents (Elt F)),
    StableHlo.TRef.reshape (.of main_v34 : StableHlo.TRef sig ⟨S50x50, .i1⟩) (.of main_call3_v0 : StableHlo.TRef sig ⟨S2500, .i1⟩) rfl shapeCasts_S50x50_S2500,
    StableHlo.TRef.unary (.of main_call3_v0 : StableHlo.TRef sig ⟨S2500, .i1⟩) (.of main_call3_v1 : StableHlo.TRef sig ⟨S2500, .i32⟩) (extui 32 · natLt_1_32),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_call3_v1 : StableHlo.TRef sig ⟨S2500, .i32⟩) (.of main_call3_call0_v0 : StableHlo.TRef sig ⟨S_, .i32⟩) (.of main_v35 : StableHlo.TRef sig ⟨S2500, .i32⟩) (fun x v => Host.reduceWindow IntOp.addi ![2500] ![1] ![2499] ![0] x v reduceWindows_S2500_S2500_w2500s1p2499_0 h_S_) ]
abbrev LB : List (HloOp τ sig (Elt F)) :=
  [
    StableHlo.nullary main_c (constantI S_ 32 0#32),
    StableHlo.unary main_c main_v36 (broadcastInDim S1225 ![] bcast_S_S1225 : (⟨S_, .i32⟩ : BufTy).Contents (Elt F) → (⟨S1225, .i32⟩ : BufTy).Contents (Elt F)),
    StableHlo.nullary main_c_9 (constantI S_ 32 0#32),
    StableHlo.TRef.unary (.of main_c_9 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S2500, .i32⟩) (broadcastInDim S2500 ![] bcast_S_S2500),
    StableHlo.TRef.binary (.of main_call4_v1 : StableHlo.TRef sig ⟨S2500, .i32⟩) (.of main_v35 : StableHlo.TRef sig ⟨S2500, .i32⟩) (.of main_v37 : StableHlo.TRef sig ⟨S2500, .i32⟩) maxsi,
    StableHlo.nullary main_c_10 (constantI S_ 32 0#32),
    StableHlo.unary main_c_10 main_v38 (broadcastInDim S2500 ![] bcast_S_S2500 : (⟨S_, .i32⟩ : BufTy).Contents (Elt F) → (⟨S2500, .i32⟩ : BufTy).Contents (Elt F)),
    StableHlo.binary main_v37 main_v38 main_v39 (cmpi .slt : (⟨S2500, .i32⟩ : BufTy).Contents (Elt F) → (⟨S2500, .i32⟩ : BufTy).Contents (Elt F) → (⟨S2500, .i1⟩ : BufTy).Contents (Elt F)),
    StableHlo.nullary main_c_11 (constantI S_ 32 1225#32),
    StableHlo.unary main_c_11 main_v40 (broadcastInDim S2500 ![] bcast_S_S2500 : (⟨S_, .i32⟩ : BufTy).Contents (Elt F) → (⟨S2500, .i32⟩ : BufTy).Contents (Elt F)),
    StableHlo.binary main_v37 main_v40 main_v41 (addi : (⟨S2500, .i32⟩ : BufTy).Contents (Elt F) → (⟨S2500, .i32⟩ : BufTy).Contents (Elt F) → (⟨S2500, .i32⟩ : BufTy).Contents (Elt F)),
    StableHlo.ternary main_v39 main_v41 main_v37 main_v42 (select : (⟨S2500, .i1⟩ : BufTy).Contents (Elt F) → (⟨S2500, .i32⟩ : BufTy).Contents (Elt F) → (⟨S2500, .i32⟩ : BufTy).Contents (Elt F) → (⟨S2500, .i32⟩ : BufTy).Contents (Elt F)),
    StableHlo.unary main_v42 main_v43 (broadcastInDim S2500x1 ![0] bcast_S2500_S2500x1_0 : (⟨S2500, .i32⟩ : BufTy).Contents (Elt F) → (⟨S2500x1, .i32⟩ : BufTy).Contents (Elt F)),
    StableHlo.nullary main_c_12 (constantI S_ 32 1#32),
    StableHlo.unary main_c_12 main_v44 (broadcastInDim S2500 ![] bcast_S_S2500 : (⟨S_, .i32⟩ : BufTy).Contents (Elt F) → (⟨S2500, .i32⟩ : BufTy).Contents (Elt F)),
    StableHlo.ternary main_v36 main_v43 main_v44 main_v45 ((fun x i u => Host.scatter scatter_S1225_S2500x1_S2500_n_0_0_1 IntOp.addi x i u) : (⟨S1225, .i32⟩ : BufTy).Contents (Elt F) → (⟨S2500x1, .i32⟩ : BufTy).Contents (Elt F) → (⟨S2500, .i32⟩ : BufTy).Contents (Elt F) → (⟨S1225, .i32⟩ : BufTy).Contents (Elt F)),
    StableHlo.TRef.nullary (.of main_call5_call0_c : StableHlo.TRef sig ⟨S_, .i32⟩) (constantI S_ 32 0#32),
    StableHlo.TRef.unary (.of main_call5_call0_c : StableHlo.TRef sig ⟨S_, .i32⟩) (.of main_call5_call0_v0 : StableHlo.TRef sig ⟨S_, .i32⟩) (broadcastInDim S_ ![] bcast_S_S_),
    StableHlo.TRef.binary (.of main_v45 : StableHlo.TRef sig ⟨S1225, .i32⟩) (.of main_call5_call0_v0 : StableHlo.TRef sig ⟨S_, .i32⟩) (.of main_v46 : StableHlo.TRef sig ⟨S1225, .i32⟩) (fun x v => Host.reduceWindow IntOp.addi ![1225] ![1] ![1224] ![0] x v reduceWindows_S1225_S1225_w1225s1p1224_0 h_S_) ]
abbrev LC : List (HloOp τ sig (Elt F)) :=
  [
    StableHlo.nullary main_c_13 (constantI S_ 32 50#32),
    StableHlo.TRef.unary (.of main_c_13 : StableHlo.TRef sig ⟨S_, .i32⟩) (.of main_call6_v0 : StableHlo.TRef sig ⟨S1225, .i32⟩) (broadcastInDim S1225 ![] bcast_S_S1225),
    StableHlo.TRef.binary (.of main_v46 : StableHlo.TRef sig ⟨S1225, .i32⟩) (.of main_call6_v0 : StableHlo.TRef sig ⟨S1225, .i32⟩) (.of main_call6_v1 : StableHlo.TRef sig ⟨S1225, .i32⟩) Host.divsi,
    StableHlo.TRef.unary (.of main_v46 : StableHlo.TRef sig ⟨S1225, .i32⟩) (.of main_call6_v2 : StableHlo.TRef sig ⟨S1225, .i32⟩) signi,
    StableHlo.TRef.unary (.of main_c_13 : StableHlo.TRef sig ⟨S_, .i32⟩) (.of main_call6_v3 : StableHlo.TRef sig ⟨S_, .i32⟩) signi,
    StableHlo.TRef.unary (.of main_call6_v3 : StableHlo.TRef sig ⟨S_, .i32⟩) (.of main_call6_v4 : StableHlo.TRef sig ⟨S1225, .i32⟩) (broadcastInDim S1225 ![] bcast_S_S1225),
    StableHlo.TRef.binary (.of main_call6_v2 : StableHlo.TRef sig ⟨S1225, .i32⟩) (.of main_call6_v4 : StableHlo.TRef sig ⟨S1225, .i32⟩) (.of main_call6_v5 : StableHlo.TRef sig ⟨S1225, .i1⟩) (cmpi .ne),
    StableHlo.TRef.unary (.of main_c_13 : StableHlo.TRef sig ⟨S_, .i32⟩) (.of main_call6_v6 : StableHlo.TRef sig ⟨S1225, .i32⟩) (broadcastInDim S1225 ![] bcast_S_S1225),
    StableHlo.TRef.binary (.of main_v46 : StableHlo.TRef sig ⟨S1225, .i32⟩) (.of main_call6_v6 : StableHlo.TRef sig ⟨S1225, .i32⟩) (.of main_call6_v7 : StableHlo.TRef sig ⟨S1225, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v8 : StableHlo.TRef sig ⟨S1225, .i32⟩) (broadcastInDim S1225 ![] bcast_S_S1225),
    StableHlo.TRef.binary (.of main_call6_v7 : StableHlo.TRef sig ⟨S1225, .i32⟩) (.of main_call6_v8 : StableHlo.TRef sig ⟨S1225, .i32⟩) (.of main_call6_v9 : StableHlo.TRef sig ⟨S1225, .i1⟩) (cmpi .ne),
    StableHlo.TRef.binary (.of main_call6_v5 : StableHlo.TRef sig ⟨S1225, .i1⟩) (.of main_call6_v9 : StableHlo.TRef sig ⟨S1225, .i1⟩) (.of main_call6_v10 : StableHlo.TRef sig ⟨S1225, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v11 : StableHlo.TRef sig ⟨S1225, .i32⟩) (broadcastInDim S1225 ![] bcast_S_S1225),
    StableHlo.TRef.binary (.of main_call6_v1 : StableHlo.TRef sig ⟨S1225, .i32⟩) (.of main_call6_v11 : StableHlo.TRef sig ⟨S1225, .i32⟩) (.of main_call6_v12 : StableHlo.TRef sig ⟨S1225, .i32⟩) subi,
    StableHlo.TRef.ternary (.of main_call6_v10 : StableHlo.TRef sig ⟨S1225, .i1⟩) (.of main_call6_v12 : StableHlo.TRef sig ⟨S1225, .i32⟩) (.of main_call6_v1 : StableHlo.TRef sig ⟨S1225, .i32⟩) (.of main_v47 : StableHlo.TRef sig ⟨S1225, .i32⟩) select ]
abbrev LD : List (HloOp τ sig (Elt F)) :=
  [
    StableHlo.nullary main_c_14 (constantI S_ 32 50#32),
    StableHlo.TRef.unary (.of main_c_14 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S1225, .i32⟩) (broadcastInDim S1225 ![] bcast_S_S1225),
    StableHlo.TRef.binary (.of main_v47 : StableHlo.TRef sig ⟨S1225, .i32⟩) (.of main_call7_v3 : StableHlo.TRef sig ⟨S1225, .i32⟩) (.of main_call7_v4 : StableHlo.TRef sig ⟨S1225, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S1225, .i32⟩) (broadcastInDim S1225 ![] bcast_S_S1225),
    StableHlo.TRef.binary (.of main_call7_v4 : StableHlo.TRef sig ⟨S1225, .i32⟩) (.of main_call7_v5 : StableHlo.TRef sig ⟨S1225, .i32⟩) (.of main_call7_v6 : StableHlo.TRef sig ⟨S1225, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S1225, .i32⟩) (broadcastInDim S1225 ![] bcast_S_S1225),
    StableHlo.TRef.binary (.of main_call7_v4 : StableHlo.TRef sig ⟨S1225, .i32⟩) (.of main_call7_v7 : StableHlo.TRef sig ⟨S1225, .i32⟩) (.of main_call7_v8 : StableHlo.TRef sig ⟨S1225, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S1225, .i1⟩) (broadcastInDim S1225 ![] bcast_S_S1225),
    StableHlo.TRef.binary (.of main_call7_v8 : StableHlo.TRef sig ⟨S1225, .i1⟩) (.of main_call7_v10 : StableHlo.TRef sig ⟨S1225, .i1⟩) (.of main_call7_v11 : StableHlo.TRef sig ⟨S1225, .i1⟩) (cmpi .ne),
    StableHlo.TRef.binary (.of main_call7_v11 : StableHlo.TRef sig ⟨S1225, .i1⟩) (.of main_call7_v6 : StableHlo.TRef sig ⟨S1225, .i1⟩) (.of main_call7_v12 : StableHlo.TRef sig ⟨S1225, .i1⟩) andi,
    StableHlo.TRef.unary main_call7_call0.v0 (.of main_call7_v13 : StableHlo.TRef sig ⟨S1225, .i32⟩) (broadcastInDim S1225 ![] bcast_S_S1225),
    StableHlo.TRef.binary (.of main_call7_v4 : StableHlo.TRef sig ⟨S1225, .i32⟩) (.of main_call7_v13 : StableHlo.TRef sig ⟨S1225, .i32⟩) (.of main_call7_v14 : StableHlo.TRef sig ⟨S1225, .i32⟩) addi,
    StableHlo.TRef.ternary (.of main_call7_v12 : StableHlo.TRef sig ⟨S1225, .i1⟩) (.of main_call7_v14 : StableHlo.TRef sig ⟨S1225, .i32⟩) (.of main_call7_v4 : StableHlo.TRef sig ⟨S1225, .i32⟩) (.of main_v48 : StableHlo.TRef sig ⟨S1225, .i32⟩) select ]
abbrev LE : List (HloOp τ sig (Elt F)) :=
  [
    StableHlo.nullary main_c_15 (constantI S_ 32 1#32),
    StableHlo.TRef.unary (.of main_c_15 : StableHlo.TRef sig ⟨S_, .i32⟩) (.of main_call8_v0 : StableHlo.TRef sig ⟨S1225, .i32⟩) (broadcastInDim S1225 ![] bcast_S_S1225),
    StableHlo.TRef.binary (.of main_v46 : StableHlo.TRef sig ⟨S1225, .i32⟩) (.of main_call8_v0 : StableHlo.TRef sig ⟨S1225, .i32⟩) (.of main_call8_v1 : StableHlo.TRef sig ⟨S1225, .i32⟩) Host.divsi,
    StableHlo.TRef.unary (.of main_v46 : StableHlo.TRef sig ⟨S1225, .i32⟩) (.of main_call8_v2 : StableHlo.TRef sig ⟨S1225, .i32⟩) signi,
    StableHlo.TRef.unary (.of main_c_15 : StableHlo.TRef sig ⟨S_, .i32⟩) (.of main_call8_v3 : StableHlo.TRef sig ⟨S_, .i32⟩) signi,
    StableHlo.TRef.unary (.of main_call8_v3 : StableHlo.TRef sig ⟨S_, .i32⟩) (.of main_call8_v4 : StableHlo.TRef sig ⟨S1225, .i32⟩) (broadcastInDim S1225 ![] bcast_S_S1225),
    StableHlo.TRef.binary (.of main_call8_v2 : StableHlo.TRef sig ⟨S1225, .i32⟩) (.of main_call8_v4 : StableHlo.TRef sig ⟨S1225, .i32⟩) (.of main_call8_v5 : StableHlo.TRef sig ⟨S1225, .i1⟩) (cmpi .ne),
    StableHlo.TRef.unary (.of main_c_15 : StableHlo.TRef sig ⟨S_, .i32⟩) (.of main_call8_v6 : StableHlo.TRef sig ⟨S1225, .i32⟩) (broadcastInDim S1225 ![] bcast_S_S1225),
    StableHlo.TRef.binary (.of main_v46 : StableHlo.TRef sig ⟨S1225, .i32⟩) (.of main_call8_v6 : StableHlo.TRef sig ⟨S1225, .i32⟩) (.of main_call8_v7 : StableHlo.TRef sig ⟨S1225, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v8 : StableHlo.TRef sig ⟨S1225, .i32⟩) (broadcastInDim S1225 ![] bcast_S_S1225),
    StableHlo.TRef.binary (.of main_call8_v7 : StableHlo.TRef sig ⟨S1225, .i32⟩) (.of main_call8_v8 : StableHlo.TRef sig ⟨S1225, .i32⟩) (.of main_call8_v9 : StableHlo.TRef sig ⟨S1225, .i1⟩) (cmpi .ne),
    StableHlo.TRef.binary (.of main_call8_v5 : StableHlo.TRef sig ⟨S1225, .i1⟩) (.of main_call8_v9 : StableHlo.TRef sig ⟨S1225, .i1⟩) (.of main_call8_v10 : StableHlo.TRef sig ⟨S1225, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v11 : StableHlo.TRef sig ⟨S1225, .i32⟩) (broadcastInDim S1225 ![] bcast_S_S1225),
    StableHlo.TRef.binary (.of main_call8_v1 : StableHlo.TRef sig ⟨S1225, .i32⟩) (.of main_call8_v11 : StableHlo.TRef sig ⟨S1225, .i32⟩) (.of main_call8_v12 : StableHlo.TRef sig ⟨S1225, .i32⟩) subi,
    StableHlo.TRef.ternary (.of main_call8_v10 : StableHlo.TRef sig ⟨S1225, .i1⟩) (.of main_call8_v12 : StableHlo.TRef sig ⟨S1225, .i32⟩) (.of main_call8_v1 : StableHlo.TRef sig ⟨S1225, .i32⟩) (.of main_v49 : StableHlo.TRef sig ⟨S1225, .i32⟩) select ]
abbrev LF : List (HloOp τ sig (Elt F)) :=
  [
    StableHlo.nullary main_c_16 (constantI S_ 32 50#32),
    StableHlo.TRef.unary (.of main_c_16 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S1225, .i32⟩) (broadcastInDim S1225 ![] bcast_S_S1225),
    StableHlo.TRef.binary (.of main_v49 : StableHlo.TRef sig ⟨S1225, .i32⟩) (.of main_call9_v3 : StableHlo.TRef sig ⟨S1225, .i32⟩) (.of main_call9_v4 : StableHlo.TRef sig ⟨S1225, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S1225, .i32⟩) (broadcastInDim S1225 ![] bcast_S_S1225),
    StableHlo.TRef.binary (.of main_call9_v4 : StableHlo.TRef sig ⟨S1225, .i32⟩) (.of main_call9_v5 : StableHlo.TRef sig ⟨S1225, .i32⟩) (.of main_call9_v6 : StableHlo.TRef sig ⟨S1225, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S1225, .i32⟩) (broadcastInDim S1225 ![] bcast_S_S1225),
    StableHlo.TRef.binary (.of main_call9_v4 : StableHlo.TRef sig ⟨S1225, .i32⟩) (.of main_call9_v7 : StableHlo.TRef sig ⟨S1225, .i32⟩) (.of main_call9_v8 : StableHlo.TRef sig ⟨S1225, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S1225, .i1⟩) (broadcastInDim S1225 ![] bcast_S_S1225),
    StableHlo.TRef.binary (.of main_call9_v8 : StableHlo.TRef sig ⟨S1225, .i1⟩) (.of main_call9_v10 : StableHlo.TRef sig ⟨S1225, .i1⟩) (.of main_call9_v11 : StableHlo.TRef sig ⟨S1225, .i1⟩) (cmpi .ne),
    StableHlo.TRef.binary (.of main_call9_v11 : StableHlo.TRef sig ⟨S1225, .i1⟩) (.of main_call9_v6 : StableHlo.TRef sig ⟨S1225, .i1⟩) (.of main_call9_v12 : StableHlo.TRef sig ⟨S1225, .i1⟩) andi,
    StableHlo.TRef.unary main_call9_call0.v0 (.of main_call9_v13 : StableHlo.TRef sig ⟨S1225, .i32⟩) (broadcastInDim S1225 ![] bcast_S_S1225),
    StableHlo.TRef.binary (.of main_call9_v4 : StableHlo.TRef sig ⟨S1225, .i32⟩) (.of main_call9_v13 : StableHlo.TRef sig ⟨S1225, .i32⟩) (.of main_call9_v14 : StableHlo.TRef sig ⟨S1225, .i32⟩) addi,
    StableHlo.TRef.ternary (.of main_call9_v12 : StableHlo.TRef sig ⟨S1225, .i1⟩) (.of main_call9_v14 : StableHlo.TRef sig ⟨S1225, .i32⟩) (.of main_call9_v4 : StableHlo.TRef sig ⟨S1225, .i32⟩) (.of main_v50 : StableHlo.TRef sig ⟨S1225, .i32⟩) select ]
abbrev LG : List (HloOp τ sig (Elt F)) :=
  [
    StableHlo.nullary main_c_17 (constantI S_ 32 0#32),
    StableHlo.unary main_c_17 main_v51 (broadcastInDim S1225 ![] bcast_S_S1225 : (⟨S_, .i32⟩ : BufTy).Contents (Elt F) → (⟨S1225, .i32⟩ : BufTy).Contents (Elt F)),
    StableHlo.binary main_v48 main_v51 main_v52 (cmpi .slt : (⟨S1225, .i32⟩ : BufTy).Contents (Elt F) → (⟨S1225, .i32⟩ : BufTy).Contents (Elt F) → (⟨S1225, .i1⟩ : BufTy).Contents (Elt F)),
    StableHlo.nullary main_c_18 (constantI S_ 32 50#32),
    StableHlo.unary main_c_18 main_v53 (broadcastInDim S1225 ![] bcast_S_S1225 : (⟨S_, .i32⟩ : BufTy).Contents (Elt F) → (⟨S1225, .i32⟩ : BufTy).Contents (Elt F)),
    StableHlo.binary main_v48 main_v53 main_v54 (addi : (⟨S1225, .i32⟩ : BufTy).Contents (Elt F) → (⟨S1225, .i32⟩ : BufTy).Contents (Elt F) → (⟨S1225, .i32⟩ : BufTy).Contents (Elt F)),
    StableHlo.ternary main_v52 main_v54 main_v48 main_v55 (select : (⟨S1225, .i1⟩ : BufTy).Contents (Elt F) → (⟨S1225, .i32⟩ : BufTy).Contents (Elt F) → (⟨S1225, .i32⟩ : BufTy).Contents (Elt F) → (⟨S1225, .i32⟩ : BufTy).Contents (Elt F)),
    StableHlo.nullary main_c_19 (constantI S_ 32 0#32),
    StableHlo.unary main_c_19 main_v56 (broadcastInDim S1225 ![] bcast_S_S1225 : (⟨S_, .i32⟩ : BufTy).Contents (Elt F) → (⟨S1225, .i32⟩ : BufTy).Contents (Elt F)),
    StableHlo.binary main_v50 main_v56 main_v57 (cmpi .slt : (⟨S1225, .i32⟩ : BufTy).Contents (Elt F) → (⟨S1225, .i32⟩ : BufTy).Contents (Elt F) → (⟨S1225, .i1⟩ : BufTy).Contents (Elt F)),
    StableHlo.nullary main_c_20 (constantI S_ 32 50#32),
    StableHlo.unary main_c_20 main_v58 (broadcastInDim S1225 ![] bcast_S_S1225 : (⟨S_, .i32⟩ : BufTy).Contents (Elt F) → (⟨S1225, .i32⟩ : BufTy).Contents (Elt F)),
    StableHlo.binary main_v50 main_v58 main_v59 (addi : (⟨S1225, .i32⟩ : BufTy).Contents (Elt F) → (⟨S1225, .i32⟩ : BufTy).Contents (Elt F) → (⟨S1225, .i32⟩ : BufTy).Contents (Elt F)),
    StableHlo.ternary main_v57 main_v59 main_v50 main_v60 (select : (⟨S1225, .i1⟩ : BufTy).Contents (Elt F) → (⟨S1225, .i32⟩ : BufTy).Contents (Elt F) → (⟨S1225, .i32⟩ : BufTy).Contents (Elt F) → (⟨S1225, .i32⟩ : BufTy).Contents (Elt F)),
    StableHlo.unary main_v55 main_v61 (broadcastInDim S1225x1 ![0] bcast_S1225_S1225x1_0 : (⟨S1225, .i32⟩ : BufTy).Contents (Elt F) → (⟨S1225x1, .i32⟩ : BufTy).Contents (Elt F)),
    StableHlo.unary main_v60 main_v62 (broadcastInDim S1225x1 ![0] bcast_S1225_S1225x1_0 : (⟨S1225, .i32⟩ : BufTy).Contents (Elt F) → (⟨S1225x1, .i32⟩ : BufTy).Contents (Elt F)) ]
abbrev LP : List (HloOp τ sig (Elt F)) :=
  [
    StableHlo.binary main_v61 main_v62 main_v63 ((fun a b => concatenate S1225x2 1 [⟨S1225x1, a⟩, ⟨S1225x1, b⟩] concatenates_S1225x1_S1225x1_S1225x2_d1) : (⟨S1225x1, .i32⟩ : BufTy).Contents (Elt F) → (⟨S1225x1, .i32⟩ : BufTy).Contents (Elt F) → (⟨S1225x2, .i32⟩ : BufTy).Contents (Elt F)),
    StableHlo.binary main_v30 main_v63 main_v64 ((fun x i => Host.gather gather_S50x50_S1225x2_S1225_n_01_n_n_01_1_11 x i) : (⟨S50x50, .f32⟩ : BufTy).Contents (Elt F) → (⟨S1225x2, .i32⟩ : BufTy).Contents (Elt F) → (⟨S1225, .f32⟩ : BufTy).Contents (Elt F)),
    StableHlo.nullary main_cst_21 (constant S_ .f32 0x00000000#32),
    StableHlo.nullary main_cst_22 (constant S_ .f32 0x3F800000#32),
    StableHlo.TRef.unary (.of main_cst_21 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S1225, .f32⟩) (broadcastInDim S1225 ![] bcast_S_S1225),
    StableHlo.TRef.binary (.of main_call10_v1 : StableHlo.TRef sig ⟨S1225, .f32⟩) (.of main_v64 : StableHlo.TRef sig ⟨S1225, .f32⟩) (.of main_call10_v2 : StableHlo.TRef sig ⟨S1225, .f32⟩) maximumf,
    StableHlo.TRef.unary (.of main_cst_22 : StableHlo.TRef sig ⟨S_, .f32⟩) (.of main_call10_v3 : StableHlo.TRef sig ⟨S_, .f32⟩) id,
    StableHlo.TRef.unary (.of main_call10_v3 : StableHlo.TRef sig ⟨S_, .f32⟩) (.of main_call10_v4 : StableHlo.TRef sig ⟨S1225, .f32⟩) (broadcastInDim S1225 ![] bcast_S_S1225),
    StableHlo.TRef.binary (.of main_call10_v4 : StableHlo.TRef sig ⟨S1225, .f32⟩) (.of main_call10_v2 : StableHlo.TRef sig ⟨S1225, .f32⟩) (.of main_v65 : StableHlo.TRef sig ⟨S1225, .f32⟩) minimumf,
    StableHlo.nullary main_cst_23 (constant S_ .f32 0x00000000#32),
    StableHlo.binary main_v65 main_cst_23 main_v66 ((fun x v => Host.reduceAdd x v reducesTo_S1225_S_d0 h_S_) : (⟨S1225, .f32⟩ : BufTy).Contents (Elt F) → (⟨S_, .f32⟩ : BufTy).Contents (Elt F) → (⟨S_, .f32⟩ : BufTy).Contents (Elt F)),
    StableHlo.nullary main_cst_24 (constant S_ .f32 0x44992000#32),
    StableHlo.binary main_v66 main_cst_24 main_v67 (Host.divf : (⟨S_, .f32⟩ : BufTy).Contents (Elt F) → (⟨S_, .f32⟩ : BufTy).Contents (Elt F) → (⟨S_, .f32⟩ : BufTy).Contents (Elt F)),
    StableHlo.binary main_v67 main_v22 main_v68 (subf : (⟨S_, .f32⟩ : BufTy).Contents (Elt F) → (⟨S_, .f32⟩ : BufTy).Contents (Elt F) → (⟨S_, .f32⟩ : BufTy).Contents (Elt F)) ]
/-- The whole tail: the stages in order. -/
abbrev preOps : List (HloOp τ sig (Elt F)) := LA ++ LB ++ LC ++ LD ++ LE ++ LF ++ LG
abbrev postOps : List (HloOp τ sig (Elt F)) := LP

set_option maxHeartbeats 2000000 in
set_option maxRecDepth 65536 in
/-- The stages in order are the program's own stretches after the second pass. -/
theorem ops_eq : (hostOps2a ++ (preOps ++ postOps) : List (HloOp τ sig (Elt F)))
    = hostOps2 ++ hostOps2_1 ++ hostOps2_2 ++ hostOps2_3 ++ hostOps2_4 ++ hostOps2_5 ++ hostOps2_6 ++ hostOps2_7 ++ hostOps2_8 ++ hostOps2_9 ++ hostOps2_10
      ++ hostOps2_11 ++ hostOps2_12 ++ hostOps2_13 ++ hostOps2_14 ++ hostOps2_15 ++ hostOps2_16 ++ hostOps2_17 ++ hostOps2_18 ++ hostOps2_19 ++ hostOps2_20 := by
  simp only [preOps, postOps, LA, LB, LC, LD, LE, LF, LG, LP, hostOps2a, hostOps2, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20,
    List.append_assoc, List.cons_append, List.nil_append]

end Cert.KernelIdeal.Tail
end
-- ==== Proof.KValue.lean ====
/-
  The kernel program's result as a value. Under the precondition every prediction entry is a real number, so the two
  passes over the voxels leave, per batch element and label, the count, the per-channel sums and the sum of the cosines
  against the label means; the host operations between and after them add the two batch elements, divide, and take norms.
  The result buffer therefore ends at the shared tail function of the per-label cosine sums, the counts and the means.
-/
import proofs.«411761_j45466523796029_3_alg».proof.Defs
import proofs.«411761_j45466523796029_3_alg».proof.Proof.KRun
import proofs.«411761_j45466523796029_3_alg».proof.Proof.KBody0
import proofs.«411761_j45466523796029_3_alg».proof.Proof.KReg0
import proofs.«411761_j45466523796029_3_alg».proof.Proof.KBody1
import proofs.«411761_j45466523796029_3_alg».proof.Proof.KReg1
import proofs.«411761_j45466523796029_3_alg».proof.Proof.KHost
import proofs.«411761_j45466523796029_3_alg».proof.Proof.SpecFacts
import proofs.«411761_j45466523796029_3_alg».proof.Proof.TailKOps
import proofs.«411761_j45466523796029_3_alg».proof.Proof.Gen.Pre_finite_inputs

noncomputable section
open Idealize.ShloMosaic Idealize.ShloMosaic.TcCoe Idealize.SL.Sem
open Idealize.ShloMosaic.Pipeline (Dat)

namespace Cert.KernelIdeal.Value
open Cert.KernelIdeal Cert.KernelIdeal.Gen Cert.KernelIdeal.Host Idealize.ShloMosaic.ValueIdx Idealize.ShloMosaic.StableHlo

variable (m : (ℓ : Loc nD τ sig) → Buf (Elt Ideal) ℓ) (ρ : Dev nD → PrngReg)

/-- The three inputs of the tail as arrays over the labels. -/
def intraArr (P : Cert.Spec.PArr) (I : Cert.Spec.IArr) : FVec Ideal S51 .f32 := fun j => Cert.Spec.intra P I (j 0).val
def countsArr (I : Cert.Spec.IArr) : FVec Ideal S51 .f32 := fun j => Cert.Spec.counts I (j 0).val

section
variable (c : Dev nD) (hA : ∀ j, ∃ r : ℝ, (m ((c : Thread nD τ).loc main_arg0) : Cert.Spec.A0Arr) j = (r : EReal))
include hA

theorem finP : ∀ j, ∃ r : ℝ, Pm m c j = (r : EReal) := Cert.KernelIdeal.Facts2.finite_P0 _ _ hA

theorem Hsum (b : Fin 2) (ch : Fin 16) (l : Fin 51) :
    (dat0 (F := Ideal) (V1 m ρ) c).arrAt 2 cfg0.N (ix3 b ch l) = Cert.Spec.sumsUpTo (Pm m c) (Im m c) b Cert.Spec.NV ch l.val := by
  have h := Cert.KernelIdeal.Reg0.sums_shards (V1 m ρ) Cert.KernelIdeal.Body0.out0_B_2_apply Cert.KernelIdeal.Body0.out0_A_2_apply c
    (by rw [V1_v0]; exact finP m c hA) b ch l
  rw [V1_v0, V1_v1] at h
  exact h

omit hA in
theorem Hcnt (b : Fin 2) (l : Fin 51) :
    (dat0 (F := Ideal) (V1 m ρ) c).arrAt 3 cfg0.N (ix3 b 0 l) = Cert.Spec.countsUpTo (Im m c) b Cert.Spec.NV l.val := by
  have h := Cert.KernelIdeal.Reg0.counts_shards (V1 m ρ) Cert.KernelIdeal.Body0.out0_B_3_apply Cert.KernelIdeal.Body0.out0_A_3_apply c b l
  rw [V1_v1] at h
  exact h

theorem Hint (b : Fin 2) (l : Fin 51) :
    (dat1 (F := Ideal) (V4 m ρ) c).arrAt 4 cfg1.N (ix3 b 0 l) = Cert.Spec.intraUpTo (Pm m c) (Im m c) b Cert.Spec.NV l.val := by
  have e10 := V4_v10 m ρ c (Hsum m ρ c hA) (Hcnt m ρ c)
  have e11 := V4_v11 m ρ c (Hsum m ρ c hA) (Hcnt m ρ c)
  have h := Cert.KernelIdeal.Reg1.intra_shards (V4 m ρ) Cert.KernelIdeal.Body1.out1_B_4_apply Cert.KernelIdeal.Body1.out1_A_4_apply c
    (by rw [V4_v0]; exact finP m c hA)
    (by rw [e10]; exact Cert.KernelIdeal.Facts2.meansArr_finite _ _ (finP m c hA))
    (by rw [e11]; exact Cert.KernelIdeal.Facts2.mnormArr_finite _ _ (finP m c hA)) b l
  rw [V4_v0, V4_v1, e10, e11] at h
  exact h

/-- The tail's three inputs, after the first four host operations that follow the second pass. -/
theorem T4_intra : (T4 m ρ c (Proc.devRef .tc main_v14) : FVec Ideal S51 .f32) = intraArr (Pm m c) (Im m c) := by
  funext j
  obtain ⟨l, rfl⟩ : ∃ l : Fin 51, j = ix1 l := ⟨j 0, eq_ix1 j⟩
  exact T4_v14 m ρ c (Hint m ρ c hA) l
omit hA in
theorem T4_counts : (T4 m ρ c (Proc.devRef .tc main_v15) : FVec Ideal S51 .f32) = countsArr (Im m c) := by
  funext j
  obtain ⟨l, rfl⟩ : ∃ l : Fin 51, j = ix1 l := ⟨j 0, eq_ix1 j⟩
  exact T4_v15 m ρ c (Hcnt m ρ c) l
theorem T4_means : (T4 m ρ c (Proc.devRef .tc main_v10) : Cert.Spec.MArr) = Cert.Spec.meansArr (Pm m c) (Im m c) :=
  T4_v10 m ρ c (Hsum m ρ c hA) (Hcnt m ρ c)
end

/-- The last boundary's contents are the tail's operations run from the buffers after its first four operations. -/
theorem W26_eq (c : Dev nD) : W26 m ρ c = after (Cert.KernelIdeal.Tail.preOps ++ Cert.KernelIdeal.Tail.postOps) (T4 m ρ c) := by
  show _ = after (Cert.KernelIdeal.Tail.preOps ++ Cert.KernelIdeal.Tail.postOps) (after Cert.KernelIdeal.Tail.hostOps2a (W5 m ρ c))
  rw [← Cert.KernelIdeal.Tail.after_append, Cert.KernelIdeal.Tail.ops_eq]
  simp only [Cert.KernelIdeal.Tail.after_append]

end Cert.KernelIdeal.Value
end
-- ==== Proof.TailKA.lean ====
/-
  The kernel program's tail, stage A (the float part before the index computation, and the running count of the triangle's entries), read off the fold of its operations.
-/
import proofs.«411761_j45466523796029_3_alg».proof.Proof.TailKOps
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

set_option maxHeartbeats 1000000 in
set_option maxRecDepth 65536 in
/-- Stage A: the mean over the labels 1..50 of (cosine sum / max(count, 1)). -/
def sIntra : Σ' (T : FVec F S51 .f32 → FVec F S51 .f32 → FVec F S_ .f32), ∀ W : Valuation τ sig (Elt F), after LA W (Proc.devRef .tc main_v22)
    = T (W (Proc.devRef .tc main_v14)) (W (Proc.devRef .tc main_v15)) := by
  refine ⟨?T, fun W => ?h⟩
  case h =>
    simp only [LA, List.append_assoc, List.cons_append, List.nil_append]
    after_results_simp
    try simp only [TRef.ofBuf, TRef.toBuf, cast_eq]
    generalize W (Proc.devRef .tc main_v14) = x0
    generalize W (Proc.devRef .tc main_v15) = x1
    exact rfl

set_option maxHeartbeats 1000000 in
set_option maxRecDepth 65536 in
/-- Stage A: the 50 × 50 matrix of products of the normalised means of the labels 1..50. -/
def sGram : Σ' (T : FVec F S51x16 .f32 → FVec F S50x50 .f32), ∀ W : Valuation τ sig (Elt F), after LA W (Proc.devRef .tc main_v30)
    = T (W (Proc.devRef .tc main_v10)) := by
  refine ⟨?T, fun W => ?h⟩
  case h =>
    simp only [LA, List.append_assoc, List.cons_append, List.nil_append]
    after_results_simp
    try simp only [TRef.ofBuf, TRef.toBuf, cast_eq]
    generalize W (Proc.devRef .tc main_v10) = x0
    exact rfl

set_option maxHeartbeats 1000000 in
set_option maxRecDepth 65536 in
/-- Stage A: the running count of the strict upper triangle's entries in row-major order, a constant. -/
def sMask : Σ' (T : IVec S2500 32), ∀ W : Valuation τ sig (Elt F), after LA W (Proc.devRef .tc main_v35)
    = T  := by
  refine ⟨?T, fun W => ?h⟩
  case h =>
    simp only [LA, List.append_assoc, List.cons_append, List.nil_append]
    after_results_simp
    try simp only [TRef.ofBuf, TRef.toBuf, cast_eq]

    exact rfl

end Cert.KernelIdeal.Tail
end
-- ==== Proof.TailKB.lean ====
/-
  The kernel program's tail, stage B (positions of the triangle's entries), read off the fold of its operations.
-/
import proofs.«411761_j45466523796029_3_alg».proof.Proof.TailKOps
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

set_option maxHeartbeats 1000000 in
set_option maxRecDepth 65536 in
/-- Stage B: from the running count, for each of the 1225 entries its row-major position (a scatter of ones, then a running sum). -/
def sPos : Σ' (T : IVec S2500 32 → IVec S1225 32), ∀ W : Valuation τ sig (Elt F), after LB W (Proc.devRef .tc main_v46)
    = T (W (Proc.devRef .tc main_v35)) := by
  refine ⟨?T, fun W => ?h⟩
  case h =>
    simp only [LB, List.append_assoc, List.cons_append, List.nil_append]
    after_results_simp
    try simp only [TRef.ofBuf, TRef.toBuf, cast_eq]
    generalize W (Proc.devRef .tc main_v35) = x0
    exact rfl

theorem pB30 (W : Valuation τ sig (Elt F)) : after LB W (Proc.devRef .tc main_v30) = W (Proc.devRef .tc main_v30) := by
  simp only [LB, List.append_assoc, List.cons_append, List.nil_append]
  after_results_simp

theorem pB22 (W : Valuation τ sig (Elt F)) : after LB W (Proc.devRef .tc main_v22) = W (Proc.devRef .tc main_v22) := by
  simp only [LB, List.append_assoc, List.cons_append, List.nil_append]
  after_results_simp

end Cert.KernelIdeal.Tail
end
-- ==== Proof.TailKC.lean ====
/-
  The kernel program's tail, stage C (positions floor-divided by 50), read off the fold of its operations.
-/
import proofs.«411761_j45466523796029_3_alg».proof.Proof.TailKOps
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

set_option maxHeartbeats 1000000 in
set_option maxRecDepth 65536 in
/-- Stage C: the positions floor-divided by 50. -/
def sDiv50 : Σ' (T : IVec S1225 32 → IVec S1225 32), ∀ W : Valuation τ sig (Elt F), after LC W (Proc.devRef .tc main_v47)
    = T (W (Proc.devRef .tc main_v46)) := by
  refine ⟨?T, fun W => ?h⟩
  case h =>
    simp only [LC, List.append_assoc, List.cons_append, List.nil_append]
    after_results_simp
    try simp only [TRef.ofBuf, TRef.toBuf, cast_eq]
    generalize W (Proc.devRef .tc main_v46) = x0
    exact rfl

theorem pC46 (W : Valuation τ sig (Elt F)) : after LC W (Proc.devRef .tc main_v46) = W (Proc.devRef .tc main_v46) := by
  simp only [LC, List.append_assoc, List.cons_append, List.nil_append]
  after_results_simp

theorem pC30 (W : Valuation τ sig (Elt F)) : after LC W (Proc.devRef .tc main_v30) = W (Proc.devRef .tc main_v30) := by
  simp only [LC, List.append_assoc, List.cons_append, List.nil_append]
  after_results_simp

theorem pC22 (W : Valuation τ sig (Elt F)) : after LC W (Proc.devRef .tc main_v22) = W (Proc.devRef .tc main_v22) := by
  simp only [LC, List.append_assoc, List.cons_append, List.nil_append]
  after_results_simp

end Cert.KernelIdeal.Tail
end
-- ==== Proof.TailKD.lean ====
/-
  The kernel program's tail, stage D (row numbers), read off the fold of its operations.
-/
import proofs.«411761_j45466523796029_3_alg».proof.Proof.TailKOps
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

set_option maxHeartbeats 1000000 in
set_option maxRecDepth 65536 in
/-- Stage D: that quotient modulo 50: the row number. -/
def sRow : Σ' (T : IVec S1225 32 → IVec S1225 32), ∀ W : Valuation τ sig (Elt F), after LD W (Proc.devRef .tc main_v48)
    = T (W (Proc.devRef .tc main_v47)) := by
  refine ⟨?T, fun W => ?h⟩
  case h =>
    simp only [LD, List.append_assoc, List.cons_append, List.nil_append]
    after_results_simp
    try simp only [TRef.ofBuf, TRef.toBuf, cast_eq]
    generalize W (Proc.devRef .tc main_v47) = x0
    exact rfl

theorem pD46 (W : Valuation τ sig (Elt F)) : after LD W (Proc.devRef .tc main_v46) = W (Proc.devRef .tc main_v46) := by
  simp only [LD, List.append_assoc, List.cons_append, List.nil_append]
  after_results_simp

theorem pD30 (W : Valuation τ sig (Elt F)) : after LD W (Proc.devRef .tc main_v30) = W (Proc.devRef .tc main_v30) := by
  simp only [LD, List.append_assoc, List.cons_append, List.nil_append]
  after_results_simp

theorem pD22 (W : Valuation τ sig (Elt F)) : after LD W (Proc.devRef .tc main_v22) = W (Proc.devRef .tc main_v22) := by
  simp only [LD, List.append_assoc, List.cons_append, List.nil_append]
  after_results_simp

end Cert.KernelIdeal.Tail
end
-- ==== Proof.TailKE.lean ====
/-
  The kernel program's tail, stage E (positions floor-divided by 1), read off the fold of its operations.
-/
import proofs.«411761_j45466523796029_3_alg».proof.Proof.TailKOps
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

set_option maxHeartbeats 1000000 in
set_option maxRecDepth 65536 in
/-- Stage E: the positions floor-divided by 1. -/
def sDiv1 : Σ' (T : IVec S1225 32 → IVec S1225 32), ∀ W : Valuation τ sig (Elt F), after LE W (Proc.devRef .tc main_v49)
    = T (W (Proc.devRef .tc main_v46)) := by
  refine ⟨?T, fun W => ?h⟩
  case h =>
    simp only [LE, List.append_assoc, List.cons_append, List.nil_append]
    after_results_simp
    try simp only [TRef.ofBuf, TRef.toBuf, cast_eq]
    generalize W (Proc.devRef .tc main_v46) = x0
    exact rfl

theorem pE48 (W : Valuation τ sig (Elt F)) : after LE W (Proc.devRef .tc main_v48) = W (Proc.devRef .tc main_v48) := by
  simp only [LE, List.append_assoc, List.cons_append, List.nil_append]
  after_results_simp

theorem pE30 (W : Valuation τ sig (Elt F)) : after LE W (Proc.devRef .tc main_v30) = W (Proc.devRef .tc main_v30) := by
  simp only [LE, List.append_assoc, List.cons_append, List.nil_append]
  after_results_simp

theorem pE22 (W : Valuation τ sig (Elt F)) : after LE W (Proc.devRef .tc main_v22) = W (Proc.devRef .tc main_v22) := by
  simp only [LE, List.append_assoc, List.cons_append, List.nil_append]
  after_results_simp

end Cert.KernelIdeal.Tail
end
-- ==== Proof.TailKF.lean ====
/-
  The kernel program's tail, stage F (column numbers), read off the fold of its operations.
-/
import proofs.«411761_j45466523796029_3_alg».proof.Proof.TailKOps
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

set_option maxHeartbeats 1000000 in
set_option maxRecDepth 65536 in
/-- Stage F: that quotient modulo 50: the column number. -/
def sCol : Σ' (T : IVec S1225 32 → IVec S1225 32), ∀ W : Valuation τ sig (Elt F), after LF W (Proc.devRef .tc main_v50)
    = T (W (Proc.devRef .tc main_v49)) := by
  refine ⟨?T, fun W => ?h⟩
  case h =>
    simp only [LF, List.append_assoc, List.cons_append, List.nil_append]
    after_results_simp
    try simp only [TRef.ofBuf, TRef.toBuf, cast_eq]
    generalize W (Proc.devRef .tc main_v49) = x0
    exact rfl

theorem pF48 (W : Valuation τ sig (Elt F)) : after LF W (Proc.devRef .tc main_v48) = W (Proc.devRef .tc main_v48) := by
  simp only [LF, List.append_assoc, List.cons_append, List.nil_append]
  after_results_simp

theorem pF30 (W : Valuation τ sig (Elt F)) : after LF W (Proc.devRef .tc main_v30) = W (Proc.devRef .tc main_v30) := by
  simp only [LF, List.append_assoc, List.cons_append, List.nil_append]
  after_results_simp

theorem pF22 (W : Valuation τ sig (Elt F)) : after LF W (Proc.devRef .tc main_v22) = W (Proc.devRef .tc main_v22) := by
  simp only [LF, List.append_assoc, List.cons_append, List.nil_append]
  after_results_simp

end Cert.KernelIdeal.Tail
end
-- ==== Proof.TailKG.lean ====
/-
  The kernel program's tail, stage G (the two index columns), read off the fold of its operations.
-/
import proofs.«411761_j45466523796029_3_alg».proof.Proof.TailKOps
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

set_option maxHeartbeats 1000000 in
set_option maxRecDepth 65536 in
/-- Stage G: the row numbers wrapped into range, as a column. -/
def sRowCol : Σ' (T : IVec S1225 32 → IVec S1225x1 32), ∀ W : Valuation τ sig (Elt F), after LG W (Proc.devRef .tc main_v61)
    = T (W (Proc.devRef .tc main_v48)) := by
  refine ⟨?T, fun W => ?h⟩
  case h =>
    simp only [LG, List.append_assoc, List.cons_append, List.nil_append]
    after_results_simp
    try simp only [TRef.ofBuf, TRef.toBuf, cast_eq]
    generalize W (Proc.devRef .tc main_v48) = x0
    exact rfl

set_option maxHeartbeats 1000000 in
set_option maxRecDepth 65536 in
/-- Stage G: the column numbers wrapped into range, as a column. -/
def sColCol : Σ' (T : IVec S1225 32 → IVec S1225x1 32), ∀ W : Valuation τ sig (Elt F), after LG W (Proc.devRef .tc main_v62)
    = T (W (Proc.devRef .tc main_v50)) := by
  refine ⟨?T, fun W => ?h⟩
  case h =>
    simp only [LG, List.append_assoc, List.cons_append, List.nil_append]
    after_results_simp
    try simp only [TRef.ofBuf, TRef.toBuf, cast_eq]
    generalize W (Proc.devRef .tc main_v50) = x0
    exact rfl

theorem pG30 (W : Valuation τ sig (Elt F)) : after LG W (Proc.devRef .tc main_v30) = W (Proc.devRef .tc main_v30) := by
  simp only [LG, List.append_assoc, List.cons_append, List.nil_append]
  after_results_simp

theorem pG22 (W : Valuation τ sig (Elt F)) : after LG W (Proc.devRef .tc main_v22) = W (Proc.devRef .tc main_v22) := by
  simp only [LG, List.append_assoc, List.cons_append, List.nil_append]
  after_results_simp

end Cert.KernelIdeal.Tail
end
-- ==== Proof.TailKP.lean ====
/-
  The kernel program's tail, the stage after the join of the index columns, read off the fold of its operations.
-/
import proofs.«411761_j45466523796029_3_alg».proof.Proof.TailKOps
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

set_option maxHeartbeats 1000000 in
set_option maxRecDepth 65536 in
/-- After the join: the loss from the two index columns, the matrix and the mean of the cosine averages. -/
def sPost : Σ' (T : IVec S1225x1 32 → IVec S1225x1 32 → FVec F S50x50 .f32 → FVec F S_ .f32 → FVec F S_ .f32), ∀ W : Valuation τ sig (Elt F), after LP W (Proc.devRef .tc main_v68)
    = T (W (Proc.devRef .tc main_v61)) (W (Proc.devRef .tc main_v62)) (W (Proc.devRef .tc main_v30)) (W (Proc.devRef .tc main_v22)) := by
  refine ⟨?T, fun W => ?h⟩
  case h =>
    simp only [LP, List.append_assoc, List.cons_append, List.nil_append]
    after_results_simp
    try simp only [TRef.ofBuf, TRef.toBuf, cast_eq]
    generalize W (Proc.devRef .tc main_v61) = x0
    generalize W (Proc.devRef .tc main_v62) = x1
    generalize W (Proc.devRef .tc main_v30) = x2
    generalize W (Proc.devRef .tc main_v22) = x3
    exact rfl

end Cert.KernelIdeal.Tail
end
-- ==== Proof.TailK.lean ====
/-
  The kernel program's tail as one function of the per-label cosine sums, the counts and the means.
-/
import proofs.«411761_j45466523796029_3_alg».proof.Proof.TailKA
import proofs.«411761_j45466523796029_3_alg».proof.Proof.TailKB
import proofs.«411761_j45466523796029_3_alg».proof.Proof.TailKC
import proofs.«411761_j45466523796029_3_alg».proof.Proof.TailKD
import proofs.«411761_j45466523796029_3_alg».proof.Proof.TailKE
import proofs.«411761_j45466523796029_3_alg».proof.Proof.TailKF
import proofs.«411761_j45466523796029_3_alg».proof.Proof.TailKG
import proofs.«411761_j45466523796029_3_alg».proof.Proof.TailKP
noncomputable section
open Idealize.ShloMosaic Idealize.ShloMosaic.TcCoe Idealize.SL.Sem
namespace Cert.KernelIdeal.Tail
open Cert.KernelIdeal Cert.KernelIdeal.Gen Idealize.ShloMosaic.StableHlo
variable {F : FTy → Type} [FloatOps F]

/-- The tail as one function of the per-label cosine sums, the counts and the means: the stages composed. -/
def T (a b : FVec F S51 .f32) (c : FVec F S51x16 .f32) : FVec F S_ .f32 :=
  (sPost (F := F)).1
    ((sRowCol (F := F)).1 ((sRow (F := F)).1 ((sDiv50 (F := F)).1 ((sPos (F := F)).1 (sMask (F := F)).1))))
    ((sColCol (F := F)).1 ((sCol (F := F)).1 ((sDiv1 (F := F)).1 ((sPos (F := F)).1 (sMask (F := F)).1))))
    ((sGram (F := F)).1 c) ((sIntra (F := F)).1 a b)

/-- The fold of the whole tail at the result buffer is that function of the three inputs: stage by stage, each stage's
    result read from the stage before, the buffers a later stage reads carried through the stages between. -/
theorem tail_eq (W : Valuation τ sig (Elt F)) :
    after (preOps ++ postOps) W (Proc.devRef .tc main_v68)
      = T (W (Proc.devRef .tc main_v14)) (W (Proc.devRef .tc main_v15)) (W (Proc.devRef .tc main_v10)) := by
  simp only [preOps, postOps, after_append]
  rw [(sPost (F := F)).2, (sRowCol (F := F)).2, (sColCol (F := F)).2, pG30, pG22,
    pF48, (sCol (F := F)).2, pF30, pF22,
    pE48, (sDiv1 (F := F)).2, pE30, pE22,
    (sRow (F := F)).2, pD46, pD30, pD22,
    (sDiv50 (F := F)).2, pC46, pC30, pC22,
    (sPos (F := F)).2, pB30, pB22,
    (sMask (F := F)).2, (sGram (F := F)).2, (sIntra (F := F)).2]
  rfl

end Cert.KernelIdeal.Tail
end
-- ==== Proof.RRun.lean ====
import proofs.«411761_j45466523796029_3_alg».proof.ReferenceIdeal
import proofs.«411761_j45466523796029_3_alg».proof.Proof.Gen.ReferenceIdeal
import proofs.«411761_j45466523796029_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
noncomputable section
open Idealize.ShloMosaic Idealize.ShloMosaic.TcCoe Idealize.SL.Sem

/-! The reference program's straight line: its operations in order, each outlined function's
    operations listed at its call over that call's buffers, and the run of that line. -/

namespace Cert.ReferenceIdeal.Run

open Cert.ReferenceIdeal Cert.ReferenceIdeal.Gen Idealize.ShloMosaic.StableHlo

variable {F : FTy → Type} [FloatOps F]

/-- The operations from the first transpose through the scatter that sums the cosines per label: the counts and channel sums (two scatter-adds), the means, the gathered mean rows, the row inner products, the two norms (each the square, the row sum, the root), the gathered mean norms, the clamped quotient, the scatter-add of it. (58 operations.) -/
abbrev headOps : List (HloOp τ sig (Elt F)) :=
  [ StableHlo.unary main_arg0 main_v0 ((transpose S16x2x32x256x256 [1, 0, 2, 3, 4] · transposes_S2x16x32x256x256_S16x2x32x256x256_1_0_2_3_4) : (⟨S2x16x32x256x256, .f32⟩ : BufTy).Contents (Elt F) → (⟨S16x2x32x256x256, .f32⟩ : BufTy).Contents (Elt F)),
    StableHlo.reshape main_v0 main_v1 rfl shapeCasts_S16x2x32x256x256_S16x4194304,
    StableHlo.unary main_v1 main_v2 ((transpose S4194304x16 [1, 0] · transposes_S16x4194304_S4194304x16_1_0) : (⟨S16x4194304, .f32⟩ : BufTy).Contents (Elt F) → (⟨S4194304x16, .f32⟩ : BufTy).Contents (Elt F)),
    StableHlo.reshape main_arg1 main_v3 rfl shapeCasts_S2x32x256x256_S4194304,
    StableHlo.nullary main_cst (constant S_ .f32 0x3F800000#32),
    StableHlo.unary main_cst main_v4 (broadcastInDim S4194304 ![] bcast_S_S4194304 : (⟨S_, .f32⟩ : BufTy).Contents (Elt F) → (⟨S4194304, .f32⟩ : BufTy).Contents (Elt F)),
    StableHlo.nullary main_cst_0 (constant S_ .f32 0x00000000#32),
    StableHlo.unary main_cst_0 main_v5 (broadcastInDim S51 ![] bcast_S_S51 : (⟨S_, .f32⟩ : BufTy).Contents (Elt F) → (⟨S51, .f32⟩ : BufTy).Contents (Elt F)),
    StableHlo.unary main_v3 main_v6 (broadcastInDim S4194304x1 ![0] bcast_S4194304_S4194304x1_0 : (⟨S4194304, .i32⟩ : BufTy).Contents (Elt F) → (⟨S4194304x1, .i32⟩ : BufTy).Contents (Elt F)),
    StableHlo.ternary main_v5 main_v6 main_v4 main_v7 ((fun x i u => Host.scatterAdd scatter_S51_S4194304x1_S4194304_n_0_0_1 x i u) : (⟨S51, .f32⟩ : BufTy).Contents (Elt F) → (⟨S4194304x1, .i32⟩ : BufTy).Contents (Elt F) → (⟨S4194304, .f32⟩ : BufTy).Contents (Elt F) → (⟨S51, .f32⟩ : BufTy).Contents (Elt F)),
    StableHlo.nullary main_cst_1 (constant S_ .f32 0x00000000#32),
    StableHlo.unary main_cst_1 main_v8 (broadcastInDim S51x16 ![] bcast_S_S51x16 : (⟨S_, .f32⟩ : BufTy).Contents (Elt F) → (⟨S51x16, .f32⟩ : BufTy).Contents (Elt F)),
    StableHlo.unary main_v3 main_v9 (broadcastInDim S4194304x1 ![0] bcast_S4194304_S4194304x1_0 : (⟨S4194304, .i32⟩ : BufTy).Contents (Elt F) → (⟨S4194304x1, .i32⟩ : BufTy).Contents (Elt F)),
    StableHlo.ternary main_v8 main_v9 main_v2 main_v10 ((fun x i u => Host.scatterAdd scatter_S51x16_S4194304x1_S4194304x16_1_0_0_1 x i u) : (⟨S51x16, .f32⟩ : BufTy).Contents (Elt F) → (⟨S4194304x1, .i32⟩ : BufTy).Contents (Elt F) → (⟨S4194304x16, .f32⟩ : BufTy).Contents (Elt F) → (⟨S51x16, .f32⟩ : BufTy).Contents (Elt F)),
    StableHlo.nullary main_cst_2 (constant S_ .f32 0x3F800000#32),
    StableHlo.unary main_cst_2 main_v11 (broadcastInDim S51 ![] bcast_S_S51 : (⟨S_, .f32⟩ : BufTy).Contents (Elt F) → (⟨S51, .f32⟩ : BufTy).Contents (Elt F)),
    StableHlo.binary main_v7 main_v11 main_v12 (maximumf : (⟨S51, .f32⟩ : BufTy).Contents (Elt F) → (⟨S51, .f32⟩ : BufTy).Contents (Elt F) → (⟨S51, .f32⟩ : BufTy).Contents (Elt F)),
    StableHlo.unary main_v12 main_v13 (broadcastInDim S51x1 ![0] bcast_S51_S51x1_0 : (⟨S51, .f32⟩ : BufTy).Contents (Elt F) → (⟨S51x1, .f32⟩ : BufTy).Contents (Elt F)),
    StableHlo.unary main_v13 main_v14 (broadcastInDim S51x16 ![0, 1] bcast_S51x1_S51x16_0_1 : (⟨S51x1, .f32⟩ : BufTy).Contents (Elt F) → (⟨S51x16, .f32⟩ : BufTy).Contents (Elt F)),
    StableHlo.binary main_v10 main_v14 main_v15 (Host.divf : (⟨S51x16, .f32⟩ : BufTy).Contents (Elt F) → (⟨S51x16, .f32⟩ : BufTy).Contents (Elt F) → (⟨S51x16, .f32⟩ : BufTy).Contents (Elt F)),
    StableHlo.nullary main_c (constantI S_ 32 0#32),
    StableHlo.unary main_c main_v16 (broadcastInDim S4194304 ![] bcast_S_S4194304 : (⟨S_, .i32⟩ : BufTy).Contents (Elt F) → (⟨S4194304, .i32⟩ : BufTy).Contents (Elt F)),
    StableHlo.binary main_v3 main_v16 main_v17 (cmpi .slt : (⟨S4194304, .i32⟩ : BufTy).Contents (Elt F) → (⟨S4194304, .i32⟩ : BufTy).Contents (Elt F) → (⟨S4194304, .i1⟩ : BufTy).Contents (Elt F)),
    StableHlo.nullary main_c_3 (constantI S_ 32 51#32),
    StableHlo.unary main_c_3 main_v18 (broadcastInDim S4194304 ![] bcast_S_S4194304 : (⟨S_, .i32⟩ : BufTy).Contents (Elt F) → (⟨S4194304, .i32⟩ : BufTy).Contents (Elt F)),
    StableHlo.binary main_v3 main_v18 main_v19 (addi : (⟨S4194304, .i32⟩ : BufTy).Contents (Elt F) → (⟨S4194304, .i32⟩ : BufTy).Contents (Elt F) → (⟨S4194304, .i32⟩ : BufTy).Contents (Elt F)),
    StableHlo.ternary main_v17 main_v19 main_v3 main_v20 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v20 main_v21 (broadcastInDim S4194304x1 ![0] bcast_S4194304_S4194304x1_0 : (⟨S4194304, .i32⟩ : BufTy).Contents (Elt F) → (⟨S4194304x1, .i32⟩ : BufTy).Contents (Elt F)),
    StableHlo.binary main_v15 main_v21 main_v22 ((fun x i => Host.gather gather_S51x16_S4194304x1_S4194304x16_1_0_n_n_0_1_116 x i) : (⟨S51x16, .f32⟩ : BufTy).Contents (Elt F) → (⟨S4194304x1, .i32⟩ : BufTy).Contents (Elt F) → (⟨S4194304x16, .f32⟩ : BufTy).Contents (Elt F)),
    StableHlo.binary main_v2 main_v22 main_v23 (mulf : (⟨S4194304x16, .f32⟩ : BufTy).Contents (Elt F) → (⟨S4194304x16, .f32⟩ : BufTy).Contents (Elt F) → (⟨S4194304x16, .f32⟩ : BufTy).Contents (Elt F)),
    StableHlo.nullary main_cst_4 (constant S_ .f32 0x00000000#32),
    StableHlo.binary main_v23 main_cst_4 main_v24 ((fun x v => Host.reduceAdd x v reducesTo_S4194304x16_S4194304_d1 h_S_) : (⟨S4194304x16, .f32⟩ : BufTy).Contents (Elt F) → (⟨S_, .f32⟩ : BufTy).Contents (Elt F) → (⟨S4194304, .f32⟩ : BufTy).Contents (Elt F)),
    StableHlo.TRef.binary (.of main_v2 : StableHlo.TRef sig ⟨S4194304x16, .f32⟩) (.of main_v2 : StableHlo.TRef sig ⟨S4194304x16, .f32⟩) main_call0.v0 mulf,
    StableHlo.TRef.nullary main_call0.cst (constant S_ .f32 0x00000000#32),
    StableHlo.TRef.binary main_call0.v0 main_call0.cst main_call0.v1 (fun x v => Host.reduceAdd x v reducesTo_S4194304x16_S4194304_d1 h_S_),
    StableHlo.TRef.unary main_call0.v1 main_call0.v2 Host.sqrt,
    StableHlo.TRef.binary (.of main_v15 : StableHlo.TRef sig ⟨S51x16, .f32⟩) (.of main_v15 : StableHlo.TRef sig ⟨S51x16, .f32⟩) main_call1.v0 mulf,
    StableHlo.TRef.nullary main_call1.cst (constant S_ .f32 0x00000000#32),
    StableHlo.TRef.binary main_call1.v0 main_call1.cst main_call1.v1 (fun x v => Host.reduceAdd x v reducesTo_S51x16_S51_d1 h_S_),
    StableHlo.TRef.unary main_call1.v1 main_call1.v2 Host.sqrt,
    StableHlo.nullary main_c_5 (constantI S_ 32 0#32),
    StableHlo.unary main_c_5 main_v27 (broadcastInDim S4194304 ![] bcast_S_S4194304 : (⟨S_, .i32⟩ : BufTy).Contents (Elt F) → (⟨S4194304, .i32⟩ : BufTy).Contents (Elt F)),
    StableHlo.binary main_v3 main_v27 main_v28 (cmpi .slt : (⟨S4194304, .i32⟩ : BufTy).Contents (Elt F) → (⟨S4194304, .i32⟩ : BufTy).Contents (Elt F) → (⟨S4194304, .i1⟩ : BufTy).Contents (Elt F)),
    StableHlo.nullary main_c_6 (constantI S_ 32 51#32),
    StableHlo.unary main_c_6 main_v29 (broadcastInDim S4194304 ![] bcast_S_S4194304 : (⟨S_, .i32⟩ : BufTy).Contents (Elt F) → (⟨S4194304, .i32⟩ : BufTy).Contents (Elt F)),
    StableHlo.binary main_v3 main_v29 main_v30 (addi : (⟨S4194304, .i32⟩ : BufTy).Contents (Elt F) → (⟨S4194304, .i32⟩ : BufTy).Contents (Elt F) → (⟨S4194304, .i32⟩ : BufTy).Contents (Elt F)),
    StableHlo.ternary main_v28 main_v30 main_v3 main_v31 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v31 main_v32 (broadcastInDim S4194304x1 ![0] bcast_S4194304_S4194304x1_0 : (⟨S4194304, .i32⟩ : BufTy).Contents (Elt F) → (⟨S4194304x1, .i32⟩ : BufTy).Contents (Elt F)),
    StableHlo.binary main_v26 main_v32 main_v33 ((fun x i => Host.gather gather_S51_S4194304x1_S4194304_n_0_n_n_0_1_1 x i) : (⟨S51, .f32⟩ : BufTy).Contents (Elt F) → (⟨S4194304x1, .i32⟩ : BufTy).Contents (Elt F) → (⟨S4194304, .f32⟩ : BufTy).Contents (Elt F)),
    StableHlo.binary main_v25 main_v33 main_v34 (mulf : (⟨S4194304, .f32⟩ : BufTy).Contents (Elt F) → (⟨S4194304, .f32⟩ : BufTy).Contents (Elt F) → (⟨S4194304, .f32⟩ : BufTy).Contents (Elt F)),
    StableHlo.nullary main_cst_7 (constant S_ .f32 0x322BCC77#32),
    StableHlo.unary main_cst_7 main_v35 (broadcastInDim S4194304 ![] bcast_S_S4194304 : (⟨S_, .f32⟩ : BufTy).Contents (Elt F) → (⟨S4194304, .f32⟩ : BufTy).Contents (Elt F)),
    StableHlo.binary main_v34 main_v35 main_v36 (maximumf : (⟨S4194304, .f32⟩ : BufTy).Contents (Elt F) → (⟨S4194304, .f32⟩ : BufTy).Contents (Elt F) → (⟨S4194304, .f32⟩ : BufTy).Contents (Elt F)),
    StableHlo.binary main_v24 main_v36 main_v37 (Host.divf : (⟨S4194304, .f32⟩ : BufTy).Contents (Elt F) → (⟨S4194304, .f32⟩ : BufTy).Contents (Elt F) → (⟨S4194304, .f32⟩ : BufTy).Contents (Elt F)),
    StableHlo.nullary main_cst_8 (constant S_ .f32 0x00000000#32),
    StableHlo.unary main_cst_8 main_v38 (broadcastInDim S51 ![] bcast_S_S51 : (⟨S_, .f32⟩ : BufTy).Contents (Elt F) → (⟨S51, .f32⟩ : BufTy).Contents (Elt F)),
    StableHlo.unary main_v3 main_v39 (broadcastInDim S4194304x1 ![0] bcast_S4194304_S4194304x1_0 : (⟨S4194304, .i32⟩ : BufTy).Contents (Elt F) → (⟨S4194304x1, .i32⟩ : BufTy).Contents (Elt F)),
    StableHlo.ternary main_v38 main_v39 main_v37 main_v40 ((fun x i u => Host.scatterAdd scatter_S51_S4194304x1_S4194304_n_0_0_1 x i u) : (⟨S51, .f32⟩ : BufTy).Contents (Elt F) → (⟨S4194304x1, .i32⟩ : BufTy).Contents (Elt F) → (⟨S4194304, .f32⟩ : BufTy).Contents (Elt F) → (⟨S51, .f32⟩ : BufTy).Contents (Elt F)) ]

theorem headOps_sub : (headOps : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub ..⟩

theorem headOps_fresh : (headOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- From the slice of the per-label sums through the clip of the cumulative count of the strict upper triangle: the mean over labels, the normalised mean rows, their Gram matrix, the triangle mask, its flattened prefix sums. (48 operations.) -/
abbrev tailOps0 : List (HloOp τ sig (Elt F)) :=
  [ StableHlo.unary main_v40 main_v41 ((extractStridedSlice S50 ![1] · slices_S51_S50_1) : (⟨S51, .f32⟩ : BufTy).Contents (Elt F) → (⟨S50, .f32⟩ : BufTy).Contents (Elt F)),
    StableHlo.unary main_v7 main_v42 ((extractStridedSlice S50 ![1] · slices_S51_S50_1) : (⟨S51, .f32⟩ : BufTy).Contents (Elt F) → (⟨S50, .f32⟩ : BufTy).Contents (Elt F)),
    StableHlo.nullary main_cst_9 (constant S_ .f32 0x3F800000#32),
    StableHlo.unary main_cst_9 main_v43 (broadcastInDim S50 ![] bcast_S_S50 : (⟨S_, .f32⟩ : BufTy).Contents (Elt F) → (⟨S50, .f32⟩ : BufTy).Contents (Elt F)),
    StableHlo.binary main_v42 main_v43 main_v44 (maximumf : (⟨S50, .f32⟩ : BufTy).Contents (Elt F) → (⟨S50, .f32⟩ : BufTy).Contents (Elt F) → (⟨S50, .f32⟩ : BufTy).Contents (Elt F)),
    StableHlo.binary main_v41 main_v44 main_v45 (Host.divf : (⟨S50, .f32⟩ : BufTy).Contents (Elt F) → (⟨S50, .f32⟩ : BufTy).Contents (Elt F) → (⟨S50, .f32⟩ : BufTy).Contents (Elt F)),
    StableHlo.nullary main_cst_10 (constant S_ .f32 0x00000000#32),
    StableHlo.binary main_v45 main_cst_10 main_v46 ((fun x v => Host.reduceAdd x v reducesTo_S50_S_d0 h_S_) : (⟨S50, .f32⟩ : BufTy).Contents (Elt F) → (⟨S_, .f32⟩ : BufTy).Contents (Elt F) → (⟨S_, .f32⟩ : BufTy).Contents (Elt F)),
    StableHlo.nullary main_cst_11 (constant S_ .f32 0x42480000#32),
    StableHlo.binary main_v46 main_cst_11 main_v47 (Host.divf : (⟨S_, .f32⟩ : BufTy).Contents (Elt F) → (⟨S_, .f32⟩ : BufTy).Contents (Elt F) → (⟨S_, .f32⟩ : BufTy).Contents (Elt F)),
    StableHlo.unary main_v15 main_v48 ((extractStridedSlice S50x16 ![1, 0] · slices_S51x16_S50x16_1_0) : (⟨S51x16, .f32⟩ : BufTy).Contents (Elt F) → (⟨S50x16, .f32⟩ : BufTy).Contents (Elt F)),
    StableHlo.TRef.binary (.of main_v48 : StableHlo.TRef sig ⟨S50x16, .f32⟩) (.of main_v48 : StableHlo.TRef sig ⟨S50x16, .f32⟩) main_call2.v0 mulf,
    StableHlo.TRef.nullary main_call2.cst (constant S_ .f32 0x00000000#32),
    StableHlo.TRef.binary main_call2.v0 main_call2.cst main_call2.v1 (fun x v => Host.reduceAdd x v reducesTo_S50x16_S50_d1 h_S_),
    StableHlo.TRef.unary main_call2.v1 main_call2.v2 (broadcastInDim S50x1 ![0] bcast_S50_S50x1_0),
    StableHlo.TRef.unary main_call2.v2 main_call2.v3 Host.sqrt,
    StableHlo.nullary main_cst_12 (constant S_ .f32 0x322BCC77#32),
    StableHlo.unary main_cst_12 main_v50 (broadcastInDim S50x1 ![] bcast_S_S50x1 : (⟨S_, .f32⟩ : BufTy).Contents (Elt F) → (⟨S50x1, .f32⟩ : BufTy).Contents (Elt F)),
    StableHlo.binary main_v49 main_v50 main_v51 (maximumf : (⟨S50x1, .f32⟩ : BufTy).Contents (Elt F) → (⟨S50x1, .f32⟩ : BufTy).Contents (Elt F) → (⟨S50x1, .f32⟩ : BufTy).Contents (Elt F)),
    StableHlo.unary main_v51 main_v52 (broadcastInDim S50x16 ![0, 1] bcast_S50x1_S50x16_0_1 : (⟨S50x1, .f32⟩ : BufTy).Contents (Elt F) → (⟨S50x16, .f32⟩ : BufTy).Contents (Elt F)),
    StableHlo.binary main_v48 main_v52 main_v53 (Host.divf : (⟨S50x16, .f32⟩ : BufTy).Contents (Elt F) → (⟨S50x16, .f32⟩ : BufTy).Contents (Elt F) → (⟨S50x16, .f32⟩ : BufTy).Contents (Elt F)),
    StableHlo.unary main_v53 main_v54 ((transpose S16x50 [1, 0] · transposes_S50x16_S16x50_1_0) : (⟨S50x16, .f32⟩ : BufTy).Contents (Elt F) → (⟨S16x50, .f32⟩ : BufTy).Contents (Elt F)),
    StableHlo.binary main_v53 main_v54 main_v55 ((fun l r => Host.dotGeneral dot_S50x16_S16x50_S50x50_1_0_0_1_n_n none l r) : (⟨S50x16, .f32⟩ : BufTy).Contents (Elt F) → (⟨S16x50, .f32⟩ : BufTy).Contents (Elt F) → (⟨S50x50, .f32⟩ : BufTy).Contents (Elt F)),
    StableHlo.nullary main_cst_13 (constant S_ .f32 0x3F800000#32),
    StableHlo.unary main_cst_13 main_v56 (broadcastInDim S50x50 ![] bcast_S_S50x50 : (⟨S_, .f32⟩ : BufTy).Contents (Elt F) → (⟨S50x50, .f32⟩ : BufTy).Contents (Elt F)),
    StableHlo.TRef.nullary main_call3.v0 (iotaInDim S50x50 32 0),
    StableHlo.TRef.nullary main_call3.c (constantI S_ 32 0#32),
    StableHlo.TRef.unary main_call3.c main_call3.v1 (broadcastInDim S50x50 ![] bcast_S_S50x50),
    StableHlo.TRef.binary main_call3.v0 main_call3.v1 main_call3.v2 addi,
    StableHlo.TRef.nullary main_call3.v3 (iotaInDim S50x50 32 1),
    StableHlo.TRef.binary main_call3.v2 main_call3.v3 main_call3.v4 (cmpi .sge),
    StableHlo.TRef.nullary main_call3.cst (constant S_ .f32 0x00000000#32),
    StableHlo.TRef.unary main_call3.cst main_call3.v5 (broadcastInDim S50x50 ![] bcast_S_S50x50),
    StableHlo.TRef.ternary main_call3.v4 main_call3.v5 (.of main_v56 : StableHlo.TRef sig ⟨S50x50, .f32⟩) main_call3.v6 select,
    StableHlo.nullary main_cst_14 (constant S_ .f32 0x00000000#32),
    StableHlo.unary main_cst_14 main_v58 (broadcastInDim S50x50 ![] bcast_S_S50x50 : (⟨S_, .f32⟩ : BufTy).Contents (Elt F) → (⟨S50x50, .f32⟩ : BufTy).Contents (Elt F)),
    StableHlo.binary main_v57 main_v58 main_v59 (cmpf .une : (⟨S50x50, .f32⟩ : BufTy).Contents (Elt F) → (⟨S50x50, .f32⟩ : BufTy).Contents (Elt F) → (⟨S50x50, .i1⟩ : BufTy).Contents (Elt F)),
    StableHlo.TRef.reshape (.of main_v59 : StableHlo.TRef sig ⟨S50x50, .i1⟩) main_call4.v0 rfl shapeCasts_S50x50_S2500,
    StableHlo.TRef.unary main_call4.v0 main_call4.v1 (extui 32 · natLt_1_32),
    StableHlo.TRef.nullary main_call4.call0.c (constantI S_ 32 0#32),
    StableHlo.TRef.unary main_call4.call0.c main_call4.call0.v0 (broadcastInDim S_ ![] bcast_S_S_),
    StableHlo.TRef.binary main_call4.v1 main_call4.call0.v0 main_call4.call0.v1 (fun x v => Host.reduceWindow IntOp.addi ![2500] ![1] ![2499] ![0] x v reduceWindows_S2500_S2500_w2500s1p2499_0 h_S_),
    StableHlo.nullary main_c_15 (constantI S_ 32 0#32),
    StableHlo.unary main_c_15 main_v61 (broadcastInDim S1225 ![] bcast_S_S1225 : (⟨S_, .i32⟩ : BufTy).Contents (Elt F) → (⟨S1225, .i32⟩ : BufTy).Contents (Elt F)),
    StableHlo.nullary main_c_16 (constantI S_ 32 0#32),
    StableHlo.TRef.unary (.of main_c_16 : StableHlo.TRef sig ⟨S_, .i32⟩) main_call5.v0 id,
    StableHlo.TRef.unary main_call5.v0 main_call5.v1 (broadcastInDim S2500 ![] bcast_S_S2500),
    StableHlo.TRef.binary main_call5.v1 (.of main_v60 : StableHlo.TRef sig ⟨S2500, .i32⟩) main_call5.v2 maxsi ]

theorem tailOps0_sub : (tailOps0 : List (HloOp τ sig (Elt F))).Forall fun op => op.bufs ⊆ tcRefs τ sig :=
  ⟨unary_bufs_sub .., unary_bufs_sub .., nullary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub ..⟩

theorem tailOps0_fresh : (tailOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The scatter of ones at the clipped prefix sums, its prefix sums, then the first floor division and remainder (each with its sign correction). (53 operations.) -/
abbrev tailOps1 : List (HloOp τ sig (Elt F)) :=
  [ StableHlo.nullary main_c_17 (constantI S_ 32 0#32),
    StableHlo.unary main_c_17 main_v63 (broadcastInDim S2500 ![] bcast_S_S2500 : (⟨S_, .i32⟩ : BufTy).Contents (Elt F) → (⟨S2500, .i32⟩ : BufTy).Contents (Elt F)),
    StableHlo.binary main_v62 main_v63 main_v64 (cmpi .slt : (⟨S2500, .i32⟩ : BufTy).Contents (Elt F) → (⟨S2500, .i32⟩ : BufTy).Contents (Elt F) → (⟨S2500, .i1⟩ : BufTy).Contents (Elt F)),
    StableHlo.nullary main_c_18 (constantI S_ 32 1225#32),
    StableHlo.unary main_c_18 main_v65 (broadcastInDim S2500 ![] bcast_S_S2500 : (⟨S_, .i32⟩ : BufTy).Contents (Elt F) → (⟨S2500, .i32⟩ : BufTy).Contents (Elt F)),
    StableHlo.binary main_v62 main_v65 main_v66 (addi : (⟨S2500, .i32⟩ : BufTy).Contents (Elt F) → (⟨S2500, .i32⟩ : BufTy).Contents (Elt F) → (⟨S2500, .i32⟩ : BufTy).Contents (Elt F)),
    StableHlo.ternary main_v64 main_v66 main_v62 main_v67 (select : (⟨S2500, .i1⟩ : BufTy).Contents (Elt F) → (⟨S2500, .i32⟩ : BufTy).Contents (Elt F) → (⟨S2500, .i32⟩ : BufTy).Contents (Elt F) → (⟨S2500, .i32⟩ : BufTy).Contents (Elt F)),
    StableHlo.unary main_v67 main_v68 (broadcastInDim S2500x1 ![0] bcast_S2500_S2500x1_0 : (⟨S2500, .i32⟩ : BufTy).Contents (Elt F) → (⟨S2500x1, .i32⟩ : BufTy).Contents (Elt F)),
    StableHlo.nullary main_c_19 (constantI S_ 32 1#32),
    StableHlo.unary main_c_19 main_v69 (broadcastInDim S2500 ![] bcast_S_S2500 : (⟨S_, .i32⟩ : BufTy).Contents (Elt F) → (⟨S2500, .i32⟩ : BufTy).Contents (Elt F)),
    StableHlo.ternary main_v61 main_v68 main_v69 main_v70 ((fun x i u => Host.scatter scatter_S1225_S2500x1_S2500_n_0_0_1 IntOp.addi x i u) : (⟨S1225, .i32⟩ : BufTy).Contents (Elt F) → (⟨S2500x1, .i32⟩ : BufTy).Contents (Elt F) → (⟨S2500, .i32⟩ : BufTy).Contents (Elt F) → (⟨S1225, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (.of main_v70 : StableHlo.TRef sig ⟨S1225, .i32⟩) main_call6.call0.v0 main_call6.call0.v1 (fun x v => Host.reduceWindow IntOp.addi ![1225] ![1] ![1224] ![0] x v reduceWindows_S1225_S1225_w1225s1p1224_0 h_S_),
    StableHlo.nullary main_c_20 (constantI S_ 32 50#32),
    StableHlo.TRef.unary (.of main_c_20 : StableHlo.TRef sig ⟨S_, .i32⟩) main_call7.v0 (broadcastInDim S1225 ![] bcast_S_S1225),
    StableHlo.TRef.binary (.of main_v71 : StableHlo.TRef sig ⟨S1225, .i32⟩) main_call7.v0 main_call7.v1 Host.divsi,
    StableHlo.TRef.unary (.of main_v71 : StableHlo.TRef sig ⟨S1225, .i32⟩) main_call7.v2 signi,
    StableHlo.TRef.unary (.of main_c_20 : StableHlo.TRef sig ⟨S_, .i32⟩) main_call7.v3 signi,
    StableHlo.TRef.unary main_call7.v3 main_call7.v4 (broadcastInDim S1225 ![] bcast_S_S1225),
    StableHlo.TRef.binary main_call7.v2 main_call7.v4 main_call7.v5 (cmpi .ne),
    StableHlo.TRef.unary (.of main_c_20 : StableHlo.TRef sig ⟨S_, .i32⟩) main_call7.v6 (broadcastInDim S1225 ![] bcast_S_S1225),
    StableHlo.TRef.binary (.of main_v71 : StableHlo.TRef sig ⟨S1225, .i32⟩) main_call7.v6 main_call7.v7 Host.remsi,
    StableHlo.TRef.nullary main_call7.c (constantI S_ 32 0#32),
    StableHlo.TRef.unary main_call7.c main_call7.v8 (broadcastInDim S1225 ![] bcast_S_S1225),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S1225 ![] bcast_S_S1225),
    StableHlo.TRef.binary main_call7.v1 main_call7.v11 main_call7.v12 subi,
    StableHlo.TRef.ternary main_call7.v10 main_call7.v12 main_call7.v1 main_call7.call0.v0 select,
    StableHlo.nullary main_c_21 (constantI S_ 32 50#32),
    StableHlo.TRef.unary (.of main_c_21 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S1225 ![] bcast_S_S1225),
    StableHlo.TRef.binary (.of main_v72 : StableHlo.TRef sig ⟨S1225, .i32⟩) main_call8.v3 main_call8.v4 Host.remsi,
    StableHlo.TRef.nullary main_call8.c_1 (constantI S_ 32 0#32),
    StableHlo.TRef.unary main_call8.c_1 main_call8.v5 (broadcastInDim S1225 ![] bcast_S_S1225),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S1225 ![] bcast_S_S1225),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S1225 ![] bcast_S_S1225),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S1225 ![] bcast_S_S1225),
    StableHlo.TRef.binary main_call8.v4 main_call8.v13 main_call8.v14 addi,
    StableHlo.TRef.ternary main_call8.v12 main_call8.v14 main_call8.v4 main_call8.v15 select ]

theorem tailOps1_sub : (tailOps1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem tailOps1_fresh : (tailOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The second floor division and remainder, the wrap of negative indices for both index vectors, and their broadcasts to columns. (55 operations.) -/
abbrev tailOps2 : List (HloOp τ sig (Elt F)) :=
  [ StableHlo.nullary main_c_22 (constantI S_ 32 1#32),
    StableHlo.TRef.unary (.of main_c_22 : StableHlo.TRef sig ⟨S_, .i32⟩) main_call9.v0 (broadcastInDim S1225 ![] bcast_S_S1225),
    StableHlo.TRef.binary (.of main_v71 : StableHlo.TRef sig ⟨S1225, .i32⟩) main_call9.v0 main_call9.v1 Host.divsi,
    StableHlo.TRef.unary (.of main_v71 : StableHlo.TRef sig ⟨S1225, .i32⟩) main_call9.v2 signi,
    StableHlo.TRef.unary (.of main_c_22 : StableHlo.TRef sig ⟨S_, .i32⟩) main_call9.v3 signi,
    StableHlo.TRef.unary main_call9.v3 main_call9.v4 (broadcastInDim S1225 ![] bcast_S_S1225),
    StableHlo.TRef.binary main_call9.v2 main_call9.v4 main_call9.v5 (cmpi .ne),
    StableHlo.TRef.unary (.of main_c_22 : StableHlo.TRef sig ⟨S_, .i32⟩) main_call9.v6 (broadcastInDim S1225 ![] bcast_S_S1225),
    StableHlo.TRef.binary (.of main_v71 : StableHlo.TRef sig ⟨S1225, .i32⟩) main_call9.v6 main_call9.v7 Host.remsi,
    StableHlo.TRef.nullary main_call9.c (constantI S_ 32 0#32),
    StableHlo.TRef.unary main_call9.c main_call9.v8 (broadcastInDim S1225 ![] bcast_S_S1225),
    StableHlo.TRef.binary main_call9.v7 main_call9.v8 main_call9.v9 (cmpi .ne),
    StableHlo.TRef.binary main_call9.v5 main_call9.v9 main_call9.v10 andi,
    StableHlo.TRef.nullary main_call9.c_0 (constantI S_ 32 1#32),
    StableHlo.TRef.unary main_call9.c_0 main_call9.v11 (broadcastInDim S1225 ![] bcast_S_S1225),
    StableHlo.TRef.binary main_call9.v1 main_call9.v11 main_call9.v12 subi,
    StableHlo.TRef.ternary main_call9.v10 main_call9.v12 main_call9.v1 main_call9.call0.v0 select,
    StableHlo.nullary main_c_23 (constantI S_ 32 50#32),
    StableHlo.TRef.unary (.of main_c_23 : StableHlo.TRef sig ⟨S_, .i32⟩) main_call10.v0 id,
    StableHlo.TRef.nullary main_call10.c (constantI S_ 32 0#32),
    StableHlo.TRef.binary main_call10.v0 main_call10.c main_call10.v1 (cmpi .eq),
    StableHlo.TRef.nullary main_call10.c_0 (constantI S_ 32 1#32),
    StableHlo.TRef.ternary main_call10.v1 main_call10.c_0 main_call10.v0 main_call10.call0.v0 select,
    StableHlo.TRef.unary main_call10.call0.v0 main_call10.v3 (broadcastInDim S1225 ![] bcast_S_S1225),
    StableHlo.TRef.binary (.of main_v74 : StableHlo.TRef sig ⟨S1225, .i32⟩) main_call10.v3 main_call10.v4 Host.remsi,
    StableHlo.TRef.nullary main_call10.c_1 (constantI S_ 32 0#32),
    StableHlo.TRef.unary main_call10.c_1 main_call10.v5 (broadcastInDim S1225 ![] bcast_S_S1225),
    StableHlo.TRef.binary main_call10.v4 main_call10.v5 main_call10.v6 (cmpi .ne),
    StableHlo.TRef.nullary main_call10.c_2 (constantI S_ 32 0#32),
    StableHlo.TRef.unary main_call10.c_2 main_call10.v7 (broadcastInDim S1225 ![] bcast_S_S1225),
    StableHlo.TRef.binary main_call10.v4 main_call10.v7 main_call10.v8 (cmpi .slt),
    StableHlo.TRef.nullary main_call10.c_3 (constantI S_ 32 0#32),
    StableHlo.TRef.binary main_call10.call0.v0 main_call10.c_3 main_call10.v9 (cmpi .slt),
    StableHlo.TRef.unary main_call10.v9 main_call10.v10 (broadcastInDim S1225 ![] bcast_S_S1225),
    StableHlo.TRef.binary main_call10.v8 main_call10.v10 main_call10.v11 (cmpi .ne),
    StableHlo.TRef.binary main_call10.v11 main_call10.v6 main_call10.v12 andi,
    StableHlo.TRef.unary main_call10.call0.v0 main_call10.v13 (broadcastInDim S1225 ![] bcast_S_S1225),
    StableHlo.TRef.binary main_call10.v4 main_call10.v13 main_call10.v14 addi,
    StableHlo.TRef.ternary main_call10.v12 main_call10.v14 main_call10.v4 main_call10.v15 select,
    StableHlo.nullary main_c_24 (constantI S_ 32 0#32),
    StableHlo.unary main_c_24 main_v76 (broadcastInDim S1225 ![] bcast_S_S1225 : (⟨S_, .i32⟩ : BufTy).Contents (Elt F) → (⟨S1225, .i32⟩ : BufTy).Contents (Elt F)),
    StableHlo.binary main_v73 main_v76 main_v77 (cmpi .slt : (⟨S1225, .i32⟩ : BufTy).Contents (Elt F) → (⟨S1225, .i32⟩ : BufTy).Contents (Elt F) → (⟨S1225, .i1⟩ : BufTy).Contents (Elt F)),
    StableHlo.nullary main_c_25 (constantI S_ 32 50#32),
    StableHlo.unary main_c_25 main_v78 (broadcastInDim S1225 ![] bcast_S_S1225 : (⟨S_, .i32⟩ : BufTy).Contents (Elt F) → (⟨S1225, .i32⟩ : BufTy).Contents (Elt F)),
    StableHlo.binary main_v73 main_v78 main_v79 (addi : (⟨S1225, .i32⟩ : BufTy).Contents (Elt F) → (⟨S1225, .i32⟩ : BufTy).Contents (Elt F) → (⟨S1225, .i32⟩ : BufTy).Contents (Elt F)),
    StableHlo.ternary main_v77 main_v79 main_v73 main_v80 (select : (⟨S1225, .i1⟩ : BufTy).Contents (Elt F) → (⟨S1225, .i32⟩ : BufTy).Contents (Elt F) → (⟨S1225, .i32⟩ : BufTy).Contents (Elt F) → (⟨S1225, .i32⟩ : BufTy).Contents (Elt F)),
    StableHlo.nullary main_c_26 (constantI S_ 32 0#32),
    StableHlo.unary main_c_26 main_v81 (broadcastInDim S1225 ![] bcast_S_S1225 : (⟨S_, .i32⟩ : BufTy).Contents (Elt F) → (⟨S1225, .i32⟩ : BufTy).Contents (Elt F)),
    StableHlo.binary main_v75 main_v81 main_v82 (cmpi .slt : (⟨S1225, .i32⟩ : BufTy).Contents (Elt F) → (⟨S1225, .i32⟩ : BufTy).Contents (Elt F) → (⟨S1225, .i1⟩ : BufTy).Contents (Elt F)),
    StableHlo.nullary main_c_27 (constantI S_ 32 50#32),
    StableHlo.unary main_c_27 main_v83 (broadcastInDim S1225 ![] bcast_S_S1225 : (⟨S_, .i32⟩ : BufTy).Contents (Elt F) → (⟨S1225, .i32⟩ : BufTy).Contents (Elt F)),
    StableHlo.binary main_v75 main_v83 main_v84 (addi : (⟨S1225, .i32⟩ : BufTy).Contents (Elt F) → (⟨S1225, .i32⟩ : BufTy).Contents (Elt F) → (⟨S1225, .i32⟩ : BufTy).Contents (Elt F)),
    StableHlo.ternary main_v82 main_v84 main_v75 main_v85 (select : (⟨S1225, .i1⟩ : BufTy).Contents (Elt F) → (⟨S1225, .i32⟩ : BufTy).Contents (Elt F) → (⟨S1225, .i32⟩ : BufTy).Contents (Elt F) → (⟨S1225, .i32⟩ : BufTy).Contents (Elt F)),
    StableHlo.unary main_v80 main_v86 (broadcastInDim S1225x1 ![0] bcast_S1225_S1225x1_0 : (⟨S1225, .i32⟩ : BufTy).Contents (Elt F) → (⟨S1225x1, .i32⟩ : BufTy).Contents (Elt F)),
    StableHlo.unary main_v85 main_v87 (broadcastInDim S1225x1 ![0] bcast_S1225_S1225x1_0 : (⟨S1225, .i32⟩ : BufTy).Contents (Elt F) → (⟨S1225x1, .i32⟩ : BufTy).Contents (Elt F)) ]

theorem tailOps2_sub : (tailOps2 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

theorem tailOps2_fresh : (tailOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The two index columns side by side, the gather of the Gram entries, the clamp to the unit interval, the mean, and the final difference. (15 operations.) -/
abbrev tailOps3 : List (HloOp τ sig (Elt F)) :=
  [ StableHlo.binary main_v86 main_v87 main_v88 ((fun a b => concatenate S1225x2 1 [⟨S1225x1, a⟩, ⟨S1225x1, b⟩] concatenates_S1225x1_S1225x1_S1225x2_d1) : (⟨S1225x1, .i32⟩ : BufTy).Contents (Elt F) → (⟨S1225x1, .i32⟩ : BufTy).Contents (Elt F) → (⟨S1225x2, .i32⟩ : BufTy).Contents (Elt F)),
    StableHlo.binary main_v55 main_v88 main_v89 ((fun x i => Host.gather gather_S50x50_S1225x2_S1225_n_01_n_n_01_1_11 x i) : (⟨S50x50, .f32⟩ : BufTy).Contents (Elt F) → (⟨S1225x2, .i32⟩ : BufTy).Contents (Elt F) → (⟨S1225, .f32⟩ : BufTy).Contents (Elt F)),
    StableHlo.nullary main_cst_28 (constant S_ .f32 0x00000000#32),
    StableHlo.nullary main_cst_29 (constant S_ .f32 0x3F800000#32),
    StableHlo.TRef.unary (.of main_cst_28 : StableHlo.TRef sig ⟨S_, .f32⟩) main_call11.v0 id,
    StableHlo.TRef.unary main_call11.v0 main_call11.v1 (broadcastInDim S1225 ![] bcast_S_S1225),
    StableHlo.TRef.binary main_call11.v1 (.of main_v89 : StableHlo.TRef sig ⟨S1225, .f32⟩) main_call11.v2 maximumf,
    StableHlo.TRef.unary (.of main_cst_29 : StableHlo.TRef sig ⟨S_, .f32⟩) main_call11.v3 id,
    StableHlo.TRef.unary main_call11.v3 main_call11.v4 (broadcastInDim S1225 ![] bcast_S_S1225),
    StableHlo.TRef.binary main_call11.v4 main_call11.v2 main_call11.v5 minimumf,
    StableHlo.nullary main_cst_30 (constant S_ .f32 0x00000000#32),
    StableHlo.binary main_v90 main_cst_30 main_v91 ((fun x v => Host.reduceAdd x v reducesTo_S1225_S_d0 h_S_) : (⟨S1225, .f32⟩ : BufTy).Contents (Elt F) → (⟨S_, .f32⟩ : BufTy).Contents (Elt F) → (⟨S_, .f32⟩ : BufTy).Contents (Elt F)),
    StableHlo.nullary main_cst_31 (constant S_ .f32 0x44992000#32),
    StableHlo.binary main_v91 main_cst_31 main_v92 (Host.divf : (⟨S_, .f32⟩ : BufTy).Contents (Elt F) → (⟨S_, .f32⟩ : BufTy).Contents (Elt F) → (⟨S_, .f32⟩ : BufTy).Contents (Elt F)),
    StableHlo.binary main_v92 main_v47 main_v93 (subf : (⟨S_, .f32⟩ : BufTy).Contents (Elt F) → (⟨S_, .f32⟩ : BufTy).Contents (Elt F) → (⟨S_, .f32⟩ : BufTy).Contents (Elt F)) ]

theorem tailOps3_sub : (tailOps3 : List (HloOp τ sig (Elt F))).Forall fun op => op.bufs ⊆ tcRefs τ sig :=
  ⟨binary_bufs_sub .., binary_bufs_sub .., nullary_bufs_sub .., nullary_bufs_sub .., unary_bufs_sub .., unary_bufs_sub .., binary_bufs_sub .., unary_bufs_sub .., unary_bufs_sub .., binary_bufs_sub .., nullary_bufs_sub .., binary_bufs_sub .., nullary_bufs_sub .., binary_bufs_sub .., binary_bufs_sub ..⟩

theorem tailOps3_fresh : (tailOps3 : List (HloOp τ sig (Elt F))).Forall fun op => op.fresh = ∅ :=
  ⟨rfl, rfl, rfl, rfl, rfl, rfl, rfl, rfl, rfl, rfl, rfl, rfl, rfl, rfl, rfl⟩

/-- Everything after the per-label cosine sums. -/
abbrev tailOps : List (HloOp τ sig (Elt F)) := tailOps0 ++ (tailOps1 ++ (tailOps2 ++ tailOps3))

theorem main_eq (c : Dev nD) : main (F := F) c = seq (headOps ++ tailOps) := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (headOps ++ tailOps : List (HloOp τ sig (Elt F))).Forall fun op => op.bufs ⊆ tcRefs τ sig :=
  List.forall_append.2 ⟨headOps_sub, List.forall_append.2 ⟨tailOps0_sub, List.forall_append.2 ⟨tailOps1_sub,
    List.forall_append.2 ⟨tailOps2_sub, tailOps3_sub⟩⟩⟩⟩

theorem ops_fresh : ∀ op ∈ (headOps ++ tailOps : List (HloOp τ sig (Elt F))), op.fresh = ∅ :=
  List.forall_iff_forall_mem.1 (List.forall_append.2 ⟨headOps_fresh, List.forall_append.2 ⟨tailOps0_fresh,
    List.forall_append.2 ⟨tailOps1_fresh, List.forall_append.2 ⟨tailOps2_fresh, tailOps3_fresh⟩⟩⟩⟩)

/-- On every device, for any float values, from any memory with zero counters: every weakly fair execution of
    @main terminates, and every final state has each TensorCore buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (headOps ++ tailOps) (launchContents m c) (b : DevRef τ sig) :=
  run_seq scopedRefs_eq scopedSems_eq defs main (fun _ => headOps ++ tailOps) main_eq (fun _ => ops_sub) m ρ
    (fun _ => ops_fresh)

/-- The fold over a concatenation is the fold over the second list from the fold over the first. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem headOps_arg0 (V : Valuation τ sig (Elt F)) :
    after headOps V (main_arg0 : DevRef τ sig) = V (main_arg0 : DevRef τ sig) := by
  simp only [after_cons, after_nil]
  rfl

theorem headOps_arg1 (V : Valuation τ sig (Elt F)) :
    after headOps V (main_arg1 : DevRef τ sig) = V (main_arg1 : DevRef τ sig) := by
  simp only [after_cons, after_nil]
  rfl

theorem tailOps0_arg0 (V : Valuation τ sig (Elt F)) :
    after tailOps0 V (main_arg0 : DevRef τ sig) = V (main_arg0 : DevRef τ sig) := by
  simp only [after_cons, after_nil]
  rfl

theorem tailOps0_arg1 (V : Valuation τ sig (Elt F)) :
    after tailOps0 V (main_arg1 : DevRef τ sig) = V (main_arg1 : DevRef τ sig) := by
  simp only [after_cons, after_nil]
  rfl

theorem tailOps1_arg0 (V : Valuation τ sig (Elt F)) :
    after tailOps1 V (main_arg0 : DevRef τ sig) = V (main_arg0 : DevRef τ sig) := by
  simp only [after_cons, after_nil]
  rfl

theorem tailOps1_arg1 (V : Valuation τ sig (Elt F)) :
    after tailOps1 V (main_arg1 : DevRef τ sig) = V (main_arg1 : DevRef τ sig) := by
  simp only [after_cons, after_nil]
  rfl

theorem tailOps2_arg0 (V : Valuation τ sig (Elt F)) :
    after tailOps2 V (main_arg0 : DevRef τ sig) = V (main_arg0 : DevRef τ sig) := by
  simp only [after_cons, after_nil]
  rfl

theorem tailOps2_arg1 (V : Valuation τ sig (Elt F)) :
    after tailOps2 V (main_arg1 : DevRef τ sig) = V (main_arg1 : DevRef τ sig) := by
  simp only [after_cons, after_nil]
  rfl

theorem tailOps3_arg0 (V : Valuation τ sig (Elt F)) :
    after tailOps3 V (main_arg0 : DevRef τ sig) = V (main_arg0 : DevRef τ sig) := by
  simp only [after_cons, after_nil]
  rfl

theorem tailOps3_arg1 (V : Valuation τ sig (Elt F)) :
    after tailOps3 V (main_arg1 : DevRef τ sig) = V (main_arg1 : DevRef τ sig) := by
  simp only [after_cons, after_nil]
  rfl

/-- No operation writes argument 0: it holds at the end what it held at the launch. -/
theorem after_arg0 (V : Valuation τ sig (Elt F)) :
    after (headOps ++ tailOps) V (main_arg0 : DevRef τ sig) = V (main_arg0 : DevRef τ sig) := by
  rw [after_append', after_append', after_append', after_append', tailOps3_arg0, tailOps2_arg0, tailOps1_arg0,
    tailOps0_arg0, headOps_arg0]

/-- No operation writes argument 1: it holds at the end what it held at the launch. -/
theorem after_arg1 (V : Valuation τ sig (Elt F)) :
    after (headOps ++ tailOps) V (main_arg1 : DevRef τ sig) = V (main_arg1 : DevRef τ sig) := by
  rw [after_append', after_append', after_append', after_append', tailOps3_arg1, tailOps2_arg1, tailOps1_arg1,
    tailOps0_arg1, headOps_arg1]

end Cert.ReferenceIdeal.Run

end
-- ==== Proof.RScatter.lean ====
import proofs.«411761_j45466523796029_3_alg».proof.ReferenceIdeal
import proofs.«411761_j45466523796029_3_alg».proof.Proof.Gen.ReferenceIdeal
import proofs.«411761_j45466523796029_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
noncomputable section
open Idealize.ShloMosaic Idealize.ShloMosaic.TcCoe Idealize.SL.Sem

namespace Cert.ReferenceIdeal.Lemmas

open Cert.ReferenceIdeal Cert.ReferenceIdeal.Gen Idealize.ShloMosaic.ValueIdx

/-!
  The reference's segment sums, table look-ups and flattening, each read at one index, at the ideal instance.

  The voxels are flattened to one axis of 4194304 = 2 · 2097152 entries, voxel `n` of batch element `b` at position
  `2097152 · b + n`. A segment sum over the label words adds, at label `l`, the updates of the voxels whose word is the
  32-bit word of `l` (a word read signed that is negative or above 50 lands outside and is dropped); a look-up by a word
  in 0..50 reads the table's row of that number.
-/

/-- A 32-bit word, read signed, lands on label `l` of 0..50 exactly when it is the word of `l`. -/
theorem word_lands (w : BitVec 32) (l : ℕ) (hl : l < 51) :
    (0 ≤ w.toInt ∧ w.toInt < 51 ∧ w.toInt.toNat = l) ↔ w = BitVec.ofNat 32 l := by
  have key := BitVec.toInt_eq_toNat_cond w
  have hlt := w.isLt
  constructor
  · rintro ⟨h0, h1, h2⟩
    apply BitVec.eq_of_toNat_eq
    rw [BitVec.toNat_ofNat]
    split at key <;> omega
  · rintro rfl
    have ht : (BitVec.ofNat 32 l).toNat = l := by rw [BitVec.toNat_ofNat]; omega
    rw [ht] at key
    rw [if_pos (by omega)] at key
    rw [key]
    refine ⟨by omega, by omega, by omega⟩

/-- The counts' and cosines' scatter: update `j` lands on label `l` exactly when voxel `j`'s word is the word of `l`. -/
theorem res1 (idx : IVec S4194304x1 32) (j : S4194304.Idx) (l : Fin 51) :
    scatter_S51_S4194304x1_S4194304_n_0_0_1.resultIdx? j idx = some (ix1 l)
      ↔ idx (ix2 (j 0) 0) = BitVec.ofNat 32 l.val := by
  have hwin : scatter_S51_S4194304x1_S4194304_n_0_0_1.window j (0 : Fin 1) = 0 := by
    unfold ScatterDims.window
    rw [dif_neg (show (0 : Fin 1) ∉ scatter_S51_S4194304x1_S4194304_n_0_0_1.sKept by decide)]
  have hsi : scatter_S51_S4194304x1_S4194304_n_0_0_1.siIdx j
      ⟨List.idxOf (0 : Fin 1) scatter_S51_S4194304x1_S4194304_n_0_0_1.scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  have hstart : scatter_S51_S4194304x1_S4194304_n_0_0_1.start j idx (0 : Fin 1) = (idx (ix2 (j 0) 0)).toInt := by
    unfold ScatterDims.start
    rw [dif_pos (show (0 : Fin 1) ∈ scatter_S51_S4194304x1_S4194304_n_0_0_1.scatterDimsToOperandDims
      from List.mem_singleton.mpr rfl), hsi]
    rfl
  have hsw : scatter_S51_S4194304x1_S4194304_n_0_0_1.start j idx (0 : Fin 1)
      + (scatter_S51_S4194304x1_S4194304_n_0_0_1.window j (0 : Fin 1) : ℤ) = (idx (ix2 (j 0) 0)).toInt := by
    rw [hstart, hwin]; simp
  rw [← word_lands _ _ l.isLt, ← hsw]
  unfold ScatterDims.resultIdx?
  split
  · rename_i hin
    have h0 := hin 0
    rw [Option.some_inj]
    constructor
    · intro he
      have he0 := congrArg Fin.val (congrFun he (0 : Fin 1))
      exact ⟨h0.1, h0.2, he0⟩
    · rintro ⟨_, _, h3⟩
      funext a
      obtain rfl : a = 0 := Subsingleton.elim _ _
      exact Fin.ext h3
  · rename_i hout
    constructor
    · intro he; cases he
    · rintro ⟨h1, h2, _⟩
      exfalso; apply hout
      intro a
      obtain rfl : a = 0 := Subsingleton.elim _ _
      exact ⟨h1, h2⟩

/-- The rank-1 indices of a length-`n` vector are its coordinates. -/
def idxEquiv1 {n : Nat} : (⟨1, ![n]⟩ : Shape).Idx ≃ Fin n where
  toFun i := i 0
  invFun a := ix1 a
  left_inv i := (eq_ix1 i).symm
  right_inv _ := rfl

/-- The counts' and cosines' segment sum read at label `l`: the operand's entry plus the updates of the voxels whose
    word is the word of `l`. -/
theorem scatter1_apply (x : FVec Ideal S51 .f32) (idx : IVec S4194304x1 32) (upd : FVec Ideal S4194304 .f32) (l : Fin 51) :
    Host.scatterAdd (F := Ideal) scatter_S51_S4194304x1_S4194304_n_0_0_1 x idx upd (ix1 l)
      = x (ix1 l) + ∑ N : Fin 4194304, (if idx (ix2 N 0) = BitVec.ofNat 32 l.val then upd (ix1 N) else 0) := by
  show x (ix1 l) + ∑ j ∈ Finset.univ.filter
      (fun j => scatter_S51_S4194304x1_S4194304_n_0_0_1.resultIdx? j idx = some (ix1 l)), upd j = _
  refine congrArg (fun t => x (ix1 l) + t) ?_
  rw [Finset.sum_filter]
  refine (Fintype.sum_equiv (idxEquiv1 (n := 4194304)).symm _ _ fun N => ?_).symm
  show _ = if scatter_S51_S4194304x1_S4194304_n_0_0_1.resultIdx? (ix1 N) idx = some (ix1 l) then upd (ix1 N) else 0
  by_cases hc : idx (ix2 N 0) = BitVec.ofNat 32 l.val
  · rw [if_pos hc, if_pos ((res1 idx (ix1 N) l).mpr hc)]
  · rw [if_neg hc, if_neg (fun hr => hc ((res1 idx (ix1 N) l).mp hr))]

/-- Two rank-2 indices are equal when their coordinates are. -/
theorem idx2_ext_iff {n0 n1 : Nat} (f g : (⟨2, ![n0, n1]⟩ : Shape).Idx) :
    f = g ↔ (f 0).val = (g 0).val ∧ (f 1).val = (g 1).val := by
  constructor
  · rintro rfl; exact ⟨rfl, rfl⟩
  · rintro ⟨h0, h1⟩
    funext a
    match a with
    | ⟨0, _⟩ => exact Fin.ext h0
    | ⟨1, _⟩ => exact Fin.ext h1

/-- The per-channel sums' scatter: update `(N, c')` lands on `(l, c)` exactly when voxel `N`'s word is the word of
    `l` and `c' = c`. -/
theorem res2 (idx : IVec S4194304x1 32) (j : S4194304x16.Idx) (l : Fin 51) (c : Fin 16) :
    scatter_S51x16_S4194304x1_S4194304x16_1_0_0_1.resultIdx? j idx = some (ix2 l c)
      ↔ idx (ix2 (j 0) 0) = BitVec.ofNat 32 l.val ∧ (j 1).val = c.val := by
  -- the label axis: inserted, its start the voxel's word read signed
  have hwin0 : scatter_S51x16_S4194304x1_S4194304x16_1_0_0_1.window j (0 : Fin 2) = 0 := by
    unfold ScatterDims.window
    rw [dif_neg (show (0 : Fin 2) ∉ scatter_S51x16_S4194304x1_S4194304x16_1_0_0_1.sKept by decide)]
  have hsi : scatter_S51x16_S4194304x1_S4194304x16_1_0_0_1.siIdx j
      ⟨List.idxOf (0 : Fin 2) scatter_S51x16_S4194304x1_S4194304x16_1_0_0_1.scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  have hstart0 : scatter_S51x16_S4194304x1_S4194304x16_1_0_0_1.start j idx (0 : Fin 2)
      = (idx (ix2 (j 0) 0)).toInt := by
    unfold ScatterDims.start
    rw [dif_pos (show (0 : Fin 2) ∈ scatter_S51x16_S4194304x1_S4194304x16_1_0_0_1.scatterDimsToOperandDims
      from List.mem_singleton.mpr rfl), hsi]
    rfl
  have hsw0 : scatter_S51x16_S4194304x1_S4194304x16_1_0_0_1.start j idx (0 : Fin 2)
      + (scatter_S51x16_S4194304x1_S4194304x16_1_0_0_1.window j (0 : Fin 2) : ℤ) = (idx (ix2 (j 0) 0)).toInt := by
    rw [hstart0, hwin0]; simp
  -- the channel axis: not scattered, its window coordinate the update's channel
  have hstart1 : scatter_S51x16_S4194304x1_S4194304x16_1_0_0_1.start j idx (1 : Fin 2) = 0 := by
    unfold ScatterDims.start
    rw [dif_neg (show (1 : Fin 2) ∉ scatter_S51x16_S4194304x1_S4194304x16_1_0_0_1.scatterDimsToOperandDims by decide)]
  have hwin1 : scatter_S51x16_S4194304x1_S4194304x16_1_0_0_1.window j (1 : Fin 2) = (j 1).val := by
    unfold ScatterDims.window
    rw [dif_pos (show (1 : Fin 2) ∈ scatter_S51x16_S4194304x1_S4194304x16_1_0_0_1.sKept by decide)]
    rfl
  have hsw1 : scatter_S51x16_S4194304x1_S4194304x16_1_0_0_1.start j idx (1 : Fin 2)
      + (scatter_S51x16_S4194304x1_S4194304x16_1_0_0_1.window j (1 : Fin 2) : ℤ) = ((j 1).val : ℤ) := by
    rw [hstart1, hwin1]; simp
  have hj1 : (j 1).val < 16 := (j 1).isLt
  have hc := c.isLt
  rw [← word_lands _ _ l.isLt, ← hsw0]
  unfold ScatterDims.resultIdx?
  split
  · rename_i hin
    have h0 := hin 0
    rw [Option.some_inj, idx2_ext_iff]
    constructor
    · rintro ⟨he0, he1⟩
      refine ⟨⟨h0.1, h0.2, he0⟩, ?_⟩
      have he1' : (scatter_S51x16_S4194304x1_S4194304x16_1_0_0_1.start j idx (1 : Fin 2)
          + (scatter_S51x16_S4194304x1_S4194304x16_1_0_0_1.window j (1 : Fin 2) : ℤ)).toNat = c.val := he1
      rw [hsw1] at he1'
      omega
    · rintro ⟨⟨_, _, h3⟩, h4⟩
      refine ⟨h3, ?_⟩
      show (scatter_S51x16_S4194304x1_S4194304x16_1_0_0_1.start j idx (1 : Fin 2)
          + (scatter_S51x16_S4194304x1_S4194304x16_1_0_0_1.window j (1 : Fin 2) : ℤ)).toNat = c.val
      rw [hsw1]
      omega
  · rename_i hout
    constructor
    · intro he; cases he
    · rintro ⟨⟨h1, h2, _⟩, _⟩
      exfalso; apply hout
      intro a
      match a with
      | ⟨0, _⟩ => exact ⟨h1, h2⟩
      | ⟨1, _⟩ =>
        show 0 ≤ scatter_S51x16_S4194304x1_S4194304x16_1_0_0_1.start j idx (1 : Fin 2)
            + (scatter_S51x16_S4194304x1_S4194304x16_1_0_0_1.window j (1 : Fin 2) : ℤ)
          ∧ scatter_S51x16_S4194304x1_S4194304x16_1_0_0_1.start j idx (1 : Fin 2)
            + (scatter_S51x16_S4194304x1_S4194304x16_1_0_0_1.window j (1 : Fin 2) : ℤ) < (16 : ℤ)
        rw [hsw1]
        omega

/-- The per-channel segment sum read at label `l`, channel `c`: the operand's entry plus channel `c` of the updates of
    the voxels whose word is the word of `l`. -/
theorem scatter2_apply (x : FVec Ideal S51x16 .f32) (idx : IVec S4194304x1 32) (upd : FVec Ideal S4194304x16 .f32)
    (l : Fin 51) (c : Fin 16) :
    Host.scatterAdd (F := Ideal) scatter_S51x16_S4194304x1_S4194304x16_1_0_0_1 x idx upd (ix2 l c)
      = x (ix2 l c) + ∑ N : Fin 4194304, (if idx (ix2 N 0) = BitVec.ofNat 32 l.val then upd (ix2 N c) else 0) := by
  show x (ix2 l c) + ∑ j ∈ Finset.univ.filter
      (fun j => scatter_S51x16_S4194304x1_S4194304x16_1_0_0_1.resultIdx? j idx = some (ix2 l c)), upd j = _
  refine congrArg (fun t => x (ix2 l c) + t) ?_
  rw [Finset.sum_filter, sum_idx2]
  refine Finset.sum_congr rfl fun N _ => ?_
  by_cases hc : idx (ix2 N 0) = BitVec.ofNat 32 l.val
  · rw [if_pos hc, Finset.sum_eq_single c]
    · rw [if_pos ((res2 idx (ix2 N c) l c).mpr ⟨hc, rfl⟩)]
    · intro c' _ hne
      rw [if_neg (fun hr => hne (Fin.ext ((res2 idx (ix2 N c') l c).mp hr).2))]
    · intro hnot; exact absurd (Finset.mem_univ c) hnot
  · rw [if_neg hc]
    refine Finset.sum_eq_zero fun c' _ => ?_
    rw [if_neg (fun hr => hc ((res2 idx (ix2 N c') l c).mp hr).1)]

/-- A word whose unsigned value is below 51 reads, signed and clamped into 0..50, as that value. -/
theorem clamp_inrange (w : BitVec 32) (h : w.toNat < 51) : min w.toInt.toNat (51 - 1) = w.toNat := by
  rw [BitVec.toInt_eq_toNat_cond, if_pos (by omega)]
  simp only [Int.toNat_natCast]
  omega

/-- The norms' look-up read at voxel `N`: the entry the voxel's word names, for a word in 0..50. -/
theorem gather1_apply (x : FVec Ideal S51 .f32) (idx : IVec S4194304x1 32) (N : Fin 4194304)
    (w : BitVec 32) (hw : idx (ix2 N 0) = w) (h : w.toNat < 51) :
    Host.gather gather_S51_S4194304x1_S4194304_n_0_n_n_0_1_1 x idx (ix1 N) = x (ix1 ⟨w.toNat, h⟩) := by
  unfold Host.gather
  congr 1
  funext a
  obtain rfl : a = 0 := Subsingleton.elim _ _
  refine Fin.ext ?_
  show gather_S51_S4194304x1_S4194304_n_0_n_n_0_1_1.start (ix1 N) idx 0
      + gather_S51_S4194304x1_S4194304_n_0_n_n_0_1_1.batchCoord (ix1 N) 0
      + gather_S51_S4194304x1_S4194304_n_0_n_n_0_1_1.offCoord (ix1 N) 0 = w.toNat
  rw [GatherDims.batchCoord_eq_zero _ _ _ List.not_mem_nil,
    GatherDims.offCoord_eq_zero _ _ _ (fun hm => ((GatherDims.mem_sKept _ _).mp hm).1 (List.mem_singleton.mpr rfl))]
  simp only [Nat.add_zero]
  unfold GatherDims.start
  rw [dif_pos (show (0 : Fin 1) ∈ gather_S51_S4194304x1_S4194304_n_0_n_n_0_1_1.startIndexMap from List.mem_singleton.mpr rfl)]
  have hsi : gather_S51_S4194304x1_S4194304_n_0_n_n_0_1_1.siIdx (ix1 N)
      ⟨List.idxOf (0 : Fin 1) gather_S51_S4194304x1_S4194304_n_0_n_n_0_1_1.startIndexMap,
        List.idxOf_lt_length_iff.2 (List.mem_singleton.mpr rfl)⟩ = ix2 N 0 := by
    funext b; refine Fin.ext ?_
    match b with
    | ⟨0, _⟩ => rfl
    | ⟨1, _⟩ => rfl
  rw [hsi, hw]
  exact clamp_inrange w h

/-- The means' look-up read at voxel `N`, channel `c`: channel `c` of the row the voxel's word names, for a word in 0..50. -/
theorem gather2_apply (x : FVec Ideal S51x16 .f32) (idx : IVec S4194304x1 32) (N : Fin 4194304) (c : Fin 16)
    (w : BitVec 32) (hw : idx (ix2 N 0) = w) (h : w.toNat < 51) :
    Host.gather gather_S51x16_S4194304x1_S4194304x16_1_0_n_n_0_1_116 x idx (ix2 N c) = x (ix2 ⟨w.toNat, h⟩ c) := by
  -- the row axis: collapsed, its start the clamped label word
  have h0 : gather_S51x16_S4194304x1_S4194304x16_1_0_n_n_0_1_116.start (ix2 N c) idx (0 : Fin 2)
      + gather_S51x16_S4194304x1_S4194304x16_1_0_n_n_0_1_116.batchCoord (ix2 N c) (0 : Fin 2)
      + gather_S51x16_S4194304x1_S4194304x16_1_0_n_n_0_1_116.offCoord (ix2 N c) (0 : Fin 2) = w.toNat := by
    rw [GatherDims.batchCoord_eq_zero _ _ _ List.not_mem_nil, Nat.add_zero,
      GatherDims.offCoord_eq_zero _ _ _ (fun hm => ((GatherDims.mem_sKept _ _).mp hm).1 (List.mem_singleton.mpr rfl)),
      Nat.add_zero]
    unfold GatherDims.start
    rw [dif_pos (show (0 : Fin 2) ∈ gather_S51x16_S4194304x1_S4194304x16_1_0_n_n_0_1_116.startIndexMap
      from List.mem_singleton.mpr rfl)]
    have hsi : gather_S51x16_S4194304x1_S4194304x16_1_0_n_n_0_1_116.siIdx (ix2 N c)
        ⟨List.idxOf (0 : Fin 2) gather_S51x16_S4194304x1_S4194304x16_1_0_n_n_0_1_116.startIndexMap,
          List.idxOf_lt_length_iff.2 (List.mem_singleton.mpr rfl)⟩ = ix2 N 0 := by
      funext b; refine Fin.ext ?_
      match b with
      | ⟨0, _⟩ => rfl
      | ⟨1, _⟩ => rfl
    rw [hsi, hw]
    exact clamp_inrange w h
  -- the channel axis: not named by the start index map, its offset the result's channel
  have h1 : gather_S51x16_S4194304x1_S4194304x16_1_0_n_n_0_1_116.start (ix2 N c) idx (1 : Fin 2)
      + gather_S51x16_S4194304x1_S4194304x16_1_0_n_n_0_1_116.batchCoord (ix2 N c) (1 : Fin 2)
      + gather_S51x16_S4194304x1_S4194304x16_1_0_n_n_0_1_116.offCoord (ix2 N c) (1 : Fin 2) = c.val := by
    rw [GatherDims.batchCoord_eq_zero _ _ _ List.not_mem_nil, Nat.add_zero]
    unfold GatherDims.start
    rw [dif_neg (show (1 : Fin 2) ∉ gather_S51x16_S4194304x1_S4194304x16_1_0_n_n_0_1_116.startIndexMap by decide),
      Nat.zero_add]
    rfl
  unfold Host.gather
  congr 1
  funext a
  refine Fin.ext ?_
  match a with
  | ⟨0, _⟩ => exact h0
  | ⟨1, _⟩ => exact h1

/-- A label word in 0..50 is not negative, so the wrap-around of negative labels leaves it as it is. -/
theorem wrap_inrange (w : BitVec 32) (h : w.toNat < 51) :
    Scalar.select (IntOp.cmpi .slt w 0#32) (IntOp.addi w 51#32) w = w := by
  have hs : w.slt 0#32 = false := by
    rw [BitVec.slt, BitVec.toInt_eq_toNat_cond]
    simp only [BitVec.toInt_zero]
    rw [if_pos (by omega)]
    simp
  show (if BitVec.ofBool (w.slt 0#32) = 1 then IntOp.addi w 51#32 else w) = w
  rw [hs]
  rfl

/-- A sum over the flattened voxels is the sum over the two batch elements of the sums over each one's voxels. -/
theorem sum_flat (f : ℕ → EReal) :
    ∑ N : Fin 4194304, f N.val = ∑ b : Fin 2, ∑ n ∈ Finset.range 2097152, f (2097152 * b.val + n) := by
  rw [Fin.sum_univ_eq_sum_range (fun N => f N) 4194304, Fin.sum_univ_two]
  rw [show (4194304 : ℕ) = 2097152 + 2097152 from rfl, Finset.sum_range_add]
  simp only [Fin.val_zero, Fin.val_one, Nat.mul_zero, Nat.zero_add, Nat.mul_one]

/-- The flattened label words read at batch element `b`, voxel `n`: the argument's word there. -/
theorem ids_apply (A1 : IVec S2x32x256x256 32) (h : S2x32x256x256.ShapeCasts ⟨3, ![2, 1, 2097152]⟩)
    (b : Fin 2) (n : ℕ) (hn : n < 2097152) :
    shapeCast S4194304 A1 shapeCasts_S2x32x256x256_S4194304 (ix1 ⟨2097152 * b.val + n, by omega⟩)
      = Cert.Spec.idAt (Cert.Spec.I0 A1 h) b n := by
  have hb := b.isLt
  -- the voxel's three spatial coordinates
  have hz : n / 65536 < 32 := by omega
  have hy : n / 256 % 256 < 256 := by omega
  have hx : n % 256 < 256 := by omega
  have e1 : shapeCast S4194304 A1 shapeCasts_S2x32x256x256_S4194304 (ix1 ⟨2097152 * b.val + n, by omega⟩)
      = A1 (ix4 b ⟨n / 65536, hz⟩ ⟨n / 256 % 256, hy⟩ ⟨n % 256, hx⟩) :=
    shapeCast_apply A1 _ _ _ (by
      rw [Shape.rowMajor_val_four, Shape.rowMajor_val_one]
      show ((b.val * 32 + n / 65536) * 256 + n / 256 % 256) * 256 + n % 256 = 2097152 * b.val + n
      omega)
  have e2 : shapeCast ⟨3, ![2, 1, 2097152]⟩ A1 h (ix3 b (0 : Fin 1) ⟨n, hn⟩)
      = A1 (ix4 b ⟨n / 65536, hz⟩ ⟨n / 256 % 256, hy⟩ ⟨n % 256, hx⟩) :=
    shapeCast_apply A1 _ _ _ (by
      rw [Shape.rowMajor_val_four, Shape.rowMajor_val_three]
      show ((b.val * 32 + n / 65536) * 256 + n / 256 % 256) * 256 + n % 256 = (b.val * 1 + 0) * 2097152 + n
      omega)
  rw [e1]
  unfold Cert.Spec.idAt Cert.Spec.I0
  rw [dif_pos hn]
  exact e2.symm

/-- The flattened predictions read at batch element `b`, voxel `n`, channel `c`: the argument's entry there. -/
theorem p2_apply (A0 : FVec Ideal S2x16x32x256x256 .f32) (h : S2x16x32x256x256.ShapeCasts ⟨3, ![2, 16, 2097152]⟩)
    (b : Fin 2) (n : ℕ) (hn : n < 2097152) (c : Fin 16) :
    transpose S4194304x16 [1, 0]
        (shapeCast S16x4194304
          (transpose S16x2x32x256x256 [1, 0, 2, 3, 4] A0 transposes_S2x16x32x256x256_S16x2x32x256x256_1_0_2_3_4)
          shapeCasts_S16x2x32x256x256_S16x4194304)
        transposes_S16x4194304_S4194304x16_1_0 (ix2 ⟨2097152 * b.val + n, by omega⟩ c)
      = Cert.Spec.pAt (Cert.Spec.P0 A0 h) b c n := by
  have hb := b.isLt
  have hc := c.isLt
  have hz : n / 65536 < 32 := by omega
  have hy : n / 256 % 256 < 256 := by omega
  have hx : n % 256 < 256 := by omega
  have e0 := transpose_ix2_apply
    (shapeCast S16x4194304
      (transpose S16x2x32x256x256 [1, 0, 2, 3, 4] A0 transposes_S2x16x32x256x256_S16x2x32x256x256_1_0_2_3_4)
      shapeCasts_S16x2x32x256x256_S16x4194304)
    transposes_S16x4194304_S4194304x16_1_0 (⟨2097152 * b.val + n, by omega⟩ : Fin 4194304) c
  have e1 : shapeCast S16x4194304
      (transpose S16x2x32x256x256 [1, 0, 2, 3, 4] A0 transposes_S2x16x32x256x256_S16x2x32x256x256_1_0_2_3_4)
      shapeCasts_S16x2x32x256x256_S16x4194304 (ix2 c (⟨2097152 * b.val + n, by omega⟩ : Fin 4194304))
      = transpose S16x2x32x256x256 [1, 0, 2, 3, 4] A0 transposes_S2x16x32x256x256_S16x2x32x256x256_1_0_2_3_4
          (ix5 c b ⟨n / 65536, hz⟩ ⟨n / 256 % 256, hy⟩ ⟨n % 256, hx⟩) :=
    shapeCast_apply _ _ _ _ (by
      rw [Shape.rowMajor_val_five, Shape.rowMajor_val_two]
      show (((c.val * 2 + b.val) * 32 + n / 65536) * 256 + n / 256 % 256) * 256 + n % 256
        = c.val * 4194304 + (2097152 * b.val + n)
      omega)
  have e2 : transpose S16x2x32x256x256 [1, 0, 2, 3, 4] A0 transposes_S2x16x32x256x256_S16x2x32x256x256_1_0_2_3_4
      (ix5 c b ⟨n / 65536, hz⟩ ⟨n / 256 % 256, hy⟩ ⟨n % 256, hx⟩)
      = A0 (ix5 b c ⟨n / 65536, hz⟩ ⟨n / 256 % 256, hy⟩ ⟨n % 256, hx⟩) :=
    transpose_apply _ A0 _ _ _ fun a => match a with
      | ⟨0, _⟩ => rfl | ⟨1, _⟩ => rfl | ⟨2, _⟩ => rfl | ⟨3, _⟩ => rfl | ⟨4, _⟩ => rfl
  have e3 : shapeCast ⟨3, ![2, 16, 2097152]⟩ A0 h (ix3 b c ⟨n, hn⟩)
      = A0 (ix5 b c ⟨n / 65536, hz⟩ ⟨n / 256 % 256, hy⟩ ⟨n % 256, hx⟩) :=
    shapeCast_apply A0 _ _ _ (by
      rw [Shape.rowMajor_val_five, Shape.rowMajor_val_three]
      show (((b.val * 16 + c.val) * 32 + n / 65536) * 256 + n / 256 % 256) * 256 + n % 256
        = (b.val * 16 + c.val) * 2097152 + n
      omega)
  refine e0.trans (e1.trans (e2.trans ?_))
  unfold Cert.Spec.pAt Cert.Spec.P0
  rw [dif_pos hn]
  exact e3.symm

end Cert.ReferenceIdeal.Lemmas

end
-- ==== Proof.RValue.lean ====
import proofs.«411761_j45466523796029_3_alg».proof.ReferenceIdeal
import proofs.«411761_j45466523796029_3_alg».proof.Proof.Gen.ReferenceIdeal
import proofs.«411761_j45466523796029_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«411761_j45466523796029_3_alg».proof.Proof.RScatter
noncomputable section
open Idealize.ShloMosaic Idealize.ShloMosaic.TcCoe Idealize.SL.Sem

namespace Cert.ReferenceIdeal.Value

open Cert.ReferenceIdeal Cert.ReferenceIdeal.Gen Idealize.ShloMosaic.ValueIdx

/-! ## The reference's first half as values

Each definition is the program's operation applied to the definitions of its sources, in the program's order, at any
float family `F`. -/

section Defs
variable {F : FTy → Type} [FloatOps F]

/-- The prediction as voxel rows of 16 channels: channels first, the batch and the three spatial axes flattened, then transposed. -/
def resP2 (A0 : FVec F S2x16x32x256x256 .f32) : FVec F S4194304x16 .f32 :=
  transpose S4194304x16 [1, 0]
    (shapeCast S16x4194304
      (transpose S16x2x32x256x256 [1, 0, 2, 3, 4] A0 transposes_S2x16x32x256x256_S16x2x32x256x256_1_0_2_3_4)
      shapeCasts_S16x2x32x256x256_S16x4194304)
    transposes_S16x4194304_S4194304x16_1_0

/-- The label words, flattened. -/
def resIds (A1 : IVec S2x32x256x256 32) : IVec S4194304 32 :=
  shapeCast S4194304 A1 shapeCasts_S2x32x256x256_S4194304

/-- The label words as a column of scatter indices. -/
def resIdsB (A1 : IVec S2x32x256x256 32) : IVec S4194304x1 32 :=
  broadcastInDim S4194304x1 ![0] bcast_S4194304_S4194304x1_0 (resIds A1)

/-- Per label, the number of voxels: ones scattered onto zeros. -/
def resCounts (A1 : IVec S2x32x256x256 32) : FVec F S51 .f32 :=
  Host.scatterAdd (F := F) scatter_S51_S4194304x1_S4194304_n_0_0_1
    (broadcastInDim S51 ![] bcast_S_S51 (constant (F := F) S_ .f32 0x00000000#32))
    (resIdsB A1)
    (broadcastInDim S4194304 ![] bcast_S_S4194304 (constant (F := F) S_ .f32 0x3F800000#32))

/-- Per label and channel, the sum of the prediction over the label's voxels. -/
def resSums (A0 : FVec F S2x16x32x256x256 .f32) (A1 : IVec S2x32x256x256 32) : FVec F S51x16 .f32 :=
  Host.scatterAdd (F := F) scatter_S51x16_S4194304x1_S4194304x16_1_0_0_1
    (broadcastInDim S51x16 ![] bcast_S_S51x16 (constant (F := F) S_ .f32 0x00000000#32))
    (resIdsB A1)
    (resP2 A0)

/-- The means: sums over max(counts, 1). -/
def resMeans (A0 : FVec F S2x16x32x256x256 .f32) (A1 : IVec S2x32x256x256 32) : FVec F S51x16 .f32 :=
  Host.divf (resSums A0 A1)
    (broadcastInDim S51x16 ![0, 1] bcast_S51x1_S51x16_0_1
      (broadcastInDim S51x1 ![0] bcast_S51_S51x1_0
        (maximumf (resCounts A1)
          (broadcastInDim S51 ![] bcast_S_S51 (constant (F := F) S_ .f32 0x3F800000#32)))))

/-- The label words with negative ones wrapped by 51. -/
def resWrap (A1 : IVec S2x32x256x256 32) : IVec S4194304 32 :=
  select
    (cmpi .slt (resIds A1) (broadcastInDim S4194304 ![] bcast_S_S4194304 (constantI S_ 32 0#32)))
    (addi (resIds A1) (broadcastInDim S4194304 ![] bcast_S_S4194304 (constantI S_ 32 51#32)))
    (resIds A1)

/-- The wrapped words as a column of gather indices. -/
def resWrapB (A1 : IVec S2x32x256x256 32) : IVec S4194304x1 32 :=
  broadcastInDim S4194304x1 ![0] bcast_S4194304_S4194304x1_0 (resWrap A1)

/-- Per voxel, its label's mean vector. -/
def resMvox (A0 : FVec F S2x16x32x256x256 .f32) (A1 : IVec S2x32x256x256 32) : FVec F S4194304x16 .f32 :=
  Host.gather gather_S51x16_S4194304x1_S4194304x16_1_0_n_n_0_1_116 (resMeans A0 A1) (resWrapB A1)

/-- Per voxel, the dot product of its channel vector with its label's mean. -/
def resDot (A0 : FVec F S2x16x32x256x256 .f32) (A1 : IVec S2x32x256x256 32) : FVec F S4194304 .f32 :=
  Host.reduceAdd (mulf (resP2 A0) (resMvox A0 A1)) (constant (F := F) S_ .f32 0x00000000#32)
    reducesTo_S4194304x16_S4194304_d1 h_S_

/-- Per voxel, the norm of its channel vector. -/
def resPn (A0 : FVec F S2x16x32x256x256 .f32) : FVec F S4194304 .f32 :=
  Host.sqrt
    (Host.reduceAdd (mulf (resP2 A0) (resP2 A0)) (constant (F := F) S_ .f32 0x00000000#32)
      reducesTo_S4194304x16_S4194304_d1 h_S_)

/-- Per label, the norm of its mean vector. -/
def resMnorm (A0 : FVec F S2x16x32x256x256 .f32) (A1 : IVec S2x32x256x256 32) : FVec F S51 .f32 :=
  Host.sqrt
    (Host.reduceAdd (mulf (resMeans A0 A1) (resMeans A0 A1)) (constant (F := F) S_ .f32 0x00000000#32)
      reducesTo_S51x16_S51_d1 h_S_)

/-- Per voxel, the norm of its label's mean. -/
def resMn (A0 : FVec F S2x16x32x256x256 .f32) (A1 : IVec S2x32x256x256 32) : FVec F S4194304 .f32 :=
  Host.gather gather_S51_S4194304x1_S4194304_n_0_n_n_0_1_1 (resMnorm A0 A1) (resWrapB A1)

/-- Per voxel, the cosine: dot over max(norm · label norm, 1e-8). -/
def resCos (A0 : FVec F S2x16x32x256x256 .f32) (A1 : IVec S2x32x256x256 32) : FVec F S4194304 .f32 :=
  Host.divf (resDot A0 A1)
    (maximumf (mulf (resPn A0) (resMn A0 A1))
      (broadcastInDim S4194304 ![] bcast_S_S4194304 (constant (F := F) S_ .f32 0x322BCC77#32)))

/-- Per label, the sum of the cosines over the label's voxels. -/
def resIntra (A0 : FVec F S2x16x32x256x256 .f32) (A1 : IVec S2x32x256x256 32) : FVec F S51 .f32 :=
  Host.scatterAdd (F := F) scatter_S51_S4194304x1_S4194304_n_0_0_1
    (broadcastInDim S51 ![] bcast_S_S51 (constant (F := F) S_ .f32 0x00000000#32))
    (resIdsB A1)
    (resCos A0 A1)

end Defs

/-! ## Reading the operations at an index -/

/-- A sum over the flat voxels is the double sum over batch element and voxel number. -/
theorem sum_vox (F : Fin 4194304 → EReal) (G : Fin 2 → ℕ → EReal)
    (h : ∀ (b : Fin 2) (n : ℕ) (hn : n < 2097152), F ⟨2097152 * b.val + n, by omega⟩ = G b n) :
    ∑ N : Fin 4194304, F N = ∑ b : Fin 2, ∑ n ∈ Finset.range 2097152, G b n := by
  have e : ∀ N : Fin 4194304, F N = (fun k : ℕ => if hk : k < 4194304 then F ⟨k, hk⟩ else 0) N.val := fun N => by
    show F N = if hk : N.val < 4194304 then F ⟨N.val, hk⟩ else 0
    rw [dif_pos N.isLt]
  refine (Finset.sum_congr rfl (fun N _ => e N)).trans
    ((Lemmas.sum_flat (fun k : ℕ => if hk : k < 4194304 then F ⟨k, hk⟩ else 0)).trans ?_)
  refine Finset.sum_congr rfl fun b _ => Finset.sum_congr rfl fun n hn => ?_
  have hn' := Finset.mem_range.mp hn
  have hb := b.isLt
  show (if hk : 2097152 * b.val + n < 4194304 then F ⟨2097152 * b.val + n, hk⟩ else 0) = G b n
  rw [dif_pos (by omega)]
  exact h b n hn'

/-- A column of words read at row `N` is the word of voxel `N`. -/
theorem col_apply (x : IVec S4194304 32) (N : Fin 4194304) :
    broadcastInDim S4194304x1 ![0] bcast_S4194304_S4194304x1_0 x (ix2 N 0) = x (ix1 N) :=
  broadcastInDim_apply _ _ x (ix2 N 0) (ix1 N) fun a =>
    match a with
    | ⟨0, _⟩ => by show N.val = if (4194304 : ℕ) = 1 then 0 else N.val; rw [if_neg (by decide)]

/-- "if the word is the label's then `u` else 0" is `u` times the membership. -/
theorem ite_eq_mul_oh (w : BitVec 32) (l : ℕ) (u : EReal) :
    (if w = BitVec.ofNat 32 l then u else 0) = u * Cert.Spec.oh w l := by
  unfold Cert.Spec.oh
  split
  · rw [mul_one]
  · rw [mul_zero]

/-- A row sum over the 16 channels of a voxel table from zero. -/
theorem rowsum_vox (x : FVec Ideal S4194304x16 .f32) (N : Fin 4194304) :
    Host.reduceAdd x (constant (F := Ideal) S_ .f32 0x00000000#32) reducesTo_S4194304x16_S4194304_d1 h_S_ (ix1 N)
      = ∑ c : Fin 16, x (ix2 N c) := by
  have h : S4194304x16.Reduces [1] S4194304 := by decide
  rw [hostReduceAdd_apply, Ideal.hostReduceAdd_single reducesTo_S4194304x16_S4194304_d1 h]
  show Ideal.ofBits .f32 0x00000000#32 + _ = _
  rw [Ideal.ofBits_zero_f32, zero_add]
  refine Finset.sum_congr rfl fun k _ => congrArg x (funext fun a => ?_)
  match a with
  | ⟨0, _⟩ => rfl
  | ⟨1, _⟩ => rfl

/-- A row sum over the 16 channels of a label table from zero. -/
theorem rowsum_lab (x : FVec Ideal S51x16 .f32) (l : Fin 51) :
    Host.reduceAdd x (constant (F := Ideal) S_ .f32 0x00000000#32) reducesTo_S51x16_S51_d1 h_S_ (ix1 l)
      = ∑ c : Fin 16, x (ix2 l c) := by
  have h : S51x16.Reduces [1] S51 := by decide
  rw [hostReduceAdd_apply, Ideal.hostReduceAdd_single reducesTo_S51x16_S51_d1 h]
  show Ideal.ofBits .f32 0x00000000#32 + _ = _
  rw [Ideal.ofBits_zero_f32, zero_add]
  refine Finset.sum_congr rfl fun k _ => congrArg x (funext fun a => ?_)
  match a with
  | ⟨0, _⟩ => rfl
  | ⟨1, _⟩ => rfl

/-- The host square root at an index is the ideal square root of the element. -/
theorem hostSqrt_apply {s : Shape} {φ : FTy} (x : FVec Ideal s φ) (i : s.Idx) : Host.sqrt x i = Ideal.sqrt (x i) := rfl

/-! ## The buffers at a voxel and at a label -/

/-- The scatter index of voxel `n` of batch element `b` is its label word. -/
theorem resIdsB_vox (A1 : IVec S2x32x256x256 32) (h1 : S2x32x256x256.ShapeCasts ⟨3, ![2, 1, 2097152]⟩)
    (b : Fin 2) (n : ℕ) (hn : n < 2097152) :
    resIdsB A1 (ix2 ⟨2097152 * b.val + n, by omega⟩ 0) = Cert.Spec.idAt (Cert.Spec.I0 A1 h1) b n :=
  (col_apply (resIds A1) _).trans (Lemmas.ids_apply A1 h1 b n hn)

/-- The voxel rows read the prediction by batch, channel and voxel number. -/
theorem resP2_vox (A0 : FVec Ideal S2x16x32x256x256 .f32) (h0 : S2x16x32x256x256.ShapeCasts ⟨3, ![2, 16, 2097152]⟩)
    (b : Fin 2) (n : ℕ) (hn : n < 2097152) (c : Fin 16) :
    resP2 A0 (ix2 ⟨2097152 * b.val + n, by omega⟩ c) = Cert.Spec.pAt (Cert.Spec.P0 A0 h0) b c n :=
  Lemmas.p2_apply A0 h0 b n hn c

/-- The counts: a scatter of ones from zero counts the label's voxels. -/
theorem resCounts_apply (A1 : IVec S2x32x256x256 32) (h1 : S2x32x256x256.ShapeCasts ⟨3, ![2, 1, 2097152]⟩) (l : Fin 51) :
    resCounts (F := Ideal) A1 (ix1 l) = Cert.Spec.counts (Cert.Spec.I0 A1 h1) l.val := by
  unfold resCounts
  refine (Lemmas.scatter1_apply _ _ _ l).trans ?_
  have hx : (broadcastInDim S51 ![] bcast_S_S51 (constant (F := Ideal) S_ .f32 0x00000000#32)) (ix1 l) = 0 :=
    Ideal.ofBits_zero_f32
  rw [hx, zero_add]
  refine (sum_vox _ (fun b n => Cert.Spec.oh (Cert.Spec.idAt (Cert.Spec.I0 A1 h1) b n) l.val) fun b n hn => ?_).trans rfl
  show (if resIdsB A1 (ix2 ⟨2097152 * b.val + n, _⟩ 0) = BitVec.ofNat 32 l.val
      then Ideal.ofBits .f32 0x3F800000#32 else 0) = _
  rw [resIdsB_vox A1 h1 b n hn, Ideal.ofBits_one_f32]
  rfl

/-- The sums: a scatter of the voxel rows from zero sums each channel over the label's voxels. -/
theorem resSums_apply (A0 : FVec Ideal S2x16x32x256x256 .f32) (A1 : IVec S2x32x256x256 32)
    (h0 : S2x16x32x256x256.ShapeCasts ⟨3, ![2, 16, 2097152]⟩) (h1 : S2x32x256x256.ShapeCasts ⟨3, ![2, 1, 2097152]⟩)
    (l : Fin 51) (c : Fin 16) :
    resSums A0 A1 (ix2 l c) = Cert.Spec.sums (Cert.Spec.P0 A0 h0) (Cert.Spec.I0 A1 h1) l.val c := by
  unfold resSums
  refine (Lemmas.scatter2_apply _ _ _ l c).trans ?_
  have hx : (broadcastInDim S51x16 ![] bcast_S_S51x16 (constant (F := Ideal) S_ .f32 0x00000000#32)) (ix2 l c) = 0 :=
    Ideal.ofBits_zero_f32
  rw [hx, zero_add]
  refine (sum_vox _ (fun b n => Cert.Spec.pAt (Cert.Spec.P0 A0 h0) b c n
    * Cert.Spec.oh (Cert.Spec.idAt (Cert.Spec.I0 A1 h1) b n) l.val) fun b n hn => ?_).trans rfl
  show (if resIdsB A1 (ix2 ⟨2097152 * b.val + n, _⟩ 0) = BitVec.ofNat 32 l.val
      then resP2 A0 (ix2 ⟨2097152 * b.val + n, _⟩ c) else 0) = _
  rw [resIdsB_vox A1 h1 b n hn, resP2_vox A0 h0 b n hn c]
  exact ite_eq_mul_oh _ _ _

/-- A per-label vector copied along the channels reads its entry at the label. -/
theorem bcast_rows_apply {α : Type} (y : S51.Idx → α) (l : Fin 51) (c : Fin 16) :
    broadcastInDim S51x16 ![0, 1] bcast_S51x1_S51x16_0_1 (broadcastInDim S51x1 ![0] bcast_S51_S51x1_0 y) (ix2 l c)
      = y (ix1 l) := by
  refine (broadcastInDim_apply _ _ _ (ix2 l c) (ix2 l 0) fun a => ?_).trans
    (broadcastInDim_apply _ _ y (ix2 l 0) (ix1 l) fun a => ?_)
  · match a with
    | ⟨0, _⟩ => show l.val = if (51 : ℕ) = 1 then 0 else l.val; rw [if_neg (by decide)]
    | ⟨1, _⟩ => show 0 = if (1 : ℕ) = 1 then 0 else c.val; rw [if_pos rfl]
  · match a with
    | ⟨0, _⟩ => show l.val = if (51 : ℕ) = 1 then 0 else l.val; rw [if_neg (by decide)]

/-- The broadcast word 1.0 read at a label. -/
theorem bcast_one_lab (l : Fin 51) :
    (broadcastInDim S51 ![] bcast_S_S51 (constant (F := Ideal) S_ .f32 0x3F800000#32)) (ix1 l) = Cert.Spec.one := rfl

/-- The means: the sums over max(counts, 1). -/
theorem resMeans_apply (A0 : FVec Ideal S2x16x32x256x256 .f32) (A1 : IVec S2x32x256x256 32)
    (h0 : S2x16x32x256x256.ShapeCasts ⟨3, ![2, 16, 2097152]⟩) (h1 : S2x32x256x256.ShapeCasts ⟨3, ![2, 1, 2097152]⟩)
    (l : Fin 51) (c : Fin 16) :
    resMeans A0 A1 (ix2 l c) = Cert.Spec.means (Cert.Spec.P0 A0 h0) (Cert.Spec.I0 A1 h1) l.val c := by
  unfold resMeans Cert.Spec.means
  rw [hostDivf_apply, resSums_apply A0 A1 h0 h1 l c, bcast_rows_apply, maximumf_apply, resCounts_apply A1 h1 l,
    bcast_one_lab]

/-- The norms of the means. -/
theorem resMnorm_apply (A0 : FVec Ideal S2x16x32x256x256 .f32) (A1 : IVec S2x32x256x256 32)
    (h0 : S2x16x32x256x256.ShapeCasts ⟨3, ![2, 16, 2097152]⟩) (h1 : S2x32x256x256.ShapeCasts ⟨3, ![2, 1, 2097152]⟩)
    (l : Fin 51) :
    resMnorm A0 A1 (ix1 l) = Cert.Spec.mnorm (Cert.Spec.P0 A0 h0) (Cert.Spec.I0 A1 h1) l.val := by
  unfold resMnorm Cert.Spec.mnorm
  rw [hostSqrt_apply, rowsum_lab]
  refine congrArg Ideal.sqrt (Finset.sum_congr rfl fun c _ => ?_)
  rw [mulf_apply, resMeans_apply A0 A1 h0 h1 l c]

/-- The broadcast word 1e-8 read at a voxel. -/
theorem bcast_eps_vox (N : Fin 4194304) :
    (broadcastInDim S4194304 ![] bcast_S_S4194304 (constant (F := Ideal) S_ .f32 0x322BCC77#32)) (ix1 N) = Cert.Spec.eps := rfl

/-- The wrap of negative words, read at a voxel. -/
theorem wrap_apply (x : IVec S4194304 32) (N : Fin 4194304) :
    select (cmpi .slt x (broadcastInDim S4194304 ![] bcast_S_S4194304 (constantI S_ 32 0#32)))
      (addi x (broadcastInDim S4194304 ![] bcast_S_S4194304 (constantI S_ 32 51#32))) x (ix1 N)
      = Scalar.select (IntOp.cmpi .slt (x (ix1 N)) 0#32) (IntOp.addi (x (ix1 N)) 51#32) (x (ix1 N)) := rfl

/-- The flat label word of voxel `n` of batch element `b`. -/
theorem resIds_vox (A1 : IVec S2x32x256x256 32) (h1 : S2x32x256x256.ShapeCasts ⟨3, ![2, 1, 2097152]⟩)
    (b : Fin 2) (n : ℕ) (hn : n < 2097152) :
    resIds A1 (ix1 ⟨2097152 * b.val + n, by omega⟩) = Cert.Spec.idAt (Cert.Spec.I0 A1 h1) b n :=
  Lemmas.ids_apply A1 h1 b n hn

/-- A word that names a label is its own wrapped word: the gather index of such a voxel is its word. -/
theorem resWrapB_vox (A1 : IVec S2x32x256x256 32) (h1 : S2x32x256x256.ShapeCasts ⟨3, ![2, 1, 2097152]⟩)
    (b : Fin 2) (n : ℕ) (hn : n < 2097152) (hw : (Cert.Spec.idAt (Cert.Spec.I0 A1 h1) b n).toNat < 51) :
    resWrapB A1 (ix2 ⟨2097152 * b.val + n, by omega⟩ 0) = Cert.Spec.idAt (Cert.Spec.I0 A1 h1) b n := by
  unfold resWrapB
  rw [col_apply]
  unfold resWrap
  rw [wrap_apply, resIds_vox A1 h1 b n hn]
  exact Lemmas.wrap_inrange _ hw

/-- On a voxel whose word names a label, the program's cosine is the cosine against the tables of means and norms. -/
theorem resCos_vox (A0 : FVec Ideal S2x16x32x256x256 .f32) (A1 : IVec S2x32x256x256 32)
    (h0 : S2x16x32x256x256.ShapeCasts ⟨3, ![2, 16, 2097152]⟩) (h1 : S2x32x256x256.ShapeCasts ⟨3, ![2, 1, 2097152]⟩)
    (b : Fin 2) (n : ℕ) (hn : n < 2097152) (hw : (Cert.Spec.idAt (Cert.Spec.I0 A1 h1) b n).toNat < 51) :
    resCos A0 A1 (ix1 ⟨2097152 * b.val + n, by omega⟩)
      = Cert.Spec.cosGen (Cert.Spec.P0 A0 h0) (Cert.Spec.I0 A1 h1)
          (Cert.Spec.meansArr (Cert.Spec.P0 A0 h0) (Cert.Spec.I0 A1 h1))
          (Cert.Spec.mnormArr (Cert.Spec.P0 A0 h0) (Cert.Spec.I0 A1 h1)) b n := by
  have hN := resWrapB_vox A1 h1 b n hn hw
  have hmv : ∀ c : Fin 16, resMvox A0 A1 (ix2 ⟨2097152 * b.val + n, by omega⟩ c)
      = Cert.Spec.rowOf (Cert.Spec.meansArr (Cert.Spec.P0 A0 h0) (Cert.Spec.I0 A1 h1))
          (Cert.Spec.idAt (Cert.Spec.I0 A1 h1) b n) c := fun c => by
    unfold resMvox
    rw [Lemmas.gather2_apply _ _ _ c _ hN hw, resMeans_apply A0 A1 h0 h1 ⟨_, hw⟩ c]
    unfold Cert.Spec.rowOf
    rw [dif_pos hw]
    rfl
  have hmn : resMn A0 A1 (ix1 ⟨2097152 * b.val + n, by omega⟩)
      = Cert.Spec.entryOf (Cert.Spec.mnormArr (Cert.Spec.P0 A0 h0) (Cert.Spec.I0 A1 h1))
          (Cert.Spec.idAt (Cert.Spec.I0 A1 h1) b n) := by
    unfold resMn
    rw [Lemmas.gather1_apply _ _ _ _ hN hw, resMnorm_apply A0 A1 h0 h1 ⟨_, hw⟩]
    unfold Cert.Spec.entryOf
    rw [dif_pos hw]
    rfl
  have hdot : resDot A0 A1 (ix1 ⟨2097152 * b.val + n, by omega⟩)
      = ∑ c : Fin 16, Cert.Spec.pAt (Cert.Spec.P0 A0 h0) b c n
          * Cert.Spec.rowOf (Cert.Spec.meansArr (Cert.Spec.P0 A0 h0) (Cert.Spec.I0 A1 h1))
              (Cert.Spec.idAt (Cert.Spec.I0 A1 h1) b n) c := by
    unfold resDot
    rw [rowsum_vox]
    refine Finset.sum_congr rfl fun c _ => ?_
    rw [mulf_apply, resP2_vox A0 h0 b n hn c, hmv c]
  have hpn : resPn A0 (ix1 ⟨2097152 * b.val + n, by omega⟩)
      = Ideal.sqrt (∑ c : Fin 16, Cert.Spec.pAt (Cert.Spec.P0 A0 h0) b c n * Cert.Spec.pAt (Cert.Spec.P0 A0 h0) b c n) := by
    unfold resPn
    rw [hostSqrt_apply, rowsum_vox]
    refine congrArg Ideal.sqrt (Finset.sum_congr rfl fun c _ => ?_)
    rw [mulf_apply, resP2_vox A0 h0 b n hn c]
  unfold resCos Cert.Spec.cosGen
  rw [hostDivf_apply, maximumf_apply, mulf_apply, hdot, hpn, hmn, bcast_eps_vox]

/-- The intra sums: a scatter of the cosines from zero sums them over the label's voxels; a voxel whose word names no
    label is dropped on one side and multiplied by zero on the other. -/
theorem resIntra_apply (A0 : FVec Ideal S2x16x32x256x256 .f32) (A1 : IVec S2x32x256x256 32)
    (h0 : S2x16x32x256x256.ShapeCasts ⟨3, ![2, 16, 2097152]⟩) (h1 : S2x32x256x256.ShapeCasts ⟨3, ![2, 1, 2097152]⟩)
    (l : Fin 51) :
    resIntra A0 A1 (ix1 l) = Cert.Spec.intra (Cert.Spec.P0 A0 h0) (Cert.Spec.I0 A1 h1) l.val := by
  unfold resIntra
  refine (Lemmas.scatter1_apply _ _ _ l).trans ?_
  have hx : (broadcastInDim S51 ![] bcast_S_S51 (constant (F := Ideal) S_ .f32 0x00000000#32)) (ix1 l) = 0 :=
    Ideal.ofBits_zero_f32
  rw [hx, zero_add]
  refine (sum_vox _ (fun b n => Cert.Spec.cosGen (Cert.Spec.P0 A0 h0) (Cert.Spec.I0 A1 h1)
      (Cert.Spec.meansArr (Cert.Spec.P0 A0 h0) (Cert.Spec.I0 A1 h1))
      (Cert.Spec.mnormArr (Cert.Spec.P0 A0 h0) (Cert.Spec.I0 A1 h1)) b n
    * Cert.Spec.oh (Cert.Spec.idAt (Cert.Spec.I0 A1 h1) b n) l.val) fun b n hn => ?_).trans rfl
  show (if resIdsB A1 (ix2 ⟨2097152 * b.val + n, _⟩ 0) = BitVec.ofNat 32 l.val
      then resCos A0 A1 (ix1 ⟨2097152 * b.val + n, _⟩) else 0) = _
  rw [resIdsB_vox A1 h1 b n hn]
  by_cases hwl : Cert.Spec.idAt (Cert.Spec.I0 A1 h1) b n = BitVec.ofNat 32 l.val
  · have hw : (Cert.Spec.idAt (Cert.Spec.I0 A1 h1) b n).toNat < 51 := by
      rw [hwl, BitVec.toNat_ofNat]
      exact lt_of_le_of_lt (Nat.mod_le _ _) l.isLt
    rw [if_pos hwl, resCos_vox A0 A1 h0 h1 b n hn hw]
    unfold Cert.Spec.oh
    rw [if_pos hwl, mul_one]
  · rw [if_neg hwl]
    unfold Cert.Spec.oh
    rw [if_neg hwl, mul_zero]

end Cert.ReferenceIdeal.Value

end
-- ==== Proof.RLink.lean ====
import proofs.«411761_j45466523796029_3_alg».proof.Proof.RRun
import proofs.«411761_j45466523796029_3_alg».proof.Proof.RValue
noncomputable section
open Idealize.ShloMosaic Idealize.ShloMosaic.TcCoe Idealize.SL.Sem

/-! The first part of the reference's straight line, read at three of its buffers: the per-label counts, the
    per-label means and the per-label sums of cosines are the value terms of the same names, at the two arguments'
    contents, for any float family. -/

namespace Cert.ReferenceIdeal.Link

open Cert.ReferenceIdeal Cert.ReferenceIdeal.Gen Cert.ReferenceIdeal.Run Cert.ReferenceIdeal.Value Idealize.ShloMosaic.StableHlo

variable {F : FTy → Type} [FloatOps F]

/-- After the first part, the counts buffer holds the scatter of ones over the flattened labels. -/
theorem head_counts (W : Valuation τ sig (Elt F)) :
    after (headOps (F := F)) W (Proc.devRef .tc main_v7) = resCounts (F := F) (W (Proc.devRef .tc main_arg1)) := by
  simp only [headOps]
  after_results_simp
  unfold resCounts resIdsB resIds
  rfl

/-- After the first part, the means buffer holds the channel sums over the counts clamped below by one. -/
theorem head_means (W : Valuation τ sig (Elt F)) :
    after (headOps (F := F)) W (Proc.devRef .tc main_v15)
      = resMeans (W (Proc.devRef .tc main_arg0)) (W (Proc.devRef .tc main_arg1)) := by
  simp only [headOps]
  after_results_simp
  unfold resMeans resSums resCounts resIdsB resIds resP2
  rfl

/-- After the first part, the last buffer it writes holds the per-label sums of the voxel cosines; the two norms
    pass through the buffers of their outlined functions, whose typed references carry the buffer types
    themselves, so the transports along them are the identity. -/
theorem head_intra (W : Valuation τ sig (Elt F)) :
    after (headOps (F := F)) W (Proc.devRef .tc main_v40)
      = resIntra (W (Proc.devRef .tc main_arg0)) (W (Proc.devRef .tc main_arg1)) := by
  simp only [headOps]
  after_results_simp
  simp only [TRef.ofBuf, TRef.toBuf, cast_eq]
  unfold resIntra resCos resMn resMnorm resPn resDot resMvox resWrapB resWrap resMeans resSums resCounts resIdsB resIds resP2
  rfl

end Cert.ReferenceIdeal.Link

end
-- ==== Proof.TailROps.lean ====
/-
  The operation lists of the last stretch of the reference's host operations, cut into the same stages as the kernel program's tail.
-/
import proofs.«411761_j45466523796029_3_alg».proof.Proof.RRun
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

abbrev LA : List (HloOp τ sig (Elt F)) :=
  [
    StableHlo.unary main_v40 main_v41 ((extractStridedSlice S50 ![1] · slices_S51_S50_1) : (⟨S51, .f32⟩ : BufTy).Contents (Elt F) → (⟨S50, .f32⟩ : BufTy).Contents (Elt F)),
    StableHlo.unary main_v7 main_v42 ((extractStridedSlice S50 ![1] · slices_S51_S50_1) : (⟨S51, .f32⟩ : BufTy).Contents (Elt F) → (⟨S50, .f32⟩ : BufTy).Contents (Elt F)),
    StableHlo.nullary main_cst_9 (constant S_ .f32 0x3F800000#32),
    StableHlo.unary main_cst_9 main_v43 (broadcastInDim S50 ![] bcast_S_S50 : (⟨S_, .f32⟩ : BufTy).Contents (Elt F) → (⟨S50, .f32⟩ : BufTy).Contents (Elt F)),
    StableHlo.binary main_v42 main_v43 main_v44 (maximumf : (⟨S50, .f32⟩ : BufTy).Contents (Elt F) → (⟨S50, .f32⟩ : BufTy).Contents (Elt F) → (⟨S50, .f32⟩ : BufTy).Contents (Elt F)),
    StableHlo.binary main_v41 main_v44 main_v45 (Host.divf : (⟨S50, .f32⟩ : BufTy).Contents (Elt F) → (⟨S50, .f32⟩ : BufTy).Contents (Elt F) → (⟨S50, .f32⟩ : BufTy).Contents (Elt F)),
    StableHlo.nullary main_cst_10 (constant S_ .f32 0x00000000#32),
    StableHlo.binary main_v45 main_cst_10 main_v46 ((fun x v => Host.reduceAdd x v reducesTo_S50_S_d0 h_S_) : (⟨S50, .f32⟩ : BufTy).Contents (Elt F) → (⟨S_, .f32⟩ : BufTy).Contents (Elt F) → (⟨S_, .f32⟩ : BufTy).Contents (Elt F)),
    StableHlo.nullary main_cst_11 (constant S_ .f32 0x42480000#32),
    StableHlo.binary main_v46 main_cst_11 main_v47 (Host.divf : (⟨S_, .f32⟩ : BufTy).Contents (Elt F) → (⟨S_, .f32⟩ : BufTy).Contents (Elt F) → (⟨S_, .f32⟩ : BufTy).Contents (Elt F)),
    StableHlo.unary main_v15 main_v48 ((extractStridedSlice S50x16 ![1, 0] · slices_S51x16_S50x16_1_0) : (⟨S51x16, .f32⟩ : BufTy).Contents (Elt F) → (⟨S50x16, .f32⟩ : BufTy).Contents (Elt F)),
    StableHlo.TRef.binary (.of main_v48 : StableHlo.TRef sig ⟨S50x16, .f32⟩) (.of main_v48 : StableHlo.TRef sig ⟨S50x16, .f32⟩) main_call2.v0 mulf,
    StableHlo.TRef.nullary main_call2.cst (constant S_ .f32 0x00000000#32),
    StableHlo.TRef.binary main_call2.v0 main_call2.cst main_call2.v1 (fun x v => Host.reduceAdd x v reducesTo_S50x16_S50_d1 h_S_),
    StableHlo.TRef.unary main_call2.v1 main_call2.v2 (broadcastInDim S50x1 ![0] bcast_S50_S50x1_0),
    StableHlo.TRef.unary main_call2.v2 main_call2.v3 Host.sqrt,
    StableHlo.nullary main_cst_12 (constant S_ .f32 0x322BCC77#32),
    StableHlo.unary main_cst_12 main_v50 (broadcastInDim S50x1 ![] bcast_S_S50x1 : (⟨S_, .f32⟩ : BufTy).Contents (Elt F) → (⟨S50x1, .f32⟩ : BufTy).Contents (Elt F)),
    StableHlo.binary main_v49 main_v50 main_v51 (maximumf : (⟨S50x1, .f32⟩ : BufTy).Contents (Elt F) → (⟨S50x1, .f32⟩ : BufTy).Contents (Elt F) → (⟨S50x1, .f32⟩ : BufTy).Contents (Elt F)),
    StableHlo.unary main_v51 main_v52 (broadcastInDim S50x16 ![0, 1] bcast_S50x1_S50x16_0_1 : (⟨S50x1, .f32⟩ : BufTy).Contents (Elt F) → (⟨S50x16, .f32⟩ : BufTy).Contents (Elt F)),
    StableHlo.binary main_v48 main_v52 main_v53 (Host.divf : (⟨S50x16, .f32⟩ : BufTy).Contents (Elt F) → (⟨S50x16, .f32⟩ : BufTy).Contents (Elt F) → (⟨S50x16, .f32⟩ : BufTy).Contents (Elt F)),
    StableHlo.unary main_v53 main_v54 ((transpose S16x50 [1, 0] · transposes_S50x16_S16x50_1_0) : (⟨S50x16, .f32⟩ : BufTy).Contents (Elt F) → (⟨S16x50, .f32⟩ : BufTy).Contents (Elt F)),
    StableHlo.binary main_v53 main_v54 main_v55 ((fun l r => Host.dotGeneral dot_S50x16_S16x50_S50x50_1_0_0_1_n_n none l r) : (⟨S50x16, .f32⟩ : BufTy).Contents (Elt F) → (⟨S16x50, .f32⟩ : BufTy).Contents (Elt F) → (⟨S50x50, .f32⟩ : BufTy).Contents (Elt F)),
    StableHlo.nullary main_cst_13 (constant S_ .f32 0x3F800000#32),
    StableHlo.unary main_cst_13 main_v56 (broadcastInDim S50x50 ![] bcast_S_S50x50 : (⟨S_, .f32⟩ : BufTy).Contents (Elt F) → (⟨S50x50, .f32⟩ : BufTy).Contents (Elt F)),
    StableHlo.TRef.nullary main_call3.v0 (iotaInDim S50x50 32 0),
    StableHlo.TRef.nullary main_call3.c (constantI S_ 32 0#32),
    StableHlo.TRef.unary main_call3.c main_call3.v1 (broadcastInDim S50x50 ![] bcast_S_S50x50),
    StableHlo.TRef.binary main_call3.v0 main_call3.v1 main_call3.v2 addi,
    StableHlo.TRef.nullary main_call3.v3 (iotaInDim S50x50 32 1),
    StableHlo.TRef.binary main_call3.v2 main_call3.v3 main_call3.v4 (cmpi .sge),
    StableHlo.TRef.nullary main_call3.cst (constant S_ .f32 0x00000000#32),
    StableHlo.TRef.unary main_call3.cst main_call3.v5 (broadcastInDim S50x50 ![] bcast_S_S50x50),
    StableHlo.TRef.ternary main_call3.v4 main_call3.v5 (.of main_v56 : StableHlo.TRef sig ⟨S50x50, .f32⟩) main_call3.v6 select,
    StableHlo.nullary main_cst_14 (constant S_ .f32 0x00000000#32),
    StableHlo.unary main_cst_14 main_v58 (broadcastInDim S50x50 ![] bcast_S_S50x50 : (⟨S_, .f32⟩ : BufTy).Contents (Elt F) → (⟨S50x50, .f32⟩ : BufTy).Contents (Elt F)),
    StableHlo.binary main_v57 main_v58 main_v59 (cmpf .une : (⟨S50x50, .f32⟩ : BufTy).Contents (Elt F) → (⟨S50x50, .f32⟩ : BufTy).Contents (Elt F) → (⟨S50x50, .i1⟩ : BufTy).Contents (Elt F)),
    StableHlo.TRef.reshape (.of main_v59 : StableHlo.TRef sig ⟨S50x50, .i1⟩) main_call4.v0 rfl shapeCasts_S50x50_S2500,
    StableHlo.TRef.unary main_call4.v0 main_call4.v1 (extui 32 · natLt_1_32),
    StableHlo.TRef.nullary main_call4.call0.c (constantI S_ 32 0#32),
    StableHlo.TRef.unary main_call4.call0.c main_call4.call0.v0 (broadcastInDim S_ ![] bcast_S_S_),
    StableHlo.TRef.binary main_call4.v1 main_call4.call0.v0 main_call4.call0.v1 (fun x v => Host.reduceWindow IntOp.addi ![2500] ![1] ![2499] ![0] x v reduceWindows_S2500_S2500_w2500s1p2499_0 h_S_) ]
abbrev LB : List (HloOp τ sig (Elt F)) :=
  [
    StableHlo.nullary main_c_15 (constantI S_ 32 0#32),
    StableHlo.unary main_c_15 main_v61 (broadcastInDim S1225 ![] bcast_S_S1225 : (⟨S_, .i32⟩ : BufTy).Contents (Elt F) → (⟨S1225, .i32⟩ : BufTy).Contents (Elt F)),
    StableHlo.nullary main_c_16 (constantI S_ 32 0#32),
    StableHlo.TRef.unary (.of main_c_16 : StableHlo.TRef sig ⟨S_, .i32⟩) main_call5.v0 id,
    StableHlo.TRef.unary main_call5.v0 main_call5.v1 (broadcastInDim S2500 ![] bcast_S_S2500),
    StableHlo.TRef.binary main_call5.v1 (.of main_v60 : StableHlo.TRef sig ⟨S2500, .i32⟩) main_call5.v2 maxsi,
    StableHlo.nullary main_c_17 (constantI S_ 32 0#32),
    StableHlo.unary main_c_17 main_v63 (broadcastInDim S2500 ![] bcast_S_S2500 : (⟨S_, .i32⟩ : BufTy).Contents (Elt F) → (⟨S2500, .i32⟩ : BufTy).Contents (Elt F)),
    StableHlo.binary main_v62 main_v63 main_v64 (cmpi .slt : (⟨S2500, .i32⟩ : BufTy).Contents (Elt F) → (⟨S2500, .i32⟩ : BufTy).Contents (Elt F) → (⟨S2500, .i1⟩ : BufTy).Contents (Elt F)),
    StableHlo.nullary main_c_18 (constantI S_ 32 1225#32),
    StableHlo.unary main_c_18 main_v65 (broadcastInDim S2500 ![] bcast_S_S2500 : (⟨S_, .i32⟩ : BufTy).Contents (Elt F) → (⟨S2500, .i32⟩ : BufTy).Contents (Elt F)),
    StableHlo.binary main_v62 main_v65 main_v66 (addi : (⟨S2500, .i32⟩ : BufTy).Contents (Elt F) → (⟨S2500, .i32⟩ : BufTy).Contents (Elt F) → (⟨S2500, .i32⟩ : BufTy).Contents (Elt F)),
    StableHlo.ternary main_v64 main_v66 main_v62 main_v67 (select : (⟨S2500, .i1⟩ : BufTy).Contents (Elt F) → (⟨S2500, .i32⟩ : BufTy).Contents (Elt F) → (⟨S2500, .i32⟩ : BufTy).Contents (Elt F) → (⟨S2500, .i32⟩ : BufTy).Contents (Elt F)),
    StableHlo.unary main_v67 main_v68 (broadcastInDim S2500x1 ![0] bcast_S2500_S2500x1_0 : (⟨S2500, .i32⟩ : BufTy).Contents (Elt F) → (⟨S2500x1, .i32⟩ : BufTy).Contents (Elt F)),
    StableHlo.nullary main_c_19 (constantI S_ 32 1#32),
    StableHlo.unary main_c_19 main_v69 (broadcastInDim S2500 ![] bcast_S_S2500 : (⟨S_, .i32⟩ : BufTy).Contents (Elt F) → (⟨S2500, .i32⟩ : BufTy).Contents (Elt F)),
    StableHlo.ternary main_v61 main_v68 main_v69 main_v70 ((fun x i u => Host.scatter scatter_S1225_S2500x1_S2500_n_0_0_1 IntOp.addi x i u) : (⟨S1225, .i32⟩ : BufTy).Contents (Elt F) → (⟨S2500x1, .i32⟩ : BufTy).Contents (Elt F) → (⟨S2500, .i32⟩ : BufTy).Contents (Elt F) → (⟨S1225, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (.of main_v70 : StableHlo.TRef sig ⟨S1225, .i32⟩) main_call6.call0.v0 main_call6.call0.v1 (fun x v => Host.reduceWindow IntOp.addi ![1225] ![1] ![1224] ![0] x v reduceWindows_S1225_S1225_w1225s1p1224_0 h_S_) ]
abbrev LC : List (HloOp τ sig (Elt F)) :=
  [
    StableHlo.nullary main_c_20 (constantI S_ 32 50#32),
    StableHlo.TRef.unary (.of main_c_20 : StableHlo.TRef sig ⟨S_, .i32⟩) main_call7.v0 (broadcastInDim S1225 ![] bcast_S_S1225),
    StableHlo.TRef.binary (.of main_v71 : StableHlo.TRef sig ⟨S1225, .i32⟩) main_call7.v0 main_call7.v1 Host.divsi,
    StableHlo.TRef.unary (.of main_v71 : StableHlo.TRef sig ⟨S1225, .i32⟩) main_call7.v2 signi,
    StableHlo.TRef.unary (.of main_c_20 : StableHlo.TRef sig ⟨S_, .i32⟩) main_call7.v3 signi,
    StableHlo.TRef.unary main_call7.v3 main_call7.v4 (broadcastInDim S1225 ![] bcast_S_S1225),
    StableHlo.TRef.binary main_call7.v2 main_call7.v4 main_call7.v5 (cmpi .ne),
    StableHlo.TRef.unary (.of main_c_20 : StableHlo.TRef sig ⟨S_, .i32⟩) main_call7.v6 (broadcastInDim S1225 ![] bcast_S_S1225),
    StableHlo.TRef.binary (.of main_v71 : StableHlo.TRef sig ⟨S1225, .i32⟩) main_call7.v6 main_call7.v7 Host.remsi,
    StableHlo.TRef.nullary main_call7.c (constantI S_ 32 0#32),
    StableHlo.TRef.unary main_call7.c main_call7.v8 (broadcastInDim S1225 ![] bcast_S_S1225),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S1225 ![] bcast_S_S1225),
    StableHlo.TRef.binary main_call7.v1 main_call7.v11 main_call7.v12 subi,
    StableHlo.TRef.ternary main_call7.v10 main_call7.v12 main_call7.v1 main_call7.call0.v0 select ]
abbrev LD : List (HloOp τ sig (Elt F)) :=
  [
    StableHlo.nullary main_c_21 (constantI S_ 32 50#32),
    StableHlo.TRef.unary (.of main_c_21 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S1225 ![] bcast_S_S1225),
    StableHlo.TRef.binary (.of main_v72 : StableHlo.TRef sig ⟨S1225, .i32⟩) main_call8.v3 main_call8.v4 Host.remsi,
    StableHlo.TRef.nullary main_call8.c_1 (constantI S_ 32 0#32),
    StableHlo.TRef.unary main_call8.c_1 main_call8.v5 (broadcastInDim S1225 ![] bcast_S_S1225),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S1225 ![] bcast_S_S1225),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S1225 ![] bcast_S_S1225),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S1225 ![] bcast_S_S1225),
    StableHlo.TRef.binary main_call8.v4 main_call8.v13 main_call8.v14 addi,
    StableHlo.TRef.ternary main_call8.v12 main_call8.v14 main_call8.v4 main_call8.v15 select ]
abbrev LE : List (HloOp τ sig (Elt F)) :=
  [
    StableHlo.nullary main_c_22 (constantI S_ 32 1#32),
    StableHlo.TRef.unary (.of main_c_22 : StableHlo.TRef sig ⟨S_, .i32⟩) main_call9.v0 (broadcastInDim S1225 ![] bcast_S_S1225),
    StableHlo.TRef.binary (.of main_v71 : StableHlo.TRef sig ⟨S1225, .i32⟩) main_call9.v0 main_call9.v1 Host.divsi,
    StableHlo.TRef.unary (.of main_v71 : StableHlo.TRef sig ⟨S1225, .i32⟩) main_call9.v2 signi,
    StableHlo.TRef.unary (.of main_c_22 : StableHlo.TRef sig ⟨S_, .i32⟩) main_call9.v3 signi,
    StableHlo.TRef.unary main_call9.v3 main_call9.v4 (broadcastInDim S1225 ![] bcast_S_S1225),
    StableHlo.TRef.binary main_call9.v2 main_call9.v4 main_call9.v5 (cmpi .ne),
    StableHlo.TRef.unary (.of main_c_22 : StableHlo.TRef sig ⟨S_, .i32⟩) main_call9.v6 (broadcastInDim S1225 ![] bcast_S_S1225),
    StableHlo.TRef.binary (.of main_v71 : StableHlo.TRef sig ⟨S1225, .i32⟩) main_call9.v6 main_call9.v7 Host.remsi,
    StableHlo.TRef.nullary main_call9.c (constantI S_ 32 0#32),
    StableHlo.TRef.unary main_call9.c main_call9.v8 (broadcastInDim S1225 ![] bcast_S_S1225),
    StableHlo.TRef.binary main_call9.v7 main_call9.v8 main_call9.v9 (cmpi .ne),
    StableHlo.TRef.binary main_call9.v5 main_call9.v9 main_call9.v10 andi,
    StableHlo.TRef.nullary main_call9.c_0 (constantI S_ 32 1#32),
    StableHlo.TRef.unary main_call9.c_0 main_call9.v11 (broadcastInDim S1225 ![] bcast_S_S1225),
    StableHlo.TRef.binary main_call9.v1 main_call9.v11 main_call9.v12 subi,
    StableHlo.TRef.ternary main_call9.v10 main_call9.v12 main_call9.v1 main_call9.call0.v0 select ]
abbrev LF : List (HloOp τ sig (Elt F)) :=
  [
    StableHlo.nullary main_c_23 (constantI S_ 32 50#32),
    StableHlo.TRef.unary (.of main_c_23 : StableHlo.TRef sig ⟨S_, .i32⟩) main_call10.v0 id,
    StableHlo.TRef.nullary main_call10.c (constantI S_ 32 0#32),
    StableHlo.TRef.binary main_call10.v0 main_call10.c main_call10.v1 (cmpi .eq),
    StableHlo.TRef.nullary main_call10.c_0 (constantI S_ 32 1#32),
    StableHlo.TRef.ternary main_call10.v1 main_call10.c_0 main_call10.v0 main_call10.call0.v0 select,
    StableHlo.TRef.unary main_call10.call0.v0 main_call10.v3 (broadcastInDim S1225 ![] bcast_S_S1225),
    StableHlo.TRef.binary (.of main_v74 : StableHlo.TRef sig ⟨S1225, .i32⟩) main_call10.v3 main_call10.v4 Host.remsi,
    StableHlo.TRef.nullary main_call10.c_1 (constantI S_ 32 0#32),
    StableHlo.TRef.unary main_call10.c_1 main_call10.v5 (broadcastInDim S1225 ![] bcast_S_S1225),
    StableHlo.TRef.binary main_call10.v4 main_call10.v5 main_call10.v6 (cmpi .ne),
    StableHlo.TRef.nullary main_call10.c_2 (constantI S_ 32 0#32),
    StableHlo.TRef.unary main_call10.c_2 main_call10.v7 (broadcastInDim S1225 ![] bcast_S_S1225),
    StableHlo.TRef.binary main_call10.v4 main_call10.v7 main_call10.v8 (cmpi .slt),
    StableHlo.TRef.nullary main_call10.c_3 (constantI S_ 32 0#32),
    StableHlo.TRef.binary main_call10.call0.v0 main_call10.c_3 main_call10.v9 (cmpi .slt),
    StableHlo.TRef.unary main_call10.v9 main_call10.v10 (broadcastInDim S1225 ![] bcast_S_S1225),
    StableHlo.TRef.binary main_call10.v8 main_call10.v10 main_call10.v11 (cmpi .ne),
    StableHlo.TRef.binary main_call10.v11 main_call10.v6 main_call10.v12 andi,
    StableHlo.TRef.unary main_call10.call0.v0 main_call10.v13 (broadcastInDim S1225 ![] bcast_S_S1225),
    StableHlo.TRef.binary main_call10.v4 main_call10.v13 main_call10.v14 addi,
    StableHlo.TRef.ternary main_call10.v12 main_call10.v14 main_call10.v4 main_call10.v15 select ]
abbrev LG : List (HloOp τ sig (Elt F)) :=
  [
    StableHlo.nullary main_c_24 (constantI S_ 32 0#32),
    StableHlo.unary main_c_24 main_v76 (broadcastInDim S1225 ![] bcast_S_S1225 : (⟨S_, .i32⟩ : BufTy).Contents (Elt F) → (⟨S1225, .i32⟩ : BufTy).Contents (Elt F)),
    StableHlo.binary main_v73 main_v76 main_v77 (cmpi .slt : (⟨S1225, .i32⟩ : BufTy).Contents (Elt F) → (⟨S1225, .i32⟩ : BufTy).Contents (Elt F) → (⟨S1225, .i1⟩ : BufTy).Contents (Elt F)),
    StableHlo.nullary main_c_25 (constantI S_ 32 50#32),
    StableHlo.unary main_c_25 main_v78 (broadcastInDim S1225 ![] bcast_S_S1225 : (⟨S_, .i32⟩ : BufTy).Contents (Elt F) → (⟨S1225, .i32⟩ : BufTy).Contents (Elt F)),
    StableHlo.binary main_v73 main_v78 main_v79 (addi : (⟨S1225, .i32⟩ : BufTy).Contents (Elt F) → (⟨S1225, .i32⟩ : BufTy).Contents (Elt F) → (⟨S1225, .i32⟩ : BufTy).Contents (Elt F)),
    StableHlo.ternary main_v77 main_v79 main_v73 main_v80 (select : (⟨S1225, .i1⟩ : BufTy).Contents (Elt F) → (⟨S1225, .i32⟩ : BufTy).Contents (Elt F) → (⟨S1225, .i32⟩ : BufTy).Contents (Elt F) → (⟨S1225, .i32⟩ : BufTy).Contents (Elt F)),
    StableHlo.nullary main_c_26 (constantI S_ 32 0#32),
    StableHlo.unary main_c_26 main_v81 (broadcastInDim S1225 ![] bcast_S_S1225 : (⟨S_, .i32⟩ : BufTy).Contents (Elt F) → (⟨S1225, .i32⟩ : BufTy).Contents (Elt F)),
    StableHlo.binary main_v75 main_v81 main_v82 (cmpi .slt : (⟨S1225, .i32⟩ : BufTy).Contents (Elt F) → (⟨S1225, .i32⟩ : BufTy).Contents (Elt F) → (⟨S1225, .i1⟩ : BufTy).Contents (Elt F)),
    StableHlo.nullary main_c_27 (constantI S_ 32 50#32),
    StableHlo.unary main_c_27 main_v83 (broadcastInDim S1225 ![] bcast_S_S1225 : (⟨S_, .i32⟩ : BufTy).Contents (Elt F) → (⟨S1225, .i32⟩ : BufTy).Contents (Elt F)),
    StableHlo.binary main_v75 main_v83 main_v84 (addi : (⟨S1225, .i32⟩ : BufTy).Contents (Elt F) → (⟨S1225, .i32⟩ : BufTy).Contents (Elt F) → (⟨S1225, .i32⟩ : BufTy).Contents (Elt F)),
    StableHlo.ternary main_v82 main_v84 main_v75 main_v85 (select : (⟨S1225, .i1⟩ : BufTy).Contents (Elt F) → (⟨S1225, .i32⟩ : BufTy).Contents (Elt F) → (⟨S1225, .i32⟩ : BufTy).Contents (Elt F) → (⟨S1225, .i32⟩ : BufTy).Contents (Elt F)),
    StableHlo.unary main_v80 main_v86 (broadcastInDim S1225x1 ![0] bcast_S1225_S1225x1_0 : (⟨S1225, .i32⟩ : BufTy).Contents (Elt F) → (⟨S1225x1, .i32⟩ : BufTy).Contents (Elt F)),
    StableHlo.unary main_v85 main_v87 (broadcastInDim S1225x1 ![0] bcast_S1225_S1225x1_0 : (⟨S1225, .i32⟩ : BufTy).Contents (Elt F) → (⟨S1225x1, .i32⟩ : BufTy).Contents (Elt F)) ]
abbrev LP : List (HloOp τ sig (Elt F)) :=
  [
    StableHlo.binary main_v86 main_v87 main_v88 ((fun a b => concatenate S1225x2 1 [⟨S1225x1, a⟩, ⟨S1225x1, b⟩] concatenates_S1225x1_S1225x1_S1225x2_d1) : (⟨S1225x1, .i32⟩ : BufTy).Contents (Elt F) → (⟨S1225x1, .i32⟩ : BufTy).Contents (Elt F) → (⟨S1225x2, .i32⟩ : BufTy).Contents (Elt F)),
    StableHlo.binary main_v55 main_v88 main_v89 ((fun x i => Host.gather gather_S50x50_S1225x2_S1225_n_01_n_n_01_1_11 x i) : (⟨S50x50, .f32⟩ : BufTy).Contents (Elt F) → (⟨S1225x2, .i32⟩ : BufTy).Contents (Elt F) → (⟨S1225, .f32⟩ : BufTy).Contents (Elt F)),
    StableHlo.nullary main_cst_28 (constant S_ .f32 0x00000000#32),
    StableHlo.nullary main_cst_29 (constant S_ .f32 0x3F800000#32),
    StableHlo.TRef.unary (.of main_cst_28 : StableHlo.TRef sig ⟨S_, .f32⟩) main_call11.v0 id,
    StableHlo.TRef.unary main_call11.v0 main_call11.v1 (broadcastInDim S1225 ![] bcast_S_S1225),
    StableHlo.TRef.binary main_call11.v1 (.of main_v89 : StableHlo.TRef sig ⟨S1225, .f32⟩) main_call11.v2 maximumf,
    StableHlo.TRef.unary (.of main_cst_29 : StableHlo.TRef sig ⟨S_, .f32⟩) main_call11.v3 id,
    StableHlo.TRef.unary main_call11.v3 main_call11.v4 (broadcastInDim S1225 ![] bcast_S_S1225),
    StableHlo.TRef.binary main_call11.v4 main_call11.v2 main_call11.v5 minimumf,
    StableHlo.nullary main_cst_30 (constant S_ .f32 0x00000000#32),
    StableHlo.binary main_v90 main_cst_30 main_v91 ((fun x v => Host.reduceAdd x v reducesTo_S1225_S_d0 h_S_) : (⟨S1225, .f32⟩ : BufTy).Contents (Elt F) → (⟨S_, .f32⟩ : BufTy).Contents (Elt F) → (⟨S_, .f32⟩ : BufTy).Contents (Elt F)),
    StableHlo.nullary main_cst_31 (constant S_ .f32 0x44992000#32),
    StableHlo.binary main_v91 main_cst_31 main_v92 (Host.divf : (⟨S_, .f32⟩ : BufTy).Contents (Elt F) → (⟨S_, .f32⟩ : BufTy).Contents (Elt F) → (⟨S_, .f32⟩ : BufTy).Contents (Elt F)),
    StableHlo.binary main_v92 main_v47 main_v93 (subf : (⟨S_, .f32⟩ : BufTy).Contents (Elt F) → (⟨S_, .f32⟩ : BufTy).Contents (Elt F) → (⟨S_, .f32⟩ : BufTy).Contents (Elt F)) ]
/-- The whole tail: the stages in order. -/
abbrev preOps : List (HloOp τ sig (Elt F)) := LA ++ LB ++ LC ++ LD ++ LE ++ LF ++ LG
abbrev postOps : List (HloOp τ sig (Elt F)) := LP

theorem tailOps_split : (tailOps : List (HloOp τ sig (Elt F))) = preOps ++ postOps := rfl

end Cert.ReferenceIdeal.Tail
end
-- ==== Proof.TailRA.lean ====
/-
  The reference's tail, stage A (the float part before the index computation, and the running count of the triangle's entries), read off the fold of its operations.
-/
import proofs.«411761_j45466523796029_3_alg».proof.Proof.TailROps
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

set_option maxHeartbeats 1000000 in
set_option maxRecDepth 65536 in
/-- Stage A: the mean over the labels 1..50 of (cosine sum / max(count, 1)). -/
def sIntra : Σ' (T : FVec F S51 .f32 → FVec F S51 .f32 → FVec F S_ .f32), ∀ W : Valuation τ sig (Elt F), after LA W (Proc.devRef .tc main_v47)
    = T (W (Proc.devRef .tc main_v40)) (W (Proc.devRef .tc main_v7)) := by
  refine ⟨?T, fun W => ?h⟩
  case h =>
    simp only [LA, List.append_assoc, List.cons_append, List.nil_append]
    after_results_simp
    try simp only [TRef.ofBuf, TRef.toBuf, cast_eq]
    generalize W (Proc.devRef .tc main_v40) = x0
    generalize W (Proc.devRef .tc main_v7) = x1
    exact rfl

set_option maxHeartbeats 1000000 in
set_option maxRecDepth 65536 in
/-- Stage A: the 50 × 50 matrix of products of the normalised means of the labels 1..50. -/
def sGram : Σ' (T : FVec F S51x16 .f32 → FVec F S50x50 .f32), ∀ W : Valuation τ sig (Elt F), after LA W (Proc.devRef .tc main_v55)
    = T (W (Proc.devRef .tc main_v15)) := by
  refine ⟨?T, fun W => ?h⟩
  case h =>
    simp only [LA, List.append_assoc, List.cons_append, List.nil_append]
    after_results_simp
    try simp only [TRef.ofBuf, TRef.toBuf, cast_eq]
    generalize W (Proc.devRef .tc main_v15) = x0
    exact rfl

set_option maxHeartbeats 1000000 in
set_option maxRecDepth 65536 in
/-- Stage A: the running count of the strict upper triangle's entries in row-major order, a constant. -/
def sMask : Σ' (T : IVec S2500 32), ∀ W : Valuation τ sig (Elt F), after LA W (Proc.devRef .tc main_v60)
    = T  := by
  refine ⟨?T, fun W => ?h⟩
  case h =>
    simp only [LA, List.append_assoc, List.cons_append, List.nil_append]
    after_results_simp
    try simp only [TRef.ofBuf, TRef.toBuf, cast_eq]

    exact rfl

end Cert.ReferenceIdeal.Tail
end
-- ==== Proof.TailRB.lean ====
/-
  The reference's tail, stage B (positions of the triangle's entries), read off the fold of its operations.
-/
import proofs.«411761_j45466523796029_3_alg».proof.Proof.TailROps
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

set_option maxHeartbeats 1000000 in
set_option maxRecDepth 65536 in
/-- Stage B: from the running count, for each of the 1225 entries its row-major position (a scatter of ones, then a running sum). -/
def sPos : Σ' (T : IVec S2500 32 → IVec S1225 32), ∀ W : Valuation τ sig (Elt F), after LB W (Proc.devRef .tc main_v71)
    = T (W (Proc.devRef .tc main_v60)) := by
  refine ⟨?T, fun W => ?h⟩
  case h =>
    simp only [LB, List.append_assoc, List.cons_append, List.nil_append]
    after_results_simp
    try simp only [TRef.ofBuf, TRef.toBuf, cast_eq]
    generalize W (Proc.devRef .tc main_v60) = x0
    exact rfl

theorem pB30 (W : Valuation τ sig (Elt F)) : after LB W (Proc.devRef .tc main_v55) = W (Proc.devRef .tc main_v55) := by
  simp only [LB, List.append_assoc, List.cons_append, List.nil_append]
  after_results_simp

theorem pB22 (W : Valuation τ sig (Elt F)) : after LB W (Proc.devRef .tc main_v47) = W (Proc.devRef .tc main_v47) := by
  simp only [LB, List.append_assoc, List.cons_append, List.nil_append]
  after_results_simp

end Cert.ReferenceIdeal.Tail
end
-- ==== Proof.TailRC.lean ====
/-
  The reference's tail, stage C (positions floor-divided by 50), read off the fold of its operations.
-/
import proofs.«411761_j45466523796029_3_alg».proof.Proof.TailROps
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

set_option maxHeartbeats 1000000 in
set_option maxRecDepth 65536 in
/-- Stage C: the positions floor-divided by 50. -/
def sDiv50 : Σ' (T : IVec S1225 32 → IVec S1225 32), ∀ W : Valuation τ sig (Elt F), after LC W (Proc.devRef .tc main_v72)
    = T (W (Proc.devRef .tc main_v71)) := by
  refine ⟨?T, fun W => ?h⟩
  case h =>
    simp only [LC, List.append_assoc, List.cons_append, List.nil_append]
    after_results_simp
    try simp only [TRef.ofBuf, TRef.toBuf, cast_eq]
    generalize W (Proc.devRef .tc main_v71) = x0
    exact rfl

theorem pC46 (W : Valuation τ sig (Elt F)) : after LC W (Proc.devRef .tc main_v71) = W (Proc.devRef .tc main_v71) := by
  simp only [LC, List.append_assoc, List.cons_append, List.nil_append]
  after_results_simp

theorem pC30 (W : Valuation τ sig (Elt F)) : after LC W (Proc.devRef .tc main_v55) = W (Proc.devRef .tc main_v55) := by
  simp only [LC, List.append_assoc, List.cons_append, List.nil_append]
  after_results_simp

theorem pC22 (W : Valuation τ sig (Elt F)) : after LC W (Proc.devRef .tc main_v47) = W (Proc.devRef .tc main_v47) := by
  simp only [LC, List.append_assoc, List.cons_append, List.nil_append]
  after_results_simp

end Cert.ReferenceIdeal.Tail
end
-- ==== Proof.TailRD.lean ====
/-
  The reference's tail, stage D (row numbers), read off the fold of its operations.
-/
import proofs.«411761_j45466523796029_3_alg».proof.Proof.TailROps
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

set_option maxHeartbeats 1000000 in
set_option maxRecDepth 65536 in
/-- Stage D: that quotient modulo 50: the row number. -/
def sRow : Σ' (T : IVec S1225 32 → IVec S1225 32), ∀ W : Valuation τ sig (Elt F), after LD W (Proc.devRef .tc main_v73)
    = T (W (Proc.devRef .tc main_v72)) := by
  refine ⟨?T, fun W => ?h⟩
  case h =>
    simp only [LD, List.append_assoc, List.cons_append, List.nil_append]
    after_results_simp
    try simp only [TRef.ofBuf, TRef.toBuf, cast_eq]
    generalize W (Proc.devRef .tc main_v72) = x0
    exact rfl

theorem pD46 (W : Valuation τ sig (Elt F)) : after LD W (Proc.devRef .tc main_v71) = W (Proc.devRef .tc main_v71) := by
  simp only [LD, List.append_assoc, List.cons_append, List.nil_append]
  after_results_simp

theorem pD30 (W : Valuation τ sig (Elt F)) : after LD W (Proc.devRef .tc main_v55) = W (Proc.devRef .tc main_v55) := by
  simp only [LD, List.append_assoc, List.cons_append, List.nil_append]
  after_results_simp

theorem pD22 (W : Valuation τ sig (Elt F)) : after LD W (Proc.devRef .tc main_v47) = W (Proc.devRef .tc main_v47) := by
  simp only [LD, List.append_assoc, List.cons_append, List.nil_append]
  after_results_simp

end Cert.ReferenceIdeal.Tail
end
-- ==== Proof.TailRE.lean ====
/-
  The reference's tail, stage E (positions floor-divided by 1), read off the fold of its operations.
-/
import proofs.«411761_j45466523796029_3_alg».proof.Proof.TailROps
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

set_option maxHeartbeats 1000000 in
set_option maxRecDepth 65536 in
/-- Stage E: the positions floor-divided by 1. -/
def sDiv1 : Σ' (T : IVec S1225 32 → IVec S1225 32), ∀ W : Valuation τ sig (Elt F), after LE W (Proc.devRef .tc main_v74)
    = T (W (Proc.devRef .tc main_v71)) := by
  refine ⟨?T, fun W => ?h⟩
  case h =>
    simp only [LE, List.append_assoc, List.cons_append, List.nil_append]
    after_results_simp
    try simp only [TRef.ofBuf, TRef.toBuf, cast_eq]
    generalize W (Proc.devRef .tc main_v71) = x0
    exact rfl

theorem pE48 (W : Valuation τ sig (Elt F)) : after LE W (Proc.devRef .tc main_v73) = W (Proc.devRef .tc main_v73) := by
  simp only [LE, List.append_assoc, List.cons_append, List.nil_append]
  after_results_simp

theorem pE30 (W : Valuation τ sig (Elt F)) : after LE W (Proc.devRef .tc main_v55) = W (Proc.devRef .tc main_v55) := by
  simp only [LE, List.append_assoc, List.cons_append, List.nil_append]
  after_results_simp

theorem pE22 (W : Valuation τ sig (Elt F)) : after LE W (Proc.devRef .tc main_v47) = W (Proc.devRef .tc main_v47) := by
  simp only [LE, List.append_assoc, List.cons_append, List.nil_append]
  after_results_simp

end Cert.ReferenceIdeal.Tail
end
-- ==== Proof.TailRF.lean ====
/-
  The reference's tail, stage F (column numbers), read off the fold of its operations.
-/
import proofs.«411761_j45466523796029_3_alg».proof.Proof.TailROps
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

set_option maxHeartbeats 1000000 in
set_option maxRecDepth 65536 in
/-- Stage F: that quotient modulo 50: the column number. -/
def sCol : Σ' (T : IVec S1225 32 → IVec S1225 32), ∀ W : Valuation τ sig (Elt F), after LF W (Proc.devRef .tc main_v75)
    = T (W (Proc.devRef .tc main_v74)) := by
  refine ⟨?T, fun W => ?h⟩
  case h =>
    simp only [LF, List.append_assoc, List.cons_append, List.nil_append]
    after_results_simp
    try simp only [TRef.ofBuf, TRef.toBuf, cast_eq]
    generalize W (Proc.devRef .tc main_v74) = x0
    exact rfl

theorem pF48 (W : Valuation τ sig (Elt F)) : after LF W (Proc.devRef .tc main_v73) = W (Proc.devRef .tc main_v73) := by
  simp only [LF, List.append_assoc, List.cons_append, List.nil_append]
  after_results_simp

theorem pF30 (W : Valuation τ sig (Elt F)) : after LF W (Proc.devRef .tc main_v55) = W (Proc.devRef .tc main_v55) := by
  simp only [LF, List.append_assoc, List.cons_append, List.nil_append]
  after_results_simp

theorem pF22 (W : Valuation τ sig (Elt F)) : after LF W (Proc.devRef .tc main_v47) = W (Proc.devRef .tc main_v47) := by
  simp only [LF, List.append_assoc, List.cons_append, List.nil_append]
  after_results_simp

end Cert.ReferenceIdeal.Tail
end
-- ==== Proof.TailRG.lean ====
/-
  The reference's tail, stage G (the two index columns), read off the fold of its operations.
-/
import proofs.«411761_j45466523796029_3_alg».proof.Proof.TailROps
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

set_option maxHeartbeats 1000000 in
set_option maxRecDepth 65536 in
/-- Stage G: the row numbers wrapped into range, as a column. -/
def sRowCol : Σ' (T : IVec S1225 32 → IVec S1225x1 32), ∀ W : Valuation τ sig (Elt F), after LG W (Proc.devRef .tc main_v86)
    = T (W (Proc.devRef .tc main_v73)) := by
  refine ⟨?T, fun W => ?h⟩
  case h =>
    simp only [LG, List.append_assoc, List.cons_append, List.nil_append]
    after_results_simp
    try simp only [TRef.ofBuf, TRef.toBuf, cast_eq]
    generalize W (Proc.devRef .tc main_v73) = x0
    exact rfl

set_option maxHeartbeats 1000000 in
set_option maxRecDepth 65536 in
/-- Stage G: the column numbers wrapped into range, as a column. -/
def sColCol : Σ' (T : IVec S1225 32 → IVec S1225x1 32), ∀ W : Valuation τ sig (Elt F), after LG W (Proc.devRef .tc main_v87)
    = T (W (Proc.devRef .tc main_v75)) := by
  refine ⟨?T, fun W => ?h⟩
  case h =>
    simp only [LG, List.append_assoc, List.cons_append, List.nil_append]
    after_results_simp
    try simp only [TRef.ofBuf, TRef.toBuf, cast_eq]
    generalize W (Proc.devRef .tc main_v75) = x0
    exact rfl

theorem pG30 (W : Valuation τ sig (Elt F)) : after LG W (Proc.devRef .tc main_v55) = W (Proc.devRef .tc main_v55) := by
  simp only [LG, List.append_assoc, List.cons_append, List.nil_append]
  after_results_simp

theorem pG22 (W : Valuation τ sig (Elt F)) : after LG W (Proc.devRef .tc main_v47) = W (Proc.devRef .tc main_v47) := by
  simp only [LG, List.append_assoc, List.cons_append, List.nil_append]
  after_results_simp

end Cert.ReferenceIdeal.Tail
end
-- ==== Proof.TailRP.lean ====
/-
  The reference's tail, the stage after the join of the index columns, read off the fold of its operations.
-/
import proofs.«411761_j45466523796029_3_alg».proof.Proof.TailROps
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

set_option maxHeartbeats 1000000 in
set_option maxRecDepth 65536 in
/-- After the join: the loss from the two index columns, the matrix and the mean of the cosine averages. -/
def sPost : Σ' (T : IVec S1225x1 32 → IVec S1225x1 32 → FVec F S50x50 .f32 → FVec F S_ .f32 → FVec F S_ .f32), ∀ W : Valuation τ sig (Elt F), after LP W (Proc.devRef .tc main_v93)
    = T (W (Proc.devRef .tc main_v86)) (W (Proc.devRef .tc main_v87)) (W (Proc.devRef .tc main_v55)) (W (Proc.devRef .tc main_v47)) := by
  refine ⟨?T, fun W => ?h⟩
  case h =>
    simp only [LP, List.append_assoc, List.cons_append, List.nil_append]
    after_results_simp
    try simp only [TRef.ofBuf, TRef.toBuf, cast_eq]
    generalize W (Proc.devRef .tc main_v86) = x0
    generalize W (Proc.devRef .tc main_v87) = x1
    generalize W (Proc.devRef .tc main_v55) = x2
    generalize W (Proc.devRef .tc main_v47) = x3
    exact rfl

end Cert.ReferenceIdeal.Tail
end
-- ==== Proof.TailR.lean ====
/-
  The reference's tail as one function of the per-label cosine sums, the counts and the means.
-/
import proofs.«411761_j45466523796029_3_alg».proof.Proof.TailRA
import proofs.«411761_j45466523796029_3_alg».proof.Proof.TailRB
import proofs.«411761_j45466523796029_3_alg».proof.Proof.TailRC
import proofs.«411761_j45466523796029_3_alg».proof.Proof.TailRD
import proofs.«411761_j45466523796029_3_alg».proof.Proof.TailRE
import proofs.«411761_j45466523796029_3_alg».proof.Proof.TailRF
import proofs.«411761_j45466523796029_3_alg».proof.Proof.TailRG
import proofs.«411761_j45466523796029_3_alg».proof.Proof.TailRP
noncomputable section
open Idealize.ShloMosaic Idealize.ShloMosaic.TcCoe Idealize.SL.Sem
namespace Cert.ReferenceIdeal.Tail
open Cert.ReferenceIdeal Cert.ReferenceIdeal.Gen Cert.ReferenceIdeal.Run Idealize.ShloMosaic.StableHlo
variable {F : FTy → Type} [FloatOps F]

/-- The tail as one function of the per-label cosine sums, the counts and the means: the stages composed. -/
def T (a b : FVec F S51 .f32) (c : FVec F S51x16 .f32) : FVec F S_ .f32 :=
  (sPost (F := F)).1
    ((sRowCol (F := F)).1 ((sRow (F := F)).1 ((sDiv50 (F := F)).1 ((sPos (F := F)).1 (sMask (F := F)).1))))
    ((sColCol (F := F)).1 ((sCol (F := F)).1 ((sDiv1 (F := F)).1 ((sPos (F := F)).1 (sMask (F := F)).1))))
    ((sGram (F := F)).1 c) ((sIntra (F := F)).1 a b)

/-- The fold of the whole tail at the result buffer is that function of the three inputs: stage by stage, each stage's
    result read from the stage before, the buffers a later stage reads carried through the stages between. -/
theorem tail_eq (W : Valuation τ sig (Elt F)) :
    after (preOps ++ postOps) W (Proc.devRef .tc main_v93)
      = T (W (Proc.devRef .tc main_v40)) (W (Proc.devRef .tc main_v7)) (W (Proc.devRef .tc main_v15)) := by
  simp only [preOps, postOps, after_append']
  rw [(sPost (F := F)).2, (sRowCol (F := F)).2, (sColCol (F := F)).2, pG30, pG22,
    pF48, (sCol (F := F)).2, pF30, pF22,
    pE48, (sDiv1 (F := F)).2, pE30, pE22,
    (sRow (F := F)).2, pD46, pD30, pD22,
    (sDiv50 (F := F)).2, pC46, pC30, pC22,
    (sPos (F := F)).2, pB30, pB22,
    (sMask (F := F)).2, (sGram (F := F)).2, (sIntra (F := F)).2]
  rfl

end Cert.ReferenceIdeal.Tail
end
-- ==== Proof.RFinal.lean ====
/-
  The reference's result as a value: its run leaves the result buffer at the shared tail function of the per-label cosine
  sums, the counts and the means, each read off its scatters and gathers over the flattened voxels.
-/
import proofs.«411761_j45466523796029_3_alg».proof.Proof.RRun
import proofs.«411761_j45466523796029_3_alg».proof.Proof.RValue
import proofs.«411761_j45466523796029_3_alg».proof.Proof.RLink
import proofs.«411761_j45466523796029_3_alg».proof.Proof.TailR

noncomputable section
open Idealize.ShloMosaic Idealize.ShloMosaic.TcCoe Idealize.SL.Sem

namespace Cert.ReferenceIdeal.Final
open Cert.ReferenceIdeal Cert.ReferenceIdeal.Gen Cert.ReferenceIdeal.Run Idealize.ShloMosaic.ValueIdx Idealize.ShloMosaic.StableHlo

/-- The three inputs of the tail as arrays over the labels. -/
def intraArr (P : Cert.Spec.PArr) (I : Cert.Spec.IArr) : FVec Ideal S51 .f32 := fun j => Cert.Spec.intra P I (j 0).val
def countsArr (I : Cert.Spec.IArr) : FVec Ideal S51 .f32 := fun j => Cert.Spec.counts I (j 0).val

variable (V : Valuation τ sig (Elt Ideal))

/-- The prediction and the label words of a valuation's argument buffers, voxels flattened per batch element. -/
abbrev PV : Cert.Spec.PArr := Cert.Spec.P0 (V (Proc.devRef .tc main_arg0)) (by decide)
abbrev IV : Cert.Spec.IArr := Cert.Spec.I0 (V (Proc.devRef .tc main_arg1)) (by decide)

theorem head_intra_eq : (after (headOps (F := Ideal)) V (Proc.devRef .tc main_v40) : FVec Ideal S51 .f32) = intraArr (PV V) (IV V) := by
  rw [Cert.ReferenceIdeal.Link.head_intra]
  funext j
  obtain ⟨l, rfl⟩ : ∃ l : Fin 51, j = ix1 l := ⟨j 0, eq_ix1 j⟩
  exact Cert.ReferenceIdeal.Value.resIntra_apply _ _ _ _ l
theorem head_counts_eq : (after (headOps (F := Ideal)) V (Proc.devRef .tc main_v7) : FVec Ideal S51 .f32) = countsArr (IV V) := by
  rw [Cert.ReferenceIdeal.Link.head_counts]
  funext j
  obtain ⟨l, rfl⟩ : ∃ l : Fin 51, j = ix1 l := ⟨j 0, eq_ix1 j⟩
  exact Cert.ReferenceIdeal.Value.resCounts_apply _ _ l
theorem head_means_eq : (after (headOps (F := Ideal)) V (Proc.devRef .tc main_v15) : Cert.Spec.MArr) = Cert.Spec.meansArr (PV V) (IV V) := by
  rw [Cert.ReferenceIdeal.Link.head_means]
  funext j
  obtain ⟨l, c, rfl⟩ : ∃ (l : Fin 51) (c : Fin 16), j = ix2 l c := ⟨j 0, j 1, eq_ix2 j⟩
  exact Cert.ReferenceIdeal.Value.resMeans_apply _ _ _ _ l c

/-- The whole run's result buffer. -/
theorem result_eq : after (headOps ++ tailOps) V (Proc.devRef .tc main_v93)
    = Cert.ReferenceIdeal.Tail.T (F := Ideal) (intraArr (PV V) (IV V)) (countsArr (IV V)) (Cert.Spec.meansArr (PV V) (IV V)) := by
  rw [after_append', Cert.ReferenceIdeal.Tail.tailOps_split, Cert.ReferenceIdeal.Tail.tail_eq, head_intra_eq, head_counts_eq, head_means_eq]

end Cert.ReferenceIdeal.Final
end
-- ==== Proof.TailEq.lean ====
/-
  The two programs end with the same host operations: the tail functions read off the two programs' folds are one function.
  Stage by stage the two terms are the same operations on the same shapes; they differ only in which program's shape
  relations they cite, and those are propositions.
-/
import proofs.«411761_j45466523796029_3_alg».proof.Proof.TailK
import proofs.«411761_j45466523796029_3_alg».proof.Proof.TailR
noncomputable section
open Idealize.ShloMosaic
namespace Cert.TailEq
variable {F : FTy → Type} [FloatOps F]

theorem sPost_eq : (Cert.KernelIdeal.Tail.sPost (F := F)).1 = (Cert.ReferenceIdeal.Tail.sPost (F := F)).1 := rfl
theorem sRowCol_eq : (Cert.KernelIdeal.Tail.sRowCol (F := F)).1 = (Cert.ReferenceIdeal.Tail.sRowCol (F := F)).1 := rfl
theorem sColCol_eq : (Cert.KernelIdeal.Tail.sColCol (F := F)).1 = (Cert.ReferenceIdeal.Tail.sColCol (F := F)).1 := rfl
theorem sRow_eq : (Cert.KernelIdeal.Tail.sRow (F := F)).1 = (Cert.ReferenceIdeal.Tail.sRow (F := F)).1 := rfl
theorem sCol_eq : (Cert.KernelIdeal.Tail.sCol (F := F)).1 = (Cert.ReferenceIdeal.Tail.sCol (F := F)).1 := rfl
theorem sDiv50_eq : (Cert.KernelIdeal.Tail.sDiv50 (F := F)).1 = (Cert.ReferenceIdeal.Tail.sDiv50 (F := F)).1 := rfl
theorem sDiv1_eq : (Cert.KernelIdeal.Tail.sDiv1 (F := F)).1 = (Cert.ReferenceIdeal.Tail.sDiv1 (F := F)).1 := rfl
theorem sPos_eq : (Cert.KernelIdeal.Tail.sPos (F := F)).1 = (Cert.ReferenceIdeal.Tail.sPos (F := F)).1 := rfl
theorem sMask_eq : (Cert.KernelIdeal.Tail.sMask (F := F)).1 = (Cert.ReferenceIdeal.Tail.sMask (F := F)).1 := rfl
theorem sGram_eq : (Cert.KernelIdeal.Tail.sGram (F := F)).1 = (Cert.ReferenceIdeal.Tail.sGram (F := F)).1 := rfl
theorem sIntra_eq : (Cert.KernelIdeal.Tail.sIntra (F := F)).1 = (Cert.ReferenceIdeal.Tail.sIntra (F := F)).1 := rfl

theorem T_eq (a b : FVec F Cert.KernelIdeal.S51 .f32) (c : FVec F Cert.KernelIdeal.S51x16 .f32) :
    Cert.KernelIdeal.Tail.T (F := F) a b c = Cert.ReferenceIdeal.Tail.T (F := F) a b c := by
  unfold Cert.KernelIdeal.Tail.T Cert.ReferenceIdeal.Tail.T
  rw [sPost_eq, sRowCol_eq, sColCol_eq, sRow_eq, sCol_eq, sDiv50_eq, sDiv1_eq, sPos_eq, sMask_eq, sGram_eq, sIntra_eq]

end Cert.TailEq
end
-- ==== Proof.lean ====
/-
  The certificate of the two-pass segment statistics (per-label counts, channel sums, means, and cosine sums over 2 × 2097152
  voxels, then a loss over the 50 foreground labels) against its scatter-and-gather reference.

  Frames: the word-level program and its idealization run, terminate and leave the arguments as launched (the generated
  frames over the two regions and the host stretches); the reference is a straight line of host operations.
  Preserves: the ideal pass removed eighteen bf16 round trips; at the ideal instance a change of format is the identity.
  Algebraic: under the precondition every prediction entry is a real number. Pass one adds, per batch element and label,
  the voxels' one-hot rows (counts) and the one-hot-weighted channel values (sums), 65536 voxels per grid step in chunks of
  8192, each as a matrix product of the operand's high part and of its low part x − x = 0; pass two does the same for the
  cosine of each voxel with its label's mean. Summed over the grid these are the sums over all voxels of a batch element;
  the host adds the two batch elements. The reference computes the same three arrays by scatter-additions over the
  flattened voxels (a voxel whose word names no label is dropped by the scatter and has a zero one-hot row in the kernel)
  and gathers of the label's mean row. Both programs then apply the same operations to the three arrays.
-/
import proofs.«411761_j45466523796029_3_alg».proof.Defs
import proofs.«411761_j45466523796029_3_alg».proof.Proof.Gen.Kernel
import proofs.«411761_j45466523796029_3_alg».proof.Proof.Gen.Kernel.Frame
import proofs.«411761_j45466523796029_3_alg».proof.Proof.Gen.KernelIdeal
import proofs.«411761_j45466523796029_3_alg».proof.Proof.Gen.KernelIdeal.Frame
import proofs.«411761_j45466523796029_3_alg».proof.Proof.Gen.ReferenceIdeal
import proofs.«411761_j45466523796029_3_alg».proof.Proof.Gen.Pre_finite_inputs
import proofs.«411761_j45466523796029_3_alg».proof.Proof.KValue
import proofs.«411761_j45466523796029_3_alg».proof.Proof.TailK
import proofs.«411761_j45466523796029_3_alg».proof.Proof.RFinal
import proofs.«411761_j45466523796029_3_alg».proof.Proof.TailEq
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
/-- The reference is a straight line of host operations, none of which writes an argument. -/
theorem frame_ri : Cert.frame_ReferenceIdeal := fun m ρ _ =>
  (θ_run Cert.ReferenceIdeal.defs _ _).mono
    (fun _ h c => ⟨(h c Cert.ReferenceIdeal.main_arg0).trans (Cert.ReferenceIdeal.Run.after_arg0 _),
      (h c Cert.ReferenceIdeal.main_arg1).trans (Cert.ReferenceIdeal.Run.after_arg1 _)⟩)
    (Cert.ReferenceIdeal.Run.run_main (F := Ideal) m ρ)

/-- Each removed round trip through bf16: at the ideal instance both changes of format are the identity. -/
theorem preserves : Cert.preserves_Kernel_KernelIdeal :=
  ⟨IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16⟩

open Cert.KernelIdeal.Host Cert.KernelIdeal.Value in
/-- Both runs end with the result at the tail function of the same three arrays. -/
theorem algebraic : Cert.algebraic_KernelIdeal_ReferenceIdeal := by
  intro m ρ m' ρ' hpre hagree
  have hA : ∀ c : Dev Cert.KernelIdeal.nD, ∀ j, ∃ r : ℝ,
      (m ((c : Thread Cert.KernelIdeal.nD Cert.KernelIdeal.τ).loc Cert.KernelIdeal.main_arg0) : Cert.Spec.A0Arr) j = (r : EReal) :=
    fun c => Cert.KernelIdeal.Facts2.finite_of_pre _ _ (hpre c)
  refine ⟨fun c => Cert.KernelIdeal.Tail.T (F := Ideal) (intraArr (Pm m c) (Im m c)) (countsArr (Im m c)) (Cert.Spec.meansArr (Pm m c) (Im m c)), ?_, ?_⟩
  · refine (θ_run Cert.KernelIdeal.defs _ _).mono (fun _ h c => ⟨(h c).1.trans ?_, (h c).2.1, (h c).2.2⟩)
      (Cert.KernelIdeal.ValueRun.run_value (F := Ideal) m ρ)
    rw [W26_eq, Cert.KernelIdeal.Tail.tail_eq, T4_intra m ρ c (hA c), T4_counts m ρ c, T4_means m ρ c (hA c)]
  · refine (θ_run Cert.ReferenceIdeal.defs _ _).mono (fun _ h c => ⟨(h c Cert.ReferenceIdeal.main_v93).trans ?_,
        (h c Cert.ReferenceIdeal.main_arg0).trans (Cert.ReferenceIdeal.Run.after_arg0 _),
        (h c Cert.ReferenceIdeal.main_arg1).trans (Cert.ReferenceIdeal.Run.after_arg1 _)⟩)
      (Cert.ReferenceIdeal.Run.run_main (F := Ideal) m' ρ')
    have e0 : Cert.ReferenceIdeal.Final.PV (StableHlo.launchContents m' c) = Pm m c := by
      unfold Cert.ReferenceIdeal.Final.PV Pm; rw [show StableHlo.launchContents m' c (Proc.devRef .tc Cert.ReferenceIdeal.main_arg0) = _ from (hagree c).1]
    have e1 : Cert.ReferenceIdeal.Final.IV (StableHlo.launchContents m' c) = Im m c := by
      unfold Cert.ReferenceIdeal.Final.IV Im; rw [show StableHlo.launchContents m' c (Proc.devRef .tc Cert.ReferenceIdeal.main_arg1) = _ from (hagree c).2]
    rw [Cert.ReferenceIdeal.Final.result_eq, e0, e1]
    exact (Cert.TailEq.T_eq (F := Ideal) (intraArr (Pm m c) (Im m c)) (countsArr (Im m c)) (Cert.Spec.meansArr (Pm m c) (Im m c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
